-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  let main_c_2 : IVec S_ 32 := constantI S_ 32 64#32
  let main_v8 : IVec S4096 32 := broadcastInDim S4096 ![] bcast_S_S4096 main_c_2
  let main_v9 : IVec S4096 1 := cmpi .slt main_arg1 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v7 main_v10
  main_v11
-- ==== Kernel.lean ====
abbrev S4096x512 : Shape := ⟨2, ![4096, 512]⟩
abbrev S4096 : Shape := ⟨1, ![4096]⟩
abbrev S4 : Shape := ⟨1, ![4]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S1024x512 : Shape := ⟨2, ![1024, 512]⟩
abbrev S1024x1 : Shape := ⟨2, ![1024, 1]⟩
abbrev S1024x1024 : Shape := ⟨2, ![1024, 1024]⟩
abbrev S1x1024 : Shape := ⟨2, ![1, 1024]⟩
abbrev S1024 : Shape := ⟨1, ![1024]⟩
abbrev S1 : Shape := ⟨1, ![1]⟩
abbrev S64 : Shape := ⟨1, ![64]⟩

abbrev nBuf : Space → Nat
  | .hbm => 40
  | .vmem => 27
  | .smem => 1
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x1, .i32⟩
  | .hbm, ⟨8, _⟩ => ⟨S1x4096, .i32⟩
  | .hbm, ⟨9, _⟩ => ⟨S4096x1, .f32⟩
  | .hbm, ⟨10, _⟩ => ⟨S4096x4096, .f32⟩
  | .hbm, ⟨11, _⟩ => ⟨S1x4096, .f32⟩
  | .hbm, ⟨12, _⟩ => ⟨S4096x1, .f32⟩
  | .hbm, ⟨13, _⟩ => ⟨S_, .f32⟩
  | .hbm, ⟨14, _⟩ => ⟨S_, .f32⟩
  | .hbm, ⟨15, _⟩ => ⟨S_, .i32⟩
  | .hbm, ⟨16, _⟩ => ⟨S64, .i32⟩
  | .hbm, ⟨17, _⟩ => ⟨S_, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S_, .i32⟩
  | .hbm, ⟨30, _⟩ => ⟨S4096, .i32⟩
  | .hbm, ⟨31, _⟩ => ⟨S64, .i32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S4096x512, .f32⟩
  | .local _ .vmem, ⟨3, _⟩ => ⟨S1024x1, .f32⟩
  | .local _ .vmem, ⟨4, _⟩ => ⟨S1024x1, .f32⟩
  | .local _ .vmem, ⟨5, _⟩ => ⟨S1x4096, .f32⟩
  | .local _ .vmem, ⟨6, _⟩ => ⟨S1024x1, .i32⟩
  | .local _ .vmem, ⟨7, _⟩ => ⟨S1024x1, .i32⟩
  | .local _ .vmem, ⟨8, _⟩ => ⟨S1x4096, .i32⟩
  | .local _ .vmem, ⟨9, _⟩ => ⟨S1024x1, .f32⟩
  | .local _ .vmem, ⟨10, _⟩ => ⟨S1024x1, .f32⟩
  | .local _ .vmem, ⟨11, _⟩ => ⟨S1024x1024, .f32⟩
  | .local _ .vmem, ⟨12, _⟩ => ⟨S1024x1024, .f32⟩
  | .local _ .vmem, ⟨13, _⟩ => ⟨S1024x1, .f32⟩
  | .local _ .vmem, ⟨14, _⟩ => ⟨S1024x1024, .f32⟩
  | .local _ .vmem, ⟨15, _⟩ => ⟨S1024x1024, .f32⟩
  | .local _ .vmem, ⟨16, _⟩ => ⟨S1024x1, .i32⟩
  | .local _ .vmem, ⟨17, _⟩ => ⟨S1024x1, .i32⟩
  | .local _ .vmem, ⟨18, _⟩ => ⟨S1x1024, .i32⟩
  | .local _ .vmem, ⟨19, _⟩ => ⟨S1x1024, .i32⟩
  | .local _ .vmem, ⟨20, _⟩ => ⟨S1024x1, .f32⟩
  | .local _ .vmem, ⟨21, _⟩ => ⟨S1024x1, .f32⟩
  | .local _ .vmem, ⟨22, _⟩ => ⟨S1x1024, .f32⟩
  | .local _ .vmem, ⟨23, _⟩ => ⟨S1x1024, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .smem, ⟨0, _⟩ => ⟨S4, .i32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_off2 (i : grid0.Coords) : Fin 2 → Nat :=
  let c0_1 : Index := 0#32
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  ![0, v7.toNat]
def k0_cond3 (i : grid0.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_23 : BitVec 32 := 0#32
  let v56 : BitVec 1 := Scalar.cmpi .ne v55 c0_i32_23
  v56

def k0_cond2 (i : grid0.Coords) : BitVec 1 :=
  let arg1 : BitVec 32 := BitVec.ofNat 32 (i 1).val
  let arg0 : BitVec 32 := BitVec.ofNat 32 (i 0).val
  let v51 : BitVec 1 := Scalar.cmpi .sge arg1 arg0
  let v52 : BitVec 32 := Scalar.extui v51
  let c0_i32_22 : BitVec 32 := 0#32
  let v53 : BitVec 1 := Scalar.cmpi .ne v52 c0_i32_22
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let v0 : BitVec 32 := Scalar.maxsi arg0 arg1
  let c0_i32 : BitVec 32 := 0#32
  ![arg0.toNat, v0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 4], ![false, false]⟩

abbrev pre1 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond3 (i : grid1.Coords) : BitVec 1 :=
  let arg1 : BitVec 32 := BitVec.ofNat 32 (i 1).val
  let c3_i32 : BitVec 32 := 3#32
  let v8 : BitVec 1 := Scalar.cmpi .eq arg1 c3_i32
  let v9 : BitVec 32 := Scalar.extui v8
  let c0_i32_2 : BitVec 32 := 0#32
  let v10 : BitVec 1 := Scalar.cmpi .ne v9 c0_i32_2
  v10

def cc1_transform_0 (k1_off1_inb : ∀ i : grid1.Coords, ∀ a, (k1_off1 i) a + S1.size a ≤ S4.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k1_off1_inb i)) numel1_S1
  let v2 : Index := Scalar.indexCast arg0
  let v3 : BitVec 32 := pf.at 0 (Rect.unit (s := S4) ![v2.toNat] S1.size (k1_off1_inb i)) numel1_S1
  let v4 : BitVec 32 := Scalar.maxsi v3 arg1
  let c0_i32 : BitVec 32 := 0#32
  ![v1.toNat, v4.toNat]

def cc1_transform_1 (k1_off1_inb : ∀ i : grid1.Coords, ∀ a, (k1_off1 i) a + S1.size a ≤ S4.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k1_off1_inb i)) numel1_S1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (k1_off1_inb : ∀ i : grid1.Coords, ∀ a, (k1_off1 i) a + S1.size a ≤ S4.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k1_off1_inb i)) numel1_S1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (k1_off1_inb : ∀ i : grid1.Coords, ∀ a, (k1_off1 i) a + S1.size a ≤ S4.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k1_off1_inb i)) numel1_S1
  let c0_i32 : BitVec 32 := 0#32
  let c0_i32_0 : BitVec 32 := 0#32
  ![v1.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  reducesTo_S4096x512_S4096_d1 : S4096x512.ReducesTo [1] S4096
  h_S_ : 0 < S_.numel
  shapeCasts_S4096_S4096x1 : S4096.ShapeCasts S4096x1
  shapeCasts_S4096_S1x4096 : S4096.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1024x512 : 0 < S1024x512.numel
  h_S1x1024 : 0 < S1x1024.numel
  shapeCasts_S1x1024_S1x1024 : S1x1024.ShapeCasts S1x1024
  inb_S1024x512_S1024x512_0_0 : ∀ a, (![0, 0] : Fin 2 → Nat) a + S1024x512.size a ≤ S1024x512.size a
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  inb_S1024x1024_S1024x1024_0_0 : ∀ a, (![0, 0] : Fin 2 → Nat) a + S1024x1024.size a ≤ S1024x1024.size a
  h_S1024x1024 : 0 < S1024x1024.numel
  shapeCasts_S4096x1_S1x4096 : S4096x1.ShapeCasts S1x4096
  numel1_S1 : S1.numel = 1
  shapeCasts_S1024x1024_S1024x1024 : S1024x1024.ShapeCasts S1024x1024
  inb_S1x1024_S1x1024_0_0 : ∀ a, (![0, 0] : Fin 2 → Nat) a + S1x1024.size a ≤ S1x1024.size a
  iota_S1024x1024_d0_w32 : S1024x1024.Iotas .tc 32 [0]
  iota_S1024x1024_d1_w32 : S1024x1024.Iotas .tc 32 [1]
  reducesTo_S4096x1_S_d0_1 : S4096x1.ReducesTo [0, 1] S_
  bcast_S_S64 : S_.BroadcastsInDim S64 (![] : Fin 0 → Fin S64.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S64_S_d0 : S64.ReducesTo [0] S_
  dot_S1024x512_S1024x512_S1024x1024_1_1_0_0_n_n_wf : DotDims.WF S1024x512 S1024x512 S1024x1024 [1] [1] [0] [0] [] []
  scatter_S64_S4096x1_S4096_n_0_0_1_wf : ScatterDims.WF S64 S4096x1 S4096 [] [0] [0] 1
  hrank0 : 0 < grid0.rank
  k0_mult1_dvd : ∀ i : grid0.Coords, 1024 ∣ (k0_mult1 i).toNat
  k0_off1_inb : ∀ i : grid0.Coords, ∀ a, (k0_off1 i) a + S1024x512.size a ≤ S4096x512.size a
  k0_off2_inb : ∀ i : grid0.Coords, ∀ a, (k0_off2 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .i32 = 32 ∨ (Rect.block (s := S4096x1) S1024x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .i32 = 32 ∨ (Rect.block (s := S1x4096) S1x4096.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S4096x4096.size a
  hwx0_7 : ∀ i : grid0.Coords, EltTy.bits .f32 = 32 ∨ (Rect.block (s := S4096x4096) S1024x1024.size (cc0_transform_7 i) (hinb0_7 i)).WholeWords (EltTy.packing .f32)
  hrank1 : 0 < grid1.rank
  k1_off1_inb : ∀ i : grid1.Coords, ∀ a, (k1_off1 i) a + S1.size a ≤ S4.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .i32 = 32 ∨ (Rect.block (s := S1x4096) S1x1024.size (cc1_transform_2 i) (hinb1_2 i)).WholeWords (EltTy.packing .i32)
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ {F : FTy → Type} [FloatOps F] (pf : pre1.Contents (Elt F)) (i i' : grid1.Coords), (∀ a, reads1_5 a = true → i a = i' a) → cc1_transform_5 k1_off1_inb numel1_S1 pf i = cc1_transform_5 k1_off1_inb numel1_S1 pf i'

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def scatter_S64_S4096x1_S4096_n_0_0_1 : ScatterDims S64 S4096x1 S4096 where
  updateWindowDims := []
  insertedWindowDims := [0]
  scatterDimsToOperandDims := [0]
  indexVectorDim := 1
  wf := scatter_S64_S4096x1_S4096_n_0_0_1_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond3 i == 1#1) | 7 => fun i => !(k0_cond2 i == 1#1) | ⟨_ + 8, h⟩ => absurd h (Nat.not_lt.2 (Nat.le_add_left _ _))

abbrev spec1_0 : Pipeline.WinSpec sig grid1.rank :=
  Pipeline.WinSpec.ofSpec (Memref.whole main_v6_1) S1024x1024.size reads1_0 false false 2 stage1_0 sem1_0 nbuf1_0 hstage1_0

abbrev spec1_1 : Pipeline.WinSpec sig grid1.rank :=
  Pipeline.WinSpec.ofSpec (Memref.whole main_v4) S1024x1.size reads1_1 false false 2 stage1_1 sem1_1 nbuf1_1 hstage1_1

abbrev spec1_2 : Pipeline.WinSpec sig grid1.rank :=
  Pipeline.WinSpec.ofSpec (Memref.whole main_v5) S1x1024.size reads1_2 false false 2 stage1_2 sem1_2 nbuf1_2 hstage1_2

abbrev spec1_3 : Pipeline.WinSpec sig grid1.rank :=
  Pipeline.WinSpec.ofSpec (Memref.whole main_v6_0) S1024x1.size reads1_3 false false 2 stage1_3 sem1_3 nbuf1_3 hstage1_3

abbrev spec1_4 : Pipeline.WinSpec sig grid1.rank :=
  Pipeline.WinSpec.ofSpec (Memref.whole main_v7) S1x1024.size reads1_4 false false 2 stage1_4 sem1_4 nbuf1_4 hstage1_4

abbrev spec1_5 : Pipeline.WinSpec sig grid1.rank :=
  Pipeline.WinSpec.ofSpec (Memref.whole main_v8) S1024x1.size reads1_5 true false 2 stage1_5 sem1_5 nbuf1_5 hstage1_5

abbrev spec1 : Fin 6 → Pipeline.WinSpec sig grid1.rank := fun | 0 => spec1_0 | 1 => spec1_1 | 2 => spec1_2 | 3 => spec1_3 | 4 => spec1_4 | 5 => spec1_5 | ⟨_ + 6, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | ⟨_ + 6, h⟩ => absurd h (Nat.not_lt.2 (Nat.le_add_left _ _))
abbrev ix1 (pf : pre1.Contents (Elt F)) : (w : Fin 6) → grid1.Coords → Fin (spec1 w).shape.rank → Nat := fun | 0 => cc1_transform_0 k1_off1_inb numel1_S1 pf | 1 => cc1_transform_1 k1_off1_inb numel1_S1 pf | 2 => cc1_transform_2 | 3 => cc1_transform_3 k1_off1_inb numel1_S1 pf | 4 => cc1_transform_4 | 5 => cc1_transform_5 k1_off1_inb numel1_S1 pf | ⟨_ + 6, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 | 3 => hreads1_3 pf | 4 => hreads1_4 | 5 => hreads1_5 pf | ⟨_ + 6, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1024x1024.size a ≤ S4096x4096.size a), EltTy.bits .f32 = 32 ∨ (Rect.block (s := S4096x4096) S1024x1024.size (cc1_transform_0 k1_off1_inb numel1_S1 pf i) h).WholeWords (EltTy.packing .f32)) ∧
  (∀ i : grid1.Coords, ∃ h : (∀ a, (cc1_transform_1 k1_off1_inb numel1_S1 pf i a + 1) * S1024x1.size a ≤ S4096x1.size a), EltTy.bits .i32 = 32 ∨ (Rect.block (s := S4096x1) S1024x1.size (cc1_transform_1 k1_off1_inb numel1_S1 pf i) h).WholeWords (EltTy.packing .i32)) ∧
  (∀ i : grid1.Coords, ∃ h : (∀ a, (cc1_transform_3 k1_off1_inb numel1_S1 pf i a + 1) * S1024x1.size a ≤ S4096x1.size a), EltTy.bits .f32 = 32 ∨ (Rect.block (s := S4096x1) S1024x1.size (cc1_transform_3 k1_off1_inb numel1_S1 pf i) h).WholeWords (EltTy.packing .f32)) ∧
  (∀ i : grid1.Coords, ∃ h : (∀ a, (cc1_transform_5 k1_off1_inb numel1_S1 pf i a + 1) * S1024x1.size a ≤ S4096x1.size a), EltTy.bits .f32 = 32 ∨ (Rect.block (s := S4096x1) S1024x1.size (cc1_transform_5 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => hinb1_2 | 3 => fun i a => (hok.2.2.1 i).elim fun h _ => h a | 4 => hinb1_4 | 5 => fun i a => (hok.2.2.2 i).elim fun h _ => h a | ⟨_ + 6, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => hwx1_2 | 3 => fun i => (hok.2.2.1 i).elim fun _ h => h | 4 => hwx1_4 | 5 => fun i => (hok.2.2.2 i).elim fun _ h => h | ⟨_ + 6, h⟩ => absurd h (Nat.not_lt.2 (Nat.le_add_left _ _))
abbrev idle1 : Fin 6 → grid1.Coords → Bool := fun | 0 => fun _ => false | 1 => fun _ => false | 2 => fun _ => false | 3 => fun _ => false | 4 => fun _ => false | 5 => fun i => !(k1_cond3 i == 1#1) | ⟨_ + 6, h⟩ => absurd h (Nat.not_lt.2 (Nat.le_add_left _ _))

class Facts : Prop extends Facts₀ where
  harr1 : ∀ w, (spec1 w).arr.IsWhole

variable [Facts]
-- ==== ReferenceIdeal.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩

abbrev nBuf : Space → Nat
  | .hbm => 89
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S512x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S_, .f32⟩
  | .hbm, ⟨23, _⟩ => ⟨S4096x4096, .f32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x1, .i32⟩
  | .hbm, ⟨35, _⟩ => ⟨S1x4096, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S4096x4096, .i32⟩
  | .hbm, ⟨40, _⟩ => ⟨S4096x4096, .i32⟩
  | .hbm, ⟨41, _⟩ => ⟨S_, .i32⟩
  | .hbm, ⟨42, _⟩ => ⟨S4096x4096, .i32⟩
  | .hbm, ⟨43, _⟩ => ⟨S4096x4096, .i32⟩
  | .hbm, ⟨44, _⟩ => ⟨S4096x4096, .i1⟩
  | .hbm, ⟨45, _⟩ => ⟨S4096x4096, .i1⟩
  | .hbm, ⟨46, _⟩ => ⟨S4096x4096, .i1⟩
  | .hbm, ⟨47, _⟩ => ⟨S4096x4096, .i1⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S1x4096, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S4096x4096, .i32⟩
  | .hbm, ⟨66, _⟩ => ⟨S_, .i32⟩
  | .hbm, ⟨67, _⟩ => ⟨S4096x4096, .i32⟩
  | .hbm, ⟨68, _⟩ => ⟨S4096x4096, .i32⟩
  | .hbm, ⟨69, _⟩ => ⟨S4096x4096, .i32⟩
  | .hbm, ⟨70, _⟩ => ⟨S4096x4096, .i1⟩
  | .hbm, ⟨71, _⟩ => ⟨S_, .i1⟩
  | .hbm, ⟨72, _⟩ => ⟨S4096x4096, .i1⟩
  | .hbm, ⟨73, _⟩ => ⟨S4096x4096, .i1⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S_, .f32⟩
  | .hbm, ⟨79, _⟩ => ⟨S_, .f32⟩
  | .hbm, ⟨80, _⟩ => ⟨S4096x4096, .f32⟩
  | .hbm, ⟨81, _⟩ => ⟨S4096x4096, .f32⟩
  | .hbm, ⟨82, _⟩ => ⟨S4096x4096, .i32⟩
  | .hbm, ⟨83, _⟩ => ⟨S_, .i32⟩
  | .hbm, ⟨84, _⟩ => ⟨S_, .i32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_call2_v0 : Ref sig .tc := ⟨.hbm, 53, rfl⟩
abbrev main_call2_v1 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call3_v0 : Ref sig .tc := ⟨.hbm, 65, rfl⟩
abbrev main_call3_c : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_c_0 : Ref sig .tc := ⟨.hbm, 71, rfl⟩
abbrev main_call3_v5 : Ref sig .tc := ⟨.hbm, 72, rfl⟩
abbrev main_v46 : Ref sig .tc := ⟨.hbm, 73, rfl⟩
abbrev main_call4_cst : Ref sig .tc := ⟨.hbm, 74, rfl⟩
abbrev main_call4_v0 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_call5_v0 : Ref sig .tc := ⟨.hbm, 79, rfl⟩
abbrev main_call5_v1 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  natLt_1_32 : 1 < 32
  reducesTo_S4096x4096_S_d0_1 : S4096x4096.ReducesTo [0, 1] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.KB.Body0.lean ====
import proofs.«401359_j57629871178315_3_alg».proof.Proof.Gen.Kernel.Launch
import proofs.«401359_j57629871178315_3_alg».proof.Proof.Gen.Kernel.Skeleton
import proofs.«401359_j57629871178315_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body as one triple

The body of the pairwise-distance kernel at grid point `i = (row tile, column tile)`: what it loads is named by
parameters, what it leaves in the two output buffers and in the carried accumulator is a pure function of them. -/

abbrev rJx (i : grid0.Coords) : Rect S4096x512 := Rect.unit (s := S4096x512) (k0_off1 i) S1024x512.size (Facts₀.k0_off1_inb i)
abbrev rJr (i : grid0.Coords) : Rect S1x4096 := Rect.unit (s := S1x4096) (k0_off2 i) S1x1024.size (Facts₀.k0_off2_inb i)

/-- The distance tile of the point: rows from the row-tile operands `x2`, `x4`, columns cut out of the resident
    operands `x3`, `x5` at the column tile. -/
def distTile (i : grid0.Coords) (x2 : Vec F S1024x512 .f32) (x3 : Vec F S4096x512 .f32) (x4 : Vec F S1024x1 .f32) (x5 : Vec F S1x4096 .f32) :
    FVec F S1024x1024 .f32 :=
  k0_pay3 (View.ld x3 (rJx i)) (View.ld x5 (rJr i)) x2 x4

/-- The condition of the accumulator's reset, as the body computes it (column tile 0). -/
def k0_cond1 (i : grid0.Coords) : BitVec 1 :=
  Scalar.cmpi .ne (Scalar.extui (Scalar.cmpi .eq (BitVec.ofNat 32 (i 1).val) 0#32) : BitVec 32) 0#32

/-- The accumulator the row sums are added to: zeros at column tile 0, else what the point before left. -/
def accIn (i : grid0.Coords) (s : Vec F S1024x1 .f32) : Vec F S1024x1 .f32 :=
  if k0_cond1 i = 1#1 then k0_pay2 (F := F) else s

/-- The accumulator after the point. -/
def accOut (i : grid0.Coords) (x2 : Vec F S1024x512 .f32) (x3 : Vec F S4096x512 .f32) (x4 : Vec F S1024x1 .f32) (x5 : Vec F S1x4096 .f32)
    (x6 : Vec F S1024x1 .i32) (x7 : Vec F S1x4096 .i32) (s : Vec F S1024x1 .f32) : FVec F S1024x1 .f32 :=
  k0_pay1 (distTile i x2 x3 x4 x5) (k0_pay4 x6) (k0_pay5 (View.ld x7 (rJr i))) (accIn i s)

/-! ## Whole-buffer accesses at the zero offset -/

theorem k0_hz : (![0, 0] : Fin 2 → Nat) = fun _ => 0 := funext fun a => by fin_cases a <;> rfl

/-- A list of stores whose LAST (head) store is through the whole-shape rectangle covers the buffer. -/
theorem k0_cover_cons_unit_zero {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ pc ∈ ((⟨Rect.unit off S.size inb, w⟩ : View.Piece Val S e) :: L), y ∈ pc.1.set :=
  ⟨_, List.mem_cons.mpr (Or.inl rfl), View.mem_set_unit_zero h inb y⟩

/-- A whole-buffer load after stores of which the last was a whole-buffer store reads that store's payload. -/
theorem k0_readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (k0_cover_cons_unit_zero h inb w L), View.canon_cons_unit_zero h, View.ld_unit_zero h]

/-! ## The eight control cases

The body branches three times: on the accumulator's reset (column tile 0), on the distance tile's store
(column tile ≥ row tile) and on the row-sum output's store (last column tile). With the three conditions decided
the body is a straight line of whole-buffer loads and stores, plus the two slices of the resident operands; each
stored buffer then reads back as the payload of its last store, and each load of the accumulator after a store
of it as that store's payload. One lemma per combination of the three conditions, named by reset / distance
store / row-sum store taken (`y`) or not (`n`). -/

set_option maxHeartbeats 4000000 in
theorem k0_leaf_yyy (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : k0_cond1 i = 1#1) (h2 : k0_cond2 i = 1#1) (h3 : k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [if_pos h3, View.read_writes_eq_canon _ _ _ (k0_cover_cons_unit_zero k0_hz _ _ _)]
    rw [View.canon_cons_unit_zero (S := S1024x1) k0_hz]
    unfold accOut distTile accIn
    rw [if_pos h1]
    simp only [View.readAt_eq_ld, View.ld_unit_zero (S := S1024x512) k0_hz, View.ld_unit_zero (S := S1024x1) k0_hz,
      k0_readCov_cons_unit_zero (S := S1024x1) _ k0_hz]
    rfl
  isplitl [H9]
  · iexists _; isplitr
    swap; · iexact H9
    ipureintro
    sl_unfold_words
    rw [if_pos h2, View.read_writes_eq_canon _ _ _ (k0_cover_cons_unit_zero k0_hz _ _ _)]
    rw [View.canon_cons_unit_zero (S := S1024x1024) k0_hz]
    unfold distTile
    simp only [View.readAt_eq_ld, View.ld_unit_zero (S := S1024x512) k0_hz, View.ld_unit_zero (S := S1024x1) k0_hz]
    rfl
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_pos h1]
  simp only [View.readAt_eq_ld, View.ld_unit_zero (S := S1024x512) k0_hz, View.ld_unit_zero (S := S1024x1) k0_hz,
    k0_readCov_cons_unit_zero (S := S1024x1) _ k0_hz]
  rfl

set_option maxHeartbeats 4000000 in
theorem k0_leaf_yyn (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : k0_cond1 i = 1#1) (h2 : k0_cond2 i = 1#1) (h3 : ¬ k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr
    · ipureintro; rw [if_neg h3]
    iexact H8
  isplitl [H9]
  · iexists _; isplitr
    swap; · iexact H9
    ipureintro
    sl_unfold_words
    rw [if_pos h2, View.read_writes_eq_canon _ _ _ (k0_cover_cons_unit_zero k0_hz _ _ _)]
    rw [View.canon_cons_unit_zero (S := S1024x1024) k0_hz]
    unfold distTile
    simp only [View.readAt_eq_ld, View.ld_unit_zero (S := S1024x512) k0_hz, View.ld_unit_zero (S := S1024x1) k0_hz]
    rfl
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_pos h1]
  simp only [View.readAt_eq_ld, View.ld_unit_zero (S := S1024x512) k0_hz, View.ld_unit_zero (S := S1024x1) k0_hz,
    k0_readCov_cons_unit_zero (S := S1024x1) _ k0_hz]
  rfl

set_option maxHeartbeats 4000000 in
theorem k0_leaf_yny (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : k0_cond1 i = 1#1) (h2 : ¬ k0_cond2 i = 1#1) (h3 : k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [if_pos h3, View.read_writes_eq_canon _ _ _ (k0_cover_cons_unit_zero k0_hz _ _ _)]
    rw [View.canon_cons_unit_zero (S := S1024x1) k0_hz]
    unfold accOut distTile accIn
    rw [if_pos h1]
    simp only [View.readAt_eq_ld, View.ld_unit_zero (S := S1024x512) k0_hz, View.ld_unit_zero (S := S1024x1) k0_hz,
      k0_readCov_cons_unit_zero (S := S1024x1) _ k0_hz]
    rfl
  isplitl [H9]
  · iexists f9; isplitr
    · ipureintro; rw [if_neg h2]
    iexact H9
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_pos h1]
  simp only [View.readAt_eq_ld, View.ld_unit_zero (S := S1024x512) k0_hz, View.ld_unit_zero (S := S1024x1) k0_hz,
    k0_readCov_cons_unit_zero (S := S1024x1) _ k0_hz]
  rfl

set_option maxHeartbeats 4000000 in
theorem k0_leaf_ynn (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : k0_cond1 i = 1#1) (h2 : ¬ k0_cond2 i = 1#1) (h3 : ¬ k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr
    · ipureintro; rw [if_neg h3]
    iexact H8
  isplitl [H9]
  · iexists f9; isplitr
    · ipureintro; rw [if_neg h2]
    iexact H9
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_pos h1]
  simp only [View.readAt_eq_ld, View.ld_unit_zero (S := S1024x512) k0_hz, View.ld_unit_zero (S := S1024x1) k0_hz,
    k0_readCov_cons_unit_zero (S := S1024x1) _ k0_hz]
  rfl

set_option maxHeartbeats 4000000 in
theorem k0_leaf_nyy (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : ¬ k0_cond1 i = 1#1) (h2 : k0_cond2 i = 1#1) (h3 : k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [if_pos h3, View.read_writes_eq_canon _ _ _ (k0_cover_cons_unit_zero k0_hz _ _ _)]
    rw [View.canon_cons_unit_zero (S := S1024x1) k0_hz]
    unfold accOut distTile accIn
    rw [if_neg h1]
    simp only [View.readAt_eq_ld, View.ld_unit_zero (S := S1024x512) k0_hz, View.ld_unit_zero (S := S1024x1) k0_hz,
      k0_readCov_cons_unit_zero (S := S1024x1) _ k0_hz]
    rfl
  isplitl [H9]
  · iexists _; isplitr
    swap; · iexact H9
    ipureintro
    sl_unfold_words
    rw [if_pos h2, View.read_writes_eq_canon _ _ _ (k0_cover_cons_unit_zero k0_hz _ _ _)]
    rw [View.canon_cons_unit_zero (S := S1024x1024) k0_hz]
    unfold distTile
    simp only [View.readAt_eq_ld, View.ld_unit_zero (S := S1024x512) k0_hz, View.ld_unit_zero (S := S1024x1) k0_hz]
    rfl
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_neg h1]
  simp only [View.readAt_eq_ld, View.ld_unit_zero (S := S1024x512) k0_hz, View.ld_unit_zero (S := S1024x1) k0_hz,
    k0_readCov_cons_unit_zero (S := S1024x1) _ k0_hz]
  rfl

set_option maxHeartbeats 4000000 in
theorem k0_leaf_nyn (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : ¬ k0_cond1 i = 1#1) (h2 : k0_cond2 i = 1#1) (h3 : ¬ k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr
    · ipureintro; rw [if_neg h3]
    iexact H8
  isplitl [H9]
  · iexists _; isplitr
    swap; · iexact H9
    ipureintro
    sl_unfold_words
    rw [if_pos h2, View.read_writes_eq_canon _ _ _ (k0_cover_cons_unit_zero k0_hz _ _ _)]
    rw [View.canon_cons_unit_zero (S := S1024x1024) k0_hz]
    unfold distTile
    simp only [View.readAt_eq_ld, View.ld_unit_zero (S := S1024x512) k0_hz, View.ld_unit_zero (S := S1024x1) k0_hz]
    rfl
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_neg h1]
  simp only [View.readAt_eq_ld, View.ld_unit_zero (S := S1024x512) k0_hz, View.ld_unit_zero (S := S1024x1) k0_hz,
    k0_readCov_cons_unit_zero (S := S1024x1) _ k0_hz]
  rfl

set_option maxHeartbeats 4000000 in
theorem k0_leaf_nny (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : ¬ k0_cond1 i = 1#1) (h2 : ¬ k0_cond2 i = 1#1) (h3 : k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [if_pos h3, View.read_writes_eq_canon _ _ _ (k0_cover_cons_unit_zero k0_hz _ _ _)]
    rw [View.canon_cons_unit_zero (S := S1024x1) k0_hz]
    unfold accOut distTile accIn
    rw [if_neg h1]
    simp only [View.readAt_eq_ld, View.ld_unit_zero (S := S1024x512) k0_hz, View.ld_unit_zero (S := S1024x1) k0_hz,
      k0_readCov_cons_unit_zero (S := S1024x1) _ k0_hz]
    rfl
  isplitl [H9]
  · iexists f9; isplitr
    · ipureintro; rw [if_neg h2]
    iexact H9
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_neg h1]
  simp only [View.readAt_eq_ld, View.ld_unit_zero (S := S1024x512) k0_hz, View.ld_unit_zero (S := S1024x1) k0_hz,
    k0_readCov_cons_unit_zero (S := S1024x1) _ k0_hz]
  rfl

set_option maxHeartbeats 4000000 in
theorem k0_leaf_nnn (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : ¬ k0_cond1 i = 1#1) (h2 : ¬ k0_cond2 i = 1#1) (h3 : ¬ k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr
    · ipureintro; rw [if_neg h3]
    iexact H8
  isplitl [H9]
  · iexists f9; isplitr
    · ipureintro; rw [if_neg h2]
    iexact H9
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_neg h1]
  simp only [View.readAt_eq_ld, View.ld_unit_zero (S := S1024x512) k0_hz, View.ld_unit_zero (S := S1024x1) k0_hz,
    k0_readCov_cons_unit_zero (S := S1024x1) _ k0_hz]
  rfl

/-- THE TRIPLE of `cc0__negsum_kernel` at any point: inputs kept; the accumulator at `accOut`; the row-sum output
    at the accumulator where the point stores it (last column tile), else untouched; the distance output at the
    tile where the point stores it (column tile ≥ row tile), else untouched. -/
theorem sound_kernel0 (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  by_cases h1 : k0_cond1 i = 1#1 <;> by_cases h2 : k0_cond2 i = 1#1 <;> by_cases h3 : k0_cond3 i = 1#1
  · exact k0_leaf_yyy c E i arg2 harg2 arg3 harg3 arg4 harg4 arg5 harg5 arg6 harg6 arg7 harg7 arg8 harg8 arg9 harg9 arg10 harg10 x2 x3 x4 x5 x6 x7 d8 d9 s K h1 h2 h3
  · exact k0_leaf_yyn c E i arg2 harg2 arg3 harg3 arg4 harg4 arg5 harg5 arg6 harg6 arg7 harg7 arg8 harg8 arg9 harg9 arg10 harg10 x2 x3 x4 x5 x6 x7 d8 d9 s K h1 h2 h3
  · exact k0_leaf_yny c E i arg2 harg2 arg3 harg3 arg4 harg4 arg5 harg5 arg6 harg6 arg7 harg7 arg8 harg8 arg9 harg9 arg10 harg10 x2 x3 x4 x5 x6 x7 d8 d9 s K h1 h2 h3
  · exact k0_leaf_ynn c E i arg2 harg2 arg3 harg3 arg4 harg4 arg5 harg5 arg6 harg6 arg7 harg7 arg8 harg8 arg9 harg9 arg10 harg10 x2 x3 x4 x5 x6 x7 d8 d9 s K h1 h2 h3
  · exact k0_leaf_nyy c E i arg2 harg2 arg3 harg3 arg4 harg4 arg5 harg5 arg6 harg6 arg7 harg7 arg8 harg8 arg9 harg9 arg10 harg10 x2 x3 x4 x5 x6 x7 d8 d9 s K h1 h2 h3
  · exact k0_leaf_nyn c E i arg2 harg2 arg3 harg3 arg4 harg4 arg5 harg5 arg6 harg6 arg7 harg7 arg8 harg8 arg9 harg9 arg10 harg10 x2 x3 x4 x5 x6 x7 d8 d9 s K h1 h2 h3
  · exact k0_leaf_nny c E i arg2 harg2 arg3 harg3 arg4 harg4 arg5 harg5 arg6 harg6 arg7 harg7 arg8 harg8 arg9 harg9 arg10 harg10 x2 x3 x4 x5 x6 x7 d8 d9 s K h1 h2 h3
  · exact k0_leaf_nnn c E i arg2 harg2 arg3 harg3 arg4 harg4 arg5 harg5 arg6 harg6 arg7 harg7 arg8 harg8 arg9 harg9 arg10 harg10 x2 x3 x4 x5 x6 x7 d8 d9 s K h1 h2 h3

end Cert.Kernel.Hand

end
-- ==== Proof.KB.Data0.lean ====
import proofs.«401359_j57629871178315_3_alg».proof.Proof.Gen.Kernel.Launch
import proofs.«401359_j57629871178315_3_alg».proof.Proof.Gen.Kernel.Skeleton
import proofs.«401359_j57629871178315_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KB.Body0

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region's proof data

At a PARAMETER `V`, the core's buffer contents when the region is entered: each window's block at a grid point, the
accumulator after each point (a recursion on the point, restarted wherever the column tile is 0), and what the
body leaves in every staging buffer. The embeddings array is read by two windows, each holding half of it. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A placeholder for what the accumulator holds before the first point (the first point resets it, so the
    value is never read): the zeros the reset stores. -/
def junkAcc : Vec F S1024x1 .f32 := k0_pay2 (F := F)

/-- THE ACCUMULATION: the carried accumulator after the body at position `n`. -/
def acc0 (c : Dev nD) : ℕ → Vec F S1024x1 .f32
  | 0 => if h : 0 < cfg0.N then
      accOut (grid0.coords ⟨0, h⟩) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (junkAcc (F := F))
    else junkAcc
  | n + 1 => if h : n + 1 < cfg0.N then
      accOut (grid0.coords ⟨n + 1, h⟩) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (acc0 c n)
    else junkAcc

/-- The accumulator the body finds at position `n`. -/
def accBefore0 (c : Dev nD) (n : ℕ) : Vec F S1024x1 .f32 := match n with | 0 => junkAcc | k + 1 => acc0 V c k

theorem acc0_eq (c : Dev nD) (t : Fin cfg0.N) :
    acc0 V c t.val = accOut (grid0.coords t) (iblk0 V c 0 t) (iblk0 V c 1 t) (iblk0 V c 2 t) (iblk0 V c 3 t) (iblk0 V c 4 t) (iblk0 V c 5 t) (accBefore0 V c t.val) := by
  obtain ⟨n, hn⟩ := t
  cases n with
  | zero => exact dif_pos hn
  | succ n => exact dif_pos hn

/-- The scoped buffers that are neither a staging buffer of this region nor its accumulator, each whole at some
    contents: they ride through the region untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The region invariant before position `n`: the accumulator at some contents — after the first point at what the
    point before left —, the other scoped buffers at anything, the generator register at some state. -/
def Phi0 (c : Dev nD) (n : ℕ) : sProp 𝕄 :=
  iprop((∃ s : Vec F S1024x1 .f32, ⌜n ≠ 0 → s = accBefore0 V c n⌝ ∗ owns (c : Thread nD τ) (Memref.whole cc0_scratch0) fullShare s)
    ∗ rest0 c ∗ (∃ r, prngReg c r))

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => acc0 V c t.val
    | ⟨7, _⟩ => distTile (grid0.coords t) (iblk0 V c 0 t) (iblk0 V c 1 t) (iblk0 V c 2 t) (iblk0 V c 3 t)
  Φ t := Phi0 V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = acc0 V c t.val := by dsimp only [dat0]
theorem after0_7 (c : Dev nD) (t : Fin cfg0.N) :
    (dat0 V c).after 7 t = distTile (grid0.coords t) (iblk0 V c 0 t) (iblk0 V c 1 t) (iblk0 V c 2 t) (iblk0 V c 3 t) := by dsimp only [dat0]

theorem Phi0_eq (c : Dev nD) (t : Fin (cfg0.N + 1)) : (dat0 V c).Φ t = Phi0 V c t.val := by dsimp only [dat0]
theorem owed0_eq (c : Dev nD) (t : Fin (cfg0.N + 1)) : (dat0 V c).owed t = 0 := by dsimp only [dat0]

end Cert.Kernel.Hand

end
-- ==== Proof.KB.Body1.lean ====
import proofs.«401359_j57629871178315_3_alg».proof.Proof.Gen.Kernel.Launch
import proofs.«401359_j57629871178315_3_alg».proof.Proof.Gen.Kernel.Skeleton
import proofs.«401359_j57629871178315_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body as one triple

The body of the hinge kernel at grid point `i = (logical row tile, column tile)`: the physical row tile is the
word the permutation table holds at the logical one. -/

abbrev rTbl (i : grid1.Coords) : Rect S4 := Rect.unit (s := S4) (k1_off1 i) S1.size (Facts₀.k1_off1_inb i)

/-- The physical row tile: the table's word at the logical row tile. -/
def rowWord (i : grid1.Coords) (tbl : Vec F S4 .i32) : Elt F .i32 :=
  View.ld tbl (rTbl i) (Shape.Idx.first (Facts₀.numel1_S1.symm ▸ Nat.one_pos))

/-- The condition of the accumulator's reset, as the body computes it (column tile 0). -/
def k1_cond1 (i : grid1.Coords) : BitVec 1 :=
  Scalar.cmpi .ne (Scalar.extui (Scalar.cmpi .eq (BitVec.ofNat 32 (i 1).val) 0#32) : BitVec 32) 0#32

/-- The condition of the tile's contribution, as the body computes it: column tile ≥ physical row tile. -/
def k1_cond2 (i : grid1.Coords) (r : Elt F .i32) : BitVec 1 :=
  Scalar.cmpi .ne (Scalar.extui (Scalar.cmpi .sge (BitVec.ofNat 32 (i 1).val) r) : BitVec 32) 0#32

/-- The accumulator the tile's row sums are added to: zeros at column tile 0, else what the point before left. -/
def hAccIn (i : grid1.Coords) (s : Vec F S1024x1 .f32) : Vec F S1024x1 .f32 :=
  if k1_cond1 i = 1#1 then k1_pay1 (F := F) else s

/-- The accumulator after the point: the tile's masked hinge row sums added where the tile contributes. -/
def hAccOut (i : grid1.Coords) (tbl : Vec F S4 .i32) (x3 : Vec F S1024x1024 .f32) (x4 : Vec F S1024x1 .i32) (x5 : Vec F S1x1024 .i32)
    (x6 : Vec F S1024x1 .f32) (x7 : Vec F S1x1024 .f32) (s : Vec F S1024x1 .f32) : Vec F S1024x1 .f32 :=
  if k1_cond2 (F := F) i (rowWord i tbl) = 1#1 then
    k1_pay2 (BitVec.ofNat 32 (i 1).val) (rowWord i tbl) x3 x4 x5 x6 x7 (hAccIn i s)
  else hAccIn i s

/-! ## Whole-buffer stores and loads read back

Every store and load of the body goes through the whole-shape rectangle at zero offsets: a list of writes whose
LAST one is such a store reads back that store's payload, whatever came before it. -/

private theorem hz2 : (![0, 0] : Fin 2 → Nat) = fun _ => 0 := funext fun a => by fin_cases a <;> rfl

/-- A list of writes headed by a whole-shape store reads back the store's payload. -/
private theorem read_writes_whole_head {Val : EltTy → Type} [∀ e, Nonempty (Val e)] {sig : RefSig} {κ : Kind} {sp : Space}
    {S : Shape} {e : EltTy} (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩),
    View.canon_cons_unit_zero h inb]

/-- A whole-shape load after writes headed by a whole-shape store reads the store's payload. -/
private theorem readCov_whole_head {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero h inb y⟩),
    View.canon_cons_unit_zero h inb, View.ld_unit_zero h inb]

/-- A whole-shape load of untouched contents reads them. -/
private theorem readAt_whole {Val : EltTy → Type} {sig : RefSig} {κ : Kind} {sp : Space}
    {S : Shape} {e : EltTy} (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

/-- THE TRIPLE of `cc1__hinge_kernel` at any point: the table and the inputs kept; the accumulator at `hAccOut`;
    the output at the accumulator where the point stores it (last column tile), else untouched. -/
theorem sound_kernel1 (c : Dev nD) (E : Set ℕ) (i : grid1.Coords)
    (arg2 : Memref sig .tc .smem S4 .i32) (harg2 : arg2.IsWhole) (arg3 : Memref sig .tc .vmem S1024x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole)
    (tbl : Vec F S4 .i32) (x3 : Vec F S1024x1024 .f32) (x4 : Vec F S1024x1 .i32) (x5 : Vec F S1x1024 .i32)
    (x6 : Vec F S1024x1 .f32) (x7 : Vec F S1x1024 .f32) (d8 : Vec F S1024x1 .f32) (s : Vec F S1024x1 .f32)
    (K : PUnit → sProp 𝕄) :
    iprop(owns (c : Thread nD τ) arg2 fullShare tbl ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare s
        ∗ (iprop(owns (c : Thread nD τ) arg2 fullShare tbl ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k1_cond3 i = 1#1 then hAccOut i tbl x3 x4 x5 x6 x7 s else d8)
            ∗ owns (c : Thread nD τ) arg9 fullShare (hAccOut i tbl x3 x4 x5 x6 x7 s)) -∗ K ⟨⟩))
      ⊢ wp frame (wpE (defs₀ (F := F)) Variants.none c none) E (cc1__hinge_kernel i arg2 harg2 arg3 harg3 arg4 harg4 arg5 harg5 arg6 harg6 arg7 harg7 arg8 harg8 arg9 harg9) K := by
  simp only [cc1__hinge_kernel_eq_skeleton]; unfold cc1__hinge_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  -- the three conditions: the reset (column tile 0), the contribution (over the word the table holds at the logical row
  -- tile: what the body's first load returns is `rowWord` of the table's contents, definitionally), the final copy
  by_cases h1 : k1_cond1 i = 1#1 <;> by_cases h2 : k1_cond2 (F := F) i (rowWord i (arg2.view.read (Elt F) f2)) = 1#1
    <;> by_cases h3 : k1_cond3 i = 1#1
  all_goals
    sl_exec (disch := first | exact h1 | exact h2 | exact h3)
    sl_step
    iapply Hk
    -- the table and the five inputs are only read
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    -- the output: where the final copy runs, a whole-buffer store of the accumulator just read back; else as found
    isplitl [H8]
    · iexists _; isplitr; swap; · iexact H8
      ipureintro
      unfold hAccOut hAccIn
      try sl_unfold_words
      simp only [h1, h2, h3, eq_self, if_true, if_false, read_writes_whole_head (S := S1024x1) _ _ hz2, readCov_whole_head (S := S1024x1) _ hz2,
        readAt_whole (S := S1024x1) _ _ hz2, readAt_whole (S := S1024x1024) _ _ hz2, readAt_whole (S := S1x1024) _ _ hz2]
      try rfl
    -- the accumulator: the reset's zeros or the contents found, then the tile's row sums added or not; every store
    -- and load is of the whole buffer, so the last store's payload is what it holds
    · iexists _; isplitr; swap; · iexact H9
      ipureintro
      unfold hAccOut hAccIn
      try sl_unfold_words
      simp only [h1, h2, h3, eq_self, if_true, if_false, read_writes_whole_head (S := S1024x1) _ _ hz2, readCov_whole_head (S := S1024x1) _ hz2,
        readAt_whole (S := S1024x1) _ _ hz2, readAt_whole (S := S1024x1024) _ _ hz2, readAt_whole (S := S1x1024) _ _ hz2]
      try rfl

end Cert.Kernel.Hand

end
-- ==== Proof.KB.Data1.lean ====
import proofs.«401359_j57629871178315_3_alg».proof.Proof.Gen.Kernel.Launch
import proofs.«401359_j57629871178315_3_alg».proof.Proof.Gen.Kernel.Skeleton
import proofs.«401359_j57629871178315_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KB.Body1

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's proof data

At a PARAMETER `V` (the core's buffer contents when the region is entered) and at ADMISSIBLE contents `a` of the
permutation table, kept a variable: each window's block at a grid point, the accumulator after each point, and what
the body leaves in every staging buffer. -/

variable (V : (c : Dev nD) → (b : Ref sig .tc) → Buf (Elt F) ((c : Thread nD τ).loc b))
variable (a : (pcfg1 (F := F)).Adm)

/-- The table as the body reads it: the admissible contents through the table buffer's whole view. -/
def tblOf (c : Dev nD) : Vec F S4 .i32 := (Memref.whole main_c : Memref sig .tc .smem S4 .i32).view.read (Elt F) (a.1 0)

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- A placeholder for what the accumulator holds before the first point (the first point resets it). -/
def junkAcc1 : Vec F S1024x1 .f32 := k1_pay1 (F := F)

/-- THE ACCUMULATION: the carried accumulator after the body at position `n`. -/
def acc1 (c : Dev nD) : ℕ → Vec F S1024x1 .f32
  | 0 => if h : 0 < (cfg1 a).N then
      hAccOut ((cfg1 a).grid.coords ⟨0, h⟩) (tblOf a c) (iblk1 V a c 0 ⟨0, h⟩) (iblk1 V a c 1 ⟨0, h⟩) (iblk1 V a c 2 ⟨0, h⟩) (iblk1 V a c 3 ⟨0, h⟩) (iblk1 V a c 4 ⟨0, h⟩) (junkAcc1 (F := F))
    else junkAcc1
  | n + 1 => if h : n + 1 < (cfg1 a).N then
      hAccOut ((cfg1 a).grid.coords ⟨n + 1, h⟩) (tblOf a c) (iblk1 V a c 0 ⟨n + 1, h⟩) (iblk1 V a c 1 ⟨n + 1, h⟩) (iblk1 V a c 2 ⟨n + 1, h⟩) (iblk1 V a c 3 ⟨n + 1, h⟩) (iblk1 V a c 4 ⟨n + 1, h⟩) (acc1 c n)
    else junkAcc1

/-- The accumulator the body finds at position `n`. -/
def accBefore1 (c : Dev nD) (n : ℕ) : Vec F S1024x1 .f32 := match n with | 0 => junkAcc1 | k + 1 => acc1 V a c k

theorem acc1_eq (c : Dev nD) (t : Fin (cfg1 a).N) :
    acc1 V a c t.val = hAccOut ((cfg1 a).grid.coords t) (tblOf a c) (iblk1 V a c 0 t) (iblk1 V a c 1 t) (iblk1 V a c 2 t) (iblk1 V a c 3 t) (iblk1 V a c 4 t) (accBefore1 V a c t.val) := by
  obtain ⟨n, hn⟩ := t
  cases n with
  | zero => exact dif_pos hn
  | succ n => exact dif_pos hn

/-- The scoped buffers that are neither a staging buffer of this region nor its accumulator, each whole at some
    contents: they ride through the region untouched. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f))

/-- The region invariant before position `n`: the table whole at its admissible contents; the accumulator at some
    contents — after the first point at what the point before left —; the other scoped buffers at anything; the
    generator register at some state. -/
def Phi1 (c : Dev nD) (n : ℕ) : sProp 𝕄 :=
  iprop(Pipeline.prefHeld pre1 c (fun _ => fullShare) a.1
    ∗ (∃ s : Vec F S1024x1 .f32, ⌜n ≠ 0 → s = accBefore1 V a c n⌝ ∗ owns (c : Thread nD τ) (Memref.whole cc1_scratch0) fullShare s)
    ∗ rest1 c ∗ (∃ r, prngReg c r))

/-- The proof data of the second region on core `c`. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => iblk1 V a c 4 t
    | ⟨5, _⟩ => acc1 V a c t.val
  Φ t := Phi1 V a c t.val
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = iblk1 V a c 1 t := by dsimp only [dat1]; rfl
theorem after1_2 (c : Dev nD) (t : Fin (cfg1 a).N) : (dat1 V a c).after 2 t = iblk1 V a c 2 t := by dsimp only [dat1]; rfl
theorem after1_3 (c : Dev nD) (t : Fin (cfg1 a).N) : (dat1 V a c).after 3 t = iblk1 V a c 3 t := by dsimp only [dat1]; rfl
theorem after1_4 (c : Dev nD) (t : Fin (cfg1 a).N) : (dat1 V a c).after 4 t = iblk1 V a c 4 t := by dsimp only [dat1]; rfl
theorem after1_5 (c : Dev nD) (t : Fin (cfg1 a).N) : (dat1 V a c).after 5 t = acc1 V a c t.val := by dsimp only [dat1]; rfl

theorem Phi1_eq (c : Dev nD) (t : Fin ((cfg1 a).N + 1)) : (dat1 V a c).Φ t = Phi1 V a c t.val := by dsimp only [dat1]
theorem owed1_eq (c : Dev nD) (t : Fin ((cfg1 a).N + 1)) : (dat1 V a c).owed t = 0 := by dsimp only [dat1]

end Cert.Kernel.Hand

end
-- ==== Proof.KB.Launch.lean ====
import proofs.«401359_j57629871178315_3_alg».proof.Proof.Gen.Kernel.Launch
import proofs.«401359_j57629871178315_3_alg».proof.Proof.Gen.Kernel.Skeleton
import proofs.«401359_j57629871178315_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.Gen.Kernel.Regions
import proofs.«401359_j57629871178315_3_alg».proof.Proof.KB.Data0
import proofs.«401359_j57629871178315_3_alg».proof.Proof.KB.Data1

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents at each boundary of @main

A fold from the launch memory: a host stretch's operations applied in order; after a region, its output arrays at
what the region's write-backs leave and every other buffer as it was. -/

variable (m : (ℓ : Loc nD τ sig) → Buf (Elt F) ℓ) (ρ : Dev nD → PrngReg)

/-- At launch, and after the first host stretch (the first region's entry). -/
abbrev W0 : Dev nD → Valuation τ sig (Elt F) := fun c b => m (c, b)
abbrev W1 : Dev nD → Valuation τ sig (Elt F) := fun c => StableHlo.after hostOps0 (W0 m c)
/-- The same read at the TensorCore's references (what the first region's proof data take). -/
abbrev U1 : (c : Dev nD) → (b : Ref sig .tc) → Buf (Elt F) ((c : Thread nD τ).loc b) := fun c b => W1 m c b

/-- After the first region: the row sums and the distance array at what the write-backs leave. -/
def W2 (c : Dev nD) : Valuation τ sig (Elt F) :=
  Function.update (Function.update (W1 m c) main_v6_0 ((dat0 (U1 m) c).arrAt 6 cfg0.N)) main_v6_1 ((dat0 (U1 m) c).arrAt 7 cfg0.N)

/-- After the reshape between the regions (the second region's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

variable (a1 : (pcfg1 (F := F)).Adm)

/-- After the second region: the hinge row sums at what the write-backs leave. -/
def W4 (c : Dev nD) : Valuation τ sig (Elt F) :=
  Function.update (W3 m c) main_v8 ((dat1 (U3 m) a1 c).arrAt 5 (cfg1 a1).N)

/-- After the three stretches of the host tail. -/
abbrev W5 : Dev nD → Valuation τ sig (Elt F) := fun c => StableHlo.after hostOps2 (W4 m a1 c)
abbrev W6 : Dev nD → Valuation τ sig (Elt F) := fun c => StableHlo.after hostOps2_1 (W5 m a1 c)
abbrev W7 : Dev nD → Valuation τ sig (Elt F) := fun c => StableHlo.after hostOps2_2 (W6 m a1 c)

/-- The admissible table contents of every pipeline: the first has no table. -/
abbrev adm : (p : Fin 2) → (pcfgs (F := F) p).Adm
  | ⟨0, _⟩ => cfg0.toPCfg_adm
  | ⟨1, _⟩ => a1

/-- Every pipeline's proof data, each at its region's entry contents. -/
def pdats : (p : Fin 2) → (c : Dev nD) → Dat τ (Elt F) Unit ℕ (UR sig nD τ) ℕ (Pipeline.pin (pcfgs (F := F)) (adm a1) p) c
  | ⟨0, _⟩ => fun c => dat0 (U1 m) c
  | ⟨1, _⟩ => fun c => dat1 (U3 m) a1 c

/-! ## What the launch is stated over -/

/-- No kernel calls anything: no variants. No core owes another anything: no level is assigned. -/
abbrev 𝒱z : Variants := Variants.none
abbrev Lz : GSem nD τ sig → Finset Unit := fun _ => ∅
abbrev lvz : GSem nD τ sig → Unit → ℕ := fun _ _ => 0

/-- What rides beside the buffers through every segment: the generator register at some state, and the core owing
    nothing. -/
abbrev Rz (c : Dev nD) : sProp 𝕄 := iprop((∃ r, prngReg c r) ∗ ∃ W, owes (c : Thread nD τ) (0 : CellTallies nD τ sig Unit) W)

end Cert.Kernel.Hand

end
-- ==== Proof.KB.Oblig0.lean ====
import proofs.«401359_j57629871178315_3_alg».proof.Proof.Gen.Kernel.Launch
import proofs.«401359_j57629871178315_3_alg».proof.Proof.Gen.Kernel.Skeleton
import proofs.«401359_j57629871178315_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KB.Body0
import proofs.«401359_j57629871178315_3_alg».proof.Proof.KB.Data0

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region's body obligation

At every grid point the body, handed each input window's staging buffer at its block, the two output windows'
buffers at whatever they hold and the accumulator at what the point before left, returns the inputs as they were,
the accumulator advanced by the point, the row-sum output at the accumulator where the point stores it (last
column tile) and the distance output at the point's tile where the point stores it (column tile ≥ row tile);
where a point stores nothing into an output window it does not write the window back either, and the buffer
goes back as it was found. -/

variable (V : (c : Dev nD) → (b : Ref sig .tc) → Buf (Elt F) ((c : Thread nD τ).loc b))

/-! ## What the body finds in the input windows' buffers

An input window's buffer holds its block at every point, fetched there or not: unfetched, the block index has
not moved since the point before. -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-! ## Where the output windows are idle, and that they are not written back there -/

theorem liveAt0_0 (i : grid0.Coords) : cfg0.idle 0 i = false := rfl
theorem liveAt0_1 (i : grid0.Coords) : cfg0.idle 1 i = false := rfl
theorem liveAt0_2 (i : grid0.Coords) : cfg0.idle 2 i = false := rfl
theorem liveAt0_3 (i : grid0.Coords) : cfg0.idle 3 i = false := rfl
theorem liveAt0_4 (i : grid0.Coords) : cfg0.idle 4 i = false := rfl
theorem liveAt0_5 (i : grid0.Coords) : cfg0.idle 5 i = false := rfl

theorem idleAt0_6 (i : grid0.Coords) (h : ¬ k0_cond3 i = 1#1) : cfg0.idle 6 i = true := by
  show (!(k0_cond3 i == 1#1)) = true
  simp [h]

theorem liveAt0_6 (i : grid0.Coords) (h : k0_cond3 i = 1#1) : cfg0.idle 6 i = false := by
  show (!(k0_cond3 i == 1#1)) = false
  simp [h]

theorem idleAt0_7 (i : grid0.Coords) (h : ¬ k0_cond2 i = 1#1) : cfg0.idle 7 i = true := by
  show (!(k0_cond2 i == 1#1)) = true
  simp [h]

theorem liveAt0_7 (i : grid0.Coords) (h : k0_cond2 i = 1#1) : cfg0.idle 7 i = false := by
  show (!(k0_cond2 i == 1#1)) = false
  simp [h]

/-- The row-sum window is written back only at the last column tile. -/
theorem noFlush0_6 : ∀ t : Fin cfg0.N, ¬ k0_cond3 (grid0.coords t) = 1#1 → (cfg0.win 6).flush t = false :=
  (by decide +kernel : ∀ t : Fin grid0.N, ¬ k0_cond3 (grid0.coords t) = 1#1 → win0_6.flush t = false)

/-- The distance window is written back only where the column tile is at least the row tile. -/
theorem noFlush0_7 : ∀ t : Fin cfg0.N, ¬ k0_cond2 (grid0.coords t) = 1#1 → (cfg0.win 7).flush t = false :=
  (by decide +kernel : ∀ t : Fin grid0.N, ¬ k0_cond2 (grid0.coords t) = 1#1 → win0_7.flush t = false)

/-- The first point is at column tile 0: it resets the accumulator. -/
theorem cond1_zero : ∀ t : Fin cfg0.N, t.val = 0 → k0_cond1 (grid0.coords t) = 1#1 :=
  (by decide +kernel : ∀ t : Fin grid0.N, t.val = 0 → k0_cond1 (grid0.coords t) = 1#1)

/-! ## The accumulator's step -/

/-- Where the point resets the accumulator, what it held before does not matter. -/
theorem accOut_of_cond1 (i : grid0.Coords) (h : k0_cond1 i = 1#1) (x2 : Vec F S1024x512 .f32) (x3 : Vec F S4096x512 .f32)
    (x4 : Vec F S1024x1 .f32) (x5 : Vec F S1x4096 .f32) (x6 : Vec F S1024x1 .i32) (x7 : Vec F S1x4096 .i32) (s s' : Vec F S1024x1 .f32) :
    accOut i x2 x3 x4 x5 x6 x7 s = accOut i x2 x3 x4 x5 x6 x7 s' := by
  unfold accOut accIn
  simp only [if_pos h]

/-- From what the invariant says of the accumulator before point `t`, the body leaves the accumulation's value at `t`. -/
theorem accOut_eq_acc0 (c : Dev nD) (t : Fin cfg0.N) (s : Vec F S1024x1 .f32) (hs : t.val ≠ 0 → s = accBefore0 V c t.val) :
    accOut (grid0.coords t) (iblk0 V c 0 t) (iblk0 V c 1 t) (iblk0 V c 2 t) (iblk0 V c 3 t) (iblk0 V c 4 t) (iblk0 V c 5 t) s = acc0 V c t.val := by
  rw [acc0_eq]
  by_cases hz : t.val = 0
  · exact accOut_of_cond1 _ (cond1_zero t hz) _ _ _ _ _ _ _ _
  · rw [hs hz]

/-! ## The output windows' posts -/

/-- The row-sum window: at the accumulation's value where the point stores it, else back as found. -/
theorem leaves0_6 (c : Dev nD) (t : Fin cfg0.N) (d6 : (cfg0.win 6).block.Idx → Elt F (cfg0.win 6).elt) (s : Vec F S1024x1 .f32)
    (hs : t.val ≠ 0 → s = accBefore0 V c t.val) :
    owns (c : Thread nD τ) (st0_6 t) fullShare
        (if k0_cond3 (grid0.coords t) = 1#1 then accOut (grid0.coords t) (iblk0 V c 0 t) (iblk0 V c 1 t) (iblk0 V c 2 t) (iblk0 V c 3 t) (iblk0 V c 4 t) (iblk0 V c 5 t) s
          else ((dat0 V c).before 6 t d6 : Vec F S1024x1 .f32))
      ⊢ ((dat0 V c).leavesExact 6 t : sProp 𝕄) := by
  by_cases h3 : k0_cond3 (grid0.coords t) = 1#1
  · rw [if_pos h3, accOut_eq_acc0 V c t s hs,
      show (dat0 V c).leavesExact 6 t = owns (c : Thread nD τ) (st0_6 t) fullShare ((dat0 V c).after 6 t) from by
        unfold Dat.leavesExact; rw [liveAt0_6 _ h3], after0_6]
  · rw [if_neg h3, Dat.leavesExact_idle (dat0 V c) 6 t (idleAt0_6 _ h3) (noFlush0_6 t h3)]
    iintro H; iexists d6; iexact H

/-- The distance window: at the point's tile where the point stores it, else back as found. -/
theorem leaves0_7 (c : Dev nD) (t : Fin cfg0.N) (d7 : (cfg0.win 7).block.Idx → Elt F (cfg0.win 7).elt) :
    owns (c : Thread nD τ) (st0_7 t) fullShare
        (if k0_cond2 (grid0.coords t) = 1#1 then distTile (grid0.coords t) (iblk0 V c 0 t) (iblk0 V c 1 t) (iblk0 V c 2 t) (iblk0 V c 3 t)
          else ((dat0 V c).before 7 t d7 : Vec F S1024x1024 .f32))
      ⊢ ((dat0 V c).leavesExact 7 t : sProp 𝕄) := by
  by_cases h2 : k0_cond2 (grid0.coords t) = 1#1
  · rw [if_pos h2,
      show (dat0 V c).leavesExact 7 t = owns (c : Thread nD τ) (st0_7 t) fullShare ((dat0 V c).after 7 t) from by
        unfold Dat.leavesExact; rw [liveAt0_7 _ h2], after0_7]
  · rw [if_neg h2, Dat.leavesExact_idle (dat0 V c) 7 t (idleAt0_7 _ h2) (noFlush0_7 t h2)]
    iintro H; iexists d7; iexact H

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
/-- The body at any point: the inputs' buffers hold their blocks, the invariant hands over the accumulator at what
    the point before left (at anything before the first point, which resets it), so the body's triple applies;
    the other scoped buffers, the generator register and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0 V c, before0_1 V c, before0_2 V c, before0_3 V c, before0_4 V c, before0_5 V c]
  rw [show (dat0 V c).owesAt () t.succ = (dat0 V c).owesAt () t.castSucc from rfl]
  rw [Phi0_eq, Phi0_eq]
  simp only [Fin.coe_castSucc, Fin.val_succ]
  unfold Phi0
  rw [show (dat0 V c).leavesExact 0 t = owns (c : Thread nD τ) (st0_0 t) fullShare ((dat0 V c).after 0 t) from by
    unfold Dat.leavesExact; rw [liveAt0_0 _], after0_0]
  rw [show (dat0 V c).leavesExact 1 t = owns (c : Thread nD τ) (st0_1 t) fullShare ((dat0 V c).after 1 t) from by
    unfold Dat.leavesExact; rw [liveAt0_1 _], after0_1]
  rw [show (dat0 V c).leavesExact 2 t = owns (c : Thread nD τ) (st0_2 t) fullShare ((dat0 V c).after 2 t) from by
    unfold Dat.leavesExact; rw [liveAt0_2 _], after0_2]
  rw [show (dat0 V c).leavesExact 3 t = owns (c : Thread nD τ) (st0_3 t) fullShare ((dat0 V c).after 3 t) from by
    unfold Dat.leavesExact; rw [liveAt0_3 _], after0_3]
  rw [show (dat0 V c).leavesExact 4 t = owns (c : Thread nD τ) (st0_4 t) fullShare ((dat0 V c).after 4 t) from by
    unfold Dat.leavesExact; rw [liveAt0_4 _], after0_4]
  rw [show (dat0 V c).leavesExact 5 t = owns (c : Thread nD τ) (st0_5 t) fullShare ((dat0 V c).after 5 t) from by
    unfold Dat.leavesExact; rw [liveAt0_5 _], after0_5]
  iintro ⟨⟨⟨%s, %hs, HS⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ _ _
    (iblk0 V c 0 t) (iblk0 V c 1 t) (iblk0 V c 2 t) (iblk0 V c 3 t) (iblk0 V c 4 t) (iblk0 V c 5 t)
    ((dat0 V c).before 6 t d6) ((dat0 V c).before 7 t d7) s _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hrest Hg]
  · isplitl [HS]
    · iexists _; isplitr
      swap; · iexact HS
      ipureintro; intro _
      exact accOut_eq_acc0 V c t s hs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves0_6 V c t d6 s hs); iexact H6
  iapply (leaves0_7 V c t d7); iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg0.lean ====
import proofs.«401359_j57629871178315_3_alg».proof.Proof.Gen.Kernel.Launch
import proofs.«401359_j57629871178315_3_alg».proof.Proof.Gen.Kernel.Skeleton
import proofs.«401359_j57629871178315_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KB.Launch
import proofs.«401359_j57629871178315_3_alg».proof.Proof.KB.Oblig0

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region among @main's segments

Entered from every unscoped buffer held at the valuation after the first host stretch, left at that valuation
updated at the two result arrays. The embeddings array, read through two windows, is dealt to them in halves and
put together again at the exit. -/

variable (V : (c : Dev nD) → (b : Ref sig .tc) → Buf (Elt F) ((c : Thread nD τ).loc b))

/-- The buffers behind the first region's windows: seven, the embeddings array behind two windows. -/
theorem arrImage0 : Finset.univ.image (Pipeline.arrRef spec0) = ({main_arg0, main_v2, main_v3, main_v4, main_v5, main_v6_0, main_v6_1} : Finset (Ref sig .tc)) := by
  decide

/-- The pipeline's arrays, window by window. -/
theorem arrays0_eq (c : Dev nD) (G : (w : Fin cfg0.W) → Buf (Elt F) ((cfg0.win w).arr.view.loc (c : Thread nD τ))) :
    ((dat0 V c).arrays G : sProp 𝕄) = iprop(
      (((c : Thread nD τ).loc main_arg0) ↦{fullShare.left} G 0) ∗ (((c : Thread nD τ).loc main_arg0) ↦{fullShare.right} G 1)
      ∗ (((c : Thread nD τ).loc main_v2) ↦{fullShare} G 2) ∗ (((c : Thread nD τ).loc main_v3) ↦{fullShare} G 3)
      ∗ (((c : Thread nD τ).loc main_v4) ↦{fullShare} G 4) ∗ (((c : Thread nD τ).loc main_v5) ↦{fullShare} G 5)
      ∗ (((c : Thread nD τ).loc main_v6_0) ↦{fullShare} G 6) ∗ (((c : Thread nD τ).loc main_v6_1) ↦{fullShare} G 7)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- A core's unscoped buffers at a valuation: the seven buffers behind the windows, and the rest. -/
theorem unscopedBufs_split0 (c : Dev nD) (W : (b : Ref sig .tc) → Buf (Elt F) ((c : Thread nD τ).loc b)) :
    (unscopedBufs c W : sProp 𝕄) = iprop(Pipeline.arrBufs spec0 c W ∗ Pipeline.unscopedRest spec0 c W) := by
  classical
  have hA : Finset.univ.image (Pipeline.arrRef spec0) ⊆ Finset.univ.filter fun b : Ref sig .tc => ¬ b.isScoped := by
    rw [arrImage0]; decide
  unfold unscopedBufs Pipeline.unscopedRest Pipeline.arrBufs
  rw [bigSep_sdiff_split hA]
  rfl

/-- The seven buffers, one by one. -/
theorem arrBufs0_eq (c : Dev nD) (W : (b : Ref sig .tc) → Buf (Elt F) ((c : Thread nD τ).loc b)) :
    (Pipeline.arrBufs spec0 c W : sProp 𝕄) = iprop(
      (((c : Thread nD τ).loc main_arg0) ↦{fullShare} W main_arg0)
      ∗ (((c : Thread nD τ).loc main_v2) ↦{fullShare} W main_v2) ∗ (((c : Thread nD τ).loc main_v3) ↦{fullShare} W main_v3)
      ∗ (((c : Thread nD τ).loc main_v4) ↦{fullShare} W main_v4) ∗ (((c : Thread nD τ).loc main_v5) ↦{fullShare} W main_v5)
      ∗ (((c : Thread nD τ).loc main_v6_0) ↦{fullShare} W main_v6_0) ∗ (((c : Thread nD τ).loc main_v6_1) ↦{fullShare} W main_v6_1)) := by
  unfold Pipeline.arrBufs
  rw [arrImage0, bigSep_insert (by decide), bigSep_insert (by decide), bigSep_insert (by decide), bigSep_insert (by decide),
    bigSep_insert (by decide), bigSep_insert (by decide), bigSep_singleton]
  rfl

/-- ENTRY, the arrays: the seven buffers at the entry contents are the pipeline's arrays, the embeddings array
    dealt in halves to its two windows. -/
theorem hsplit0 (c : Dev nD) :
    (Pipeline.arrBufs spec0 c (V c) : sProp 𝕄) ⊢ (dat0 V c).arrays ((dat0 V c).arrAt · 0) := by
  rw [arrBufs0_eq, arrays0_eq]
  have hs : ((((c : Thread nD τ).loc main_arg0) ↦{fullShare} V c main_arg0) : sProp 𝕄)
      ⊢ iprop((((c : Thread nD τ).loc main_arg0) ↦{fullShare.left} V c main_arg0) ∗ (((c : Thread nD τ).loc main_arg0) ↦{fullShare.right} V c main_arg0)) :=
    (pointsTo_share (PosShare.mem_left_op_right fullShare)).1
  iintro ⟨H0, H2, H3, H4, H5, H6, H7⟩
  ihave H01 := hs $$ H0
  icases H01 with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  iexact H7

/-- EXIT, the arrays: the pipeline's arrays at their final contents and the untouched rest are the core's unscoped
    buffers at any valuation that has the two results at what the write-backs left and agrees elsewhere. -/
theorem hjoin0 (c : Dev nD) (W' : (b : Ref sig .tc) → Buf (Elt F) ((c : Thread nD τ).loc b))
    (h6 : W' main_v6_0 = (dat0 V c).arrAt 6 cfg0.N) (h7 : W' main_v6_1 = (dat0 V c).arrAt 7 cfg0.N)
    (hrest : ∀ b, b ≠ main_v6_0 → b ≠ main_v6_1 → W' b = V c b) :
    iprop((dat0 V c).arrays ((dat0 V c).arrAt · cfg0.N) ∗ Pipeline.unscopedRest spec0 c (V c)) ⊢ (unscopedBufs c W' : sProp 𝕄) := by
  rw [unscopedBufs_split0 c W', arrBufs0_eq, arrays0_eq,
    (dat0 V c).arrAt_in 0 rfl, (dat0 V c).arrAt_in 1 rfl, (dat0 V c).arrAt_in 2 rfl, (dat0 V c).arrAt_in 3 rfl,
    (dat0 V c).arrAt_in 4 rfl, (dat0 V c).arrAt_in 5 rfl, h6, h7,
    hrest main_arg0 (by decide) (by decide), hrest main_v2 (by decide) (by decide), hrest main_v3 (by decide) (by decide),
    hrest main_v4 (by decide) (by decide), hrest main_v5 (by decide) (by decide)]
  have hj : iprop((((c : Thread nD τ).loc main_arg0) ↦{fullShare.left} V c main_arg0) ∗ (((c : Thread nD τ).loc main_arg0) ↦{fullShare.right} V c main_arg0))
      ⊢ ((((c : Thread nD τ).loc main_arg0) ↦{fullShare} V c main_arg0) : sProp 𝕄) :=
    (pointsTo_share (PosShare.mem_left_op_right fullShare)).2
  refine sep_mono ((sep_assoc').trans (sep_mono hj .rfl)) (Entails.of_eq ?_)
  unfold Pipeline.unscopedRest
  exact bigSep_congr fun b hb => by
    have hb' := (Finset.mem_sdiff.mp hb).2
    rw [arrImage0] at hb'
    rw [hrest b (fun e => hb' (by rw [e]; decide)) (fun e => hb' (by rw [e]; decide))]

/-- The invariant before the first point, from what the region hands it: the generator register and the scoped
    buffers no window stages (the accumulator among them, at anything). -/
theorem hin0 (c : Dev nD) :
    iprop((∃ r, prngReg c r) ∗ Pipeline.scopedRest (Ix := Unit) (Name := ℕ) (U := UR sig nD τ) (Lvl := ℕ) (Val := Elt F) spec0 c) ⊢ (Phi0 V c 0 : sProp 𝕄) := by
  rw [scopedRest0_eq]
  unfold Phi0 rest0
  iintro ⟨Hp, ⟨%f, Hs⟩, Hrest⟩
  isplitl [Hs]
  · iexists (Memref.whole cc0_scratch0 : Memref sig .tc .vmem S1024x1 .f32).view.read (Elt F) f
    isplitr
    · ipureintro; intro h; exact absurd rfl h
    unfold owns
    iexists f
    isplitr
    · ipureintro; rfl
    rw [(Memref.isWhole_whole (cc0_scratch0 : Ref sig .tc)).set_eq_univ]
    iexact Hs
  isplitl [Hrest]; · iexact Hrest
  iexact Hp

/-- The invariant after any point gives those back, the accumulator's contents forgotten. -/
theorem hout0 (c : Dev nD) (n : ℕ) :
    (Phi0 V c n : sProp 𝕄) ⊢ iprop((∃ r, prngReg c r) ∗ Pipeline.scopedRest (Ix := Unit) (Name := ℕ) (U := UR sig nD τ) (Lvl := ℕ) (Val := Elt F) spec0 c) := by
  rw [scopedRest0_eq]
  unfold Phi0 rest0
  iintro ⟨⟨%s, -, Hs⟩, Hrest, Hp⟩
  isplitl [Hp]; · iexact Hp
  isplitl [Hs]
  · unfold owns
    icases Hs with ⟨%f, -, Hs⟩
    iexists f
    rw [(Memref.isWhole_whole (cc0_scratch0 : Ref sig .tc)).set_eq_univ]
    iexact Hs
  iexact Hrest

/-! ## The record -/

variable (m : (ℓ : Loc nD τ sig) → Buf (Elt F) ℓ) (a1 : (pcfg1 (F := F)).Adm)

theorem W2_v6_0 (c : Dev nD) : W2 m c (Proc.devRef .tc main_v6_0) = (dat0 (U1 m) c).arrAt 6 cfg0.N := by
  unfold W2
  rw [Function.update_of_ne (StableHlo.devRef_ne_of_ne (by decide)), Function.update_self]

theorem W2_v6_1 (c : Dev nD) : W2 m c (Proc.devRef .tc main_v6_1) = (dat0 (U1 m) c).arrAt 7 cfg0.N := by
  unfold W2
  rw [Function.update_self]

theorem W2_of_ne (c : Dev nD) (b : Ref sig .tc) (h0 : b ≠ main_v6_0) (h1 : b ≠ main_v6_1) :
    W2 m c (Proc.devRef .tc b) = W1 m c (Proc.devRef .tc b) := by
  unfold W2
  rw [Function.update_of_ne (StableHlo.devRef_ne_of_ne h1), Function.update_of_ne (StableHlo.devRef_ne_of_ne h0)]

set_option backward.isDefEq.respectTransparency.types false in
/-- THE FIRST REGION over the thread state: entered from every unscoped buffer at `W1`, left at `W2`. -/
def reg0 : Pipeline.RegionSeg (pcfgs (F := F)) (adm a1) (pdats m a1) () defs₀ 𝒱z Lz lvz 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ Lz lvz 0 fun _ _ => rfl
  pre c := iprop(StableHlo.held (c : Thread nD τ) (Pipeline.ucRefs τ sig) (W1 m c) ∗ Rz c)
  post c := iprop(StableHlo.held (c : Thread nD τ) (Pipeline.ucRefs τ sig) (W2 m c) ∗ Rz c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsp : (StableHlo.held (c : Thread nD τ) (Pipeline.ucRefs τ sig) (W1 m c) : sProp 𝕄)
        ⊢ iprop((dat0 (U1 m) c).arrays ((dat0 (U1 m) c).arrAt · 0) ∗ Pipeline.unscopedRest spec0 c (U1 m c)) := by
      rw [← Pipeline.unscopedBufs_held c (W1 m c), unscopedBufs_split0]
      exact sep_mono (hsplit0 (U1 m) c) .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a1 0 c).Φ 0 = Phi0 (U1 m) c 0 from rfl]
    iintro ⟨Hp, -, Hr⟩
    iapply (hin0 (U1 m) c)
    isplitl [Hp]; · iexact Hp
    iexact Hr
  hout c := by
    rw [Pipeline.ownSems0_none, show (pdats m a1 0 c).Φ (Fin.last _) = Phi0 (U1 m) c cfg0.N from rfl]
    iintro H
    ihave H' := (hout0 (U1 m) c cfg0.N) $$ H
    icases H' with ⟨Hp, Hr⟩
    isplitl [Hp]; · iexact Hp
    isplitr; · iempintro
    iexact Hr
  hexit c := by
    have hj := hjoin0 (U1 m) c (fun b => W2 m c b) (W2_v6_0 m c) (W2_v6_1 m c) (fun b h0 h1 => W2_of_ne m c b h0 h1)
    rw [Pipeline.unscopedBufs_held] at hj
    iintro ⟨Ha, HO, HY, Hrest⟩
    imodintro
    isplitl [Ha Hrest]
    · iapply hj; isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.KB.Oblig1.lean ====
import proofs.«401359_j57629871178315_3_alg».proof.Proof.Gen.Kernel.Launch
import proofs.«401359_j57629871178315_3_alg».proof.Proof.Gen.Kernel.Skeleton
import proofs.«401359_j57629871178315_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KB.Body1
import proofs.«401359_j57629871178315_3_alg».proof.Proof.KB.Data1

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's body obligation

At every grid point the body, handed the permutation table at its admissible contents, each input window's staging
buffer at its block, the output window's buffer at whatever it holds and the accumulator at what the point before
left, returns the table and the inputs as they were, the accumulator advanced by the point, and the output at the
accumulator where the point stores it (last column tile); where the point stores nothing into the output window
it does not write the window back either, and the buffer goes back as it was found. The table's contents stay a
variable throughout: every fact about the schedule is a fact about the grid alone. -/

variable (V : (c : Dev nD) → (b : Ref sig .tc) → Buf (Elt F) ((c : Thread nD τ).loc b))
variable (a : (pcfg1 (F := F)).Adm)

/-! ## What the body finds in the input windows' buffers

An input window's buffer holds its block at every point, fetched there or not: unfetched, the block index has
not moved since the point before. -/

theorem before1_0 (c : Dev nD) (t : Fin (cfg1 a).N) (d) : (dat1 V a c).before 0 t d = iblk1 V a c 0 t :=
  ((dat1 V a c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin (cfg1 a).N) (d) : (dat1 V a c).before 1 t d = iblk1 V a c 1 t :=
  ((dat1 V a c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin (cfg1 a).N) (d) : (dat1 V a c).before 2 t d = iblk1 V a c 2 t :=
  ((dat1 V a c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

theorem before1_3 (c : Dev nD) (t : Fin (cfg1 a).N) (d) : (dat1 V a c).before 3 t d = iblk1 V a c 3 t :=
  ((dat1 V a c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

theorem before1_4 (c : Dev nD) (t : Fin (cfg1 a).N) (d) : (dat1 V a c).before 4 t d = iblk1 V a c 4 t :=
  ((dat1 V a c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## Where the output window is idle, and that it is not written back there -/

theorem liveAt1_0 (i : (cfg1 a).grid.Coords) : (cfg1 a).idle 0 i = false := rfl
theorem liveAt1_1 (i : (cfg1 a).grid.Coords) : (cfg1 a).idle 1 i = false := rfl
theorem liveAt1_2 (i : (cfg1 a).grid.Coords) : (cfg1 a).idle 2 i = false := rfl
theorem liveAt1_3 (i : (cfg1 a).grid.Coords) : (cfg1 a).idle 3 i = false := rfl
theorem liveAt1_4 (i : (cfg1 a).grid.Coords) : (cfg1 a).idle 4 i = false := rfl

theorem idleAt1_5 (i : (cfg1 a).grid.Coords) (h : ¬ k1_cond3 i = 1#1) : (cfg1 a).idle 5 i = true := by
  show (!(k1_cond3 i == 1#1)) = true
  simp [h]

theorem liveAt1_5 (i : (cfg1 a).grid.Coords) (h : k1_cond3 i = 1#1) : (cfg1 a).idle 5 i = false := by
  show (!(k1_cond3 i == 1#1)) = false
  simp [h]

/-- Off the last column tile the next point exists and lies in the same grid row: a fact of the grid alone. -/
theorem row_next1 : ∀ t : Fin grid1.N, ¬ k1_cond3 (grid1.coords t) = 1#1 →
    ∃ h : t.val + 1 < grid1.N, (grid1.coords ⟨t.val + 1, h⟩) 0 = (grid1.coords t) 0 := by
  decide +kernel

/-- The output window is written back only at the last column tile: its block index reads the grid row only
    (whatever word the table holds there), and off the last column tile the next point is in the same row. -/
theorem noFlush1_5 (t : Fin (cfg1 a).N) (h : ¬ k1_cond3 ((cfg1 a).grid.coords t) = 1#1) : ((cfg1 a).win 5).flush t = false := by
  obtain ⟨hlt, hrow⟩ := row_next1 t h
  have hidx : ((cfg1 a).win 5).index ⟨t.val + 1, hlt⟩ = ((cfg1 a).win 5).index t :=
    ((cfg1 a).win 5).hreads _ _ (fun ax hax => by
      have key : ∀ ax : Fin 2, reads1_5 ax = true → (grid1.coords ⟨t.val + 1, hlt⟩) ax = (grid1.coords t) ax := by
        intro ax hax; fin_cases ax
        · exact hrow
        · exact absurd hax (by decide)
      exact key ax hax)
  have h1 : ¬ (t.val + 1 = (cfg1 a).grid.N) := Nat.ne_of_lt hlt
  have h2 : ¬ (∃ h : t.val + 1 < (cfg1 a).grid.N, ((cfg1 a).win 5).index ⟨t.val + 1, h⟩ ≠ ((cfg1 a).win 5).index t) :=
    fun ⟨_, hne⟩ => hne hidx
  unfold Window.flush
  rw [decide_eq_false h1, decide_eq_false h2, Bool.or_false, Bool.and_false]

/-- The first point is at column tile 0: it resets the accumulator. -/
theorem cond1_zero1 : ∀ t : Fin grid1.N, t.val = 0 → k1_cond1 (grid1.coords t) = 1#1 := by
  decide +kernel

/-! ## The accumulator's step -/

/-- Where the point resets the accumulator, what it held before does not matter. -/
theorem hAccOut_of_cond1 (i : grid1.Coords) (h : k1_cond1 i = 1#1) (tbl : Vec F S4 .i32) (x3 : Vec F S1024x1024 .f32) (x4 : Vec F S1024x1 .i32)
    (x5 : Vec F S1x1024 .i32) (x6 : Vec F S1024x1 .f32) (x7 : Vec F S1x1024 .f32) (s s' : Vec F S1024x1 .f32) :
    hAccOut i tbl x3 x4 x5 x6 x7 s = hAccOut i tbl x3 x4 x5 x6 x7 s' := by
  unfold hAccOut hAccIn
  simp only [if_pos h]

/-- From what the invariant says of the accumulator before point `t`, the body leaves the accumulation's value at `t`. -/
theorem hAccOut_eq_acc1 (c : Dev nD) (t : Fin (cfg1 a).N) (s : Vec F S1024x1 .f32) (hs : t.val ≠ 0 → s = accBefore1 V a c t.val) :
    hAccOut ((cfg1 a).grid.coords t) (tblOf a c) (iblk1 V a c 0 t) (iblk1 V a c 1 t) (iblk1 V a c 2 t) (iblk1 V a c 3 t) (iblk1 V a c 4 t) s = acc1 V a c t.val := by
  rw [acc1_eq]
  by_cases hz : t.val = 0
  · exact hAccOut_of_cond1 _ (cond1_zero1 t hz) _ _ _ _ _ _ _ _
  · rw [hs hz]

/-! ## The table, as the body is handed it -/

/-- The pipeline holds the one prefetched table whole at its admissible contents: that is owning the table's
    buffer, as a memref, at those contents read through its whole view. -/
theorem tblHeld_eq (c : Dev nD) :
    (Pipeline.prefHeld pre1 c (fun _ => fullShare) a.1 : sProp 𝕄) = owns (c : Thread nD τ) (Memref.whole main_c) fullShare (tblOf a c) := by
  unfold Pipeline.prefHeld tblOf
  rw [show (Finset.univ : Finset (Fin pre1.K)) = {(0 : Fin 1)} from by decide, bigSep_singleton]
  simp only [Memref.view_whole, View.read_whole]
  exact (owns_whole (c : Thread nD τ) main_c fullShare (a.1 0)).symm

/-! ## The staging memrefs at a point, and the body as the pipeline calls it there -/

abbrev st1_0 (t : Fin (cfg1 a).N) : Memref sig .tc .vmem S1024x1024 .f32 := spec1_0.stage ((cfg1 a).slots t 0)
abbrev hst1_0 (t : Fin (cfg1 a).N) : (st1_0 a t).IsWhole := hstage1_0 (((cfg1 a).slots t 0).cast nbuf1_0)
abbrev st1_1 (t : Fin (cfg1 a).N) : Memref sig .tc .vmem S1024x1 .i32 := spec1_1.stage ((cfg1 a).slots t 1)
abbrev hst1_1 (t : Fin (cfg1 a).N) : (st1_1 a t).IsWhole := hstage1_1 (((cfg1 a).slots t 1).cast nbuf1_1)
abbrev st1_2 (t : Fin (cfg1 a).N) : Memref sig .tc .vmem S1x1024 .i32 := spec1_2.stage ((cfg1 a).slots t 2)
abbrev hst1_2 (t : Fin (cfg1 a).N) : (st1_2 a t).IsWhole := hstage1_2 (((cfg1 a).slots t 2).cast nbuf1_2)
abbrev st1_3 (t : Fin (cfg1 a).N) : Memref sig .tc .vmem S1024x1 .f32 := spec1_3.stage ((cfg1 a).slots t 3)
abbrev hst1_3 (t : Fin (cfg1 a).N) : (st1_3 a t).IsWhole := hstage1_3 (((cfg1 a).slots t 3).cast nbuf1_3)
abbrev st1_4 (t : Fin (cfg1 a).N) : Memref sig .tc .vmem S1x1024 .f32 := spec1_4.stage ((cfg1 a).slots t 4)
abbrev hst1_4 (t : Fin (cfg1 a).N) : (st1_4 a t).IsWhole := hstage1_4 (((cfg1 a).slots t 4).cast nbuf1_4)
abbrev st1_5 (t : Fin (cfg1 a).N) : Memref sig .tc .vmem S1024x1 .f32 := spec1_5.stage ((cfg1 a).slots t 5)
abbrev hst1_5 (t : Fin (cfg1 a).N) : (st1_5 a t).IsWhole := hstage1_5 (((cfg1 a).slots t 5).cast nbuf1_5)

/-- The kernel body at point `t`, on what the pipeline calls it with (the body table's row at the slots). -/
abbrev bodyAt1 (t : Fin (cfg1 a).N) : Prog (TpuEff nD τ sig (Elt F) Λ₀ .tc) PUnit :=
  cc1__hinge_kernel ((cfg1 a).grid.coords t) (Memref.whole main_c) (Memref.isWhole_whole _) (st1_0 a t) (hst1_0 a t) (st1_1 a t) (hst1_1 a t) (st1_2 a t) (hst1_2 a t) (st1_3 a t) (hst1_3 a t) (st1_4 a t) (hst1_4 a t) (st1_5 a t) (hst1_5 a t) (Memref.whole cc1_scratch0) (Memref.isWhole_whole _)

/-! ## The output window's post -/

/-- The output window: at the accumulation's value where the point stores it, else back as found. -/
theorem leaves1_5 (c : Dev nD) (t : Fin (cfg1 a).N) (d5 : ((cfg1 a).win 5).block.Idx → Elt F ((cfg1 a).win 5).elt) (s : Vec F S1024x1 .f32)
    (hs : t.val ≠ 0 → s = accBefore1 V a c t.val) :
    owns (c : Thread nD τ) (st1_5 a t) fullShare
        (if k1_cond3 ((cfg1 a).grid.coords t) = 1#1 then hAccOut ((cfg1 a).grid.coords t) (tblOf a c) (iblk1 V a c 0 t) (iblk1 V a c 1 t) (iblk1 V a c 2 t) (iblk1 V a c 3 t) (iblk1 V a c 4 t) s
          else ((dat1 V a c).before 5 t d5 : Vec F S1024x1 .f32))
      ⊢ ((dat1 V a c).leavesExact 5 t : sProp 𝕄) := by
  by_cases h3 : k1_cond3 ((cfg1 a).grid.coords t) = 1#1
  · rw [show (dat1 V a c).leavesExact 5 t = owns (c : Thread nD τ) (st1_5 a t) fullShare ((dat1 V a c).after 5 t) from (by
      unfold Dat.leavesExact; rw [liveAt1_5 a _ h3]; rfl), after1_5]
    exact Entails.of_eq (congrArg _ ((if_pos h3).trans (hAccOut_eq_acc1 V a c t s hs)))
  · refine (Entails.of_eq (congrArg _ (if_neg h3))).trans ?_
    rw [Dat.leavesExact_idle (dat1 V a c) 5 t (idleAt1_5 a _ h3) (noFlush1_5 a t h3)]
    iintro H; iexists d5; iexact H

/-! ## The body obligation, at a generic point -/

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d))
    ∗ (∃ d, owns (c : Thread nD τ) (st1_3 a t) fullShare ((dat1 V a c).before 3 t d))
    ∗ (∃ d, owns (c : Thread nD τ) (st1_4 a t) fullShare ((dat1 V a c).before 4 t d))
    ∗ (∃ d, owns (c : Thread nD τ) (st1_5 a t) fullShare ((dat1 V a c).before 5 t d)))

/-- and what it returns. -/
def bodyPost1 (c : Dev nD) (t : Fin (cfg1 a).N) : sProp 𝕄 :=
  iprop((dat1 V a c).Φ t.succ ∗ (dat1 V a c).owesAt () t.succ
    ∗ (dat1 V a c).leavesExact 0 t
    ∗ (dat1 V a c).leavesExact 1 t
    ∗ (dat1 V a c).leavesExact 2 t
    ∗ (dat1 V a c).leavesExact 3 t
    ∗ (dat1 V a c).leavesExact 4 t
    ∗ (dat1 V a c).leavesExact 5 t)

set_option maxHeartbeats 4000000 in
/-- The body at any point: the inputs' buffers hold their blocks, the invariant hands over the table at its
    admissible contents and the accumulator at what the point before left (at anything before the first point,
    which resets it), so the body's triple applies; the other scoped buffers, the generator register and what the
    core owes pass through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0 V a c, before1_1 V a c, before1_2 V a c, before1_3 V a c, before1_4 V a c]
  rw [show (dat1 V a c).owesAt () t.succ = (dat1 V a c).owesAt () t.castSucc from rfl]
  rw [Phi1_eq, Phi1_eq]
  simp only [Fin.coe_castSucc, Fin.val_succ]
  unfold Phi1
  rw [tblHeld_eq]
  rw [show (dat1 V a c).leavesExact 0 t = owns (c : Thread nD τ) (st1_0 a t) fullShare ((dat1 V a c).after 0 t) from (by
    unfold Dat.leavesExact; rw [liveAt1_0 a _]; rfl), after1_0]
  rw [show (dat1 V a c).leavesExact 1 t = owns (c : Thread nD τ) (st1_1 a t) fullShare ((dat1 V a c).after 1 t) from (by
    unfold Dat.leavesExact; rw [liveAt1_1 a _]; rfl), after1_1]
  rw [show (dat1 V a c).leavesExact 2 t = owns (c : Thread nD τ) (st1_2 a t) fullShare ((dat1 V a c).after 2 t) from (by
    unfold Dat.leavesExact; rw [liveAt1_2 a _]; rfl), after1_2]
  rw [show (dat1 V a c).leavesExact 3 t = owns (c : Thread nD τ) (st1_3 a t) fullShare ((dat1 V a c).after 3 t) from (by
    unfold Dat.leavesExact; rw [liveAt1_3 a _]; rfl), after1_3]
  rw [show (dat1 V a c).leavesExact 4 t = owns (c : Thread nD τ) (st1_4 a t) fullShare ((dat1 V a c).after 4 t) from (by
    unfold Dat.leavesExact; rw [liveAt1_4 a _]; rfl), after1_4]
  iintro ⟨⟨HT, ⟨%s, %hs, HS⟩, Hrest, Hg⟩, Ho, ⟨%d0, H0⟩, ⟨%d1, H1⟩, ⟨%d2, H2⟩, ⟨%d3, H3⟩, ⟨%d4, H4⟩, ⟨%d5, H5⟩⟩
  iapply (sound_kernel1 c Set.univ ((cfg1 a).grid.coords t) _ _ _ _ _ _ _ _ _ _ _ _ _ _ _ _
    (tblOf a c) (iblk1 V a c 0 t) (iblk1 V a c 1 t) (iblk1 V a c 2 t) (iblk1 V a c 3 t) (iblk1 V a c 4 t)
    ((dat1 V a c).before 5 t d5) s _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨HT, H0, H1, H2, H3, H4, H5, HS⟩
  isplitl [HT HS Hrest Hg]
  · isplitl [HT]; · iexact HT
    isplitl [HS]
    · iexists _; isplitr
      swap; · iexact HS
      ipureintro; intro _
      exact hAccOut_eq_acc1 V a c t s hs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  iapply (leaves1_5 V a c t d5 s hs); iexact H5

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Cert.Kernel.Hand

end
-- ==== Proof.KB.Reg1.lean ====
import proofs.«401359_j57629871178315_3_alg».proof.Proof.Gen.Kernel.Launch
import proofs.«401359_j57629871178315_3_alg».proof.Proof.Gen.Kernel.Skeleton
import proofs.«401359_j57629871178315_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KB.Launch
import proofs.«401359_j57629871178315_3_alg».proof.Proof.KB.Oblig1

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region among @main's segments

Entered from every unscoped buffer held at the valuation after the reshape between the regions, left at that
valuation updated at the result array. The permutation table is an unscoped buffer that is no window's array: it
goes into the region's invariant whole, at its admissible contents, and comes back out of it unchanged; the carried
accumulator is a scoped buffer no window stages: the invariant takes it at anything and gives it back forgotten. -/

variable (V : (c : Dev nD) → (b : Ref sig .tc) → Buf (Elt F) ((c : Thread nD τ).loc b))
variable (a : (pcfg1 (F := F)).Adm)

/-- The invariant before the first point, from what the region hands it: the generator register, the table at its
    admissible contents, and the scoped buffers no window stages (the accumulator among them, at anything). -/
theorem hin1 (c : Dev nD) :
    iprop((∃ r, prngReg c r) ∗ Pipeline.prefHeld pre1 c (fun _ => fullShare) a.1
        ∗ Pipeline.scopedRest (Ix := Unit) (Name := ℕ) (U := UR sig nD τ) (Lvl := ℕ) (Val := Elt F) spec1 c) ⊢ (Phi1 V a c 0 : sProp 𝕄) := by
  rw [scopedRest1_eq]
  unfold Phi1 rest1
  iintro ⟨Hp, HT, R0, R1, R2, R3, R4, R5, R6, R7, R8, R9, R10, R11, R12, R13, ⟨%f, Hs⟩⟩
  isplitl [HT]; · iexact HT
  isplitl [Hs]
  · iexists (Memref.whole cc1_scratch0 : Memref sig .tc .vmem S1024x1 .f32).view.read (Elt F) f
    isplitr
    · ipureintro; intro h; exact absurd rfl h
    unfold owns
    iexists f
    isplitr
    · ipureintro; rfl
    rw [(Memref.isWhole_whole (cc1_scratch0 : Ref sig .tc)).set_eq_univ]
    iexact Hs
  isplitl [R0 R1 R2 R3 R4 R5 R6 R7 R8 R9 R10 R11 R12 R13]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  iexact Hp

/-- The invariant after any point gives those back, the accumulator's contents forgotten. -/
theorem hout1 (c : Dev nD) (n : ℕ) :
    (Phi1 V a c n : sProp 𝕄) ⊢ iprop(iprop(Pipeline.prefHeld pre1 c (fun _ => fullShare) a.1 ∗ ∃ r, prngReg c r)
        ∗ Pipeline.scopedRest (Ix := Unit) (Name := ℕ) (U := UR sig nD τ) (Lvl := ℕ) (Val := Elt F) spec1 c) := by
  rw [scopedRest1_eq]
  unfold Phi1 rest1
  iintro ⟨HT, ⟨%s, -, Hs⟩, ⟨R0, R1, R2, R3, R4, R5, R6, R7, R8, R9, R10, R11, R12, R13⟩, Hp⟩
  isplitl [HT Hp]
  · isplitl [HT]; · iexact HT
    iexact Hp
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  unfold owns
  icases Hs with ⟨%f, -, Hs⟩
  iexists f
  rw [(Memref.isWhole_whole (cc1_scratch0 : Ref sig .tc)).set_eq_univ]
  iexact Hs

/-! ## The valuation after the region -/

variable (m : (ℓ : Loc nD τ sig) → Buf (Elt F) ℓ) (a1 : (pcfg1 (F := F)).Adm)

theorem W4_v8 (c : Dev nD) : W4 m a1 c (Proc.devRef .tc main_v8) = (dat1 (U3 m) a1 c).arrAt 5 (cfg1 a1).N := by
  unfold W4
  exact Function.update_self ..

theorem W4_of_ne (c : Dev nD) (b : Ref sig .tc) (h : b ≠ main_v8) :
    W4 m a1 c (Proc.devRef .tc b) = W3 m c (Proc.devRef .tc b) := by
  unfold W4
  exact Function.update_of_ne (StableHlo.devRef_ne_of_ne h) ..

/-- At the region's exit each of its arrays holds what the pipeline leaves: an input as entered, the output its
    write-backs folded. -/
theorem hF1 (c : Dev nD) (w : Fin (cfg1 a1).W) :
    (dat1 (U3 m) a1 c).arrAt w (cfg1 a1).N = W4 m a1 c (Proc.devRef .tc (Pipeline.arrRef spec1 w)) := by
  have hi : ∀ w' : Fin (cfg1 a1).W, ((cfg1 a1).win w').isOut = false → Pipeline.arrRef spec1 w' ≠ main_v8 →
      (dat1 (U3 m) a1 c).arrAt w' (cfg1 a1).N = W4 m a1 c (Proc.devRef .tc (Pipeline.arrRef spec1 w')) := fun w' ho hne => by
    rw [(dat1 (U3 m) a1 c).arrAt_in w' ho, A_eq1, W4_of_ne m a1 c _ hne]
  match w with
  | ⟨0, _⟩ => exact hi (0 : Fin 6) rfl (by decide)
  | ⟨1, _⟩ => exact hi (1 : Fin 6) rfl (by decide)
  | ⟨2, _⟩ => exact hi (2 : Fin 6) rfl (by decide)
  | ⟨3, _⟩ => exact hi (3 : Fin 6) rfl (by decide)
  | ⟨4, _⟩ => exact hi (4 : Fin 6) rfl (by decide)
  | ⟨5, _⟩ => exact (W4_v8 m a1 c).symm

/-- Every other buffer holds what it held at entry. -/
theorem hrest1 (c : Dev nD) (b : Ref sig .tc) (hb : b ∉ Finset.univ.image (Pipeline.arrRef spec1)) :
    W4 m a1 c (Proc.devRef .tc b) = U3 m c b :=
  W4_of_ne m a1 c b fun e => hb (Finset.mem_image.mpr ⟨(5 : Fin 6), Finset.mem_univ _, e.symm⟩)

/-! ## The record -/

set_option backward.isDefEq.respectTransparency.types false in
/-- THE SECOND REGION over the thread state: entered from every unscoped buffer at `W3`, left at `W4`; the table's
    admissible contents are what the entry valuation holds at the table's buffer (`ha1`). -/
def reg1 (ha1 : ∀ c : Dev nD, a1.1 = fun k => U3 m c (pre1.ref k)) :
    Pipeline.RegionSeg (pcfgs (F := F)) (adm a1) (pdats m a1) () defs₀ 𝒱z Lz lvz 1 where
  win := winFacts1.to₀
  block_pos := block_pos1
  stage_whole := stage_whole1
  K := PEmpty
  osem k := k.elim
  ho := Pipeline.OwnSemFacts.none _
  hbody c := (body_obligation1 (U3 m) a1 c).loose
  hwaits := Pipeline.hwaits_of_owed_zero _ _ _ _ Lz lvz 1 fun _ _ => rfl
  pre c := iprop(StableHlo.held (c : Thread nD τ) (Pipeline.ucRefs τ sig) (W3 m c) ∗ Rz c)
  post c := iprop(StableHlo.held (c : Thread nD τ) (Pipeline.ucRefs τ sig) (W4 m a1 c) ∗ Rz c)
  X c := iprop(∃ r, prngReg c r)
  Y c := iprop(Pipeline.prefHeld pre1 c (fun _ => fullShare) a1.1 ∗ ∃ r, prngReg c r)
  Z c := Pipeline.unscopedRestP (Ix := Unit) (Name := ℕ) (U := UR sig nD τ) (Lvl := ℕ) pre1 spec1 c (U3 m c)
  hentry c := by
    rw [Pipeline.ownSems0_none]
    have hsplit : (StableHlo.held (c : Thread nD τ) (Pipeline.ucRefs τ sig) (W3 m c) : sProp 𝕄)
        ⊢ iprop((dat1 (U3 m) a1 c).arrays ((dat1 (U3 m) a1 c).arrAt · 0)
          ∗ Pipeline.prefHeld pre1 c (fun _ => fullShare) a1.1 ∗ Pipeline.unscopedRestP pre1 spec1 c (U3 m c)) := by
      rw [← Pipeline.unscopedBufs_held c (W3 m c), ha1 c, ← Pipeline.unscopedRest_split preFacts1 c (U3 m c)]
      exact Pipeline.arrays_of_unscopedBufs (p := 1) (pcfgs (F := F)) (adm a1) (pdats m a1) winFacts1 arr_whole1 c
        ((pdats m a1 1 c).share_full fun _ => rfl) (U3 m c) fun _ => rfl
    iintro ⟨⟨Hub, Hp, HO⟩, -, -⟩
    ihave H := hsplit $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a1 1 c).Φ 0 = Phi1 (U3 m) a1 c 0 from rfl]
    exact hin1 (U3 m) a1 c
  hout c := by
    rw [Pipeline.ownSems0_none, show (pdats m a1 1 c).Φ (Fin.last _) = Phi1 (U3 m) a1 c (cfg1 a1).N from rfl]
    iintro H
    ihave H' := (hout1 (U3 m) a1 c (cfg1 a1).N) $$ H
    icases H' with ⟨HY, Hr⟩
    isplitl [HY]; · iexact HY
    isplitr; · iempintro
    iexact Hr
  hexit c := by
    have hjoin : iprop((dat1 (U3 m) a1 c).arrays ((dat1 (U3 m) a1 c).arrAt · (cfg1 a1).N)
          ∗ Pipeline.prefHeld pre1 c (fun _ => fullShare) a1.1 ∗ Pipeline.unscopedRestP pre1 spec1 c (U3 m c))
        ⊢ (StableHlo.held (c : Thread nD τ) (Pipeline.ucRefs τ sig) (W4 m a1 c) : sProp 𝕄) := by
      rw [← Pipeline.unscopedBufs_held c (W4 m a1 c), ha1 c, ← Pipeline.unscopedRest_split preFacts1 c (U3 m c)]
      exact Pipeline.unscopedBufs_of_arrays (p := 1) (pcfgs (F := F)) (adm a1) (Ix := Unit) (Name := ℕ) (U := UR sig nD τ) (Lvl := ℕ)
        winFacts1 arr_whole1 c (pdats m a1) ((pdats m a1 1 c).share_full fun _ => rfl)
        (U3 m c) (fun b => W4 m a1 c b) ((pdats m a1 1 c).arrAt · (cfg1 a1).N) (hF1 m a1 c) (hrest1 m a1 c)
    iintro ⟨Ha, HO, ⟨HT, Hp⟩, Hrest⟩
    imodintro
    isplitl [Ha HT Hrest]
    · iapply hjoin
      isplitl [Ha]; · iexact Ha
      isplitl [HT]; · iexact HT
      iexact Hrest
    isplitl [Hp]; · iexact Hp
    unfold Pipeline.Dat.owesAt Pipeline.owesWithin
    icases HO with ⟨%W, -, HO⟩; iexists W; iexact HO

end Cert.Kernel.Hand

end
-- ==== Proof.KB.Run.lean ====
import proofs.«401359_j57629871178315_3_alg».proof.Proof.Gen.Kernel.Launch
import proofs.«401359_j57629871178315_3_alg».proof.Proof.Gen.Kernel.Skeleton
import proofs.«401359_j57629871178315_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KB.Reg0
import proofs.«401359_j57629871178315_3_alg».proof.Proof.KB.Reg1

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a1 : (pcfg1 (F := F)).Adm)

/-! # The run of @main

@main as seven segments — the first host stretch, the first region, the reshape between the regions, the second
region, the three stretches of the host tail — composed by the library's launch theorem for several regions: each segment is entered from what the one
before it left, the thread state being every unscoped buffer at the fold's valuation beside the generator register and
the core owing nothing. -/

/-- A host stretch as a segment: the unscoped references from the contents `W`, `Rz` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱z Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rz

variable (R1 : Pipeline.RegionSeg (pcfgs (F := F)) (adm a1) (pdats m a1) () defs₀ 𝒱z Lz lvz 1)

/-- @main's seven segments in order. -/
abbrev segs : List (Pipeline.Seg (pcfgs (F := F)) (adm a1) (pdats m a1) () defs₀ 𝒱z Lz lvz) :=
  [ .host (hseg hostOps0 hostOps0_sub hostOps0_fresh (W0 m)),
    .region (reg0 m a1),
    .host (hseg hostOps1 hostOps1_sub hostOps1_fresh (W2 m)),
    .region R1,
    .host (hseg hostOps2 hostOps2_sub hostOps2_fresh (W4 m a1)),
    .host (hseg hostOps2_1 hostOps2_1_sub hostOps2_1_fresh (W5 m a1)),
    .host (hseg hostOps2_2 hostOps2_2_sub hostOps2_2_fresh (W6 m a1)) ]

set_option backward.isDefEq.respectTransparency.types false in
/-- THE RUN: every weakly fair execution of @main terminates, and every final memory holds each unscoped buffer at
    the last valuation of the fold. -/
theorem run_main_of
    (hpre1 : ∀ c : Dev nD, R1.pre c = iprop(StableHlo.held (c : Thread nD τ) (Pipeline.ucRefs τ sig) (W3 m c) ∗ Rz c))
    (hpost1 : ∀ c : Dev nD, R1.post c = iprop(StableHlo.held (c : Thread nD τ) (Pipeline.ucRefs τ sig) (W4 m a1 c) ∗ Rz c)) :
    θ_run defs (onTc (τ := τ) (main (F := F))) ⟨m, fun _ => 0, ρ⟩ (fun r => ∀ c : Dev nD,
      ∀ b ∈ Pipeline.ucRefs τ sig, r.2.mem (((c : Thread nD τ)).1, b) = W7 m a1 c b) :=
  Pipeline.θ_run_regions_kit (pcfgs (F := F)) (adm a1) (pdats m a1) () (cellOf_inj (adm a1)) emb₁ defs₀ 𝒱z Lz lvz m ρ main (segs m a1 R1)
    (fun c Q => by
      rewrite [main_chain c, Pipeline.Seg.run_eq_chain,
        show (segs m a1 R1).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a1)) (cellOf_inj (adm a1))) (Pipeline.launchToks (Pipeline.pin (pcfgs (F := F)) (adm a1)) (cellOf_inj (adm a1))))
    (hu₀ := by
      iintro Hu; imodintro
      isplitl [Hu]
      · iapply (show (ownU (initOf (Pipeline.cells (Pipeline.pin (pcfgs (F := F)) (adm a1)) (cellOf_inj (adm a1))) (Pipeline.launchToks (Pipeline.pin (pcfgs (F := F)) (adm a1)) (cellOf_inj (adm a1)))) : sProp 𝕄)
            ⊢ BI.own (emb₁ (initOf (Pipeline.cells (Pipeline.pin (pcfgs (F := F)) (adm a1)) (cellOf_inj (adm a1))) (Pipeline.launchToks (Pipeline.pin (pcfgs (F := F)) (adm a1)) (cellOf_inj (adm a1))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rz c))
    (Tₙ := fun c => iprop(StableHlo.held (c : Thread nD τ) (Pipeline.ucRefs τ sig) (W7 m a1 c) ∗ ∃ r, prngReg c r))
    (hch := ⟨fun _ => .rfl, fun _ => .rfl, fun _ => .rfl, fun c => Entails.of_eq (hpre1 c).symm, fun c => Entails.of_eq (hpost1 c), fun _ => .rfl, fun _ => .rfl, fun c => sep_assoc'⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m a1 c b)
    (hfin := fun c s' => by
      iintro ⟨⟨Hh, -⟩, HSI⟩
      unfold StableHlo.held
      imodintro
      iapply (pointsTo_read_all (Pipeline.ucRefs τ sig) (fun b => (((c : Thread nD τ)).1, b)) (W7 m a1 c) s')
      isplitl [Hh] <;> iassumption)
    (hQ := fun s h c => h c)

/-- THE RUN at the second region's record: for table contents that are what the table buffer holds when that region
    is entered. -/
theorem run_main (ha1 : ∀ c : Dev nD, a1.1 = fun k => U3 m c (pre1.ref k)) :
    θ_run defs (onTc (τ := τ) (main (F := F))) ⟨m, fun _ => 0, ρ⟩ (fun r => ∀ c : Dev nD,
      ∀ b ∈ Pipeline.ucRefs τ sig, r.2.mem (((c : Thread nD τ)).1, b) = W7 m a1 c b) :=
  run_main_of m ρ a1 (reg1 m a1 ha1) (fun _ => rfl) (fun _ => rfl)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.KB.Table.lean ====
import proofs.«401359_j57629871178315_3_alg».proof.Proof.Gen.Kernel.Launch
import proofs.«401359_j57629871178315_3_alg».proof.Proof.Gen.Kernel.Skeleton
import proofs.«401359_j57629871178315_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import proofs.«401359_j57629871178315_3_alg».proof.Proof.KB.Body1
import proofs.«401359_j57629871178315_3_alg».proof.Proof.KB.Data1

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The permutation table's words as admissible contents

The second region's index maps read a table of four words, `[0, 3, 1, 2]`. Each word is at most 3, and so is its
signed maximum with a column tile below 4, so every block the maps name lies inside its array at every grid point:
the table's words are admissible contents. Read through the table buffer's whole view they are the words
themselves, and the body's row word at a grid point is the table's word at the logical row tile. -/

/-- The permutation table's words as the table's contents. -/
def tblLit : pre1.Contents (Elt F) := fun k => match k with | ⟨0, _⟩ => fun i => lit0 (S4.rowMajor i)

theorem tbl_word (i : grid1.Coords) :
    (tblLit (F := F)).at 0 (Rect.unit (s := S4) (k1_off1 i) S1.size (Facts₀.k1_off1_inb i)) Facts₀.numel1_S1
      = lit0 ⟨(i 0).val, (i 0).isLt⟩ := by
  have e : (tblLit (F := F)).at 0 (Rect.unit (s := S4) (k1_off1 i) S1.size (Facts₀.k1_off1_inb i)) Facts₀.numel1_S1
      = lit0 (S4.rowMajor ((Rect.unit (s := S4) (k1_off1 i) S1.size (Facts₀.k1_off1_inb i)).emb
          (Shape.Idx.first (Facts₀.numel1_S1.symm ▸ Nat.one_pos)))) := rfl
  rw [e]
  congr 1
  apply Fin.ext
  rw [Shape.rowMajor_val_one, Rect.emb_apply]
  have h4 : (i 0).val < 4 := (i 0).isLt
  show (BitVec.ofNat 32 (i 0).val).toNat + 1 * 0 = (i 0).val
  rw [BitVec.toNat_ofNat, Nat.mod_eq_of_lt (by omega)]
  omega

/-- Every word of the table is at most 3, and so is its signed maximum with a column tile: the blocks they name lie
    inside their arrays. -/
theorem bound_sq (p q : Fin 4) (a : Fin 2) :
    (![(lit0 p).toNat, (Scalar.maxsi (lit0 p) (BitVec.ofNat 32 q.val)).toNat] a + 1) * S1024x1024.size a
      ≤ S4096x4096.size a := by
  revert p q a; decide

theorem bound_col (p : Fin 4) (a : Fin 2) :
    (![(lit0 p).toNat, (0#32 : BitVec 32).toNat] a + 1) * S1024x1.size a ≤ S4096x1.size a := by
  revert p a; decide

theorem ok_tblLit : ok1 (F := F) (tblLit (F := F)) := by
  unfold ok1
  refine ⟨fun i => ⟨?_, Or.inl rfl⟩, fun i => ⟨?_, Or.inl rfl⟩, fun i => ⟨?_, Or.inl rfl⟩, fun i => ⟨?_, Or.inl rfl⟩⟩
  · intro a
    unfold cc1_transform_0
    erw [tbl_word (F := F) i]
    exact bound_sq ⟨(i 0).val, (i 0).isLt⟩ ⟨(i 1).val, (i 1).isLt⟩ a
  · intro a
    unfold cc1_transform_1
    erw [tbl_word (F := F) i]
    exact bound_col ⟨(i 0).val, (i 0).isLt⟩ a
  · intro a
    unfold cc1_transform_3
    erw [tbl_word (F := F) i]
    exact bound_col ⟨(i 0).val, (i 0).isLt⟩ a
  · intro a
    unfold cc1_transform_5
    erw [tbl_word (F := F) i]
    exact bound_col ⟨(i 0).val, (i 0).isLt⟩ a

/-- The table's words as admissible contents of the second region. -/
def admLit : (pcfg1 (F := F)).Adm := ⟨tblLit, ok_tblLit⟩

theorem lit0_eq (k : Fin 4) : lit0 k = (![0#32, 3#32, 1#32, 2#32] : Fin 4 → BitVec 32) k := by
  revert k; decide

theorem tblOf_admLit (c : Dev nD) (k : Fin 4) :
    tblOf (admLit (F := F)) c (ValueIdx.ix1 k) = (![0#32, 3#32, 1#32, 2#32] : Fin 4 → BitVec 32) k := by
  have e : tblOf (admLit (F := F)) c (ValueIdx.ix1 k) = lit0 (S4.rowMajor (ValueIdx.ix1 k)) := rfl
  rw [e]
  have hk : S4.rowMajor (ValueIdx.ix1 k) = k := Fin.ext (by rw [Shape.rowMajor_val_one])
  rw [hk]
  exact lit0_eq k

theorem rowWord_admLit (c : Dev nD) (i : grid1.Coords) :
    rowWord i (tblOf (admLit (F := F)) c) = (![0#32, 3#32, 1#32, 2#32] : Fin 4 → BitVec 32) (i 0) := by
  have hidx : (rTbl i).idx (Shape.Idx.first (Facts₀.numel1_S1.symm ▸ Nat.one_pos))
      = ValueIdx.ix1 (⟨(i 0).val, (i 0).isLt⟩ : Fin 4) := by
    funext a
    have ha : a = 0 := Subsingleton.elim _ _
    subst ha
    apply Fin.ext
    have h4 : (i 0).val < 4 := (i 0).isLt
    show (BitVec.ofNat 32 (i 0).val).toNat + 1 * 0 = (i 0).val
    rw [BitVec.toNat_ofNat, Nat.mod_eq_of_lt (by omega)]
    omega
  have e : rowWord i (tblOf (admLit (F := F)) c)
      = tblOf (admLit (F := F)) c ((rTbl i).idx (Shape.Idx.first (Facts₀.numel1_S1.symm ▸ Nat.one_pos))) := rfl
  rw [e, hidx, tblOf_admLit]
  rfl

end Cert.Kernel.Hand
end
-- ==== Proof.KB.TableMem.lean ====
import proofs.«401359_j57629871178315_3_alg».proof.Proof.Gen.Kernel.Launch
import proofs.«401359_j57629871178315_3_alg».proof.Proof.Gen.Kernel.Skeleton
import proofs.«401359_j57629871178315_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KB.Launch
import proofs.«401359_j57629871178315_3_alg».proof.Proof.KB.Table

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The table buffer at the second region's entry

The table of four words is written by the first host operation; neither the first region, which writes its two
results, nor the reshape between the regions, which writes the row form of the row sums, touches it. So where the
second region is entered the table buffer holds the permutation's words: the memory's table is the literal one. -/

/-- The table buffer where the second region is entered holds the permutation table's words. -/
theorem U3_main_c (m : (ℓ : Loc nD τ sig) → Buf (Elt F) ℓ) (c : Dev nD) :
    U3 m c main_c = fun i => lit0 (S4.rowMajor i) := by
  show StableHlo.after hostOps1 (W2 m c) (Proc.devRef .tc main_c) = _
  rw [StableHlo.after_of_writes_sub hostOps1 _ hostOps1_writes (by decide : main_c ∉ hostOps1_W)]
  unfold W2
  rw [Function.update_of_ne (StableHlo.devRef_ne_of_ne (by decide : main_c ≠ main_v6_1)),
    Function.update_of_ne (StableHlo.devRef_ne_of_ne (by decide : main_c ≠ main_v6_0))]
  show StableHlo.after hostOps0 (W0 m c) (Proc.devRef .tc main_c) = _
  after_results <;> rfl

/-- The literal table is the family of table buffers' contents where the second region is entered. -/
theorem U3_table (m : (ℓ : Loc nD τ sig) → Buf (Elt F) ℓ) (c : Dev nD) :
    (admLit (F := F)).1 = fun k => U3 m c (pre1.ref k) := by
  funext k
  match k with
  | ⟨0, _⟩ => exact (U3_main_c m c).symm

end Cert.Kernel.Hand

end
-- ==== Proof.KB.ArgsKept.lean ====
import proofs.«401359_j57629871178315_3_alg».proof.Proof.Gen.Kernel.Launch
import proofs.«401359_j57629871178315_3_alg».proof.Proof.Gen.Kernel.Skeleton
import proofs.«401359_j57629871178315_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KB.Launch

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The two arguments reach the end as launched

No host stretch writes an argument array and no region may change one: through every boundary of the program the
embeddings and the labels are what the launch memory holds. -/

variable (m : (ℓ : Loc nD τ sig) → Buf (Elt F) ℓ) (a1 : (pcfg1 (F := F)).Adm) (c : Dev nD)

/-! ## What each item leaves unchanged -/

theorem W1_of (r : Ref sig .tc) (h : r ∉ hostOps0_W) : W1 m c (Proc.devRef .tc r) = W0 m c (Proc.devRef .tc r) :=
  StableHlo.after_of_writes_sub hostOps0 _ hostOps0_writes h
theorem W2_of (r : Ref sig .tc) (h : r ∉ ([main_v6_0, main_v6_1] : List (Ref sig .tc))) :
    W2 m c (Proc.devRef .tc r) = W1 m c (Proc.devRef .tc r) := by
  simp only [W2, Function.update_of_ne (StableHlo.devRef_ne_of_ne (List.ne_of_not_mem_cons h) : (Proc.devRef .tc r : DevRef τ sig) ≠ Proc.devRef .tc main_v6_0), Function.update_of_ne (StableHlo.devRef_ne_of_ne (List.ne_of_not_mem_cons (List.not_mem_of_not_mem_cons h)) : (Proc.devRef .tc r : DevRef τ sig) ≠ Proc.devRef .tc main_v6_1)]
theorem W3_of (r : Ref sig .tc) (h : r ∉ hostOps1_W) : W3 m c (Proc.devRef .tc r) = W2 m c (Proc.devRef .tc r) :=
  StableHlo.after_of_writes_sub hostOps1 _ hostOps1_writes h
theorem W4_of (r : Ref sig .tc) (h : r ∉ ([main_v8] : List (Ref sig .tc))) :
    W4 m a1 c (Proc.devRef .tc r) = W3 m c (Proc.devRef .tc r) := by
  unfold W4
  exact Function.update_of_ne (StableHlo.devRef_ne_of_ne (List.ne_of_not_mem_cons h) : (Proc.devRef .tc r : DevRef τ sig) ≠ Proc.devRef .tc main_v8) _ _
theorem W5_of (r : Ref sig .tc) (h : r ∉ hostOps2_W) : W5 m a1 c (Proc.devRef .tc r) = W4 m a1 c (Proc.devRef .tc r) :=
  StableHlo.after_of_writes_sub hostOps2 _ hostOps2_writes h
theorem W6_of (r : Ref sig .tc) (h : r ∉ hostOps2_1_W) : W6 m a1 c (Proc.devRef .tc r) = W5 m a1 c (Proc.devRef .tc r) :=
  StableHlo.after_of_writes_sub hostOps2_1 _ hostOps2_1_writes h
theorem W7_of (r : Ref sig .tc) (h : r ∉ hostOps2_2_W) : W7 m a1 c (Proc.devRef .tc r) = W6 m a1 c (Proc.devRef .tc r) :=
  StableHlo.after_of_writes_sub hostOps2_2 _ hostOps2_2_writes h

/-! ## No item writes an argument -/

/-- The embeddings reach the end as launched. -/
theorem W7_main_arg0 : W7 m a1 c (Proc.devRef .tc main_arg0) = m ((c : Thread nD τ).loc main_arg0) :=
  (W7_of m a1 c main_arg0 (by decide)).trans <| (W6_of m a1 c main_arg0 (by decide)).trans <| (W5_of m a1 c main_arg0 (by decide)).trans <| (W4_of m a1 c main_arg0 (by decide)).trans <| (W3_of m c main_arg0 (by decide)).trans <| (W2_of m c main_arg0 (by decide)).trans <| (W1_of m c main_arg0 (by decide)).trans rfl
/-- The labels reach the end as launched. -/
theorem W7_main_arg1 : W7 m a1 c (Proc.devRef .tc main_arg1) = m ((c : Thread nD τ).loc main_arg1) :=
  (W7_of m a1 c main_arg1 (by decide)).trans <| (W6_of m a1 c main_arg1 (by decide)).trans <| (W5_of m a1 c main_arg1 (by decide)).trans <| (W4_of m a1 c main_arg1 (by decide)).trans <| (W3_of m c main_arg1 (by decide)).trans <| (W2_of m c main_arg1 (by decide)).trans <| (W1_of m c main_arg1 (by decide)).trans rfl

end Cert.Kernel.Hand

end
-- ==== Proof.KI.Body0.lean ====
import proofs.«401359_j57629871178315_3_alg».proof.Proof.Gen.KernelIdeal.Launch
import proofs.«401359_j57629871178315_3_alg».proof.Proof.Gen.KernelIdeal.Skeleton
import proofs.«401359_j57629871178315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body as one triple

The body of the pairwise-distance kernel at grid point `i = (row tile, column tile)`: what it loads is named by
parameters, what it leaves in the two output buffers and in the carried accumulator is a pure function of them. -/

abbrev rJx (i : grid0.Coords) : Rect S4096x512 := Rect.unit (s := S4096x512) (k0_off1 i) S1024x512.size (Facts₀.k0_off1_inb i)
abbrev rJr (i : grid0.Coords) : Rect S1x4096 := Rect.unit (s := S1x4096) (k0_off2 i) S1x1024.size (Facts₀.k0_off2_inb i)

/-- The distance tile of the point: rows from the row-tile operands `x2`, `x4`, columns cut out of the resident
    operands `x3`, `x5` at the column tile. -/
def distTile (i : grid0.Coords) (x2 : Vec F S1024x512 .f32) (x3 : Vec F S4096x512 .f32) (x4 : Vec F S1024x1 .f32) (x5 : Vec F S1x4096 .f32) :
    FVec F S1024x1024 .f32 :=
  k0_pay3 (View.ld x3 (rJx i)) (View.ld x5 (rJr i)) x2 x4

/-- The condition of the accumulator's reset, as the body computes it (column tile 0). -/
def k0_cond1 (i : grid0.Coords) : BitVec 1 :=
  Scalar.cmpi .ne (Scalar.extui (Scalar.cmpi .eq (BitVec.ofNat 32 (i 1).val) 0#32) : BitVec 32) 0#32

/-- The accumulator the row sums are added to: zeros at column tile 0, else what the point before left. -/
def accIn (i : grid0.Coords) (s : Vec F S1024x1 .f32) : Vec F S1024x1 .f32 :=
  if k0_cond1 i = 1#1 then k0_pay2 (F := F) else s

/-- The accumulator after the point. -/
def accOut (i : grid0.Coords) (x2 : Vec F S1024x512 .f32) (x3 : Vec F S4096x512 .f32) (x4 : Vec F S1024x1 .f32) (x5 : Vec F S1x4096 .f32)
    (x6 : Vec F S1024x1 .i32) (x7 : Vec F S1x4096 .i32) (s : Vec F S1024x1 .f32) : FVec F S1024x1 .f32 :=
  k0_pay1 (distTile i x2 x3 x4 x5) (k0_pay4 x6) (k0_pay5 (View.ld x7 (rJr i))) (accIn i s)

/-! ## Whole-buffer accesses at the zero offset -/

theorem k0_hz : (![0, 0] : Fin 2 → Nat) = fun _ => 0 := funext fun a => by fin_cases a <;> rfl

/-- A list of stores whose LAST (head) store is through the whole-shape rectangle covers the buffer. -/
theorem k0_cover_cons_unit_zero {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ pc ∈ ((⟨Rect.unit off S.size inb, w⟩ : View.Piece Val S e) :: L), y ∈ pc.1.set :=
  ⟨_, List.mem_cons.mpr (Or.inl rfl), View.mem_set_unit_zero h inb y⟩

/-- A whole-buffer load after stores of which the last was a whole-buffer store reads that store's payload. -/
theorem k0_readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (k0_cover_cons_unit_zero h inb w L), View.canon_cons_unit_zero h, View.ld_unit_zero h]

/-! ## The eight control cases

The body branches three times: on the accumulator's reset (column tile 0), on the distance tile's store
(column tile ≥ row tile) and on the row-sum output's store (last column tile). With the three conditions decided
the body is a straight line of whole-buffer loads and stores, plus the two slices of the resident operands; each
stored buffer then reads back as the payload of its last store, and each load of the accumulator after a store
of it as that store's payload. One lemma per combination of the three conditions, named by reset / distance
store / row-sum store taken (`y`) or not (`n`). -/

set_option maxHeartbeats 4000000 in
theorem k0_leaf_yyy (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : k0_cond1 i = 1#1) (h2 : k0_cond2 i = 1#1) (h3 : k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [if_pos h3, View.read_writes_eq_canon _ _ _ (k0_cover_cons_unit_zero k0_hz _ _ _)]
    rw [View.canon_cons_unit_zero (S := S1024x1) k0_hz]
    unfold accOut distTile accIn
    rw [if_pos h1]
    simp only [View.readAt_eq_ld, View.ld_unit_zero (S := S1024x512) k0_hz, View.ld_unit_zero (S := S1024x1) k0_hz,
      k0_readCov_cons_unit_zero (S := S1024x1) _ k0_hz]
    rfl
  isplitl [H9]
  · iexists _; isplitr
    swap; · iexact H9
    ipureintro
    sl_unfold_words
    rw [if_pos h2, View.read_writes_eq_canon _ _ _ (k0_cover_cons_unit_zero k0_hz _ _ _)]
    rw [View.canon_cons_unit_zero (S := S1024x1024) k0_hz]
    unfold distTile
    simp only [View.readAt_eq_ld, View.ld_unit_zero (S := S1024x512) k0_hz, View.ld_unit_zero (S := S1024x1) k0_hz]
    rfl
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_pos h1]
  simp only [View.readAt_eq_ld, View.ld_unit_zero (S := S1024x512) k0_hz, View.ld_unit_zero (S := S1024x1) k0_hz,
    k0_readCov_cons_unit_zero (S := S1024x1) _ k0_hz]
  rfl

set_option maxHeartbeats 4000000 in
theorem k0_leaf_yyn (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : k0_cond1 i = 1#1) (h2 : k0_cond2 i = 1#1) (h3 : ¬ k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr
    · ipureintro; rw [if_neg h3]
    iexact H8
  isplitl [H9]
  · iexists _; isplitr
    swap; · iexact H9
    ipureintro
    sl_unfold_words
    rw [if_pos h2, View.read_writes_eq_canon _ _ _ (k0_cover_cons_unit_zero k0_hz _ _ _)]
    rw [View.canon_cons_unit_zero (S := S1024x1024) k0_hz]
    unfold distTile
    simp only [View.readAt_eq_ld, View.ld_unit_zero (S := S1024x512) k0_hz, View.ld_unit_zero (S := S1024x1) k0_hz]
    rfl
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_pos h1]
  simp only [View.readAt_eq_ld, View.ld_unit_zero (S := S1024x512) k0_hz, View.ld_unit_zero (S := S1024x1) k0_hz,
    k0_readCov_cons_unit_zero (S := S1024x1) _ k0_hz]
  rfl

set_option maxHeartbeats 4000000 in
theorem k0_leaf_yny (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : k0_cond1 i = 1#1) (h2 : ¬ k0_cond2 i = 1#1) (h3 : k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [if_pos h3, View.read_writes_eq_canon _ _ _ (k0_cover_cons_unit_zero k0_hz _ _ _)]
    rw [View.canon_cons_unit_zero (S := S1024x1) k0_hz]
    unfold accOut distTile accIn
    rw [if_pos h1]
    simp only [View.readAt_eq_ld, View.ld_unit_zero (S := S1024x512) k0_hz, View.ld_unit_zero (S := S1024x1) k0_hz,
      k0_readCov_cons_unit_zero (S := S1024x1) _ k0_hz]
    rfl
  isplitl [H9]
  · iexists f9; isplitr
    · ipureintro; rw [if_neg h2]
    iexact H9
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_pos h1]
  simp only [View.readAt_eq_ld, View.ld_unit_zero (S := S1024x512) k0_hz, View.ld_unit_zero (S := S1024x1) k0_hz,
    k0_readCov_cons_unit_zero (S := S1024x1) _ k0_hz]
  rfl

set_option maxHeartbeats 4000000 in
theorem k0_leaf_ynn (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : k0_cond1 i = 1#1) (h2 : ¬ k0_cond2 i = 1#1) (h3 : ¬ k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr
    · ipureintro; rw [if_neg h3]
    iexact H8
  isplitl [H9]
  · iexists f9; isplitr
    · ipureintro; rw [if_neg h2]
    iexact H9
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_pos h1]
  simp only [View.readAt_eq_ld, View.ld_unit_zero (S := S1024x512) k0_hz, View.ld_unit_zero (S := S1024x1) k0_hz,
    k0_readCov_cons_unit_zero (S := S1024x1) _ k0_hz]
  rfl

set_option maxHeartbeats 4000000 in
theorem k0_leaf_nyy (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : ¬ k0_cond1 i = 1#1) (h2 : k0_cond2 i = 1#1) (h3 : k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [if_pos h3, View.read_writes_eq_canon _ _ _ (k0_cover_cons_unit_zero k0_hz _ _ _)]
    rw [View.canon_cons_unit_zero (S := S1024x1) k0_hz]
    unfold accOut distTile accIn
    rw [if_neg h1]
    simp only [View.readAt_eq_ld, View.ld_unit_zero (S := S1024x512) k0_hz, View.ld_unit_zero (S := S1024x1) k0_hz,
      k0_readCov_cons_unit_zero (S := S1024x1) _ k0_hz]
    rfl
  isplitl [H9]
  · iexists _; isplitr
    swap; · iexact H9
    ipureintro
    sl_unfold_words
    rw [if_pos h2, View.read_writes_eq_canon _ _ _ (k0_cover_cons_unit_zero k0_hz _ _ _)]
    rw [View.canon_cons_unit_zero (S := S1024x1024) k0_hz]
    unfold distTile
    simp only [View.readAt_eq_ld, View.ld_unit_zero (S := S1024x512) k0_hz, View.ld_unit_zero (S := S1024x1) k0_hz]
    rfl
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_neg h1]
  simp only [View.readAt_eq_ld, View.ld_unit_zero (S := S1024x512) k0_hz, View.ld_unit_zero (S := S1024x1) k0_hz,
    k0_readCov_cons_unit_zero (S := S1024x1) _ k0_hz]
  rfl

set_option maxHeartbeats 4000000 in
theorem k0_leaf_nyn (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : ¬ k0_cond1 i = 1#1) (h2 : k0_cond2 i = 1#1) (h3 : ¬ k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr
    · ipureintro; rw [if_neg h3]
    iexact H8
  isplitl [H9]
  · iexists _; isplitr
    swap; · iexact H9
    ipureintro
    sl_unfold_words
    rw [if_pos h2, View.read_writes_eq_canon _ _ _ (k0_cover_cons_unit_zero k0_hz _ _ _)]
    rw [View.canon_cons_unit_zero (S := S1024x1024) k0_hz]
    unfold distTile
    simp only [View.readAt_eq_ld, View.ld_unit_zero (S := S1024x512) k0_hz, View.ld_unit_zero (S := S1024x1) k0_hz]
    rfl
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_neg h1]
  simp only [View.readAt_eq_ld, View.ld_unit_zero (S := S1024x512) k0_hz, View.ld_unit_zero (S := S1024x1) k0_hz,
    k0_readCov_cons_unit_zero (S := S1024x1) _ k0_hz]
  rfl

set_option maxHeartbeats 4000000 in
theorem k0_leaf_nny (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : ¬ k0_cond1 i = 1#1) (h2 : ¬ k0_cond2 i = 1#1) (h3 : k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [if_pos h3, View.read_writes_eq_canon _ _ _ (k0_cover_cons_unit_zero k0_hz _ _ _)]
    rw [View.canon_cons_unit_zero (S := S1024x1) k0_hz]
    unfold accOut distTile accIn
    rw [if_neg h1]
    simp only [View.readAt_eq_ld, View.ld_unit_zero (S := S1024x512) k0_hz, View.ld_unit_zero (S := S1024x1) k0_hz,
      k0_readCov_cons_unit_zero (S := S1024x1) _ k0_hz]
    rfl
  isplitl [H9]
  · iexists f9; isplitr
    · ipureintro; rw [if_neg h2]
    iexact H9
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_neg h1]
  simp only [View.readAt_eq_ld, View.ld_unit_zero (S := S1024x512) k0_hz, View.ld_unit_zero (S := S1024x1) k0_hz,
    k0_readCov_cons_unit_zero (S := S1024x1) _ k0_hz]
  rfl

set_option maxHeartbeats 4000000 in
theorem k0_leaf_nnn (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄)
    (h1 : ¬ k0_cond1 i = 1#1) (h2 : ¬ k0_cond2 i = 1#1) (h3 : ¬ k0_cond3 i = 1#1) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  have h1' := h1
  unfold k0_cond1 at h1'
  simp only [cc0__negsum_kernel_eq_skeleton]; unfold cc0__negsum_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr
    · ipureintro; rw [if_neg h3]
    iexact H8
  isplitl [H9]
  · iexists f9; isplitr
    · ipureintro; rw [if_neg h2]
    iexact H9
  iexists _; isplitr
  swap; · iexact H10
  ipureintro
  sl_unfold_words
  rw [View.read_writes_eq_canon _ _ _ (k0_cover_cons_unit_zero k0_hz _ _ _)]
  rw [View.canon_cons_unit_zero (S := S1024x1) k0_hz]
  unfold accOut distTile accIn
  rw [if_neg h1]
  simp only [View.readAt_eq_ld, View.ld_unit_zero (S := S1024x512) k0_hz, View.ld_unit_zero (S := S1024x1) k0_hz,
    k0_readCov_cons_unit_zero (S := S1024x1) _ k0_hz]
  rfl

/-- THE TRIPLE of `cc0__negsum_kernel` at any point: inputs kept; the accumulator at `accOut`; the row-sum output
    at the accumulator where the point stores it (last column tile), else untouched; the distance output at the
    tile where the point stores it (column tile ≥ row tile), else untouched. -/
theorem sound_kernel0 (c : Dev nD) (E : Set ℕ) (i : grid0.Coords)
    (arg2 : Memref sig .tc .vmem S1024x512 .f32) (harg2 : arg2.IsWhole) (arg3 : Memref sig .tc .vmem S4096x512 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .i32) (harg6 : arg6.IsWhole) (arg7 : Memref sig .tc .vmem S1x4096 .i32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1 .f32) (harg10 : arg10.IsWhole)
    (x2 : Vec F S1024x512 .f32) (x3 : Vec F S4096x512 .f32) (x4 : Vec F S1024x1 .f32) (x5 : Vec F S1x4096 .f32)
    (x6 : Vec F S1024x1 .i32) (x7 : Vec F S1x4096 .i32) (d8 : Vec F S1024x1 .f32) (d9 : Vec F S1024x1024 .f32) (s : Vec F S1024x1 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare d9 ∗ owns (c : Thread nD τ) arg10 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k0_cond3 i = 1#1 then accOut i x2 x3 x4 x5 x6 x7 s else d8)
            ∗ owns (c : Thread nD τ) arg9 fullShare (if k0_cond2 i = 1#1 then distTile i x2 x3 x4 x5 else d9)
            ∗ owns (c : Thread nD τ) arg10 fullShare (accOut i x2 x3 x4 x5 x6 x7 s)) -∗ K ⟨⟩))
      ⊢ wp frame (wpE (defs₀ (F := F)) Variants.none c none) E (cc0__negsum_kernel i arg2 harg2 arg3 harg3 arg4 harg4 arg5 harg5 arg6 harg6 arg7 harg7 arg8 harg8 arg9 harg9 arg10 harg10) K := by
  by_cases h1 : k0_cond1 i = 1#1 <;> by_cases h2 : k0_cond2 i = 1#1 <;> by_cases h3 : k0_cond3 i = 1#1
  · exact k0_leaf_yyy c E i arg2 harg2 arg3 harg3 arg4 harg4 arg5 harg5 arg6 harg6 arg7 harg7 arg8 harg8 arg9 harg9 arg10 harg10 x2 x3 x4 x5 x6 x7 d8 d9 s K h1 h2 h3
  · exact k0_leaf_yyn c E i arg2 harg2 arg3 harg3 arg4 harg4 arg5 harg5 arg6 harg6 arg7 harg7 arg8 harg8 arg9 harg9 arg10 harg10 x2 x3 x4 x5 x6 x7 d8 d9 s K h1 h2 h3
  · exact k0_leaf_yny c E i arg2 harg2 arg3 harg3 arg4 harg4 arg5 harg5 arg6 harg6 arg7 harg7 arg8 harg8 arg9 harg9 arg10 harg10 x2 x3 x4 x5 x6 x7 d8 d9 s K h1 h2 h3
  · exact k0_leaf_ynn c E i arg2 harg2 arg3 harg3 arg4 harg4 arg5 harg5 arg6 harg6 arg7 harg7 arg8 harg8 arg9 harg9 arg10 harg10 x2 x3 x4 x5 x6 x7 d8 d9 s K h1 h2 h3
  · exact k0_leaf_nyy c E i arg2 harg2 arg3 harg3 arg4 harg4 arg5 harg5 arg6 harg6 arg7 harg7 arg8 harg8 arg9 harg9 arg10 harg10 x2 x3 x4 x5 x6 x7 d8 d9 s K h1 h2 h3
  · exact k0_leaf_nyn c E i arg2 harg2 arg3 harg3 arg4 harg4 arg5 harg5 arg6 harg6 arg7 harg7 arg8 harg8 arg9 harg9 arg10 harg10 x2 x3 x4 x5 x6 x7 d8 d9 s K h1 h2 h3
  · exact k0_leaf_nny c E i arg2 harg2 arg3 harg3 arg4 harg4 arg5 harg5 arg6 harg6 arg7 harg7 arg8 harg8 arg9 harg9 arg10 harg10 x2 x3 x4 x5 x6 x7 d8 d9 s K h1 h2 h3
  · exact k0_leaf_nnn c E i arg2 harg2 arg3 harg3 arg4 harg4 arg5 harg5 arg6 harg6 arg7 harg7 arg8 harg8 arg9 harg9 arg10 harg10 x2 x3 x4 x5 x6 x7 d8 d9 s K h1 h2 h3

end Cert.KernelIdeal.Hand

end
-- ==== Proof.KI.Data0.lean ====
import proofs.«401359_j57629871178315_3_alg».proof.Proof.Gen.KernelIdeal.Launch
import proofs.«401359_j57629871178315_3_alg».proof.Proof.Gen.KernelIdeal.Skeleton
import proofs.«401359_j57629871178315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KI.Body0

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region's proof data

At a PARAMETER `V`, the core's buffer contents when the region is entered: each window's block at a grid point, the
accumulator after each point (a recursion on the point, restarted wherever the column tile is 0), and what the
body leaves in every staging buffer. The embeddings array is read by two windows, each holding half of it. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A placeholder for what the accumulator holds before the first point (the first point resets it, so the
    value is never read): the zeros the reset stores. -/
def junkAcc : Vec F S1024x1 .f32 := k0_pay2 (F := F)

/-- THE ACCUMULATION: the carried accumulator after the body at position `n`. -/
def acc0 (c : Dev nD) : ℕ → Vec F S1024x1 .f32
  | 0 => if h : 0 < cfg0.N then
      accOut (grid0.coords ⟨0, h⟩) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (junkAcc (F := F))
    else junkAcc
  | n + 1 => if h : n + 1 < cfg0.N then
      accOut (grid0.coords ⟨n + 1, h⟩) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (acc0 c n)
    else junkAcc

/-- The accumulator the body finds at position `n`. -/
def accBefore0 (c : Dev nD) (n : ℕ) : Vec F S1024x1 .f32 := match n with | 0 => junkAcc | k + 1 => acc0 V c k

theorem acc0_eq (c : Dev nD) (t : Fin cfg0.N) :
    acc0 V c t.val = accOut (grid0.coords t) (iblk0 V c 0 t) (iblk0 V c 1 t) (iblk0 V c 2 t) (iblk0 V c 3 t) (iblk0 V c 4 t) (iblk0 V c 5 t) (accBefore0 V c t.val) := by
  obtain ⟨n, hn⟩ := t
  cases n with
  | zero => exact dif_pos hn
  | succ n => exact dif_pos hn

/-- The scoped buffers that are neither a staging buffer of this region nor its accumulator, each whole at some
    contents: they ride through the region untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The region invariant before position `n`: the accumulator at some contents — after the first point at what the
    point before left —, the other scoped buffers at anything, the generator register at some state. -/
def Phi0 (c : Dev nD) (n : ℕ) : sProp 𝕄 :=
  iprop((∃ s : Vec F S1024x1 .f32, ⌜n ≠ 0 → s = accBefore0 V c n⌝ ∗ owns (c : Thread nD τ) (Memref.whole cc0_scratch0) fullShare s)
    ∗ rest0 c ∗ (∃ r, prngReg c r))

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => acc0 V c t.val
    | ⟨7, _⟩ => distTile (grid0.coords t) (iblk0 V c 0 t) (iblk0 V c 1 t) (iblk0 V c 2 t) (iblk0 V c 3 t)
  Φ t := Phi0 V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = acc0 V c t.val := by dsimp only [dat0]
theorem after0_7 (c : Dev nD) (t : Fin cfg0.N) :
    (dat0 V c).after 7 t = distTile (grid0.coords t) (iblk0 V c 0 t) (iblk0 V c 1 t) (iblk0 V c 2 t) (iblk0 V c 3 t) := by dsimp only [dat0]

theorem Phi0_eq (c : Dev nD) (t : Fin (cfg0.N + 1)) : (dat0 V c).Φ t = Phi0 V c t.val := by dsimp only [dat0]
theorem owed0_eq (c : Dev nD) (t : Fin (cfg0.N + 1)) : (dat0 V c).owed t = 0 := by dsimp only [dat0]

end Cert.KernelIdeal.Hand

end
-- ==== Proof.KI.Body1.lean ====
import proofs.«401359_j57629871178315_3_alg».proof.Proof.Gen.KernelIdeal.Launch
import proofs.«401359_j57629871178315_3_alg».proof.Proof.Gen.KernelIdeal.Skeleton
import proofs.«401359_j57629871178315_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body as one triple

The body of the hinge kernel at grid point `i = (logical row tile, column tile)`: the physical row tile is the
word the permutation table holds at the logical one. -/

abbrev rTbl (i : grid1.Coords) : Rect S4 := Rect.unit (s := S4) (k1_off1 i) S1.size (Facts₀.k1_off1_inb i)

/-- The physical row tile: the table's word at the logical row tile. -/
def rowWord (i : grid1.Coords) (tbl : Vec F S4 .i32) : Elt F .i32 :=
  View.ld tbl (rTbl i) (Shape.Idx.first (Facts₀.numel1_S1.symm ▸ Nat.one_pos))

/-- The condition of the accumulator's reset, as the body computes it (column tile 0). -/
def k1_cond1 (i : grid1.Coords) : BitVec 1 :=
  Scalar.cmpi .ne (Scalar.extui (Scalar.cmpi .eq (BitVec.ofNat 32 (i 1).val) 0#32) : BitVec 32) 0#32

/-- The condition of the tile's contribution, as the body computes it: column tile ≥ physical row tile. -/
def k1_cond2 (i : grid1.Coords) (r : Elt F .i32) : BitVec 1 :=
  Scalar.cmpi .ne (Scalar.extui (Scalar.cmpi .sge (BitVec.ofNat 32 (i 1).val) r) : BitVec 32) 0#32

/-- The accumulator the tile's row sums are added to: zeros at column tile 0, else what the point before left. -/
def hAccIn (i : grid1.Coords) (s : Vec F S1024x1 .f32) : Vec F S1024x1 .f32 :=
  if k1_cond1 i = 1#1 then k1_pay1 (F := F) else s

/-- The accumulator after the point: the tile's masked hinge row sums added where the tile contributes. -/
def hAccOut (i : grid1.Coords) (tbl : Vec F S4 .i32) (x3 : Vec F S1024x1024 .f32) (x4 : Vec F S1024x1 .i32) (x5 : Vec F S1x1024 .i32)
    (x6 : Vec F S1024x1 .f32) (x7 : Vec F S1x1024 .f32) (s : Vec F S1024x1 .f32) : Vec F S1024x1 .f32 :=
  if k1_cond2 (F := F) i (rowWord i tbl) = 1#1 then
    k1_pay2 (BitVec.ofNat 32 (i 1).val) (rowWord i tbl) x3 x4 x5 x6 x7 (hAccIn i s)
  else hAccIn i s

/-! ## Whole-buffer stores and loads read back

Every store and load of the body goes through the whole-shape rectangle at zero offsets: a list of writes whose
LAST one is such a store reads back that store's payload, whatever came before it. -/

private theorem hz2 : (![0, 0] : Fin 2 → Nat) = fun _ => 0 := funext fun a => by fin_cases a <;> rfl

/-- A list of writes headed by a whole-shape store reads back the store's payload. -/
private theorem read_writes_whole_head {Val : EltTy → Type} [∀ e, Nonempty (Val e)] {sig : RefSig} {κ : Kind} {sp : Space}
    {S : Shape} {e : EltTy} (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩),
    View.canon_cons_unit_zero h inb]

/-- A whole-shape load after writes headed by a whole-shape store reads the store's payload. -/
private theorem readCov_whole_head {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero h inb y⟩),
    View.canon_cons_unit_zero h inb, View.ld_unit_zero h inb]

/-- A whole-shape load of untouched contents reads them. -/
private theorem readAt_whole {Val : EltTy → Type} {sig : RefSig} {κ : Kind} {sp : Space}
    {S : Shape} {e : EltTy} (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

/-- THE TRIPLE of `cc1__hinge_kernel` at any point: the table and the inputs kept; the accumulator at `hAccOut`;
    the output at the accumulator where the point stores it (last column tile), else untouched. -/
theorem sound_kernel1 (c : Dev nD) (E : Set ℕ) (i : grid1.Coords)
    (arg2 : Memref sig .tc .smem S4 .i32) (harg2 : arg2.IsWhole) (arg3 : Memref sig .tc .vmem S1024x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole)
    (tbl : Vec F S4 .i32) (x3 : Vec F S1024x1024 .f32) (x4 : Vec F S1024x1 .i32) (x5 : Vec F S1x1024 .i32)
    (x6 : Vec F S1024x1 .f32) (x7 : Vec F S1x1024 .f32) (d8 : Vec F S1024x1 .f32) (s : Vec F S1024x1 .f32)
    (K : PUnit → sProp 𝕄) :
    iprop(owns (c : Thread nD τ) arg2 fullShare tbl ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare d8 ∗ owns (c : Thread nD τ) arg9 fullShare s
        ∗ (iprop(owns (c : Thread nD τ) arg2 fullShare tbl ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (if k1_cond3 i = 1#1 then hAccOut i tbl x3 x4 x5 x6 x7 s else d8)
            ∗ owns (c : Thread nD τ) arg9 fullShare (hAccOut i tbl x3 x4 x5 x6 x7 s)) -∗ K ⟨⟩))
      ⊢ wp frame (wpE (defs₀ (F := F)) Variants.none c none) E (cc1__hinge_kernel i arg2 harg2 arg3 harg3 arg4 harg4 arg5 harg5 arg6 harg6 arg7 harg7 arg8 harg8 arg9 harg9) K := by
  simp only [cc1__hinge_kernel_eq_skeleton]; unfold cc1__hinge_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  -- the three conditions: the reset (column tile 0), the contribution (over the word the table holds at the logical row
  -- tile: what the body's first load returns is `rowWord` of the table's contents, definitionally), the final copy
  by_cases h1 : k1_cond1 i = 1#1 <;> by_cases h2 : k1_cond2 (F := F) i (rowWord i (arg2.view.read (Elt F) f2)) = 1#1
    <;> by_cases h3 : k1_cond3 i = 1#1
  all_goals
    sl_exec (disch := first | exact h1 | exact h2 | exact h3)
    sl_step
    iapply Hk
    -- the table and the five inputs are only read
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    -- the output: where the final copy runs, a whole-buffer store of the accumulator just read back; else as found
    isplitl [H8]
    · iexists _; isplitr; swap; · iexact H8
      ipureintro
      unfold hAccOut hAccIn
      try sl_unfold_words
      simp only [h1, h2, h3, eq_self, if_true, if_false, read_writes_whole_head (S := S1024x1) _ _ hz2, readCov_whole_head (S := S1024x1) _ hz2,
        readAt_whole (S := S1024x1) _ _ hz2, readAt_whole (S := S1024x1024) _ _ hz2, readAt_whole (S := S1x1024) _ _ hz2]
      try rfl
    -- the accumulator: the reset's zeros or the contents found, then the tile's row sums added or not; every store
    -- and load is of the whole buffer, so the last store's payload is what it holds
    · iexists _; isplitr; swap; · iexact H9
      ipureintro
      unfold hAccOut hAccIn
      try sl_unfold_words
      simp only [h1, h2, h3, eq_self, if_true, if_false, read_writes_whole_head (S := S1024x1) _ _ hz2, readCov_whole_head (S := S1024x1) _ hz2,
        readAt_whole (S := S1024x1) _ _ hz2, readAt_whole (S := S1024x1024) _ _ hz2, readAt_whole (S := S1x1024) _ _ hz2]
      try rfl

end Cert.KernelIdeal.Hand

end
-- ==== Proof.KI.Data1.lean ====
import proofs.«401359_j57629871178315_3_alg».proof.Proof.Gen.KernelIdeal.Launch
import proofs.«401359_j57629871178315_3_alg».proof.Proof.Gen.KernelIdeal.Skeleton
import proofs.«401359_j57629871178315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KI.Body1

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's proof data

At a PARAMETER `V` (the core's buffer contents when the region is entered) and at ADMISSIBLE contents `a` of the
permutation table, kept a variable: each window's block at a grid point, the accumulator after each point, and what
the body leaves in every staging buffer. -/

variable (V : (c : Dev nD) → (b : Ref sig .tc) → Buf (Elt F) ((c : Thread nD τ).loc b))
variable (a : (pcfg1 (F := F)).Adm)

/-- The table as the body reads it: the admissible contents through the table buffer's whole view. -/
def tblOf (c : Dev nD) : Vec F S4 .i32 := (Memref.whole main_c : Memref sig .tc .smem S4 .i32).view.read (Elt F) (a.1 0)

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- A placeholder for what the accumulator holds before the first point (the first point resets it). -/
def junkAcc1 : Vec F S1024x1 .f32 := k1_pay1 (F := F)

/-- THE ACCUMULATION: the carried accumulator after the body at position `n`. -/
def acc1 (c : Dev nD) : ℕ → Vec F S1024x1 .f32
  | 0 => if h : 0 < (cfg1 a).N then
      hAccOut ((cfg1 a).grid.coords ⟨0, h⟩) (tblOf a c) (iblk1 V a c 0 ⟨0, h⟩) (iblk1 V a c 1 ⟨0, h⟩) (iblk1 V a c 2 ⟨0, h⟩) (iblk1 V a c 3 ⟨0, h⟩) (iblk1 V a c 4 ⟨0, h⟩) (junkAcc1 (F := F))
    else junkAcc1
  | n + 1 => if h : n + 1 < (cfg1 a).N then
      hAccOut ((cfg1 a).grid.coords ⟨n + 1, h⟩) (tblOf a c) (iblk1 V a c 0 ⟨n + 1, h⟩) (iblk1 V a c 1 ⟨n + 1, h⟩) (iblk1 V a c 2 ⟨n + 1, h⟩) (iblk1 V a c 3 ⟨n + 1, h⟩) (iblk1 V a c 4 ⟨n + 1, h⟩) (acc1 c n)
    else junkAcc1

/-- The accumulator the body finds at position `n`. -/
def accBefore1 (c : Dev nD) (n : ℕ) : Vec F S1024x1 .f32 := match n with | 0 => junkAcc1 | k + 1 => acc1 V a c k

theorem acc1_eq (c : Dev nD) (t : Fin (cfg1 a).N) :
    acc1 V a c t.val = hAccOut ((cfg1 a).grid.coords t) (tblOf a c) (iblk1 V a c 0 t) (iblk1 V a c 1 t) (iblk1 V a c 2 t) (iblk1 V a c 3 t) (iblk1 V a c 4 t) (accBefore1 V a c t.val) := by
  obtain ⟨n, hn⟩ := t
  cases n with
  | zero => exact dif_pos hn
  | succ n => exact dif_pos hn

/-- The scoped buffers that are neither a staging buffer of this region nor its accumulator, each whole at some
    contents: they ride through the region untouched. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f))

/-- The region invariant before position `n`: the table whole at its admissible contents; the accumulator at some
    contents — after the first point at what the point before left —; the other scoped buffers at anything; the
    generator register at some state. -/
def Phi1 (c : Dev nD) (n : ℕ) : sProp 𝕄 :=
  iprop(Pipeline.prefHeld pre1 c (fun _ => fullShare) a.1
    ∗ (∃ s : Vec F S1024x1 .f32, ⌜n ≠ 0 → s = accBefore1 V a c n⌝ ∗ owns (c : Thread nD τ) (Memref.whole cc1_scratch0) fullShare s)
    ∗ rest1 c ∗ (∃ r, prngReg c r))

/-- The proof data of the second region on core `c`. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => iblk1 V a c 4 t
    | ⟨5, _⟩ => acc1 V a c t.val
  Φ t := Phi1 V a c t.val
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = iblk1 V a c 1 t := by dsimp only [dat1]; rfl
theorem after1_2 (c : Dev nD) (t : Fin (cfg1 a).N) : (dat1 V a c).after 2 t = iblk1 V a c 2 t := by dsimp only [dat1]; rfl
theorem after1_3 (c : Dev nD) (t : Fin (cfg1 a).N) : (dat1 V a c).after 3 t = iblk1 V a c 3 t := by dsimp only [dat1]; rfl
theorem after1_4 (c : Dev nD) (t : Fin (cfg1 a).N) : (dat1 V a c).after 4 t = iblk1 V a c 4 t := by dsimp only [dat1]; rfl
theorem after1_5 (c : Dev nD) (t : Fin (cfg1 a).N) : (dat1 V a c).after 5 t = acc1 V a c t.val := by dsimp only [dat1]; rfl

theorem Phi1_eq (c : Dev nD) (t : Fin ((cfg1 a).N + 1)) : (dat1 V a c).Φ t = Phi1 V a c t.val := by dsimp only [dat1]
theorem owed1_eq (c : Dev nD) (t : Fin ((cfg1 a).N + 1)) : (dat1 V a c).owed t = 0 := by dsimp only [dat1]

end Cert.KernelIdeal.Hand

end
-- ==== Proof.KI.Launch.lean ====
import proofs.«401359_j57629871178315_3_alg».proof.Proof.Gen.KernelIdeal.Launch
import proofs.«401359_j57629871178315_3_alg».proof.Proof.Gen.KernelIdeal.Skeleton
import proofs.«401359_j57629871178315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.Gen.KernelIdeal.Regions
import proofs.«401359_j57629871178315_3_alg».proof.Proof.KI.Data0
import proofs.«401359_j57629871178315_3_alg».proof.Proof.KI.Data1

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents at each boundary of @main

A fold from the launch memory: a host stretch's operations applied in order; after a region, its output arrays at
what the region's write-backs leave and every other buffer as it was. -/

variable (m : (ℓ : Loc nD τ sig) → Buf (Elt F) ℓ) (ρ : Dev nD → PrngReg)

/-- At launch, and after the first host stretch (the first region's entry). -/
abbrev W0 : Dev nD → Valuation τ sig (Elt F) := fun c b => m (c, b)
abbrev W1 : Dev nD → Valuation τ sig (Elt F) := fun c => StableHlo.after hostOps0 (W0 m c)
/-- The same read at the TensorCore's references (what the first region's proof data take). -/
abbrev U1 : (c : Dev nD) → (b : Ref sig .tc) → Buf (Elt F) ((c : Thread nD τ).loc b) := fun c b => W1 m c b

/-- After the first region: the row sums and the distance array at what the write-backs leave. -/
def W2 (c : Dev nD) : Valuation τ sig (Elt F) :=
  Function.update (Function.update (W1 m c) main_v6_0 ((dat0 (U1 m) c).arrAt 6 cfg0.N)) main_v6_1 ((dat0 (U1 m) c).arrAt 7 cfg0.N)

/-- After the reshape between the regions (the second region's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

variable (a1 : (pcfg1 (F := F)).Adm)

/-- After the second region: the hinge row sums at what the write-backs leave. -/
def W4 (c : Dev nD) : Valuation τ sig (Elt F) :=
  Function.update (W3 m c) main_v8 ((dat1 (U3 m) a1 c).arrAt 5 (cfg1 a1).N)

/-- After the three stretches of the host tail. -/
abbrev W5 : Dev nD → Valuation τ sig (Elt F) := fun c => StableHlo.after hostOps2 (W4 m a1 c)
abbrev W6 : Dev nD → Valuation τ sig (Elt F) := fun c => StableHlo.after hostOps2_1 (W5 m a1 c)
abbrev W7 : Dev nD → Valuation τ sig (Elt F) := fun c => StableHlo.after hostOps2_2 (W6 m a1 c)

/-- The admissible table contents of every pipeline: the first has no table. -/
abbrev adm : (p : Fin 2) → (pcfgs (F := F) p).Adm
  | ⟨0, _⟩ => cfg0.toPCfg_adm
  | ⟨1, _⟩ => a1

/-- Every pipeline's proof data, each at its region's entry contents. -/
def pdats : (p : Fin 2) → (c : Dev nD) → Dat τ (Elt F) Unit ℕ (UR sig nD τ) ℕ (Pipeline.pin (pcfgs (F := F)) (adm a1) p) c
  | ⟨0, _⟩ => fun c => dat0 (U1 m) c
  | ⟨1, _⟩ => fun c => dat1 (U3 m) a1 c

/-! ## What the launch is stated over -/

/-- No kernel calls anything: no variants. No core owes another anything: no level is assigned. -/
abbrev 𝒱z : Variants := Variants.none
abbrev Lz : GSem nD τ sig → Finset Unit := fun _ => ∅
abbrev lvz : GSem nD τ sig → Unit → ℕ := fun _ _ => 0

/-- What rides beside the buffers through every segment: the generator register at some state, and the core owing
    nothing. -/
abbrev Rz (c : Dev nD) : sProp 𝕄 := iprop((∃ r, prngReg c r) ∗ ∃ W, owes (c : Thread nD τ) (0 : CellTallies nD τ sig Unit) W)

end Cert.KernelIdeal.Hand

end
-- ==== Proof.KI.Oblig0.lean ====
import proofs.«401359_j57629871178315_3_alg».proof.Proof.Gen.KernelIdeal.Launch
import proofs.«401359_j57629871178315_3_alg».proof.Proof.Gen.KernelIdeal.Skeleton
import proofs.«401359_j57629871178315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KI.Body0
import proofs.«401359_j57629871178315_3_alg».proof.Proof.KI.Data0

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region's body obligation

At every grid point the body, handed each input window's staging buffer at its block, the two output windows'
buffers at whatever they hold and the accumulator at what the point before left, returns the inputs as they were,
the accumulator advanced by the point, the row-sum output at the accumulator where the point stores it (last
column tile) and the distance output at the point's tile where the point stores it (column tile ≥ row tile);
where a point stores nothing into an output window it does not write the window back either, and the buffer
goes back as it was found. -/

variable (V : (c : Dev nD) → (b : Ref sig .tc) → Buf (Elt F) ((c : Thread nD τ).loc b))

/-! ## What the body finds in the input windows' buffers

An input window's buffer holds its block at every point, fetched there or not: unfetched, the block index has
not moved since the point before. -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-! ## Where the output windows are idle, and that they are not written back there -/

theorem liveAt0_0 (i : grid0.Coords) : cfg0.idle 0 i = false := rfl
theorem liveAt0_1 (i : grid0.Coords) : cfg0.idle 1 i = false := rfl
theorem liveAt0_2 (i : grid0.Coords) : cfg0.idle 2 i = false := rfl
theorem liveAt0_3 (i : grid0.Coords) : cfg0.idle 3 i = false := rfl
theorem liveAt0_4 (i : grid0.Coords) : cfg0.idle 4 i = false := rfl
theorem liveAt0_5 (i : grid0.Coords) : cfg0.idle 5 i = false := rfl

theorem idleAt0_6 (i : grid0.Coords) (h : ¬ k0_cond3 i = 1#1) : cfg0.idle 6 i = true := by
  show (!(k0_cond3 i == 1#1)) = true
  simp [h]

theorem liveAt0_6 (i : grid0.Coords) (h : k0_cond3 i = 1#1) : cfg0.idle 6 i = false := by
  show (!(k0_cond3 i == 1#1)) = false
  simp [h]

theorem idleAt0_7 (i : grid0.Coords) (h : ¬ k0_cond2 i = 1#1) : cfg0.idle 7 i = true := by
  show (!(k0_cond2 i == 1#1)) = true
  simp [h]

theorem liveAt0_7 (i : grid0.Coords) (h : k0_cond2 i = 1#1) : cfg0.idle 7 i = false := by
  show (!(k0_cond2 i == 1#1)) = false
  simp [h]

/-- The row-sum window is written back only at the last column tile. -/
theorem noFlush0_6 : ∀ t : Fin cfg0.N, ¬ k0_cond3 (grid0.coords t) = 1#1 → (cfg0.win 6).flush t = false :=
  (by decide +kernel : ∀ t : Fin grid0.N, ¬ k0_cond3 (grid0.coords t) = 1#1 → win0_6.flush t = false)

/-- The distance window is written back only where the column tile is at least the row tile. -/
theorem noFlush0_7 : ∀ t : Fin cfg0.N, ¬ k0_cond2 (grid0.coords t) = 1#1 → (cfg0.win 7).flush t = false :=
  (by decide +kernel : ∀ t : Fin grid0.N, ¬ k0_cond2 (grid0.coords t) = 1#1 → win0_7.flush t = false)

/-- The first point is at column tile 0: it resets the accumulator. -/
theorem cond1_zero : ∀ t : Fin cfg0.N, t.val = 0 → k0_cond1 (grid0.coords t) = 1#1 :=
  (by decide +kernel : ∀ t : Fin grid0.N, t.val = 0 → k0_cond1 (grid0.coords t) = 1#1)

/-! ## The accumulator's step -/

/-- Where the point resets the accumulator, what it held before does not matter. -/
theorem accOut_of_cond1 (i : grid0.Coords) (h : k0_cond1 i = 1#1) (x2 : Vec F S1024x512 .f32) (x3 : Vec F S4096x512 .f32)
    (x4 : Vec F S1024x1 .f32) (x5 : Vec F S1x4096 .f32) (x6 : Vec F S1024x1 .i32) (x7 : Vec F S1x4096 .i32) (s s' : Vec F S1024x1 .f32) :
    accOut i x2 x3 x4 x5 x6 x7 s = accOut i x2 x3 x4 x5 x6 x7 s' := by
  unfold accOut accIn
  simp only [if_pos h]

/-- From what the invariant says of the accumulator before point `t`, the body leaves the accumulation's value at `t`. -/
theorem accOut_eq_acc0 (c : Dev nD) (t : Fin cfg0.N) (s : Vec F S1024x1 .f32) (hs : t.val ≠ 0 → s = accBefore0 V c t.val) :
    accOut (grid0.coords t) (iblk0 V c 0 t) (iblk0 V c 1 t) (iblk0 V c 2 t) (iblk0 V c 3 t) (iblk0 V c 4 t) (iblk0 V c 5 t) s = acc0 V c t.val := by
  rw [acc0_eq]
  by_cases hz : t.val = 0
  · exact accOut_of_cond1 _ (cond1_zero t hz) _ _ _ _ _ _ _ _
  · rw [hs hz]

/-! ## The output windows' posts -/

/-- The row-sum window: at the accumulation's value where the point stores it, else back as found. -/
theorem leaves0_6 (c : Dev nD) (t : Fin cfg0.N) (d6 : (cfg0.win 6).block.Idx → Elt F (cfg0.win 6).elt) (s : Vec F S1024x1 .f32)
    (hs : t.val ≠ 0 → s = accBefore0 V c t.val) :
    owns (c : Thread nD τ) (st0_6 t) fullShare
        (if k0_cond3 (grid0.coords t) = 1#1 then accOut (grid0.coords t) (iblk0 V c 0 t) (iblk0 V c 1 t) (iblk0 V c 2 t) (iblk0 V c 3 t) (iblk0 V c 4 t) (iblk0 V c 5 t) s
          else ((dat0 V c).before 6 t d6 : Vec F S1024x1 .f32))
      ⊢ ((dat0 V c).leavesExact 6 t : sProp 𝕄) := by
  by_cases h3 : k0_cond3 (grid0.coords t) = 1#1
  · rw [if_pos h3, accOut_eq_acc0 V c t s hs,
      show (dat0 V c).leavesExact 6 t = owns (c : Thread nD τ) (st0_6 t) fullShare ((dat0 V c).after 6 t) from by
        unfold Dat.leavesExact; rw [liveAt0_6 _ h3], after0_6]
  · rw [if_neg h3, Dat.leavesExact_idle (dat0 V c) 6 t (idleAt0_6 _ h3) (noFlush0_6 t h3)]
    iintro H; iexists d6; iexact H

/-- The distance window: at the point's tile where the point stores it, else back as found. -/
theorem leaves0_7 (c : Dev nD) (t : Fin cfg0.N) (d7 : (cfg0.win 7).block.Idx → Elt F (cfg0.win 7).elt) :
    owns (c : Thread nD τ) (st0_7 t) fullShare
        (if k0_cond2 (grid0.coords t) = 1#1 then distTile (grid0.coords t) (iblk0 V c 0 t) (iblk0 V c 1 t) (iblk0 V c 2 t) (iblk0 V c 3 t)
          else ((dat0 V c).before 7 t d7 : Vec F S1024x1024 .f32))
      ⊢ ((dat0 V c).leavesExact 7 t : sProp 𝕄) := by
  by_cases h2 : k0_cond2 (grid0.coords t) = 1#1
  · rw [if_pos h2,
      show (dat0 V c).leavesExact 7 t = owns (c : Thread nD τ) (st0_7 t) fullShare ((dat0 V c).after 7 t) from by
        unfold Dat.leavesExact; rw [liveAt0_7 _ h2], after0_7]
  · rw [if_neg h2, Dat.leavesExact_idle (dat0 V c) 7 t (idleAt0_7 _ h2) (noFlush0_7 t h2)]
    iintro H; iexists d7; iexact H

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
/-- The body at any point: the inputs' buffers hold their blocks, the invariant hands over the accumulator at what
    the point before left (at anything before the first point, which resets it), so the body's triple applies;
    the other scoped buffers, the generator register and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0 V c, before0_1 V c, before0_2 V c, before0_3 V c, before0_4 V c, before0_5 V c]
  rw [show (dat0 V c).owesAt () t.succ = (dat0 V c).owesAt () t.castSucc from rfl]
  rw [Phi0_eq, Phi0_eq]
  simp only [Fin.coe_castSucc, Fin.val_succ]
  unfold Phi0
  rw [show (dat0 V c).leavesExact 0 t = owns (c : Thread nD τ) (st0_0 t) fullShare ((dat0 V c).after 0 t) from by
    unfold Dat.leavesExact; rw [liveAt0_0 _], after0_0]
  rw [show (dat0 V c).leavesExact 1 t = owns (c : Thread nD τ) (st0_1 t) fullShare ((dat0 V c).after 1 t) from by
    unfold Dat.leavesExact; rw [liveAt0_1 _], after0_1]
  rw [show (dat0 V c).leavesExact 2 t = owns (c : Thread nD τ) (st0_2 t) fullShare ((dat0 V c).after 2 t) from by
    unfold Dat.leavesExact; rw [liveAt0_2 _], after0_2]
  rw [show (dat0 V c).leavesExact 3 t = owns (c : Thread nD τ) (st0_3 t) fullShare ((dat0 V c).after 3 t) from by
    unfold Dat.leavesExact; rw [liveAt0_3 _], after0_3]
  rw [show (dat0 V c).leavesExact 4 t = owns (c : Thread nD τ) (st0_4 t) fullShare ((dat0 V c).after 4 t) from by
    unfold Dat.leavesExact; rw [liveAt0_4 _], after0_4]
  rw [show (dat0 V c).leavesExact 5 t = owns (c : Thread nD τ) (st0_5 t) fullShare ((dat0 V c).after 5 t) from by
    unfold Dat.leavesExact; rw [liveAt0_5 _], after0_5]
  iintro ⟨⟨⟨%s, %hs, HS⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ _ _
    (iblk0 V c 0 t) (iblk0 V c 1 t) (iblk0 V c 2 t) (iblk0 V c 3 t) (iblk0 V c 4 t) (iblk0 V c 5 t)
    ((dat0 V c).before 6 t d6) ((dat0 V c).before 7 t d7) s _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hrest Hg]
  · isplitl [HS]
    · iexists _; isplitr
      swap; · iexact HS
      ipureintro; intro _
      exact accOut_eq_acc0 V c t s hs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves0_6 V c t d6 s hs); iexact H6
  iapply (leaves0_7 V c t d7); iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg0.lean ====
import proofs.«401359_j57629871178315_3_alg».proof.Proof.Gen.KernelIdeal.Launch
import proofs.«401359_j57629871178315_3_alg».proof.Proof.Gen.KernelIdeal.Skeleton
import proofs.«401359_j57629871178315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KI.Launch
import proofs.«401359_j57629871178315_3_alg».proof.Proof.KI.Oblig0

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region among @main's segments

Entered from every unscoped buffer held at the valuation after the first host stretch, left at that valuation
updated at the two result arrays. The embeddings array, read through two windows, is dealt to them in halves and
put together again at the exit. -/

variable (V : (c : Dev nD) → (b : Ref sig .tc) → Buf (Elt F) ((c : Thread nD τ).loc b))

/-- The buffers behind the first region's windows: seven, the embeddings array behind two windows. -/
theorem arrImage0 : Finset.univ.image (Pipeline.arrRef spec0) = ({main_arg0, main_v2, main_v3, main_v4, main_v5, main_v6_0, main_v6_1} : Finset (Ref sig .tc)) := by
  decide

/-- The pipeline's arrays, window by window. -/
theorem arrays0_eq (c : Dev nD) (G : (w : Fin cfg0.W) → Buf (Elt F) ((cfg0.win w).arr.view.loc (c : Thread nD τ))) :
    ((dat0 V c).arrays G : sProp 𝕄) = iprop(
      (((c : Thread nD τ).loc main_arg0) ↦{fullShare.left} G 0) ∗ (((c : Thread nD τ).loc main_arg0) ↦{fullShare.right} G 1)
      ∗ (((c : Thread nD τ).loc main_v2) ↦{fullShare} G 2) ∗ (((c : Thread nD τ).loc main_v3) ↦{fullShare} G 3)
      ∗ (((c : Thread nD τ).loc main_v4) ↦{fullShare} G 4) ∗ (((c : Thread nD τ).loc main_v5) ↦{fullShare} G 5)
      ∗ (((c : Thread nD τ).loc main_v6_0) ↦{fullShare} G 6) ∗ (((c : Thread nD τ).loc main_v6_1) ↦{fullShare} G 7)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- A core's unscoped buffers at a valuation: the seven buffers behind the windows, and the rest. -/
theorem unscopedBufs_split0 (c : Dev nD) (W : (b : Ref sig .tc) → Buf (Elt F) ((c : Thread nD τ).loc b)) :
    (unscopedBufs c W : sProp 𝕄) = iprop(Pipeline.arrBufs spec0 c W ∗ Pipeline.unscopedRest spec0 c W) := by
  classical
  have hA : Finset.univ.image (Pipeline.arrRef spec0) ⊆ Finset.univ.filter fun b : Ref sig .tc => ¬ b.isScoped := by
    rw [arrImage0]; decide
  unfold unscopedBufs Pipeline.unscopedRest Pipeline.arrBufs
  rw [bigSep_sdiff_split hA]
  rfl

/-- The seven buffers, one by one. -/
theorem arrBufs0_eq (c : Dev nD) (W : (b : Ref sig .tc) → Buf (Elt F) ((c : Thread nD τ).loc b)) :
    (Pipeline.arrBufs spec0 c W : sProp 𝕄) = iprop(
      (((c : Thread nD τ).loc main_arg0) ↦{fullShare} W main_arg0)
      ∗ (((c : Thread nD τ).loc main_v2) ↦{fullShare} W main_v2) ∗ (((c : Thread nD τ).loc main_v3) ↦{fullShare} W main_v3)
      ∗ (((c : Thread nD τ).loc main_v4) ↦{fullShare} W main_v4) ∗ (((c : Thread nD τ).loc main_v5) ↦{fullShare} W main_v5)
      ∗ (((c : Thread nD τ).loc main_v6_0) ↦{fullShare} W main_v6_0) ∗ (((c : Thread nD τ).loc main_v6_1) ↦{fullShare} W main_v6_1)) := by
  unfold Pipeline.arrBufs
  rw [arrImage0, bigSep_insert (by decide), bigSep_insert (by decide), bigSep_insert (by decide), bigSep_insert (by decide),
    bigSep_insert (by decide), bigSep_insert (by decide), bigSep_singleton]
  rfl

/-- ENTRY, the arrays: the seven buffers at the entry contents are the pipeline's arrays, the embeddings array
    dealt in halves to its two windows. -/
theorem hsplit0 (c : Dev nD) :
    (Pipeline.arrBufs spec0 c (V c) : sProp 𝕄) ⊢ (dat0 V c).arrays ((dat0 V c).arrAt · 0) := by
  rw [arrBufs0_eq, arrays0_eq]
  have hs : ((((c : Thread nD τ).loc main_arg0) ↦{fullShare} V c main_arg0) : sProp 𝕄)
      ⊢ iprop((((c : Thread nD τ).loc main_arg0) ↦{fullShare.left} V c main_arg0) ∗ (((c : Thread nD τ).loc main_arg0) ↦{fullShare.right} V c main_arg0)) :=
    (pointsTo_share (PosShare.mem_left_op_right fullShare)).1
  iintro ⟨H0, H2, H3, H4, H5, H6, H7⟩
  ihave H01 := hs $$ H0
  icases H01 with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  iexact H7

/-- EXIT, the arrays: the pipeline's arrays at their final contents and the untouched rest are the core's unscoped
    buffers at any valuation that has the two results at what the write-backs left and agrees elsewhere. -/
theorem hjoin0 (c : Dev nD) (W' : (b : Ref sig .tc) → Buf (Elt F) ((c : Thread nD τ).loc b))
    (h6 : W' main_v6_0 = (dat0 V c).arrAt 6 cfg0.N) (h7 : W' main_v6_1 = (dat0 V c).arrAt 7 cfg0.N)
    (hrest : ∀ b, b ≠ main_v6_0 → b ≠ main_v6_1 → W' b = V c b) :
    iprop((dat0 V c).arrays ((dat0 V c).arrAt · cfg0.N) ∗ Pipeline.unscopedRest spec0 c (V c)) ⊢ (unscopedBufs c W' : sProp 𝕄) := by
  rw [unscopedBufs_split0 c W', arrBufs0_eq, arrays0_eq,
    (dat0 V c).arrAt_in 0 rfl, (dat0 V c).arrAt_in 1 rfl, (dat0 V c).arrAt_in 2 rfl, (dat0 V c).arrAt_in 3 rfl,
    (dat0 V c).arrAt_in 4 rfl, (dat0 V c).arrAt_in 5 rfl, h6, h7,
    hrest main_arg0 (by decide) (by decide), hrest main_v2 (by decide) (by decide), hrest main_v3 (by decide) (by decide),
    hrest main_v4 (by decide) (by decide), hrest main_v5 (by decide) (by decide)]
  have hj : iprop((((c : Thread nD τ).loc main_arg0) ↦{fullShare.left} V c main_arg0) ∗ (((c : Thread nD τ).loc main_arg0) ↦{fullShare.right} V c main_arg0))
      ⊢ ((((c : Thread nD τ).loc main_arg0) ↦{fullShare} V c main_arg0) : sProp 𝕄) :=
    (pointsTo_share (PosShare.mem_left_op_right fullShare)).2
  refine sep_mono ((sep_assoc').trans (sep_mono hj .rfl)) (Entails.of_eq ?_)
  unfold Pipeline.unscopedRest
  exact bigSep_congr fun b hb => by
    have hb' := (Finset.mem_sdiff.mp hb).2
    rw [arrImage0] at hb'
    rw [hrest b (fun e => hb' (by rw [e]; decide)) (fun e => hb' (by rw [e]; decide))]

/-- The invariant before the first point, from what the region hands it: the generator register and the scoped
    buffers no window stages (the accumulator among them, at anything). -/
theorem hin0 (c : Dev nD) :
    iprop((∃ r, prngReg c r) ∗ Pipeline.scopedRest (Ix := Unit) (Name := ℕ) (U := UR sig nD τ) (Lvl := ℕ) (Val := Elt F) spec0 c) ⊢ (Phi0 V c 0 : sProp 𝕄) := by
  rw [scopedRest0_eq]
  unfold Phi0 rest0
  iintro ⟨Hp, ⟨%f, Hs⟩, Hrest⟩
  isplitl [Hs]
  · iexists (Memref.whole cc0_scratch0 : Memref sig .tc .vmem S1024x1 .f32).view.read (Elt F) f
    isplitr
    · ipureintro; intro h; exact absurd rfl h
    unfold owns
    iexists f
    isplitr
    · ipureintro; rfl
    rw [(Memref.isWhole_whole (cc0_scratch0 : Ref sig .tc)).set_eq_univ]
    iexact Hs
  isplitl [Hrest]; · iexact Hrest
  iexact Hp

/-- The invariant after any point gives those back, the accumulator's contents forgotten. -/
theorem hout0 (c : Dev nD) (n : ℕ) :
    (Phi0 V c n : sProp 𝕄) ⊢ iprop((∃ r, prngReg c r) ∗ Pipeline.scopedRest (Ix := Unit) (Name := ℕ) (U := UR sig nD τ) (Lvl := ℕ) (Val := Elt F) spec0 c) := by
  rw [scopedRest0_eq]
  unfold Phi0 rest0
  iintro ⟨⟨%s, -, Hs⟩, Hrest, Hp⟩
  isplitl [Hp]; · iexact Hp
  isplitl [Hs]
  · unfold owns
    icases Hs with ⟨%f, -, Hs⟩
    iexists f
    rw [(Memref.isWhole_whole (cc0_scratch0 : Ref sig .tc)).set_eq_univ]
    iexact Hs
  iexact Hrest

/-! ## The record -/

variable (m : (ℓ : Loc nD τ sig) → Buf (Elt F) ℓ) (a1 : (pcfg1 (F := F)).Adm)

theorem W2_v6_0 (c : Dev nD) : W2 m c (Proc.devRef .tc main_v6_0) = (dat0 (U1 m) c).arrAt 6 cfg0.N := by
  unfold W2
  rw [Function.update_of_ne (StableHlo.devRef_ne_of_ne (by decide)), Function.update_self]

theorem W2_v6_1 (c : Dev nD) : W2 m c (Proc.devRef .tc main_v6_1) = (dat0 (U1 m) c).arrAt 7 cfg0.N := by
  unfold W2
  rw [Function.update_self]

theorem W2_of_ne (c : Dev nD) (b : Ref sig .tc) (h0 : b ≠ main_v6_0) (h1 : b ≠ main_v6_1) :
    W2 m c (Proc.devRef .tc b) = W1 m c (Proc.devRef .tc b) := by
  unfold W2
  rw [Function.update_of_ne (StableHlo.devRef_ne_of_ne h1), Function.update_of_ne (StableHlo.devRef_ne_of_ne h0)]

set_option backward.isDefEq.respectTransparency.types false in
/-- THE FIRST REGION over the thread state: entered from every unscoped buffer at `W1`, left at `W2`. -/
def reg0 : Pipeline.RegionSeg (pcfgs (F := F)) (adm a1) (pdats m a1) () defs₀ 𝒱z Lz lvz 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ Lz lvz 0 fun _ _ => rfl
  pre c := iprop(StableHlo.held (c : Thread nD τ) (Pipeline.ucRefs τ sig) (W1 m c) ∗ Rz c)
  post c := iprop(StableHlo.held (c : Thread nD τ) (Pipeline.ucRefs τ sig) (W2 m c) ∗ Rz c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsp : (StableHlo.held (c : Thread nD τ) (Pipeline.ucRefs τ sig) (W1 m c) : sProp 𝕄)
        ⊢ iprop((dat0 (U1 m) c).arrays ((dat0 (U1 m) c).arrAt · 0) ∗ Pipeline.unscopedRest spec0 c (U1 m c)) := by
      rw [← Pipeline.unscopedBufs_held c (W1 m c), unscopedBufs_split0]
      exact sep_mono (hsplit0 (U1 m) c) .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a1 0 c).Φ 0 = Phi0 (U1 m) c 0 from rfl]
    iintro ⟨Hp, -, Hr⟩
    iapply (hin0 (U1 m) c)
    isplitl [Hp]; · iexact Hp
    iexact Hr
  hout c := by
    rw [Pipeline.ownSems0_none, show (pdats m a1 0 c).Φ (Fin.last _) = Phi0 (U1 m) c cfg0.N from rfl]
    iintro H
    ihave H' := (hout0 (U1 m) c cfg0.N) $$ H
    icases H' with ⟨Hp, Hr⟩
    isplitl [Hp]; · iexact Hp
    isplitr; · iempintro
    iexact Hr
  hexit c := by
    have hj := hjoin0 (U1 m) c (fun b => W2 m c b) (W2_v6_0 m c) (W2_v6_1 m c) (fun b h0 h1 => W2_of_ne m c b h0 h1)
    rw [Pipeline.unscopedBufs_held] at hj
    iintro ⟨Ha, HO, HY, Hrest⟩
    imodintro
    isplitl [Ha Hrest]
    · iapply hj; isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Oblig1.lean ====
import proofs.«401359_j57629871178315_3_alg».proof.Proof.Gen.KernelIdeal.Launch
import proofs.«401359_j57629871178315_3_alg».proof.Proof.Gen.KernelIdeal.Skeleton
import proofs.«401359_j57629871178315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KI.Body1
import proofs.«401359_j57629871178315_3_alg».proof.Proof.KI.Data1

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's body obligation

At every grid point the body, handed the permutation table at its admissible contents, each input window's staging
buffer at its block, the output window's buffer at whatever it holds and the accumulator at what the point before
left, returns the table and the inputs as they were, the accumulator advanced by the point, and the output at the
accumulator where the point stores it (last column tile); where the point stores nothing into the output window
it does not write the window back either, and the buffer goes back as it was found. The table's contents stay a
variable throughout: every fact about the schedule is a fact about the grid alone. -/

variable (V : (c : Dev nD) → (b : Ref sig .tc) → Buf (Elt F) ((c : Thread nD τ).loc b))
variable (a : (pcfg1 (F := F)).Adm)

/-! ## What the body finds in the input windows' buffers

An input window's buffer holds its block at every point, fetched there or not: unfetched, the block index has
not moved since the point before. -/

theorem before1_0 (c : Dev nD) (t : Fin (cfg1 a).N) (d) : (dat1 V a c).before 0 t d = iblk1 V a c 0 t :=
  ((dat1 V a c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin (cfg1 a).N) (d) : (dat1 V a c).before 1 t d = iblk1 V a c 1 t :=
  ((dat1 V a c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin (cfg1 a).N) (d) : (dat1 V a c).before 2 t d = iblk1 V a c 2 t :=
  ((dat1 V a c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

theorem before1_3 (c : Dev nD) (t : Fin (cfg1 a).N) (d) : (dat1 V a c).before 3 t d = iblk1 V a c 3 t :=
  ((dat1 V a c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

theorem before1_4 (c : Dev nD) (t : Fin (cfg1 a).N) (d) : (dat1 V a c).before 4 t d = iblk1 V a c 4 t :=
  ((dat1 V a c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## Where the output window is idle, and that it is not written back there -/

theorem liveAt1_0 (i : (cfg1 a).grid.Coords) : (cfg1 a).idle 0 i = false := rfl
theorem liveAt1_1 (i : (cfg1 a).grid.Coords) : (cfg1 a).idle 1 i = false := rfl
theorem liveAt1_2 (i : (cfg1 a).grid.Coords) : (cfg1 a).idle 2 i = false := rfl
theorem liveAt1_3 (i : (cfg1 a).grid.Coords) : (cfg1 a).idle 3 i = false := rfl
theorem liveAt1_4 (i : (cfg1 a).grid.Coords) : (cfg1 a).idle 4 i = false := rfl

theorem idleAt1_5 (i : (cfg1 a).grid.Coords) (h : ¬ k1_cond3 i = 1#1) : (cfg1 a).idle 5 i = true := by
  show (!(k1_cond3 i == 1#1)) = true
  simp [h]

theorem liveAt1_5 (i : (cfg1 a).grid.Coords) (h : k1_cond3 i = 1#1) : (cfg1 a).idle 5 i = false := by
  show (!(k1_cond3 i == 1#1)) = false
  simp [h]

/-- Off the last column tile the next point exists and lies in the same grid row: a fact of the grid alone. -/
theorem row_next1 : ∀ t : Fin grid1.N, ¬ k1_cond3 (grid1.coords t) = 1#1 →
    ∃ h : t.val + 1 < grid1.N, (grid1.coords ⟨t.val + 1, h⟩) 0 = (grid1.coords t) 0 := by
  decide +kernel

/-- The output window is written back only at the last column tile: its block index reads the grid row only
    (whatever word the table holds there), and off the last column tile the next point is in the same row. -/
theorem noFlush1_5 (t : Fin (cfg1 a).N) (h : ¬ k1_cond3 ((cfg1 a).grid.coords t) = 1#1) : ((cfg1 a).win 5).flush t = false := by
  obtain ⟨hlt, hrow⟩ := row_next1 t h
  have hidx : ((cfg1 a).win 5).index ⟨t.val + 1, hlt⟩ = ((cfg1 a).win 5).index t :=
    ((cfg1 a).win 5).hreads _ _ (fun ax hax => by
      have key : ∀ ax : Fin 2, reads1_5 ax = true → (grid1.coords ⟨t.val + 1, hlt⟩) ax = (grid1.coords t) ax := by
        intro ax hax; fin_cases ax
        · exact hrow
        · exact absurd hax (by decide)
      exact key ax hax)
  have h1 : ¬ (t.val + 1 = (cfg1 a).grid.N) := Nat.ne_of_lt hlt
  have h2 : ¬ (∃ h : t.val + 1 < (cfg1 a).grid.N, ((cfg1 a).win 5).index ⟨t.val + 1, h⟩ ≠ ((cfg1 a).win 5).index t) :=
    fun ⟨_, hne⟩ => hne hidx
  unfold Window.flush
  rw [decide_eq_false h1, decide_eq_false h2, Bool.or_false, Bool.and_false]

/-- The first point is at column tile 0: it resets the accumulator. -/
theorem cond1_zero1 : ∀ t : Fin grid1.N, t.val = 0 → k1_cond1 (grid1.coords t) = 1#1 := by
  decide +kernel

/-! ## The accumulator's step -/

/-- Where the point resets the accumulator, what it held before does not matter. -/
theorem hAccOut_of_cond1 (i : grid1.Coords) (h : k1_cond1 i = 1#1) (tbl : Vec F S4 .i32) (x3 : Vec F S1024x1024 .f32) (x4 : Vec F S1024x1 .i32)
    (x5 : Vec F S1x1024 .i32) (x6 : Vec F S1024x1 .f32) (x7 : Vec F S1x1024 .f32) (s s' : Vec F S1024x1 .f32) :
    hAccOut i tbl x3 x4 x5 x6 x7 s = hAccOut i tbl x3 x4 x5 x6 x7 s' := by
  unfold hAccOut hAccIn
  simp only [if_pos h]

/-- From what the invariant says of the accumulator before point `t`, the body leaves the accumulation's value at `t`. -/
theorem hAccOut_eq_acc1 (c : Dev nD) (t : Fin (cfg1 a).N) (s : Vec F S1024x1 .f32) (hs : t.val ≠ 0 → s = accBefore1 V a c t.val) :
    hAccOut ((cfg1 a).grid.coords t) (tblOf a c) (iblk1 V a c 0 t) (iblk1 V a c 1 t) (iblk1 V a c 2 t) (iblk1 V a c 3 t) (iblk1 V a c 4 t) s = acc1 V a c t.val := by
  rw [acc1_eq]
  by_cases hz : t.val = 0
  · exact hAccOut_of_cond1 _ (cond1_zero1 t hz) _ _ _ _ _ _ _ _
  · rw [hs hz]

/-! ## The table, as the body is handed it -/

/-- The pipeline holds the one prefetched table whole at its admissible contents: that is owning the table's
    buffer, as a memref, at those contents read through its whole view. -/
theorem tblHeld_eq (c : Dev nD) :
    (Pipeline.prefHeld pre1 c (fun _ => fullShare) a.1 : sProp 𝕄) = owns (c : Thread nD τ) (Memref.whole main_c) fullShare (tblOf a c) := by
  unfold Pipeline.prefHeld tblOf
  rw [show (Finset.univ : Finset (Fin pre1.K)) = {(0 : Fin 1)} from by decide, bigSep_singleton]
  simp only [Memref.view_whole, View.read_whole]
  exact (owns_whole (c : Thread nD τ) main_c fullShare (a.1 0)).symm

/-! ## The staging memrefs at a point, and the body as the pipeline calls it there -/

abbrev st1_0 (t : Fin (cfg1 a).N) : Memref sig .tc .vmem S1024x1024 .f32 := spec1_0.stage ((cfg1 a).slots t 0)
abbrev hst1_0 (t : Fin (cfg1 a).N) : (st1_0 a t).IsWhole := hstage1_0 (((cfg1 a).slots t 0).cast nbuf1_0)
abbrev st1_1 (t : Fin (cfg1 a).N) : Memref sig .tc .vmem S1024x1 .i32 := spec1_1.stage ((cfg1 a).slots t 1)
abbrev hst1_1 (t : Fin (cfg1 a).N) : (st1_1 a t).IsWhole := hstage1_1 (((cfg1 a).slots t 1).cast nbuf1_1)
abbrev st1_2 (t : Fin (cfg1 a).N) : Memref sig .tc .vmem S1x1024 .i32 := spec1_2.stage ((cfg1 a).slots t 2)
abbrev hst1_2 (t : Fin (cfg1 a).N) : (st1_2 a t).IsWhole := hstage1_2 (((cfg1 a).slots t 2).cast nbuf1_2)
abbrev st1_3 (t : Fin (cfg1 a).N) : Memref sig .tc .vmem S1024x1 .f32 := spec1_3.stage ((cfg1 a).slots t 3)
abbrev hst1_3 (t : Fin (cfg1 a).N) : (st1_3 a t).IsWhole := hstage1_3 (((cfg1 a).slots t 3).cast nbuf1_3)
abbrev st1_4 (t : Fin (cfg1 a).N) : Memref sig .tc .vmem S1x1024 .f32 := spec1_4.stage ((cfg1 a).slots t 4)
abbrev hst1_4 (t : Fin (cfg1 a).N) : (st1_4 a t).IsWhole := hstage1_4 (((cfg1 a).slots t 4).cast nbuf1_4)
abbrev st1_5 (t : Fin (cfg1 a).N) : Memref sig .tc .vmem S1024x1 .f32 := spec1_5.stage ((cfg1 a).slots t 5)
abbrev hst1_5 (t : Fin (cfg1 a).N) : (st1_5 a t).IsWhole := hstage1_5 (((cfg1 a).slots t 5).cast nbuf1_5)

/-- The kernel body at point `t`, on what the pipeline calls it with (the body table's row at the slots). -/
abbrev bodyAt1 (t : Fin (cfg1 a).N) : Prog (TpuEff nD τ sig (Elt F) Λ₀ .tc) PUnit :=
  cc1__hinge_kernel ((cfg1 a).grid.coords t) (Memref.whole main_c) (Memref.isWhole_whole _) (st1_0 a t) (hst1_0 a t) (st1_1 a t) (hst1_1 a t) (st1_2 a t) (hst1_2 a t) (st1_3 a t) (hst1_3 a t) (st1_4 a t) (hst1_4 a t) (st1_5 a t) (hst1_5 a t) (Memref.whole cc1_scratch0) (Memref.isWhole_whole _)

/-! ## The output window's post -/

/-- The output window: at the accumulation's value where the point stores it, else back as found. -/
theorem leaves1_5 (c : Dev nD) (t : Fin (cfg1 a).N) (d5 : ((cfg1 a).win 5).block.Idx → Elt F ((cfg1 a).win 5).elt) (s : Vec F S1024x1 .f32)
    (hs : t.val ≠ 0 → s = accBefore1 V a c t.val) :
    owns (c : Thread nD τ) (st1_5 a t) fullShare
        (if k1_cond3 ((cfg1 a).grid.coords t) = 1#1 then hAccOut ((cfg1 a).grid.coords t) (tblOf a c) (iblk1 V a c 0 t) (iblk1 V a c 1 t) (iblk1 V a c 2 t) (iblk1 V a c 3 t) (iblk1 V a c 4 t) s
          else ((dat1 V a c).before 5 t d5 : Vec F S1024x1 .f32))
      ⊢ ((dat1 V a c).leavesExact 5 t : sProp 𝕄) := by
  by_cases h3 : k1_cond3 ((cfg1 a).grid.coords t) = 1#1
  · rw [show (dat1 V a c).leavesExact 5 t = owns (c : Thread nD τ) (st1_5 a t) fullShare ((dat1 V a c).after 5 t) from (by
      unfold Dat.leavesExact; rw [liveAt1_5 a _ h3]; rfl), after1_5]
    exact Entails.of_eq (congrArg _ ((if_pos h3).trans (hAccOut_eq_acc1 V a c t s hs)))
  · refine (Entails.of_eq (congrArg _ (if_neg h3))).trans ?_
    rw [Dat.leavesExact_idle (dat1 V a c) 5 t (idleAt1_5 a _ h3) (noFlush1_5 a t h3)]
    iintro H; iexists d5; iexact H

/-! ## The body obligation, at a generic point -/

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d))
    ∗ (∃ d, owns (c : Thread nD τ) (st1_3 a t) fullShare ((dat1 V a c).before 3 t d))
    ∗ (∃ d, owns (c : Thread nD τ) (st1_4 a t) fullShare ((dat1 V a c).before 4 t d))
    ∗ (∃ d, owns (c : Thread nD τ) (st1_5 a t) fullShare ((dat1 V a c).before 5 t d)))

/-- and what it returns. -/
def bodyPost1 (c : Dev nD) (t : Fin (cfg1 a).N) : sProp 𝕄 :=
  iprop((dat1 V a c).Φ t.succ ∗ (dat1 V a c).owesAt () t.succ
    ∗ (dat1 V a c).leavesExact 0 t
    ∗ (dat1 V a c).leavesExact 1 t
    ∗ (dat1 V a c).leavesExact 2 t
    ∗ (dat1 V a c).leavesExact 3 t
    ∗ (dat1 V a c).leavesExact 4 t
    ∗ (dat1 V a c).leavesExact 5 t)

set_option maxHeartbeats 4000000 in
/-- The body at any point: the inputs' buffers hold their blocks, the invariant hands over the table at its
    admissible contents and the accumulator at what the point before left (at anything before the first point,
    which resets it), so the body's triple applies; the other scoped buffers, the generator register and what the
    core owes pass through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0 V a c, before1_1 V a c, before1_2 V a c, before1_3 V a c, before1_4 V a c]
  rw [show (dat1 V a c).owesAt () t.succ = (dat1 V a c).owesAt () t.castSucc from rfl]
  rw [Phi1_eq, Phi1_eq]
  simp only [Fin.coe_castSucc, Fin.val_succ]
  unfold Phi1
  rw [tblHeld_eq]
  rw [show (dat1 V a c).leavesExact 0 t = owns (c : Thread nD τ) (st1_0 a t) fullShare ((dat1 V a c).after 0 t) from (by
    unfold Dat.leavesExact; rw [liveAt1_0 a _]; rfl), after1_0]
  rw [show (dat1 V a c).leavesExact 1 t = owns (c : Thread nD τ) (st1_1 a t) fullShare ((dat1 V a c).after 1 t) from (by
    unfold Dat.leavesExact; rw [liveAt1_1 a _]; rfl), after1_1]
  rw [show (dat1 V a c).leavesExact 2 t = owns (c : Thread nD τ) (st1_2 a t) fullShare ((dat1 V a c).after 2 t) from (by
    unfold Dat.leavesExact; rw [liveAt1_2 a _]; rfl), after1_2]
  rw [show (dat1 V a c).leavesExact 3 t = owns (c : Thread nD τ) (st1_3 a t) fullShare ((dat1 V a c).after 3 t) from (by
    unfold Dat.leavesExact; rw [liveAt1_3 a _]; rfl), after1_3]
  rw [show (dat1 V a c).leavesExact 4 t = owns (c : Thread nD τ) (st1_4 a t) fullShare ((dat1 V a c).after 4 t) from (by
    unfold Dat.leavesExact; rw [liveAt1_4 a _]; rfl), after1_4]
  iintro ⟨⟨HT, ⟨%s, %hs, HS⟩, Hrest, Hg⟩, Ho, ⟨%d0, H0⟩, ⟨%d1, H1⟩, ⟨%d2, H2⟩, ⟨%d3, H3⟩, ⟨%d4, H4⟩, ⟨%d5, H5⟩⟩
  iapply (sound_kernel1 c Set.univ ((cfg1 a).grid.coords t) _ _ _ _ _ _ _ _ _ _ _ _ _ _ _ _
    (tblOf a c) (iblk1 V a c 0 t) (iblk1 V a c 1 t) (iblk1 V a c 2 t) (iblk1 V a c 3 t) (iblk1 V a c 4 t)
    ((dat1 V a c).before 5 t d5) s _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨HT, H0, H1, H2, H3, H4, H5, HS⟩
  isplitl [HT HS Hrest Hg]
  · isplitl [HT]; · iexact HT
    isplitl [HS]
    · iexists _; isplitr
      swap; · iexact HS
      ipureintro; intro _
      exact hAccOut_eq_acc1 V a c t s hs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  iapply (leaves1_5 V a c t d5 s hs); iexact H5

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Cert.KernelIdeal.Hand

end
-- ==== Proof.KI.Reg1.lean ====
import proofs.«401359_j57629871178315_3_alg».proof.Proof.Gen.KernelIdeal.Launch
import proofs.«401359_j57629871178315_3_alg».proof.Proof.Gen.KernelIdeal.Skeleton
import proofs.«401359_j57629871178315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KI.Launch
import proofs.«401359_j57629871178315_3_alg».proof.Proof.KI.Oblig1

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region among @main's segments

Entered from every unscoped buffer held at the valuation after the reshape between the regions, left at that
valuation updated at the result array. The permutation table is an unscoped buffer that is no window's array: it
goes into the region's invariant whole, at its admissible contents, and comes back out of it unchanged; the carried
accumulator is a scoped buffer no window stages: the invariant takes it at anything and gives it back forgotten. -/

variable (V : (c : Dev nD) → (b : Ref sig .tc) → Buf (Elt F) ((c : Thread nD τ).loc b))
variable (a : (pcfg1 (F := F)).Adm)

/-- The invariant before the first point, from what the region hands it: the generator register, the table at its
    admissible contents, and the scoped buffers no window stages (the accumulator among them, at anything). -/
theorem hin1 (c : Dev nD) :
    iprop((∃ r, prngReg c r) ∗ Pipeline.prefHeld pre1 c (fun _ => fullShare) a.1
        ∗ Pipeline.scopedRest (Ix := Unit) (Name := ℕ) (U := UR sig nD τ) (Lvl := ℕ) (Val := Elt F) spec1 c) ⊢ (Phi1 V a c 0 : sProp 𝕄) := by
  rw [scopedRest1_eq]
  unfold Phi1 rest1
  iintro ⟨Hp, HT, R0, R1, R2, R3, R4, R5, R6, R7, R8, R9, R10, R11, R12, R13, ⟨%f, Hs⟩⟩
  isplitl [HT]; · iexact HT
  isplitl [Hs]
  · iexists (Memref.whole cc1_scratch0 : Memref sig .tc .vmem S1024x1 .f32).view.read (Elt F) f
    isplitr
    · ipureintro; intro h; exact absurd rfl h
    unfold owns
    iexists f
    isplitr
    · ipureintro; rfl
    rw [(Memref.isWhole_whole (cc1_scratch0 : Ref sig .tc)).set_eq_univ]
    iexact Hs
  isplitl [R0 R1 R2 R3 R4 R5 R6 R7 R8 R9 R10 R11 R12 R13]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  iexact Hp

/-- The invariant after any point gives those back, the accumulator's contents forgotten. -/
theorem hout1 (c : Dev nD) (n : ℕ) :
    (Phi1 V a c n : sProp 𝕄) ⊢ iprop(iprop(Pipeline.prefHeld pre1 c (fun _ => fullShare) a.1 ∗ ∃ r, prngReg c r)
        ∗ Pipeline.scopedRest (Ix := Unit) (Name := ℕ) (U := UR sig nD τ) (Lvl := ℕ) (Val := Elt F) spec1 c) := by
  rw [scopedRest1_eq]
  unfold Phi1 rest1
  iintro ⟨HT, ⟨%s, -, Hs⟩, ⟨R0, R1, R2, R3, R4, R5, R6, R7, R8, R9, R10, R11, R12, R13⟩, Hp⟩
  isplitl [HT Hp]
  · isplitl [HT]; · iexact HT
    iexact Hp
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  unfold owns
  icases Hs with ⟨%f, -, Hs⟩
  iexists f
  rw [(Memref.isWhole_whole (cc1_scratch0 : Ref sig .tc)).set_eq_univ]
  iexact Hs

/-! ## The valuation after the region -/

variable (m : (ℓ : Loc nD τ sig) → Buf (Elt F) ℓ) (a1 : (pcfg1 (F := F)).Adm)

theorem W4_v8 (c : Dev nD) : W4 m a1 c (Proc.devRef .tc main_v8) = (dat1 (U3 m) a1 c).arrAt 5 (cfg1 a1).N := by
  unfold W4
  exact Function.update_self ..

theorem W4_of_ne (c : Dev nD) (b : Ref sig .tc) (h : b ≠ main_v8) :
    W4 m a1 c (Proc.devRef .tc b) = W3 m c (Proc.devRef .tc b) := by
  unfold W4
  exact Function.update_of_ne (StableHlo.devRef_ne_of_ne h) ..

/-- At the region's exit each of its arrays holds what the pipeline leaves: an input as entered, the output its
    write-backs folded. -/
theorem hF1 (c : Dev nD) (w : Fin (cfg1 a1).W) :
    (dat1 (U3 m) a1 c).arrAt w (cfg1 a1).N = W4 m a1 c (Proc.devRef .tc (Pipeline.arrRef spec1 w)) := by
  have hi : ∀ w' : Fin (cfg1 a1).W, ((cfg1 a1).win w').isOut = false → Pipeline.arrRef spec1 w' ≠ main_v8 →
      (dat1 (U3 m) a1 c).arrAt w' (cfg1 a1).N = W4 m a1 c (Proc.devRef .tc (Pipeline.arrRef spec1 w')) := fun w' ho hne => by
    rw [(dat1 (U3 m) a1 c).arrAt_in w' ho, A_eq1, W4_of_ne m a1 c _ hne]
  match w with
  | ⟨0, _⟩ => exact hi (0 : Fin 6) rfl (by decide)
  | ⟨1, _⟩ => exact hi (1 : Fin 6) rfl (by decide)
  | ⟨2, _⟩ => exact hi (2 : Fin 6) rfl (by decide)
  | ⟨3, _⟩ => exact hi (3 : Fin 6) rfl (by decide)
  | ⟨4, _⟩ => exact hi (4 : Fin 6) rfl (by decide)
  | ⟨5, _⟩ => exact (W4_v8 m a1 c).symm

/-- Every other buffer holds what it held at entry. -/
theorem hrest1 (c : Dev nD) (b : Ref sig .tc) (hb : b ∉ Finset.univ.image (Pipeline.arrRef spec1)) :
    W4 m a1 c (Proc.devRef .tc b) = U3 m c b :=
  W4_of_ne m a1 c b fun e => hb (Finset.mem_image.mpr ⟨(5 : Fin 6), Finset.mem_univ _, e.symm⟩)

/-! ## The record -/

set_option backward.isDefEq.respectTransparency.types false in
/-- THE SECOND REGION over the thread state: entered from every unscoped buffer at `W3`, left at `W4`; the table's
    admissible contents are what the entry valuation holds at the table's buffer (`ha1`). -/
def reg1 (ha1 : ∀ c : Dev nD, a1.1 = fun k => U3 m c (pre1.ref k)) :
    Pipeline.RegionSeg (pcfgs (F := F)) (adm a1) (pdats m a1) () defs₀ 𝒱z Lz lvz 1 where
  win := winFacts1.to₀
  block_pos := block_pos1
  stage_whole := stage_whole1
  K := PEmpty
  osem k := k.elim
  ho := Pipeline.OwnSemFacts.none _
  hbody c := (body_obligation1 (U3 m) a1 c).loose
  hwaits := Pipeline.hwaits_of_owed_zero _ _ _ _ Lz lvz 1 fun _ _ => rfl
  pre c := iprop(StableHlo.held (c : Thread nD τ) (Pipeline.ucRefs τ sig) (W3 m c) ∗ Rz c)
  post c := iprop(StableHlo.held (c : Thread nD τ) (Pipeline.ucRefs τ sig) (W4 m a1 c) ∗ Rz c)
  X c := iprop(∃ r, prngReg c r)
  Y c := iprop(Pipeline.prefHeld pre1 c (fun _ => fullShare) a1.1 ∗ ∃ r, prngReg c r)
  Z c := Pipeline.unscopedRestP (Ix := Unit) (Name := ℕ) (U := UR sig nD τ) (Lvl := ℕ) pre1 spec1 c (U3 m c)
  hentry c := by
    rw [Pipeline.ownSems0_none]
    have hsplit : (StableHlo.held (c : Thread nD τ) (Pipeline.ucRefs τ sig) (W3 m c) : sProp 𝕄)
        ⊢ iprop((dat1 (U3 m) a1 c).arrays ((dat1 (U3 m) a1 c).arrAt · 0)
          ∗ Pipeline.prefHeld pre1 c (fun _ => fullShare) a1.1 ∗ Pipeline.unscopedRestP pre1 spec1 c (U3 m c)) := by
      rw [← Pipeline.unscopedBufs_held c (W3 m c), ha1 c, ← Pipeline.unscopedRest_split preFacts1 c (U3 m c)]
      exact Pipeline.arrays_of_unscopedBufs (p := 1) (pcfgs (F := F)) (adm a1) (pdats m a1) winFacts1 arr_whole1 c
        ((pdats m a1 1 c).share_full fun _ => rfl) (U3 m c) fun _ => rfl
    iintro ⟨⟨Hub, Hp, HO⟩, -, -⟩
    ihave H := hsplit $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a1 1 c).Φ 0 = Phi1 (U3 m) a1 c 0 from rfl]
    exact hin1 (U3 m) a1 c
  hout c := by
    rw [Pipeline.ownSems0_none, show (pdats m a1 1 c).Φ (Fin.last _) = Phi1 (U3 m) a1 c (cfg1 a1).N from rfl]
    iintro H
    ihave H' := (hout1 (U3 m) a1 c (cfg1 a1).N) $$ H
    icases H' with ⟨HY, Hr⟩
    isplitl [HY]; · iexact HY
    isplitr; · iempintro
    iexact Hr
  hexit c := by
    have hjoin : iprop((dat1 (U3 m) a1 c).arrays ((dat1 (U3 m) a1 c).arrAt · (cfg1 a1).N)
          ∗ Pipeline.prefHeld pre1 c (fun _ => fullShare) a1.1 ∗ Pipeline.unscopedRestP pre1 spec1 c (U3 m c))
        ⊢ (StableHlo.held (c : Thread nD τ) (Pipeline.ucRefs τ sig) (W4 m a1 c) : sProp 𝕄) := by
      rw [← Pipeline.unscopedBufs_held c (W4 m a1 c), ha1 c, ← Pipeline.unscopedRest_split preFacts1 c (U3 m c)]
      exact Pipeline.unscopedBufs_of_arrays (p := 1) (pcfgs (F := F)) (adm a1) (Ix := Unit) (Name := ℕ) (U := UR sig nD τ) (Lvl := ℕ)
        winFacts1 arr_whole1 c (pdats m a1) ((pdats m a1 1 c).share_full fun _ => rfl)
        (U3 m c) (fun b => W4 m a1 c b) ((pdats m a1 1 c).arrAt · (cfg1 a1).N) (hF1 m a1 c) (hrest1 m a1 c)
    iintro ⟨Ha, HO, ⟨HT, Hp⟩, Hrest⟩
    imodintro
    isplitl [Ha HT Hrest]
    · iapply hjoin
      isplitl [Ha]; · iexact Ha
      isplitl [HT]; · iexact HT
      iexact Hrest
    isplitl [Hp]; · iexact Hp
    unfold Pipeline.Dat.owesAt Pipeline.owesWithin
    icases HO with ⟨%W, -, HO⟩; iexists W; iexact HO

end Cert.KernelIdeal.Hand

end
-- ==== Proof.KI.Run.lean ====
import proofs.«401359_j57629871178315_3_alg».proof.Proof.Gen.KernelIdeal.Launch
import proofs.«401359_j57629871178315_3_alg».proof.Proof.Gen.KernelIdeal.Skeleton
import proofs.«401359_j57629871178315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KI.Reg0
import proofs.«401359_j57629871178315_3_alg».proof.Proof.KI.Reg1

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a1 : (pcfg1 (F := F)).Adm)

/-! # The run of @main

@main as seven segments — the first host stretch, the first region, the reshape between the regions, the second
region, the three stretches of the host tail — composed by the library's launch theorem for several regions: each segment is entered from what the one
before it left, the thread state being every unscoped buffer at the fold's valuation beside the generator register and
the core owing nothing. -/

/-- A host stretch as a segment: the unscoped references from the contents `W`, `Rz` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱z Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rz

variable (R1 : Pipeline.RegionSeg (pcfgs (F := F)) (adm a1) (pdats m a1) () defs₀ 𝒱z Lz lvz 1)

/-- @main's seven segments in order. -/
abbrev segs : List (Pipeline.Seg (pcfgs (F := F)) (adm a1) (pdats m a1) () defs₀ 𝒱z Lz lvz) :=
  [ .host (hseg hostOps0 hostOps0_sub hostOps0_fresh (W0 m)),
    .region (reg0 m a1),
    .host (hseg hostOps1 hostOps1_sub hostOps1_fresh (W2 m)),
    .region R1,
    .host (hseg hostOps2 hostOps2_sub hostOps2_fresh (W4 m a1)),
    .host (hseg hostOps2_1 hostOps2_1_sub hostOps2_1_fresh (W5 m a1)),
    .host (hseg hostOps2_2 hostOps2_2_sub hostOps2_2_fresh (W6 m a1)) ]

set_option backward.isDefEq.respectTransparency.types false in
/-- THE RUN: every weakly fair execution of @main terminates, and every final memory holds each unscoped buffer at
    the last valuation of the fold. -/
theorem run_main_of
    (hpre1 : ∀ c : Dev nD, R1.pre c = iprop(StableHlo.held (c : Thread nD τ) (Pipeline.ucRefs τ sig) (W3 m c) ∗ Rz c))
    (hpost1 : ∀ c : Dev nD, R1.post c = iprop(StableHlo.held (c : Thread nD τ) (Pipeline.ucRefs τ sig) (W4 m a1 c) ∗ Rz c)) :
    θ_run defs (onTc (τ := τ) (main (F := F))) ⟨m, fun _ => 0, ρ⟩ (fun r => ∀ c : Dev nD,
      ∀ b ∈ Pipeline.ucRefs τ sig, r.2.mem (((c : Thread nD τ)).1, b) = W7 m a1 c b) :=
  Pipeline.θ_run_regions_kit (pcfgs (F := F)) (adm a1) (pdats m a1) () (cellOf_inj (adm a1)) emb₁ defs₀ 𝒱z Lz lvz m ρ main (segs m a1 R1)
    (fun c Q => by
      rewrite [main_chain c, Pipeline.Seg.run_eq_chain,
        show (segs m a1 R1).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a1)) (cellOf_inj (adm a1))) (Pipeline.launchToks (Pipeline.pin (pcfgs (F := F)) (adm a1)) (cellOf_inj (adm a1))))
    (hu₀ := by
      iintro Hu; imodintro
      isplitl [Hu]
      · iapply (show (ownU (initOf (Pipeline.cells (Pipeline.pin (pcfgs (F := F)) (adm a1)) (cellOf_inj (adm a1))) (Pipeline.launchToks (Pipeline.pin (pcfgs (F := F)) (adm a1)) (cellOf_inj (adm a1)))) : sProp 𝕄)
            ⊢ BI.own (emb₁ (initOf (Pipeline.cells (Pipeline.pin (pcfgs (F := F)) (adm a1)) (cellOf_inj (adm a1))) (Pipeline.launchToks (Pipeline.pin (pcfgs (F := F)) (adm a1)) (cellOf_inj (adm a1))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rz c))
    (Tₙ := fun c => iprop(StableHlo.held (c : Thread nD τ) (Pipeline.ucRefs τ sig) (W7 m a1 c) ∗ ∃ r, prngReg c r))
    (hch := ⟨fun _ => .rfl, fun _ => .rfl, fun _ => .rfl, fun c => Entails.of_eq (hpre1 c).symm, fun c => Entails.of_eq (hpost1 c), fun _ => .rfl, fun _ => .rfl, fun c => sep_assoc'⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m a1 c b)
    (hfin := fun c s' => by
      iintro ⟨⟨Hh, -⟩, HSI⟩
      unfold StableHlo.held
      imodintro
      iapply (pointsTo_read_all (Pipeline.ucRefs τ sig) (fun b => (((c : Thread nD τ)).1, b)) (W7 m a1 c) s')
      isplitl [Hh] <;> iassumption)
    (hQ := fun s h c => h c)

/-- THE RUN at the second region's record: for table contents that are what the table buffer holds when that region
    is entered. -/
theorem run_main (ha1 : ∀ c : Dev nD, a1.1 = fun k => U3 m c (pre1.ref k)) :
    θ_run defs (onTc (τ := τ) (main (F := F))) ⟨m, fun _ => 0, ρ⟩ (fun r => ∀ c : Dev nD,
      ∀ b ∈ Pipeline.ucRefs τ sig, r.2.mem (((c : Thread nD τ)).1, b) = W7 m a1 c b) :=
  run_main_of m ρ a1 (reg1 m a1 ha1) (fun _ => rfl) (fun _ => rfl)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Table.lean ====
import proofs.«401359_j57629871178315_3_alg».proof.Proof.Gen.KernelIdeal.Launch
import proofs.«401359_j57629871178315_3_alg».proof.Proof.Gen.KernelIdeal.Skeleton
import proofs.«401359_j57629871178315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import proofs.«401359_j57629871178315_3_alg».proof.Proof.KI.Body1
import proofs.«401359_j57629871178315_3_alg».proof.Proof.KI.Data1

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The permutation table's words as admissible contents

The second region's index maps read a table of four words, `[0, 3, 1, 2]`. Each word is at most 3, and so is its
signed maximum with a column tile below 4, so every block the maps name lies inside its array at every grid point:
the table's words are admissible contents. Read through the table buffer's whole view they are the words
themselves, and the body's row word at a grid point is the table's word at the logical row tile. -/

/-- The permutation table's words as the table's contents. -/
def tblLit : pre1.Contents (Elt F) := fun k => match k with | ⟨0, _⟩ => fun i => lit0 (S4.rowMajor i)

theorem tbl_word (i : grid1.Coords) :
    (tblLit (F := F)).at 0 (Rect.unit (s := S4) (k1_off1 i) S1.size (Facts₀.k1_off1_inb i)) Facts₀.numel1_S1
      = lit0 ⟨(i 0).val, (i 0).isLt⟩ := by
  have e : (tblLit (F := F)).at 0 (Rect.unit (s := S4) (k1_off1 i) S1.size (Facts₀.k1_off1_inb i)) Facts₀.numel1_S1
      = lit0 (S4.rowMajor ((Rect.unit (s := S4) (k1_off1 i) S1.size (Facts₀.k1_off1_inb i)).emb
          (Shape.Idx.first (Facts₀.numel1_S1.symm ▸ Nat.one_pos)))) := rfl
  rw [e]
  congr 1
  apply Fin.ext
  rw [Shape.rowMajor_val_one, Rect.emb_apply]
  have h4 : (i 0).val < 4 := (i 0).isLt
  show (BitVec.ofNat 32 (i 0).val).toNat + 1 * 0 = (i 0).val
  rw [BitVec.toNat_ofNat, Nat.mod_eq_of_lt (by omega)]
  omega

/-- Every word of the table is at most 3, and so is its signed maximum with a column tile: the blocks they name lie
    inside their arrays. -/
theorem bound_sq (p q : Fin 4) (a : Fin 2) :
    (![(lit0 p).toNat, (Scalar.maxsi (lit0 p) (BitVec.ofNat 32 q.val)).toNat] a + 1) * S1024x1024.size a
      ≤ S4096x4096.size a := by
  revert p q a; decide

theorem bound_col (p : Fin 4) (a : Fin 2) :
    (![(lit0 p).toNat, (0#32 : BitVec 32).toNat] a + 1) * S1024x1.size a ≤ S4096x1.size a := by
  revert p a; decide

theorem ok_tblLit : ok1 (F := F) (tblLit (F := F)) := by
  unfold ok1
  refine ⟨fun i => ⟨?_, Or.inl rfl⟩, fun i => ⟨?_, Or.inl rfl⟩, fun i => ⟨?_, Or.inl rfl⟩, fun i => ⟨?_, Or.inl rfl⟩⟩
  · intro a
    unfold cc1_transform_0
    erw [tbl_word (F := F) i]
    exact bound_sq ⟨(i 0).val, (i 0).isLt⟩ ⟨(i 1).val, (i 1).isLt⟩ a
  · intro a
    unfold cc1_transform_1
    erw [tbl_word (F := F) i]
    exact bound_col ⟨(i 0).val, (i 0).isLt⟩ a
  · intro a
    unfold cc1_transform_3
    erw [tbl_word (F := F) i]
    exact bound_col ⟨(i 0).val, (i 0).isLt⟩ a
  · intro a
    unfold cc1_transform_5
    erw [tbl_word (F := F) i]
    exact bound_col ⟨(i 0).val, (i 0).isLt⟩ a

/-- The table's words as admissible contents of the second region. -/
def admLit : (pcfg1 (F := F)).Adm := ⟨tblLit, ok_tblLit⟩

theorem lit0_eq (k : Fin 4) : lit0 k = (![0#32, 3#32, 1#32, 2#32] : Fin 4 → BitVec 32) k := by
  revert k; decide

theorem tblOf_admLit (c : Dev nD) (k : Fin 4) :
    tblOf (admLit (F := F)) c (ValueIdx.ix1 k) = (![0#32, 3#32, 1#32, 2#32] : Fin 4 → BitVec 32) k := by
  have e : tblOf (admLit (F := F)) c (ValueIdx.ix1 k) = lit0 (S4.rowMajor (ValueIdx.ix1 k)) := rfl
  rw [e]
  have hk : S4.rowMajor (ValueIdx.ix1 k) = k := Fin.ext (by rw [Shape.rowMajor_val_one])
  rw [hk]
  exact lit0_eq k

theorem rowWord_admLit (c : Dev nD) (i : grid1.Coords) :
    rowWord i (tblOf (admLit (F := F)) c) = (![0#32, 3#32, 1#32, 2#32] : Fin 4 → BitVec 32) (i 0) := by
  have hidx : (rTbl i).idx (Shape.Idx.first (Facts₀.numel1_S1.symm ▸ Nat.one_pos))
      = ValueIdx.ix1 (⟨(i 0).val, (i 0).isLt⟩ : Fin 4) := by
    funext a
    have ha : a = 0 := Subsingleton.elim _ _
    subst ha
    apply Fin.ext
    have h4 : (i 0).val < 4 := (i 0).isLt
    show (BitVec.ofNat 32 (i 0).val).toNat + 1 * 0 = (i 0).val
    rw [BitVec.toNat_ofNat, Nat.mod_eq_of_lt (by omega)]
    omega
  have e : rowWord i (tblOf (admLit (F := F)) c)
      = tblOf (admLit (F := F)) c ((rTbl i).idx (Shape.Idx.first (Facts₀.numel1_S1.symm ▸ Nat.one_pos))) := rfl
  rw [e, hidx, tblOf_admLit]
  rfl

end Cert.KernelIdeal.Hand
end
-- ==== Proof.KI.TableMem.lean ====
import proofs.«401359_j57629871178315_3_alg».proof.Proof.Gen.KernelIdeal.Launch
import proofs.«401359_j57629871178315_3_alg».proof.Proof.Gen.KernelIdeal.Skeleton
import proofs.«401359_j57629871178315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KI.Launch
import proofs.«401359_j57629871178315_3_alg».proof.Proof.KI.Table

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The table buffer at the second region's entry

The table of four words is written by the first host operation; neither the first region, which writes its two
results, nor the reshape between the regions, which writes the row form of the row sums, touches it. So where the
second region is entered the table buffer holds the permutation's words: the memory's table is the literal one. -/

/-- The table buffer where the second region is entered holds the permutation table's words. -/
theorem U3_main_c (m : (ℓ : Loc nD τ sig) → Buf (Elt F) ℓ) (c : Dev nD) :
    U3 m c main_c = fun i => lit0 (S4.rowMajor i) := by
  show StableHlo.after hostOps1 (W2 m c) (Proc.devRef .tc main_c) = _
  rw [StableHlo.after_of_writes_sub hostOps1 _ hostOps1_writes (by decide : main_c ∉ hostOps1_W)]
  unfold W2
  rw [Function.update_of_ne (StableHlo.devRef_ne_of_ne (by decide : main_c ≠ main_v6_1)),
    Function.update_of_ne (StableHlo.devRef_ne_of_ne (by decide : main_c ≠ main_v6_0))]
  show StableHlo.after hostOps0 (W0 m c) (Proc.devRef .tc main_c) = _
  after_results <;> rfl

/-- The literal table is the family of table buffers' contents where the second region is entered. -/
theorem U3_table (m : (ℓ : Loc nD τ sig) → Buf (Elt F) ℓ) (c : Dev nD) :
    (admLit (F := F)).1 = fun k => U3 m c (pre1.ref k) := by
  funext k
  match k with
  | ⟨0, _⟩ => exact (U3_main_c m c).symm

end Cert.KernelIdeal.Hand

end
-- ==== Proof.KI.ArgsKept.lean ====
import proofs.«401359_j57629871178315_3_alg».proof.Proof.Gen.KernelIdeal.Launch
import proofs.«401359_j57629871178315_3_alg».proof.Proof.Gen.KernelIdeal.Skeleton
import proofs.«401359_j57629871178315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KI.Launch

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The two arguments reach the end as launched

No host stretch writes an argument array and no region may change one: through every boundary of the program the
embeddings and the labels are what the launch memory holds. -/

variable (m : (ℓ : Loc nD τ sig) → Buf (Elt F) ℓ) (a1 : (pcfg1 (F := F)).Adm) (c : Dev nD)

/-! ## What each item leaves unchanged -/

theorem W1_of (r : Ref sig .tc) (h : r ∉ hostOps0_W) : W1 m c (Proc.devRef .tc r) = W0 m c (Proc.devRef .tc r) :=
  StableHlo.after_of_writes_sub hostOps0 _ hostOps0_writes h
theorem W2_of (r : Ref sig .tc) (h : r ∉ ([main_v6_0, main_v6_1] : List (Ref sig .tc))) :
    W2 m c (Proc.devRef .tc r) = W1 m c (Proc.devRef .tc r) := by
  simp only [W2, Function.update_of_ne (StableHlo.devRef_ne_of_ne (List.ne_of_not_mem_cons h) : (Proc.devRef .tc r : DevRef τ sig) ≠ Proc.devRef .tc main_v6_0), Function.update_of_ne (StableHlo.devRef_ne_of_ne (List.ne_of_not_mem_cons (List.not_mem_of_not_mem_cons h)) : (Proc.devRef .tc r : DevRef τ sig) ≠ Proc.devRef .tc main_v6_1)]
theorem W3_of (r : Ref sig .tc) (h : r ∉ hostOps1_W) : W3 m c (Proc.devRef .tc r) = W2 m c (Proc.devRef .tc r) :=
  StableHlo.after_of_writes_sub hostOps1 _ hostOps1_writes h
theorem W4_of (r : Ref sig .tc) (h : r ∉ ([main_v8] : List (Ref sig .tc))) :
    W4 m a1 c (Proc.devRef .tc r) = W3 m c (Proc.devRef .tc r) := by
  unfold W4
  exact Function.update_of_ne (StableHlo.devRef_ne_of_ne (List.ne_of_not_mem_cons h) : (Proc.devRef .tc r : DevRef τ sig) ≠ Proc.devRef .tc main_v8) _ _
theorem W5_of (r : Ref sig .tc) (h : r ∉ hostOps2_W) : W5 m a1 c (Proc.devRef .tc r) = W4 m a1 c (Proc.devRef .tc r) :=
  StableHlo.after_of_writes_sub hostOps2 _ hostOps2_writes h
theorem W6_of (r : Ref sig .tc) (h : r ∉ hostOps2_1_W) : W6 m a1 c (Proc.devRef .tc r) = W5 m a1 c (Proc.devRef .tc r) :=
  StableHlo.after_of_writes_sub hostOps2_1 _ hostOps2_1_writes h
theorem W7_of (r : Ref sig .tc) (h : r ∉ hostOps2_2_W) : W7 m a1 c (Proc.devRef .tc r) = W6 m a1 c (Proc.devRef .tc r) :=
  StableHlo.after_of_writes_sub hostOps2_2 _ hostOps2_2_writes h

/-! ## No item writes an argument -/

/-- The embeddings reach the end as launched. -/
theorem W7_main_arg0 : W7 m a1 c (Proc.devRef .tc main_arg0) = m ((c : Thread nD τ).loc main_arg0) :=
  (W7_of m a1 c main_arg0 (by decide)).trans <| (W6_of m a1 c main_arg0 (by decide)).trans <| (W5_of m a1 c main_arg0 (by decide)).trans <| (W4_of m a1 c main_arg0 (by decide)).trans <| (W3_of m c main_arg0 (by decide)).trans <| (W2_of m c main_arg0 (by decide)).trans <| (W1_of m c main_arg0 (by decide)).trans rfl
/-- The labels reach the end as launched. -/
theorem W7_main_arg1 : W7 m a1 c (Proc.devRef .tc main_arg1) = m ((c : Thread nD τ).loc main_arg1) :=
  (W7_of m a1 c main_arg1 (by decide)).trans <| (W6_of m a1 c main_arg1 (by decide)).trans <| (W5_of m a1 c main_arg1 (by decide)).trans <| (W4_of m a1 c main_arg1 (by decide)).trans <| (W3_of m c main_arg1 (by decide)).trans <| (W2_of m c main_arg1 (by decide)).trans <| (W1_of m c main_arg1 (by decide)).trans rfl

end Cert.KernelIdeal.Hand

end
-- ==== Proof.Val.Spec.lean ====
import Idealize.ShloMosaic.PureOps.Ideal
import Idealize.ShloMosaic.PureOps.Ideal.Laws
import Idealize.ShloMosaic.Lib.ValueIdx

noncomputable section

/-! # The lifted-structure loss over the extended reals

The loss both programs compute, written once as plain sums over the 4096 rows. `x p k` is coordinate `k` of
embedding `p`, `t p` its class label. Every float literal the programs share stays the extended real its word
denotes; only the zero word is written `0`. -/

namespace Cert.LSL

open Idealize.ShloMosaic

/-- The words the two programs share: 1.0 and 2.0. -/
abbrev oneE : EReal := Ideal.ofBits .f32 0x3F800000#32
abbrev twoE : EReal := Ideal.ofBits .f32 0x40000000#32

variable (x : Fin 4096 → Fin 512 → EReal) (t : Fin 4096 → BitVec 32)

/-- The squared norm of row `p`. -/
def sq (p : Fin 4096) : EReal := ∑ k : Fin 512, x p k * x p k

/-- The inner product of rows `p` and `q`. -/
def dot (p q : Fin 4096) : EReal := ∑ k : Fin 512, x p k * x q k

/-- The squared distance, clamped at zero. -/
def d2 (p q : Fin 4096) : EReal := max ((sq x p + sq x q) - twoE * dot x p q) 0

/-- The distance: the guarded square root (zero where the squared distance is not positive). -/
def dist (p q : Fin 4096) : EReal :=
  if 0 < d2 x p q then Ideal.sqrt (if 0 < d2 x p q then d2 x p q else oneE) else 0

/-- A negative pair's term: `exp (margin − distance)` where the labels differ, zero where they agree. -/
def neg (p q : Fin 4096) : EReal := if t p = t q then 0 else Ideal.exp (oneE - dist x p q)

/-- Row `p`'s sum over its negatives. -/
def negSum (p : Fin 4096) : EReal := ∑ q : Fin 4096, neg x t p q

/-- The pair statistic `J`. -/
def J (p q : Fin 4096) : EReal := Ideal.log (negSum x t p + negSum x t q) + dist x p q

/-- A positive pair's squared hinge, counted once (`p < q`). -/
def hinge (p q : Fin 4096) : EReal :=
  if t p = t q ∧ p < q then max (J x t p q) 0 * max (J x t p q) 0 else 0

/-- The sum of the squared hinges over all pairs. -/
def total : EReal := ∑ p : Fin 4096, ∑ q : Fin 4096, hinge x t p q

/-- The number of ordered positive pairs: same label, different rows. -/
def pairCount : ℕ := (Finset.univ.filter fun pq : Fin 4096 × Fin 4096 => pq.1 ≠ pq.2 ∧ t pq.1 = t pq.2).card

/-- The loss. -/
def loss : EReal := Ideal.div (total x t) ((pairCount t : ℕ) : EReal)

/-- The embeddings array read by coordinates, and the label array. -/
def rowsOf (X : (⟨2, ![4096, 512]⟩ : Shape).Idx → EReal) : Fin 4096 → Fin 512 → EReal := fun p k => X (ValueIdx.ix2 p k)
def labelsOf (T : (⟨1, ![4096]⟩ : Shape).Idx → BitVec 32) : Fin 4096 → BitVec 32 := fun p => T (ValueIdx.ix1 p)

/-- The loss of the two argument arrays, as the scalar result buffer holds it. -/
def lossBuf (X : (⟨2, ![4096, 512]⟩ : Shape).Idx → EReal) (T : (⟨1, ![4096]⟩ : Shape).Idx → BitVec 32) : (⟨0, ![]⟩ : Shape).Idx → EReal :=
  fun _ => loss (rowsOf X) (labelsOf T)

end Cert.LSL

end
-- ==== Proof.Val.Host.lean ====
import proofs.«401359_j57629871178315_3_alg».proof.Proof.KI.Launch
import proofs.«401359_j57629871178315_3_alg».proof.Proof.Val.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

/-! # The host side of the kernel program, over the extended reals

What the buffers hold where the two regions are entered — the squared norms as a column and as a row, the labels
as a column and as a row, the table constant, the first region's two results and the row form of its row sums —
and what the host operations after the second region make of its result: the sum of the hinge row sums divided by
the count the label histogram gives. -/

namespace Cert.KernelIdeal.KVal

open Cert.KernelIdeal Cert.KernelIdeal.Gen Cert.KernelIdeal.Hand Idealize.ShloMosaic.ValueIdx
open Idealize.ShloMosaic Idealize.ShloMosaic.TcCoe Idealize.SL.Sem

/-! ## Reshapes and sums read at an index -/

section Pure
variable {α : Type}

/-- A vector cast to a column reads, at a column index, the vector at the row. -/
theorem cast_col (v : S4096.Idx → α) (h : S4096.ShapeCasts S4096x1) (j : S4096x1.Idx) :
    shapeCast S4096x1 v h j = v (ValueIdx.ix1 (j 0)) :=
  shapeCast_apply v h j (ValueIdx.ix1 (j 0)) (by
    rw [Shape.rowMajor_val_one, Shape.rowMajor_val_two]
    have h1 : (j 1).val < 1 := (j 1).isLt
    show (j 0).val = (j 0).val * 1 + (j 1).val
    omega)

/-- A vector cast to a row reads, at a row index, the vector at the column. -/
theorem cast_row (v : S4096.Idx → α) (h : S4096.ShapeCasts S1x4096) (j : S1x4096.Idx) :
    shapeCast S1x4096 v h j = v (ValueIdx.ix1 (j 1)) :=
  shapeCast_apply v h j (ValueIdx.ix1 (j 1)) (by
    rw [Shape.rowMajor_val_one, Shape.rowMajor_val_two]
    have h0 : (j 0).val < 1 := (j 0).isLt
    show (j 1).val = (j 0).val * 4096 + (j 1).val
    omega)

/-- A column cast to a row reads, at a row index, the column at that position. -/
theorem cast_col_row (v : S4096x1.Idx → α) (h : S4096x1.ShapeCasts S1x4096) (j : S1x4096.Idx) :
    shapeCast S1x4096 v h j = v (ValueIdx.ix2 (j 1) (0 : Fin 1)) :=
  shapeCast_apply v h j (ValueIdx.ix2 (j 1) (0 : Fin 1)) (by
    rw [Shape.rowMajor_val_two, Shape.rowMajor_val_two]
    have h0 : (j 0).val < 1 := (j 0).isLt
    show (j 1).val * 1 + 0 = (j 0).val * 4096 + (j 1).val
    omega)

/-- The f32 zero word, splat to a scalar, reads the extended real zero. -/
theorem zero_const (i : S_.Idx) : constant (F := Ideal) S_ .f32 0x00000000#32 i = 0 := Ideal.ofBits_zero_f32

/-- The row sums of the squares, from zero, are the squared norms. -/
theorem rowsq_apply (X : S4096x512.Idx → EReal) (p : Fin 4096) :
    Host.reduceAdd (F := Ideal) (mulf X X) (constant S_ .f32 0x00000000#32) reducesTo_S4096x512_S4096_d1 h_S_ (ValueIdx.ix1 p)
      = LSL.sq (LSL.rowsOf X) p := by
  simp only [Host.reduceAdd, Ideal.hostReduceAdd_def]
  rw [Ideal.hostReduceAdd_single reducesTo_S4096x512_S4096_d1 (by decide), zero_const, zero_add]
  show _ = ∑ k : Fin 512, X (ValueIdx.ix2 p k) * X (ValueIdx.ix2 p k)
  refine Finset.sum_congr rfl fun k _ => ?_
  exact congrArg (fun i => X i * X i) (funext fun a => Fin.ext (by match a with | ⟨0, _⟩ => rfl | ⟨1, _⟩ => rfl))

/-- A column that depends on its row only, summed over both axes from zero, is the sum over the rows. -/
theorem total_sum (A : S4096x1.Idx → EReal) (g : Fin 4096 → EReal) (h : A = fun j => g (j 0)) :
    Host.reduceAdd (F := Ideal) A (constant S_ .f32 0x00000000#32) reducesTo_S4096x1_S_d0_1 h_S_
      = fun _ => ∑ p : Fin 4096, g p := by
  funext i
  simp only [Host.reduceAdd, Ideal.hostReduceAdd_def]
  rw [Ideal.hostReduceAdd_total reducesTo_S4096x1_S_d0_1 (fun b => b.elim0), zero_const, zero_add, sum_idx2]
  refine Finset.sum_congr rfl fun p _ => ?_
  rw [Fin.sum_univ_one, h]

end Pure

/-! ## The buffers at the first region's entry -/

section Host
variable (m : (ℓ : Loc nD τ sig) → Buf (Elt Ideal) ℓ) (a1 : (pcfg1 (F := Ideal)).Adm) (c : Dev nD)

/-- The two argument arrays as launched: the embeddings and the labels. -/
abbrev argX : S4096x512.Idx → EReal := m ((c.tc : Thread nD τ).loc main_arg0)
abbrev argT : S4096.Idx → BitVec 32 := m ((c.tc : Thread nD τ).loc main_arg1)

theorem U1_arg0 : U1 m c main_arg0 = argX m c := (V1_of m c main_arg0 (by decide)).trans rfl
theorem U1_arg1 : U1 m c main_arg1 = argT m c := (V1_of m c main_arg1 (by decide)).trans rfl

/-- The squared norms before their reshapes. -/
theorem U1_v1 : (U1 m c main_v1 : S4096.Idx → EReal)
    = Host.reduceAdd (F := Ideal) (mulf (argX m c) (argX m c)) (constant S_ .f32 0x00000000#32) reducesTo_S4096x512_S4096_d1 h_S_ := by
  show StableHlo.after hostOps0 (W0 m c) (Proc.devRef .tc main_v1) = _
  after_results <;> rfl

/-- The squared norms as a column. -/
theorem U1_v2 : (U1 m c main_v2 : S4096x1.Idx → EReal) = fun j => LSL.sq (LSL.rowsOf (argX m c)) (j 0) := by
  have e : (U1 m c main_v2 : S4096x1.Idx → EReal)
      = shapeCast S4096x1 (Host.reduceAdd (F := Ideal) (mulf (argX m c) (argX m c)) (constant S_ .f32 0x00000000#32) reducesTo_S4096x512_S4096_d1 h_S_) shapeCasts_S4096_S4096x1 := by
    show StableHlo.after hostOps0 (W0 m c) (Proc.devRef .tc main_v2) = _
    after_results <;> rfl
  rw [e]; funext j
  exact (cast_col _ _ j).trans (rowsq_apply (argX m c) (j 0))

/-- The squared norms as a row. -/
theorem U1_v3 : (U1 m c main_v3 : S1x4096.Idx → EReal) = fun j => LSL.sq (LSL.rowsOf (argX m c)) (j 1) := by
  have e : (U1 m c main_v3 : S1x4096.Idx → EReal)
      = shapeCast S1x4096 (Host.reduceAdd (F := Ideal) (mulf (argX m c) (argX m c)) (constant S_ .f32 0x00000000#32) reducesTo_S4096x512_S4096_d1 h_S_) shapeCasts_S4096_S1x4096 := by
    show StableHlo.after hostOps0 (W0 m c) (Proc.devRef .tc main_v3) = _
    after_results <;> rfl
  rw [e]; funext j
  exact (cast_row _ _ j).trans (rowsq_apply (argX m c) (j 1))

/-- The labels as a column. -/
theorem U1_v4 : (U1 m c main_v4 : S4096x1.Idx → BitVec 32) = fun j => argT m c (ValueIdx.ix1 (j 0)) := by
  have e : (U1 m c main_v4 : S4096x1.Idx → BitVec 32) = shapeCast S4096x1 (argT m c) shapeCasts_S4096_S4096x1 := by
    show StableHlo.after hostOps0 (W0 m c) (Proc.devRef .tc main_v4) = _
    after_results <;> rfl
  rw [e]; funext j
  exact cast_col _ _ j

/-- The labels as a row. -/
theorem U1_v5 : (U1 m c main_v5 : S1x4096.Idx → BitVec 32) = fun j => argT m c (ValueIdx.ix1 (j 1)) := by
  have e : (U1 m c main_v5 : S1x4096.Idx → BitVec 32) = shapeCast S1x4096 (argT m c) shapeCasts_S4096_S1x4096 := by
    show StableHlo.after hostOps0 (W0 m c) (Proc.devRef .tc main_v5) = _
    after_results <;> rfl
  rw [e]; funext j
  exact cast_row _ _ j

/-- The table constant. -/
theorem U1_c : (U1 m c main_c : S4.Idx → BitVec 32) = fun i => lit0 (S4.rowMajor i) := by
  show StableHlo.after hostOps0 (W0 m c) (Proc.devRef .tc main_c) = _
  after_results <;> rfl

/-! ## Across the first region -/

/-- The first region's results: the row sums it accumulates and the distance array. -/
abbrev rowSums0 : S4096x1.Idx → EReal := (dat0 (U1 m) c).arrAt 6 cfg0.N
abbrev distArr0 : S4096x4096.Idx → EReal := (dat0 (U1 m) c).arrAt 7 cfg0.N

theorem W2_of (b : Ref sig .tc) (h0 : b ≠ main_v6_0) (h1 : b ≠ main_v6_1) : W2 m c b = W1 m c b := by
  simp only [W2, Function.update_of_ne (StableHlo.devRef_ne_of_ne h0 : (Proc.devRef .tc b : DevRef τ sig) ≠ Proc.devRef .tc main_v6_0),
    Function.update_of_ne (StableHlo.devRef_ne_of_ne h1 : (Proc.devRef .tc b : DevRef τ sig) ≠ Proc.devRef .tc main_v6_1)]

theorem W2_v6_0 : W2 m c main_v6_0 = rowSums0 m c := by
  simp only [W2, Function.update_of_ne (StableHlo.devRef_ne_of_ne (by decide : main_v6_0 ≠ main_v6_1) :
    (Proc.devRef .tc main_v6_0 : DevRef τ sig) ≠ Proc.devRef .tc main_v6_1), Function.update_self]

theorem W2_v6_1 : W2 m c main_v6_1 = distArr0 m c := by
  simp only [W2, Function.update_self]

/-- The reshape between the regions writes one buffer; the first region two. -/
theorem U3_of (b : Ref sig .tc) (hb : b ∉ ([main_v6_0, main_v6_1, main_v7] : List (Ref sig .tc))) : U3 m c b = U1 m c b := by
  have h0 : b ≠ main_v6_0 := List.ne_of_not_mem_cons hb
  have hb' := List.not_mem_of_not_mem_cons hb
  have h1 : b ≠ main_v6_1 := List.ne_of_not_mem_cons hb'
  have h7 : b ∉ hostOps1_W := List.not_mem_of_not_mem_cons hb'
  show StableHlo.after hostOps1 (W2 m c) (Proc.devRef .tc b) = _
  rw [StableHlo.after_of_writes_sub hostOps1 _ hostOps1_writes h7]
  exact W2_of m c b h0 h1

theorem U3_arg0 : U3 m c main_arg0 = argX m c := (U3_of m c main_arg0 (by decide)).trans (U1_arg0 m c)
theorem U3_arg1 : U3 m c main_arg1 = argT m c := (U3_of m c main_arg1 (by decide)).trans (U1_arg1 m c)
theorem U3_v4 : (U3 m c main_v4 : S4096x1.Idx → BitVec 32) = fun j => argT m c (ValueIdx.ix1 (j 0)) :=
  (U3_of m c main_v4 (by decide)).trans (U1_v4 m c)
theorem U3_v5 : (U3 m c main_v5 : S1x4096.Idx → BitVec 32) = fun j => argT m c (ValueIdx.ix1 (j 1)) :=
  (U3_of m c main_v5 (by decide)).trans (U1_v5 m c)
theorem U3_c : (U3 m c main_c : S4.Idx → BitVec 32) = fun i => lit0 (S4.rowMajor i) :=
  (U3_of m c main_c (by decide)).trans (U1_c m c)

theorem U3_v6_0 : U3 m c main_v6_0 = rowSums0 m c := by
  show StableHlo.after hostOps1 (W2 m c) (Proc.devRef .tc main_v6_0) = _
  rw [StableHlo.after_of_writes_sub hostOps1 _ hostOps1_writes (by decide : main_v6_0 ∉ hostOps1_W)]
  exact W2_v6_0 m c

theorem U3_v6_1 : U3 m c main_v6_1 = distArr0 m c := by
  show StableHlo.after hostOps1 (W2 m c) (Proc.devRef .tc main_v6_1) = _
  rw [StableHlo.after_of_writes_sub hostOps1 _ hostOps1_writes (by decide : main_v6_1 ∉ hostOps1_W)]
  exact W2_v6_1 m c

/-- The row sums as a row. -/
theorem U3_v7 : (U3 m c main_v7 : S1x4096.Idx → EReal) = fun j => rowSums0 m c (ValueIdx.ix2 (j 1) (0 : Fin 1)) := by
  have e : (U3 m c main_v7 : S1x4096.Idx → EReal)
      = shapeCast S1x4096 (W2 m c main_v6_0 : S4096x1.Idx → EReal) shapeCasts_S4096x1_S1x4096 := by
    show StableHlo.after hostOps1 (W2 m c) (Proc.devRef .tc main_v7) = _
    after_results <;> rfl
  rw [e, W2_v6_0]; funext j
  exact cast_col_row _ _ j

/-! ## Across the second region and through the host tail -/

/-- The second region's result: the hinge row sums. -/
abbrev hingeRows : S4096x1.Idx → EReal := (dat1 (U3 m) a1 c).arrAt 5 (cfg1 a1).N

theorem W4_of (b : Ref sig .tc) (h : b ≠ main_v8) : W4 m a1 c b = W3 m c b := by
  unfold W4
  exact Function.update_of_ne (StableHlo.devRef_ne_of_ne h) _ _

theorem W4_v8 : W4 m a1 c main_v8 = hingeRows m a1 c := by
  unfold W4
  exact Function.update_self _ _ _

theorem W5_of (b : Ref sig .tc) (h : b ∉ hostOps2_W) : W5 m a1 c b = W4 m a1 c b :=
  StableHlo.after_of_writes_sub hostOps2 _ hostOps2_writes h
theorem W6_of (b : Ref sig .tc) (h : b ∉ hostOps2_1_W) : W6 m a1 c b = W5 m a1 c b :=
  StableHlo.after_of_writes_sub hostOps2_1 _ hostOps2_1_writes h
theorem W7_of (b : Ref sig .tc) (h : b ∉ hostOps2_2_W) : W7 m a1 c b = W6 m a1 c b :=
  StableHlo.after_of_writes_sub hostOps2_2 _ hostOps2_2_writes h

theorem W7_arg0 : W7 m a1 c main_arg0 = argX m c :=
  (W7_of m a1 c main_arg0 (by decide)).trans <| (W6_of m a1 c main_arg0 (by decide)).trans <|
    (W5_of m a1 c main_arg0 (by decide)).trans <| (W4_of m a1 c main_arg0 (by decide)).trans (U3_arg0 m c)
theorem W7_arg1 : W7 m a1 c main_arg1 = argT m c :=
  (W7_of m a1 c main_arg1 (by decide)).trans <| (W6_of m a1 c main_arg1 (by decide)).trans <|
    (W5_of m a1 c main_arg1 (by decide)).trans <| (W4_of m a1 c main_arg1 (by decide)).trans (U3_arg1 m c)

/-- The sum of the hinge row sums. -/
theorem W5_v9 : (W5 m a1 c main_v9 : S_.Idx → EReal)
    = Host.reduceAdd (F := Ideal) (hingeRows m a1 c) (constant S_ .f32 0x00000000#32) reducesTo_S4096x1_S_d0_1 h_S_ := by
  have e : (W5 m a1 c main_v9 : S_.Idx → EReal)
      = Host.reduceAdd (F := Ideal) (W4 m a1 c main_v8 : S4096x1.Idx → EReal) (constant S_ .f32 0x00000000#32) reducesTo_S4096x1_S_d0_1 h_S_ := by
    show StableHlo.after hostOps2 (W4 m a1 c) (Proc.devRef .tc main_v9) = _
    after_results <;> rfl
  rw [e, W4_v8]

/-- The 64 empty bins. -/
theorem W5_v10 : (W5 m a1 c main_v10 : S64.Idx → BitVec 32) = broadcastInDim S64 ![] bcast_S_S64 (constantI S_ 32 0#32) := by
  show StableHlo.after hostOps2 (W4 m a1 c) (Proc.devRef .tc main_v10) = _
  after_results <;> rfl

theorem W5_c_2 : (W5 m a1 c main_c_2 : S_.Idx → BitVec 32) = constantI S_ 32 0#32 := by
  show StableHlo.after hostOps2 (W4 m a1 c) (Proc.devRef .tc main_c_2) = _
  after_results <;> rfl

theorem W5_arg1 : W5 m a1 c main_arg1 = argT m c :=
  (W5_of m a1 c main_arg1 (by decide)).trans <| (W4_of m a1 c main_arg1 (by decide)).trans (U3_arg1 m c)

/-- The labels clamped below at zero. -/
def clip0 (T : S4096.Idx → BitVec 32) : S4096.Idx → BitVec 32 :=
  maxsi (broadcastInDim S4096 ![] bcast_S_S4096 (id (constantI S_ 32 0#32))) T

theorem W6_v11 : (W6 m a1 c main_v11 : S4096.Idx → BitVec 32) = clip0 (argT m c) := by
  have e : (W6 m a1 c main_v11 : S4096.Idx → BitVec 32)
      = maxsi (broadcastInDim S4096 ![] bcast_S_S4096 (id (W5 m a1 c main_c_2 : S_.Idx → BitVec 32))) (W5 m a1 c main_arg1 : S4096.Idx → BitVec 32) := by
    show StableHlo.after hostOps2_1 (W5 m a1 c) (Proc.devRef .tc main_v11) = _
    after_results <;> rfl
  rw [e, W5_c_2, W5_arg1]; rfl

theorem W6_v9 : (W6 m a1 c main_v9 : S_.Idx → EReal)
    = Host.reduceAdd (F := Ideal) (hingeRows m a1 c) (constant S_ .f32 0x00000000#32) reducesTo_S4096x1_S_d0_1 h_S_ :=
  (W6_of m a1 c main_v9 (by decide)).trans (W5_v9 m a1 c)
theorem W6_v10 : (W6 m a1 c main_v10 : S64.Idx → BitVec 32) = broadcastInDim S64 ![] bcast_S_S64 (constantI S_ 32 0#32) :=
  (W6_of m a1 c main_v10 (by decide)).trans (W5_v10 m a1 c)

/-- The denominator from the bins `z` and the clamped labels `v`: wrap a negative label by 64, count each label into its
    bin, and sum `n · (n − 1)` over the bins. -/
def denOf (z : S64.Idx → BitVec 32) (v : S4096.Idx → BitVec 32) : S_.Idx → EReal :=
  Host.reduceAdd (F := Ideal)
    (mulf
      (sitofp .f32 (Host.scatter scatter_S64_S4096x1_S4096_n_0_0_1 IntOp.addi z
        (broadcastInDim S4096x1 ![0] bcast_S4096_S4096x1_0
          (select (cmpi .slt v (broadcastInDim S4096 ![] bcast_S_S4096 (constantI S_ 32 0#32)))
            (addi v (broadcastInDim S4096 ![] bcast_S_S4096 (constantI S_ 32 64#32))) v))
        (broadcastInDim S4096 ![] bcast_S_S4096 (constantI S_ 32 1#32))))
      (subf
        (sitofp .f32 (Host.scatter scatter_S64_S4096x1_S4096_n_0_0_1 IntOp.addi z
          (broadcastInDim S4096x1 ![0] bcast_S4096_S4096x1_0
            (select (cmpi .slt v (broadcastInDim S4096 ![] bcast_S_S4096 (constantI S_ 32 0#32)))
              (addi v (broadcastInDim S4096 ![] bcast_S_S4096 (constantI S_ 32 64#32))) v))
          (broadcastInDim S4096 ![] bcast_S_S4096 (constantI S_ 32 1#32))))
        (broadcastInDim S64 ![] bcast_S_S64 (constant S_ .f32 0x3F800000#32))))
    (constant S_ .f32 0x00000000#32) reducesTo_S64_S_d0 h_S_

/-- The denominator of the labels: the number of ordered pairs with equal labels, as the host tail computes it. -/
def DEN (T : S4096.Idx → BitVec 32) : S_.Idx → EReal :=
  denOf (broadcastInDim S64 ![] bcast_S_S64 (constantI S_ 32 0#32)) (clip0 T)

/-- The program's result: the sum of the hinge row sums over the denominator. -/
theorem W7_v25 : (W7 m a1 c main_v25 : S_.Idx → EReal)
    = Host.divf (F := Ideal) (s := S_) (φ := .f32) (Host.reduceAdd (F := Ideal) (hingeRows m a1 c) (constant S_ .f32 0x00000000#32) reducesTo_S4096x1_S_d0_1 h_S_)
        (DEN (argT m c)) := by
  have e : (W7 m a1 c main_v25 : S_.Idx → EReal)
      = Host.divf (F := Ideal) (s := S_) (φ := .f32) (W6 m a1 c main_v9 : S_.Idx → EReal)
          (denOf (W6 m a1 c main_v10 : S64.Idx → BitVec 32) (W6 m a1 c main_v11 : S4096.Idx → BitVec 32)) := by
    show StableHlo.after hostOps2_2 (W6 m a1 c) (Proc.devRef .tc main_v25) = _
    after_results_simp
    rfl
  rw [e, W6_v9, W6_v10, W6_v11]; rfl

/-- Where the hinge row sums depend on the row only, the numerator is their sum. -/
theorem numerator_sum (g : Fin 4096 → EReal) (h : hingeRows m a1 c = fun j => g (j 0)) :
    Host.reduceAdd (F := Ideal) (hingeRows m a1 c) (constant S_ .f32 0x00000000#32) reducesTo_S4096x1_S_d0_1 h_S_
      = fun _ => ∑ p : Fin 4096, g p :=
  total_sum (hingeRows m a1 c) g h

end Host

end Cert.KernelIdeal.KVal

end
-- ==== Proof.Val.K0.lean ====
import proofs.«401359_j57629871178315_3_alg».proof.Proof.Gen.KernelIdeal.Launch
import proofs.«401359_j57629871178315_3_alg».proof.Proof.Gen.KernelIdeal.Skeleton
import proofs.«401359_j57629871178315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws
import proofs.«401359_j57629871178315_3_alg».proof.Proof.KI.Body0
import proofs.«401359_j57629871178315_3_alg».proof.Proof.KI.Data0
import proofs.«401359_j57629871178315_3_alg».proof.Proof.Val.Spec

set_option maxRecDepth 16384

noncomputable section

namespace Cert.KernelIdeal.KVal

open Cert.KernelIdeal Cert.KernelIdeal.Gen Cert.KernelIdeal.Hand Idealize.ShloMosaic.ValueIdx

open Idealize.ShloMosaic Idealize.ShloMosaic.TcCoe
open Idealize.SL Idealize.SL.Sem
open Idealize.ShloMosaic.Pipeline (Dat Cfg Window)

/-! # The first region's values over the extended reals

## The payloads at an index -/

/-- A comparison-guarded choice is an `if` on the order. -/
theorem select_ogt {α : Type} (x y : EReal) (a b : α) :
    Scalar.select (Ideal.cmp .ogt x y) a b = if y < x then a else b := by
  unfold Scalar.select Ideal.cmp
  by_cases h : y < x <;> simp [h]

/-- A choice guarded by a word comparison is an `if` on the equality. -/
theorem select_cmpi_eq {α : Type} (x y : BitVec 32) (a b : α) :
    Scalar.select (IntOp.cmpi .eq x y) a b = if x = y then a else b := by
  unfold Scalar.select IntOp.cmpi
  by_cases h : x = y
  · subst h; simp
  · have hb : (x == y) = false := by simp [h]
    simp [hb, h]

/-- The distance of two rows from their squared norms `a`, `b` and inner product `m`, as the specification writes it. -/
def distOf (a b m : EReal) : EReal :=
  if 0 < max ((a + b) - Cert.LSL.twoE * m) 0 then
    Ideal.sqrt (if 0 < max ((a + b) - Cert.LSL.twoE * m) 0 then max ((a + b) - Cert.LSL.twoE * m) 0 else Cert.LSL.oneE)
  else 0

theorem dist_eq_distOf (x : Fin 4096 → Fin 512 → EReal) (p q : Fin 4096) :
    Cert.LSL.dist x p q = distOf (Cert.LSL.sq x p) (Cert.LSL.sq x q) (Cert.LSL.dot x p q) := rfl

abbrev dotK := dot_S1024x512_S1024x512_S1024x1024_1_1_0_0_n_n

theorem lhsK_0 (j : S1024x1024.Idx) (k : dotK.contr.Idx) : (dotK.lhsIdx j k 0).val = (j 0).val := by
  unfold DotDims.lhsIdx
  rw [dif_neg (show ¬(0 : Fin S1024x512.rank) ∈ dotK.lhsBatch by decide), dif_pos (show (0 : Fin S1024x512.rank) ∈ dotK.lhsNonContracting by decide)]
  rfl
theorem lhsK_1 (j : S1024x1024.Idx) (k : dotK.contr.Idx) : (dotK.lhsIdx j k 1).val = (k ⟨0, by decide⟩).val :=
  dotK.lhsIdx_val_of_single rfl j k
theorem rhsK_0 (j : S1024x1024.Idx) (k : dotK.contr.Idx) : (dotK.rhsIdx j k 0).val = (j 1).val := by
  unfold DotDims.rhsIdx
  rw [dif_neg (show ¬(0 : Fin S1024x512.rank) ∈ dotK.rhsBatch by decide), dif_pos (show (0 : Fin S1024x512.rank) ∈ dotK.rhsNonContracting by decide)]
  rfl
theorem rhsK_1 (j : S1024x1024.Idx) (k : dotK.contr.Idx) : (dotK.rhsIdx j k 1).val = (k ⟨0, by decide⟩).val :=
  dotK.rhsIdx_val_of_single rfl j k

/-- The tile's matrix product at `(p, q)`: the inner product of row `p` of the left operand and row `q` of the right. -/
theorem matmulK_apply (a b : FVec Ideal S1024x512 .f32) (p q : Fin 1024) :
    matmul (F := Ideal) dotK (some .fp32) a b (constant S1024x1024 .f32 0x00000000#32) (ix2 p q) = ∑ k : Fin 512, a (ix2 p k) * b (ix2 q k) := by
  simp only [matmul]
  rw [Ideal.matmul_constant_zero_apply, ← Equiv.sum_comp (contrEquiv1 dotK 512 rfl rfl).symm]
  refine Finset.sum_congr rfl fun k _ => ?_
  have hk := contrEquiv1_symm_val dotK 512 rfl rfl k
  have el : dotK.lhsIdx (ix2 p q) ((contrEquiv1 dotK 512 rfl rfl).symm k) = ix2 p k :=
    Shape.idx_ext₂ (lhsK_0 _ _) ((lhsK_1 _ _).trans hk)
  have er : dotK.rhsIdx (ix2 p q) ((contrEquiv1 dotK 512 rfl rfl).symm k) = ix2 q k :=
    Shape.idx_ext₂ (rhsK_0 _ _) ((rhsK_1 _ _).trans hk)
  rw [el, er]

/-- A column broadcast along the rows reads its row's entry. -/
theorem bcast_col_apply {α : Type} (v : S1024x1.Idx → α) (p q : Fin 1024) :
    broadcastTo S1024x1024 v broadcasts_S1024x1_S1024x1024 (ix2 p q) = v (ix2 p 0) := by
  refine broadcastTo_apply v _ (ix2 p q) (ix2 p 0) fun ax => ?_
  match ax with
  | ⟨0, _⟩ => rfl
  | ⟨1, _⟩ => rfl

/-- A row broadcast along the columns reads its column's entry. -/
theorem bcast_row_apply {α : Type} (v : S1x1024.Idx → α) (p q : Fin 1024) :
    broadcastTo S1024x1024 v broadcasts_S1x1024_S1024x1024 (ix2 p q) = v (ix2 0 q) := by
  refine broadcastTo_apply v _ (ix2 p q) (ix2 0 q) fun ax => ?_
  match ax with
  | ⟨0, _⟩ => rfl
  | ⟨1, _⟩ => rfl

/-- THE DISTANCE PAYLOAD at `(p, q)`: the specification's distance of the two rows. -/
theorem pay3_apply (v6 : Vec Ideal S1024x512 .f32) (v8 : Vec Ideal S1x1024 .f32) (v13 : Vec Ideal S1024x512 .f32) (v15 : Vec Ideal S1024x1 .f32)
    (p q : Fin 1024) :
    k0_pay3 v6 v8 v13 v15 (ix2 p q) = distOf (v15 (ix2 p 0)) (v8 (ix2 0 q)) (∑ k : Fin 512, v13 (ix2 p k) * v6 (ix2 q k)) := by
  unfold k0_pay3
  simp only [select_apply, cmpf_apply, Ideal.cmpf_def, Ideal.sqrt_def, broadcast_apply, maximumf_apply, subf_apply, mulf_apply, addf_apply,
    shapeCast_self, bcast_col_apply, bcast_row_apply, matmulK_apply, select_ogt, sqrt]
  rw [show (FloatOps.ofBits .f32 0x00000000#32 : Ideal .f32) = 0 from Ideal.ofBits_zero_f32]
  rfl

/-- The labels' column broadcast along the rows, and their row broadcast along the columns. -/
theorem pay4_apply (v34 : Vec Ideal S1024x1 .i32) (p q : Fin 1024) : k0_pay4 v34 (ix2 p q) = v34 (ix2 p 0) := by
  unfold k0_pay4
  simp only [shapeCast_self, bcast_col_apply]

theorem pay5_apply (v11 : Vec Ideal S1x1024 .i32) (p q : Fin 1024) : k0_pay5 v11 (ix2 p q) = v11 (ix2 0 q) := by
  unfold k0_pay5
  simp only [shapeCast_self, bcast_row_apply]

/-- The reset stores zeros. -/
theorem pay2_apply (j : S1024x1.Idx) : k0_pay2 (F := Ideal) j = 0 := by
  unfold k0_pay2
  simp only [shapeCast_self, broadcast_apply]
  exact Ideal.ofBits_zero_f32

/-- The row index `p` with column `q` put back. -/
theorem liftK (p : Fin 1024) (q : Fin (S1024x1024.size 1)) :
    reduces_S1024x1024_S1024.lift (ValueIdx.ix1 p) q = ix2 p (⟨q.val, q.isLt⟩ : Fin 1024) := by
  funext c; apply Fin.ext
  fin_cases c <;> rfl

/-- THE ROW-SUM PAYLOAD at row `p`: the accumulator plus the row's sum, over the tile's columns, of the negative
    pairs' terms. -/
theorem pay1_apply (v33 : FVec Ideal S1024x1024 .f32) (v36 v37 : IVec S1024x1024 32) (v44 : Vec Ideal S1024x1 .f32) (p : Fin 1024) :
    k0_pay1 v33 v36 v37 v44 (ix2 p 0)
      = v44 (ix2 p 0) + ∑ q : Fin 1024, (if v36 (ix2 p q) = v37 (ix2 p q) then (0 : EReal) else Ideal.exp (Cert.LSL.oneE - v33 (ix2 p q))) := by
  unfold k0_pay1
  simp only [shapeCast_self, addf_apply]
  refine congrArg (v44 (ix2 p 0) + ·) ?_
  rw [shapeCast_apply _ shapeCasts_S1024_S1024x1 (ix2 p 0) (ValueIdx.ix1 p) (by
    rw [Shape.rowMajor_val_one, Shape.rowMajor_val_two]; show p.val = p.val * 1 + 0; omega)]
  refine (Ideal.multiReduction_add_single _ _ reduces_S1024x1024_S1024 _ _ (ValueIdx.ix1 p)).trans ?_
  refine Finset.sum_congr rfl fun q _ => ?_
  rw [liftK]
  simp only [select_apply, cmpi, exp, subf_apply, broadcast_apply, select_cmpi_eq, Ideal.exp_def]
  rw [show (FloatOps.ofBits .f32 0x00000000#32 : Ideal .f32) = 0 from Ideal.ofBits_zero_f32]
  rfl

/-! ## The windows' blocks, read where the arrays' indices say

The grid is 4 × 4, point `t` at row tile `t / 4` and column tile `t % 4`. The index maps in closed form, decided over
the 16 points. -/

theorem idx0_0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = t.val / 4 ∧ win0_2.index t 1 = 0 :=
  (by decide +kernel : ∀ t : Fin grid0.N, win0_2.index t 0 = t.val / 4 ∧ win0_2.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_4 : ∀ t : Fin cfg0.N, win0_4.index t 0 = t.val / 4 ∧ win0_4.index t 1 = 0 :=
  (by decide +kernel : ∀ t : Fin grid0.N, win0_4.index t 0 = t.val / 4 ∧ win0_4.index t 1 = 0)
theorem idx0_5 : ∀ t : Fin cfg0.N, win0_5.index t 0 = 0 ∧ win0_5.index t 1 = 0 :=
  (by decide +kernel : ∀ t : Fin grid0.N, win0_5.index t 0 = 0 ∧ win0_5.index t 1 = 0)
theorem idx0_6 : ∀ t : Fin cfg0.N, win0_6.index t 0 = t.val / 4 ∧ win0_6.index t 1 = 0 :=
  (by decide +kernel : ∀ t : Fin grid0.N, win0_6.index t 0 = t.val / 4 ∧ win0_6.index t 1 = 0)
theorem idx0_7 : ∀ t : Fin cfg0.N, win0_7.index t 0 = t.val / 4 ∧ win0_7.index t 1 = max (t.val / 4) (t.val % 4) :=
  (by decide +kernel : ∀ t : Fin grid0.N, win0_7.index t 0 = t.val / 4 ∧ win0_7.index t 1 = max (t.val / 4) (t.val % 4))
/-- The body's own slices of the resident operands start at the column tile. -/
theorem off1_eq : ∀ t : Fin cfg0.N, k0_off1 (grid0.coords t) 0 = 1024 * (t.val % 4) ∧ k0_off1 (grid0.coords t) 1 = 0 :=
  (by decide +kernel : ∀ t : Fin grid0.N, k0_off1 (grid0.coords t) 0 = 1024 * (t.val % 4) ∧ k0_off1 (grid0.coords t) 1 = 0)
theorem off2_eq : ∀ t : Fin cfg0.N, k0_off2 (grid0.coords t) 0 = 0 ∧ k0_off2 (grid0.coords t) 1 = 1024 * (t.val % 4) :=
  (by decide +kernel : ∀ t : Fin grid0.N, k0_off2 (grid0.coords t) 0 = 0 ∧ k0_off2 (grid0.coords t) 1 = 1024 * (t.val % 4))
/-- The conditions in closed form. -/
theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)
theorem cond2_iff : ∀ t : Fin cfg0.N, (cfg0.win 7).flush t = true ↔ t.val / 4 ≤ t.val % 4 :=
  (by decide +kernel : ∀ t : Fin grid0.N, win0_7.flush t = true ↔ t.val / 4 ≤ t.val % 4)

theorem N16 : cfg0.N = 16 := N_0

variable (V : (c : Dev nD) → (b : Ref sig .tc) → Buf (Elt Ideal) ((c : Thread nD τ).loc b)) (c : Dev nD)

/-- The row of the array that row `p` of the row tile of point `t` is. -/
abbrev rowOf (t : Fin cfg0.N) (p : Fin 1024) : Fin 4096 := ⟨1024 * (t.val / 4) + p.val, by have h : t.val < 16 := lt_of_lt_of_eq t.isLt N16; have := p.isLt; omega⟩
/-- The row of the array that row `q` of the column tile of point `t` is. -/
abbrev colOf (t : Fin cfg0.N) (q : Fin 1024) : Fin 4096 := ⟨1024 * (t.val % 4) + q.val, by have := q.isLt; omega⟩

theorem blk0_apply (t : Fin cfg0.N) (p : Fin 1024) (k : Fin 512) :
    (iblk0 V c 0 t : Vec Ideal S1024x512 .f32) (ix2 p k) = (V c main_arg0 : S4096x512.Idx → EReal) (ix2 (rowOf t p) k) := by
  unfold iblk0
  rw [View.read_apply]
  show V c main_arg0 _ = V c main_arg0 _
  congr 1
  funext a
  apply Fin.ext
  match a with
  | ⟨0, _⟩ => show win0_0.index t 0 * 1024 + 1 * p.val = 1024 * (t.val / 4) + p.val; rw [(idx0_0 t).1]; omega
  | ⟨1, _⟩ => show win0_0.index t 1 * 512 + 1 * k.val = k.val; rw [(idx0_0 t).2]; omega

theorem blk1_apply (t : Fin cfg0.N) (r : Fin 4096) (k : Fin 512) :
    (iblk0 V c 1 t : Vec Ideal S4096x512 .f32) (ix2 r k) = (V c main_arg0 : S4096x512.Idx → EReal) (ix2 r k) := by
  unfold iblk0
  rw [View.read_apply]
  show V c main_arg0 _ = V c main_arg0 _
  congr 1
  funext a
  apply Fin.ext
  match a with
  | ⟨0, _⟩ => show win0_1.index t 0 * 4096 + 1 * r.val = r.val; rw [(idx0_1 t).1]; omega
  | ⟨1, _⟩ => show win0_1.index t 1 * 512 + 1 * k.val = k.val; rw [(idx0_1 t).2]; omega

theorem blk2_apply (t : Fin cfg0.N) (p : Fin 1024) :
    (iblk0 V c 2 t : Vec Ideal S1024x1 .f32) (ix2 p 0) = (V c main_v2 : S4096x1.Idx → EReal) (ix2 (rowOf t p) 0) := by
  unfold iblk0
  rw [View.read_apply]
  show V c main_v2 _ = V c main_v2 _
  congr 1
  funext a
  apply Fin.ext
  match a with
  | ⟨0, _⟩ => show win0_2.index t 0 * 1024 + 1 * p.val = 1024 * (t.val / 4) + p.val; rw [(idx0_2 t).1]; omega
  | ⟨1, _⟩ => show win0_2.index t 1 * 1 + 1 * 0 = 0; rw [(idx0_2 t).2]

theorem blk3_apply (t : Fin cfg0.N) (q : Fin 4096) :
    (iblk0 V c 3 t : Vec Ideal S1x4096 .f32) (ix2 0 q) = (V c main_v3 : S1x4096.Idx → EReal) (ix2 0 q) := by
  unfold iblk0
  rw [View.read_apply]
  show V c main_v3 _ = V c main_v3 _
  congr 1
  funext a
  apply Fin.ext
  match a with
  | ⟨0, _⟩ => show win0_3.index t 0 * 1 + 1 * 0 = 0; rw [(idx0_3 t).1]
  | ⟨1, _⟩ => show win0_3.index t 1 * 4096 + 1 * q.val = q.val; rw [(idx0_3 t).2]; omega

theorem blk4_apply (t : Fin cfg0.N) (p : Fin 1024) :
    (iblk0 V c 4 t : Vec Ideal S1024x1 .i32) (ix2 p 0) = (V c main_v4 : S4096x1.Idx → BitVec 32) (ix2 (rowOf t p) 0) := by
  unfold iblk0
  rw [View.read_apply]
  show V c main_v4 _ = V c main_v4 _
  congr 1
  funext a
  apply Fin.ext
  match a with
  | ⟨0, _⟩ => show win0_4.index t 0 * 1024 + 1 * p.val = 1024 * (t.val / 4) + p.val; rw [(idx0_4 t).1]; omega
  | ⟨1, _⟩ => show win0_4.index t 1 * 1 + 1 * 0 = 0; rw [(idx0_4 t).2]

theorem blk5_apply (t : Fin cfg0.N) (q : Fin 4096) :
    (iblk0 V c 5 t : Vec Ideal S1x4096 .i32) (ix2 0 q) = (V c main_v5 : S1x4096.Idx → BitVec 32) (ix2 0 q) := by
  unfold iblk0
  rw [View.read_apply]
  show V c main_v5 _ = V c main_v5 _
  congr 1
  funext a
  apply Fin.ext
  match a with
  | ⟨0, _⟩ => show win0_5.index t 0 * 1 + 1 * 0 = 0; rw [(idx0_5 t).1]
  | ⟨1, _⟩ => show win0_5.index t 1 * 4096 + 1 * q.val = q.val; rw [(idx0_5 t).2]; omega

/-- The body's slice of the resident embeddings: the rows of the column tile. -/
theorem ldx_apply {e : EltTy} (x3 : S4096x512.Idx → Elt Ideal e) (t : Fin cfg0.N) (q : Fin 1024) (k : Fin 512) :
    View.ld (Val := Elt Ideal) x3 (rJx (grid0.coords t)) (ix2 q k) = x3 (ix2 (colOf t q) k) := by
  show x3 _ = x3 _
  congr 1
  funext a
  apply Fin.ext
  match a with
  | ⟨0, _⟩ => show k0_off1 (grid0.coords t) 0 + 1 * q.val = 1024 * (t.val % 4) + q.val; rw [(off1_eq t).1]; omega
  | ⟨1, _⟩ => show k0_off1 (grid0.coords t) 1 + 1 * k.val = k.val; rw [(off1_eq t).2]; omega

/-- The body's slice of a resident row: the entries of the column tile. -/
theorem ldr_apply {e : EltTy} (x5 : S1x4096.Idx → Elt Ideal e) (t : Fin cfg0.N) (q : Fin 1024) :
    View.ld (Val := Elt Ideal) x5 (rJr (grid0.coords t)) (ix2 0 q) = x5 (ix2 0 (colOf t q)) := by
  show x5 _ = x5 _
  congr 1
  funext a
  apply Fin.ext
  match a with
  | ⟨0, _⟩ => show k0_off2 (grid0.coords t) 0 + 1 * 0 = 0; rw [(off2_eq t).1]
  | ⟨1, _⟩ => show k0_off2 (grid0.coords t) 1 + 1 * q.val = 1024 * (t.val % 4) + q.val; rw [(off2_eq t).2]; omega

/-! ## The tile and the row sums of a point, over the specification's terms -/

variable (X : (⟨2, ![4096, 512]⟩ : Shape).Idx → EReal) (T : (⟨1, ![4096]⟩ : Shape).Idx → BitVec 32)
variable (hX : V c main_arg0 = X)
  (hsqc : V c main_v2 = fun j => Cert.LSL.sq (Cert.LSL.rowsOf X) (j 0))
  (hsqr : V c main_v3 = fun j => Cert.LSL.sq (Cert.LSL.rowsOf X) (j 1))
  (htc : V c main_v4 = fun j => T (ValueIdx.ix1 (j 0)))
  (htr : V c main_v5 = fun j => T (ValueIdx.ix1 (j 1)))

include hX hsqc hsqr in
/-- The distance tile of point `t` at `(p, q)` is the distance of row `p` of its row tile and row `q` of its column tile. -/
theorem tile_apply (t : Fin cfg0.N) (p q : Fin 1024) :
    distTile (grid0.coords t) (iblk0 V c 0 t) (iblk0 V c 1 t) (iblk0 V c 2 t) (iblk0 V c 3 t) (ix2 p q)
      = Cert.LSL.dist (Cert.LSL.rowsOf X) (rowOf t p) (colOf t q) := by
  unfold distTile
  rw [pay3_apply, dist_eq_distOf]
  refine congr (congr (congrArg distOf ?_) ?_) ?_
  · rw [blk2_apply, hsqc]
    rfl
  · rw [ldr_apply, blk3_apply, hsqr]
    rfl
  · unfold Cert.LSL.dot
    refine Finset.sum_congr rfl fun k _ => ?_
    rw [blk0_apply, ldx_apply, blk1_apply, hX]
    rfl

include hX hsqc hsqr htc htr in
/-- The accumulator's step at point `t`, row `p`: what it held (zeros at column tile 0) plus the row's negative-pair terms
    over the column tile. -/
theorem rowsum_step (t : Fin cfg0.N) (s : Vec Ideal S1024x1 .f32) (p : Fin 1024) :
    accOut (grid0.coords t) (iblk0 V c 0 t) (iblk0 V c 1 t) (iblk0 V c 2 t) (iblk0 V c 3 t) (iblk0 V c 4 t) (iblk0 V c 5 t) s (ix2 p 0)
      = accIn (grid0.coords t) s (ix2 p 0)
        + ∑ q : Fin 1024, Cert.LSL.neg (Cert.LSL.rowsOf X) (Cert.LSL.labelsOf T) (rowOf t p) (colOf t q) := by
  unfold accOut
  rw [pay1_apply]
  refine congrArg (_ + ·) (Finset.sum_congr rfl fun q _ => ?_)
  rw [pay4_apply, pay5_apply, tile_apply V c X hX hsqc hsqr t p q, blk4_apply, ldr_apply, blk5_apply, htc, htr]
  rfl

/-! ## A sum over the 4096 rows, tile by tile -/

theorem sum_tiles0 {M : Type*} [AddCommMonoid M] (f : Fin 4096 → M) :
    ∑ q : Fin 4096, f q = ∑ j : Fin 4, ∑ r : Fin 1024, f ⟨1024 * j.val + r.val, by have := j.isLt; have := r.isLt; omega⟩ := by
  rw [← Equiv.sum_comp (finProdFinEquiv (m := 4) (n := 1024)) f, Fintype.sum_prod_type]
  refine Finset.sum_congr rfl fun j _ => Finset.sum_congr rfl fun r _ => congrArg f (Fin.ext ?_)
  simp only [finProdFinEquiv_apply_val]
  omega

/-! ## The accumulator after each point: the column tiles summed so far -/

/-- Row `r`'s negative-pair terms over column tile `j` (nothing past the last tile). -/
def tileSum (r : Fin 4096) (j : ℕ) : EReal :=
  ∑ q : Fin 1024, if h : 1024 * j + q.val < 4096 then Cert.LSL.neg (Cert.LSL.rowsOf X) (Cert.LSL.labelsOf T) r ⟨1024 * j + q.val, h⟩ else 0

theorem tileSum_col (t : Fin cfg0.N) (r : Fin 4096) :
    ∑ q : Fin 1024, Cert.LSL.neg (Cert.LSL.rowsOf X) (Cert.LSL.labelsOf T) r (colOf t q) = tileSum X T r (t.val % 4) := by
  unfold tileSum
  refine Finset.sum_congr rfl fun q _ => ?_
  rw [dif_pos (by have := q.isLt; omega)]

/-- The four tiles make the row's sum. -/
theorem tileSum_range4 (r : Fin 4096) :
    ∑ j ∈ Finset.range 4, tileSum X T r j = Cert.LSL.negSum (Cert.LSL.rowsOf X) (Cert.LSL.labelsOf T) r := by
  unfold Cert.LSL.negSum
  rw [Finset.sum_range, sum_tiles0]
  refine Finset.sum_congr rfl fun j _ => ?_
  unfold tileSum
  refine Finset.sum_congr rfl fun q _ => ?_
  rw [dif_pos (by have := j.isLt; have := q.isLt; omega)]

include hX hsqc hsqr htc htr in
/-- After the point at column tile `j` of its grid row, the accumulator at row `p` is the sum of the tiles `0 … j`:
    by induction on the point (column tile 0 resets; every other point adds its tile to what the point before left,
    which is in the same grid row). -/
theorem acc0_apply : ∀ (n : ℕ) (h : n < cfg0.N) (p : Fin 1024),
    (acc0 V c n : Vec Ideal S1024x1 .f32) (ix2 p 0) = ∑ j ∈ Finset.range (n % 4 + 1), tileSum X T (rowOf ⟨n, h⟩ p) j := by
  intro n
  induction n with
  | zero =>
    intro h p
    rw [show acc0 V c 0 = _ from acc0_eq V c ⟨0, h⟩, rowsum_step V c X T hX hsqc hsqr htc htr]
    have hc : k0_cond1 (grid0.coords (⟨0, h⟩ : Fin cfg0.N)) = 1#1 := (cond1_iff ⟨0, h⟩).mpr rfl
    unfold accIn
    rw [if_pos hc, pay2_apply, zero_add, tileSum_col]
    show _ = ∑ j ∈ Finset.range 1, _
    rw [Finset.sum_range_one]
    rfl
  | succ m ih =>
    intro h p
    rw [show acc0 V c (m + 1) = _ from acc0_eq V c ⟨m + 1, h⟩, rowsum_step V c X T hX hsqc hsqr htc htr]
    by_cases hz : (m + 1) % 4 = 0
    · have hc : k0_cond1 (grid0.coords (⟨m + 1, h⟩ : Fin cfg0.N)) = 1#1 := (cond1_iff ⟨m + 1, h⟩).mpr hz
      unfold accIn
      rw [if_pos hc, pay2_apply, zero_add, tileSum_col]
      show tileSum X T _ ((m + 1) % 4) = ∑ j ∈ Finset.range ((m + 1) % 4 + 1), _
      rw [hz, Finset.sum_range_one]
    · have hc : ¬ k0_cond1 (grid0.coords (⟨m + 1, h⟩ : Fin cfg0.N)) = 1#1 := fun e => hz ((cond1_iff ⟨m + 1, h⟩).mp e)
      unfold accIn
      rw [if_neg hc, tileSum_col]
      show (acc0 V c m : Vec Ideal S1024x1 .f32) (ix2 p 0) + tileSum X T _ ((m + 1) % 4) = ∑ j ∈ Finset.range ((m + 1) % 4 + 1), _
      rw [ih (by omega) p]
      have hr : rowOf ⟨m, by omega⟩ p = rowOf ⟨m + 1, h⟩ p :=
        Fin.ext (by show 1024 * (m / 4) + p.val = 1024 * ((m + 1) / 4) + p.val; omega)
      rw [hr, show (m + 1) % 4 = m % 4 + 1 from by omega, Finset.sum_range_succ _ (m % 4 + 1)]

/-! ## From the flushed blocks to the arrays -/

theorem xsz6 : ∀ t : Fin cfg0.N, win0_6.xsize (grid0.coords t) 0 = 1024 ∧ win0_6.xsize (grid0.coords t) 1 = 1 :=
  (by decide +kernel : ∀ t : Fin grid0.N, win0_6.xsize (grid0.coords t) 0 = 1024 ∧ win0_6.xsize (grid0.coords t) 1 = 1)
theorem xsz7 : ∀ t : Fin cfg0.N, win0_7.xsize (grid0.coords t) 0 = 1024 ∧ win0_7.xsize (grid0.coords t) 1 = 1024 :=
  (by decide +kernel : ∀ t : Fin grid0.N, win0_7.xsize (grid0.coords t) 0 = 1024 ∧ win0_7.xsize (grid0.coords t) 1 = 1024)

include hX hsqc hsqr htc htr in
/-- The row-sum window is written back at the last column tile of each grid row, with the row tile's full sums. -/
theorem flushed6_eq (t : Fin cfg0.N) (hf : (cfg0.win 6).flush t = true) :
    (dat0 V c).flushed 6 t = ((cfg0.win 6).blk t).view.read (Elt Ideal)
      (fun j : S4096x1.Idx => Cert.LSL.negSum (Cert.LSL.rowsOf X) (Cert.LSL.labelsOf T) (j 0)) := by
  have h3 : t.val % 4 = 3 := (flush0_6 t).mp hf
  funext y
  obtain ⟨p, rfl⟩ : ∃ p : Fin 1024, y = ix2 p 0 := by
    have hy := eq_ix2 (n0 := 1024) (n1 := 1) y
    have hlt : (y 1).val < 1 := (y 1).isLt
    have h1 : y 1 = (0 : Fin 1) := Fin.ext (by show (y 1).val = 0; omega)
    rw [h1] at hy
    exact ⟨y 0, hy⟩
  show (cfg0.win 6).cut (grid0.coords t) ((dat0 V c).after 6 t) (ix2 p 0) = _
  rw [after0_6, View.read_apply]
  show (acc0 V c t.val : Vec Ideal S1024x1 .f32) (ix2 p 0) = Cert.LSL.negSum (Cert.LSL.rowsOf X) (Cert.LSL.labelsOf T) _
  rw [acc0_apply V c X T hX hsqc hsqr htc htr t.val t.isLt p, h3]
  show ∑ j ∈ Finset.range 4, _ = _
  rw [tileSum_range4]
  congr 1
  apply Fin.ext
  show 1024 * (t.val / 4) + p.val = win0_6.index t 0 * 1024 + 1 * p.val
  rw [(idx0_6 t).1]; omega

/-- Every row lies in the block written back at the last column tile of its row tile. -/
theorem cover6 (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  let t : Fin cfg0.N := ⟨4 * ((i 0).val / 1024) + 3, lt_of_lt_of_eq (by omega) N16.symm⟩
  have htv : t.val = 4 * ((i 0).val / 1024) + 3 := rfl
  refine ⟨t, (flush0_6 t).mpr (by rw [htv]; omega), ?_⟩
  show i ∈ ((View.whole main_v6_0).slice (win0_6.rect t)).set
  rw [View.set_slice_whole, Rect.mem_set_unit]
  intro a
  match a with
  | ⟨0, _⟩ =>
    show win0_6.index t 0 * win0_6.size 0 ≤ (i 0 : Nat) ∧ (i 0 : Nat) < win0_6.index t 0 * win0_6.size 0 + win0_6.xsize (grid0.coords t) 0
    rw [(idx0_6 t).1, (xsz6 t).1, show win0_6.size 0 = 1024 from rfl, htv]; omega
  | ⟨1, _⟩ =>
    show win0_6.index t 1 * win0_6.size 1 ≤ (i 1 : Nat) ∧ (i 1 : Nat) < win0_6.index t 1 * win0_6.size 1 + win0_6.xsize (grid0.coords t) 1
    rw [(idx0_6 t).2, (xsz6 t).2]; omega

include hX hsqc hsqr htc htr in
/-- THE ROW SUMS: the first output array ends holding every row's sum over its negatives. -/
theorem negsum_eq : ((dat0 V c).arrAt 6 cfg0.N : S4096x1.Idx → EReal)
    = fun j => Cert.LSL.negSum (Cert.LSL.rowsOf X) (Cert.LSL.labelsOf T) (j 0) :=
  (dat0 V c).arrAt_eq_of_cover 6 _ (flushed6_eq V c X T hX hsqc hsqr htc htr) cover6

include hX hsqc hsqr in
/-- The distance window is written back exactly where the column tile is at least the row tile, with the point's tile. -/
theorem flushed7_eq (t : Fin cfg0.N) (hf : (cfg0.win 7).flush t = true) :
    (dat0 V c).flushed 7 t = ((cfg0.win 7).blk t).view.read (Elt Ideal)
      (fun j : S4096x4096.Idx => Cert.LSL.dist (Cert.LSL.rowsOf X) (j 0) (j 1)) := by
  have hle : t.val / 4 ≤ t.val % 4 := (cond2_iff t).mp hf
  funext y
  obtain ⟨a, b, rfl⟩ : ∃ (a b : Fin 1024), y = ix2 a b := ⟨y 0, y 1, eq_ix2 (n0 := 1024) (n1 := 1024) y⟩
  show (cfg0.win 7).cut (grid0.coords t) ((dat0 V c).after 7 t) (ix2 a b) = _
  rw [after0_7, View.read_apply]
  show distTile (grid0.coords t) (iblk0 V c 0 t) (iblk0 V c 1 t) (iblk0 V c 2 t) (iblk0 V c 3 t) (ix2 a b)
    = Cert.LSL.dist (Cert.LSL.rowsOf X) _ _
  rw [tile_apply V c X hX hsqc hsqr t a b]
  congr 1 <;> apply Fin.ext
  · show 1024 * (t.val / 4) + a.val = win0_7.index t 0 * 1024 + 1 * a.val
    rw [(idx0_7 t).1]; omega
  · show 1024 * (t.val % 4) + b.val = win0_7.index t 1 * 1024 + 1 * b.val
    rw [(idx0_7 t).2, max_eq_right hle]; omega

include hX hsqc hsqr in
/-- THE DISTANCES: on and above the block diagonal the second output array ends holding the pair's distance. -/
theorem dist_eq (p q : Fin 4096) (h : p.val / 1024 ≤ q.val / 1024) :
    ((dat0 V c).arrAt 7 cfg0.N : S4096x4096.Idx → EReal) (ix2 p q) = Cert.LSL.dist (Cert.LSL.rowsOf X) p q := by
  have hp := p.isLt
  have hq := q.isLt
  let t : Fin cfg0.N := ⟨4 * (p.val / 1024) + q.val / 1024, lt_of_lt_of_eq (by omega) N16.symm⟩
  have htv : t.val = 4 * (p.val / 1024) + q.val / 1024 := rfl
  have hd : t.val / 4 = p.val / 1024 := by rw [htv]; omega
  have hm : t.val % 4 = q.val / 1024 := by rw [htv]; omega
  have hf : (cfg0.win 7).flush t = true := (cond2_iff t).mpr (by rw [hd, hm]; exact h)
  exact (dat0 V c).arrAt_apply_of_mem 7 (fun j : S4096x4096.Idx => Cert.LSL.dist (Cert.LSL.rowsOf X) (j 0) (j 1))
    (flushed7_eq V c X hX hsqc hsqr) cfg0.N t (ix2 p q) t.isLt hf (by
      show ix2 p q ∈ ((View.whole main_v6_1).slice (win0_7.rect t)).set
      rw [View.set_slice_whole, Rect.mem_set_unit]
      intro a
      match a with
      | ⟨0, _⟩ =>
        show win0_7.index t 0 * win0_7.size 0 ≤ p.val ∧ p.val < win0_7.index t 0 * win0_7.size 0 + win0_7.xsize (grid0.coords t) 0
        rw [(idx0_7 t).1, (xsz7 t).1, show win0_7.size 0 = 1024 from rfl, hd]; omega
      | ⟨1, _⟩ =>
        show win0_7.index t 1 * win0_7.size 1 ≤ q.val ∧ q.val < win0_7.index t 1 * win0_7.size 1 + win0_7.xsize (grid0.coords t) 1
        rw [(idx0_7 t).2, (xsz7 t).2, show win0_7.size 1 = 1024 from rfl, max_eq_right (by rw [hd, hm]; exact h), hm]; omega)

end Cert.KernelIdeal.KVal

end
-- ==== Proof.Val.KTail.lean ====
import proofs.«401359_j57629871178315_3_alg».proof.KernelIdeal
import proofs.«401359_j57629871178315_3_alg».proof.Proof.Gen.KernelIdeal
import proofs.«401359_j57629871178315_3_alg».proof.Proof.Val.Spec
import Idealize.ShloMosaic.Lib.ValueIdx
import Idealize.ShloMosaic.Lib.ValueIdxRank1
import Idealize.ShloMosaic.Lib.IdealHost
import Idealize.ShloMosaic.PureOps.Ideal.Laws

noncomputable section

/-! # The program's host tail: the number of ordered positive pairs by a histogram

The program counts, for each of 64 label values, the rows that carry it (a scatter-add of ones into 64 zeros), reads
the counts as reals, and sums `n · (n − 1)` over the bins. With every label in `[0, 64)` the clip at zero and the
negative-index wrap are the identity, no update falls outside the bins, no count wraps (at most 4096), and the sum is
the number of ordered pairs of distinct rows with equal labels. -/

namespace Cert.KernelIdeal.TailValue

open Cert.KernelIdeal Cert.KernelIdeal.Gen
open Idealize.ShloMosaic Idealize.ShloMosaic.ValueIdx
open scoped BigOperators

/-! ## Re-indexing a sum over 4096 rows by four tiles of 1024 -/

theorem sum_tiles {M : Type*} [AddCommMonoid M] (f : Fin 4096 → M) :
    ∑ q : Fin 4096, f q = ∑ j : Fin 4, ∑ r : Fin 1024, f ⟨1024 * j.val + r.val, by omega⟩ := by
  have h := (Equiv.sum_comp (finProdFinEquiv (m := 4) (n := 1024)) f).symm
  refine h.trans ?_
  rw [Fintype.sum_prod_type]
  refine Finset.sum_congr rfl fun j _ => Finset.sum_congr rfl fun r _ => ?_
  congr 1
  apply Fin.ext
  simp [finProdFinEquiv]
  omega

/-! ## A histogram by adding ones -/

/-- Folding "add one at the key" over a list adds to each bin the number of list entries with that key. -/
theorem foldl_hist_list {α ι : Type} [DecidableEq ι] (key : α → ι) (l : List α) (r0 : ι → BitVec 32) :
    l.foldl (fun r n => fun i' => if i' = key n then r (key n) + 1#32 else r i') r0
      = fun i' => r0 i' + BitVec.ofNat 32 (l.countP fun n => key n = i') := by
  induction l generalizing r0 with
  | nil => funext i'; simp
  | cons a l ih =>
    rw [List.foldl_cons, ih]
    funext i'
    by_cases h : i' = key a
    · subst h
      simp [List.countP_cons, BitVec.ofNat_add, BitVec.add_assoc, BitVec.add_comm]
    · have h' : ¬ key a = i' := fun e => h e.symm
      simp [List.countP_cons, h, h']

/-- Over all of `Fin N`, from zeros: bin `i'` holds the number of `n` with key `i'`. -/
theorem foldl_hist {N : ℕ} {ι : Type} [DecidableEq ι] (key : Fin N → ι) :
    (List.finRange N).foldl (fun r n => fun i' => if i' = key n then r (key n) + 1#32 else r i') (fun _ => 0#32)
      = fun i' => BitVec.ofNat 32 (Finset.univ.filter fun n => key n = i').card := by
  rw [foldl_hist_list]
  funext i'
  rw [BitVec.zero_add]
  congr 1
  rw [List.countP_eq_length_filter]
  simp [Finset.card, Finset.filter, Fin.univ_def]

/-! ## Counting ordered pairs with equal labels -/

theorem pairs_count {α β : Type} [Fintype α] [DecidableEq α] [Fintype β] [DecidableEq β] (lab : α → β) :
    (Finset.univ.filter fun pq : α × α => pq.1 ≠ pq.2 ∧ lab pq.1 = lab pq.2).card
      = ∑ c : β, ((Finset.univ.filter fun p => lab p = c).card * (Finset.univ.filter fun p => lab p = c).card
          - (Finset.univ.filter fun p => lab p = c).card) := by
  rw [Finset.card_eq_sum_card_fiberwise (f := fun pq : α × α => lab pq.1) (t := Finset.univ) (fun _ _ => Finset.mem_univ _)]
  refine Finset.sum_congr rfl fun c _ => ?_
  rw [← Finset.offDiag_card]
  congr 1
  ext ⟨p, q⟩
  simp only [Finset.mem_filter, Finset.mem_univ, true_and, Finset.mem_offDiag]
  constructor
  · rintro ⟨⟨hne, he⟩, hc⟩
    exact ⟨hc, he ▸ hc, hne⟩
  · rintro ⟨hp, hq, hne⟩
    exact ⟨⟨hne, hp.trans hq.symm⟩, hp⟩

/-! ## Where an update lands -/

theorem start_eq (j : S4096.Idx) (idx : IVec S4096x1 32) (a : Fin S64.rank) :
    scatter_S64_S4096x1_S4096_n_0_0_1.start j idx a = (idx (ValueIdx.ix2 (j 0) 0)).toInt := by
  have ha : a = 0 := Subsingleton.elim _ _
  subst ha
  unfold ScatterDims.start
  rw [dif_pos (by decide)]
  congr 2
  funext b
  match b with
  | ⟨0, _⟩ => rfl
  | ⟨1, _⟩ => rfl

theorem window_eq (j : S4096.Idx) (a : Fin S64.rank) :
    scatter_S64_S4096x1_S4096_n_0_0_1.window j a = 0 := by
  have ha : a = 0 := Subsingleton.elim _ _
  subst ha
  unfold ScatterDims.window
  rw [dif_neg (by decide)]

theorem resultIdx_eq (j : S4096.Idx) (idx : IVec S4096x1 32)
    (h0 : 0 ≤ (idx (ValueIdx.ix2 (j 0) 0)).toInt) (h1 : (idx (ValueIdx.ix2 (j 0) 0)).toInt < 64) :
    scatter_S64_S4096x1_S4096_n_0_0_1.resultIdx? j idx
      = some (ValueIdx.ix1 (n := 64) ⟨(idx (ValueIdx.ix2 (j 0) 0)).toInt.toNat, by omega⟩) := by
  unfold ScatterDims.resultIdx?
  have h : ∀ a, 0 ≤ scatter_S64_S4096x1_S4096_n_0_0_1.start j idx a + scatter_S64_S4096x1_S4096_n_0_0_1.window j a
      ∧ scatter_S64_S4096x1_S4096_n_0_0_1.start j idx a + scatter_S64_S4096x1_S4096_n_0_0_1.window j a < S64.size a := by
    intro a
    have ha : a = 0 := Subsingleton.elim _ _
    subst ha
    rw [start_eq, window_eq]
    exact ⟨by simpa using h0, by simpa using h1⟩
  rw [dif_pos h]
  congr 1
  funext a
  have ha : a = 0 := Subsingleton.elim _ _
  subst ha
  apply Fin.ext
  simp [start_eq, window_eq]

/-! ## The clip and the negative-index wrap are the identity on labels in range -/

/-- What the program does to one label before it is used as a bin. -/
def clipWrap (x : BitVec 32) : BitVec 32 :=
  Scalar.select (IntOp.cmpi .slt (IntOp.maxsi 0#32 x) 0#32) (IntOp.addi (IntOp.maxsi 0#32 x) 64#32)
    (IntOp.maxsi 0#32 x)

theorem clipWrap_id (x : BitVec 32) (h0 : 0 ≤ x.toInt) : clipWrap x = x := by
  unfold clipWrap
  have hs : ¬ (x.slt 0#32 = true) := by
    rw [BitVec.slt_iff_toInt_lt]; simpa using h0
  have hm : IntOp.maxsi 0#32 x = x := by unfold IntOp.maxsi; rw [if_neg hs]
  rw [hm]
  have hc : IntOp.cmpi .slt x 0#32 = 0#1 := by simp [IntOp.cmpi, hs]
  rw [hc]; exact select_zero _ _

/-- The index array the scatter reads: the clipped, wrapped labels as a column. -/
def idxOf (T : IVec S4096 32) : IVec S4096x1 32 :=
  let v11 := maxsi (broadcastInDim S4096 ![] bcast_S_S4096 (id (constantI S_ 32 0#32))) T
  let v13 := cmpi .slt v11 (broadcastInDim S4096 ![] bcast_S_S4096 (constantI S_ 32 0#32))
  let v15 := addi v11 (broadcastInDim S4096 ![] bcast_S_S4096 (constantI S_ 32 64#32))
  let v16 := select v13 v15 v11
  broadcastInDim S4096x1 ![0] bcast_S4096_S4096x1_0 v16

theorem idxOf_apply (T : IVec S4096 32) (p : Fin 4096) (h0 : 0 ≤ (T (ValueIdx.ix1 p)).toInt) :
    idxOf T (ValueIdx.ix2 p 0) = T (ValueIdx.ix1 p) := by
  have hi : (fun a : Fin S4096.rank => if h1 : S4096.size a = 1 then (⟨0, by omega⟩ : Fin (S4096.size a))
      else ⟨((ValueIdx.ix2 (n0 := 4096) (n1 := 1) p 0) ((![0] : Fin 1 → Fin 2) a)).val, by
        have ha : a = 0 := Subsingleton.elim _ _
        subst ha; exact p.isLt⟩) = ValueIdx.ix1 p := by
    funext a
    have ha : a = 0 := Subsingleton.elim _ _
    subst ha
    rfl
  have e : idxOf T (ValueIdx.ix2 p 0) = clipWrap (T (ValueIdx.ix1 p)) := congrArg (fun i => clipWrap (T i)) hi
  rw [e]; exact clipWrap_id _ h0

theorem foldl_congr_step {α β : Type} (f g : β → α → β) (l : List α) (r0 : β) (h : ∀ r n, f r n = g r n) :
    l.foldl f r0 = l.foldl g r0 := by
  have : f = g := funext fun r => funext fun n => h r n
  rw [this]

/-! ## The scatter of ones is the histogram of the labels -/

theorem scatter_hist (idx : IVec S4096x1 32)
    (hidx : ∀ p : Fin 4096, 0 ≤ (idx (ValueIdx.ix2 p 0)).toInt ∧ (idx (ValueIdx.ix2 p 0)).toInt < 64) (c : Fin 64) :
    Host.scatter scatter_S64_S4096x1_S4096_n_0_0_1 IntOp.addi
        (broadcastInDim S64 ![] bcast_S_S64 (constantI S_ 32 0#32)) idx
        (broadcastInDim S4096 ![] bcast_S_S4096 (constantI S_ 32 1#32)) (ValueIdx.ix1 c)
      = BitVec.ofNat 32 (Finset.univ.filter fun p : Fin 4096 => (idx (ValueIdx.ix2 p 0)).toInt.toNat = c.val).card := by
  unfold Host.scatter
  rw [foldl_congr_step (g := fun (r : S64.Idx → BitVec 32) (n : Fin S4096.numel) => fun i' =>
      if i' = (ValueIdx.ix1 (n := 64) ⟨(idx (ValueIdx.ix2 ((S4096.rowMajor.symm n) 0) 0)).toInt.toNat,
            by have := hidx ((S4096.rowMajor.symm n) 0); omega⟩)
          then r (ValueIdx.ix1 (n := 64) ⟨(idx (ValueIdx.ix2 ((S4096.rowMajor.symm n) 0) 0)).toInt.toNat,
            by have := hidx ((S4096.rowMajor.symm n) 0); omega⟩) + 1#32 else r i')]
  · have h0 : (broadcastInDim S64 ![] bcast_S_S64 (constantI S_ 32 0#32) : IVec S64 32) = fun _ => 0#32 := rfl
    rw [h0, foldl_hist]
    beta_reduce
    congr 1
    refine Finset.card_equiv (S4096.rowMajor.symm.trans idxEquiv1) fun n => ?_
    simp only [Finset.mem_filter, Finset.mem_univ, true_and, Equiv.trans_apply]
    constructor
    · intro h
      have := congrFun h 0
      exact congrArg Fin.val this
    · intro h
      funext a
      have ha : a = 0 := Subsingleton.elim _ _
      subst ha
      exact Fin.ext h
  · intro r n
    rw [resultIdx_eq _ _ (hidx _).1 (hidx _).2]
    rfl

/-! ## The denominator: the number of ordered positive pairs -/

/-- The tail's denominator as the program composes it from the label array. -/
def lenP (T : IVec S4096 32) : FVec Ideal S_ .f32 :=
  let v11 := maxsi (broadcastInDim S4096 ![] bcast_S_S4096 (id (constantI S_ 32 0#32))) T
  let v13 := cmpi .slt v11 (broadcastInDim S4096 ![] bcast_S_S4096 (constantI S_ 32 0#32))
  let v15 := addi v11 (broadcastInDim S4096 ![] bcast_S_S4096 (constantI S_ 32 64#32))
  let v16 := select v13 v15 v11
  let v17 := broadcastInDim S4096x1 ![0] bcast_S4096_S4096x1_0 v16
  let v19 := Host.scatter scatter_S64_S4096x1_S4096_n_0_0_1 IntOp.addi (broadcastInDim S64 ![] bcast_S_S64 (constantI S_ 32 0#32)) v17 (broadcastInDim S4096 ![] bcast_S_S4096 (constantI S_ 32 1#32))
  let v20 := sitofp (F := Ideal) .f32 v19
  let v22 := subf v20 (broadcastInDim S64 ![] bcast_S_S64 (constant S_ .f32 0x3F800000#32))
  let v23 := mulf v20 v22
  Host.reduceAdd v23 (constant S_ .f32 0x00000000#32) reducesTo_S64_S_d0 h_S_

/-- A sum of natural numbers cast to the extended reals through the reals. -/
theorem coe_nat_sum {ι : Type} (s : Finset ι) (f : ι → ℕ) :
    ∑ i ∈ s, (((f i : ℕ) : ℝ) : EReal) = (((∑ i ∈ s, f i : ℕ) : ℝ) : EReal) := by
  classical
  induction s using Finset.induction_on with
  | empty => simp
  | insert a s ha ih => rw [Finset.sum_insert ha, Finset.sum_insert ha, ih]; push_cast; rfl

/-- A count of at most 4096 rows, held in a 32-bit word, reads back signed as itself. -/
theorem toInt_ofNat_small (n : ℕ) (h : n ≤ 4096) : (BitVec.ofNat 32 n).toInt = (n : ℤ) := by
  have e := BitVec.toInt_eq_toNat_cond (BitVec.ofNat 32 n)
  rw [BitVec.toNat_ofNat, Nat.mod_eq_of_lt (by omega), if_pos (by omega)] at e
  exact e

/-- From the bins' counts to the sum: each bin holds `n` as a word, the sum of `n · (n − 1)` over the bins comes out. -/
theorem tail_of_counts (v19 : IVec S64 32) (cnt : Fin 64 → ℕ)
    (hc : ∀ c, v19 (ValueIdx.ix1 c) = BitVec.ofNat 32 (cnt c)) (hle : ∀ c, cnt c ≤ 4096) (j : S_.Idx) :
    Host.reduceAdd (mulf (sitofp (F := Ideal) .f32 v19) (subf (sitofp (F := Ideal) .f32 v19)
        (broadcastInDim S64 ![] bcast_S_S64 (constant S_ .f32 0x3F800000#32))))
      (constant S_ .f32 0x00000000#32) reducesTo_S64_S_d0 h_S_ j
      = (((∑ c : Fin 64, (cnt c * cnt c - cnt c) : ℕ) : ℝ) : EReal) := by
  rw [hostReduceAdd_apply, Ideal.hostReduceAdd_total _ (fun b => b.elim0), constant_apply, Ideal.ofBits_zero_f32,
    zero_add]
  rw [← Equiv.sum_comp (idxEquiv1 (n := 64)).symm, ← coe_nat_sum]
  refine Finset.sum_congr rfl fun c _ => ?_
  show (((v19 (ValueIdx.ix1 c)).toInt : ℝ) : EReal)
      * ((((v19 (ValueIdx.ix1 c)).toInt : ℝ) : EReal) - Ideal.ofBits .f32 0x3F800000#32) = _
  rw [hc c, toInt_ofNat_small _ (hle c), Ideal.ofBits_one_f32, ← EReal.coe_one, ← EReal.coe_sub, ← EReal.coe_mul]
  congr 1
  rw [Nat.cast_sub (Nat.le_mul_self _), Nat.cast_mul, Int.cast_natCast]
  ring

theorem lenP_eq (T : IVec S4096 32)
    (hT : ∀ n : Fin 4096, 0 ≤ (T (ValueIdx.ix1 n)).toInt ∧ (T (ValueIdx.ix1 n)).toInt < 64) :
    lenP T = fun _ => ((Cert.LSL.pairCount (Cert.LSL.labelsOf T) : ℕ) : EReal) := by
  funext j
  have hidx : ∀ p : Fin 4096, 0 ≤ (idxOf T (ValueIdx.ix2 p 0)).toInt ∧ (idxOf T (ValueIdx.ix2 p 0)).toInt < 64 := by
    intro p; rw [idxOf_apply T p (hT p).1]; exact hT p
  -- the label of row `p` as a bin
  let lab : Fin 4096 → Fin 64 := fun p => ⟨(T (ValueIdx.ix1 p)).toInt.toNat, by have := hT p; omega⟩
  have hcnt : ∀ c : Fin 64,
      Host.scatter scatter_S64_S4096x1_S4096_n_0_0_1 IntOp.addi
        (broadcastInDim S64 ![] bcast_S_S64 (constantI S_ 32 0#32)) (idxOf T)
        (broadcastInDim S4096 ![] bcast_S_S4096 (constantI S_ 32 1#32)) (ValueIdx.ix1 c)
      = BitVec.ofNat 32 (Finset.univ.filter fun p => lab p = c).card := by
    intro c
    rw [scatter_hist (idxOf T) hidx c]
    congr 2
    ext p
    simp only [Finset.mem_filter, Finset.mem_univ, true_and]
    rw [idxOf_apply T p (hT p).1]
    exact ⟨fun h => Fin.ext h, fun h => congrArg Fin.val h⟩
  have hle : ∀ c : Fin 64, (Finset.univ.filter fun p => lab p = c).card ≤ 4096 := fun c =>
    (Finset.card_le_univ _).trans (by simp)
  have key := tail_of_counts _ (fun c => (Finset.univ.filter fun p => lab p = c).card) hcnt hle j
  refine (show lenP T j = _ from key).trans ?_
  rw [EReal.coe_natCast, ← pairs_count lab]
  refine congrArg (fun n : ℕ => (n : EReal)) ?_
  unfold Cert.LSL.pairCount Cert.LSL.labelsOf
  refine congrArg Finset.card (Finset.filter_congr fun pq _ => ?_)
  obtain ⟨p, q⟩ := pq
  show (p ≠ q ∧ lab p = lab q) ↔ (p ≠ q ∧ T (ValueIdx.ix1 p) = T (ValueIdx.ix1 q))
  refine and_congr_right fun _ => ?_
  constructor
  · intro h
    have h' : (T (ValueIdx.ix1 p)).toInt.toNat = (T (ValueIdx.ix1 q)).toInt.toNat := congrArg Fin.val h
    have := hT p; have := hT q
    exact BitVec.eq_of_toInt_eq (by omega)
  · intro h
    exact Fin.ext (by show (T (ValueIdx.ix1 p)).toInt.toNat = (T (ValueIdx.ix1 q)).toInt.toNat; rw [h])

end Cert.KernelIdeal.TailValue

end
-- ==== Proof.Val.K1.lean ====
import proofs.«401359_j57629871178315_3_alg».proof.Proof.Gen.KernelIdeal.Launch
import proofs.«401359_j57629871178315_3_alg».proof.Proof.Gen.KernelIdeal.Skeleton
import proofs.«401359_j57629871178315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«401359_j57629871178315_3_alg».proof.Proof.KI.Data1
import proofs.«401359_j57629871178315_3_alg».proof.Proof.Val.Spec
import proofs.«401359_j57629871178315_3_alg».proof.Proof.Val.KTail
import Idealize.ShloMosaic.Lib.ValueIdx
import Idealize.ShloMosaic.Lib.ValueLayout
import Idealize.ShloMosaic.PureOps.Ideal.Laws

set_option maxRecDepth 16384

noncomputable section

namespace Cert.KernelIdeal.KVal

open Cert.KernelIdeal Cert.KernelIdeal.Gen Cert.KernelIdeal.Hand Idealize.ShloMosaic.ValueIdx

open Idealize.ShloMosaic Idealize.ShloMosaic.TcCoe Idealize.ShloMosaic.Tactic
open Idealize.SL.Sem
open Idealize.ShloMosaic.Pipeline (Dat Cfg Window)
open scoped BigOperators

namespace Hinge

/-! # The second region's value

The second region visits the 4×4 tiles of the pair matrix; on logical row tile `i` it works on the physical row tile
`r = perm i`. Over the column tiles `j ≥ r` it adds, for every row of the tile, the masked squared hinges of that row's
pairs in the tile; tiles strictly below the diagonal hold no pair `p < q` and contribute nothing. After the last column
tile the accumulator holds each row's sum over all 4096 columns and is written to row tile `r` of the output. -/

/-! ## Layout operations of the tile at an index -/

section Layout
variable {α : Type}

/-- A column `[1024, 1]` broadcast along the lanes reads its row's entry. -/
theorem bcastCol_apply (v : S1024x1.Idx → α) (p q : Fin 1024) :
    broadcastTo S1024x1024 v broadcasts_S1024x1_S1024x1024 (ix2 p q) = v (ix2 p 0) := by
  refine broadcastTo_apply v _ (ix2 p q) (ix2 p 0) fun a => ?_
  match a with
  | ⟨0, _⟩ => rfl
  | ⟨1, _⟩ => rfl

/-- A row `[1, 1024]` broadcast along the sublanes reads its column's entry. -/
theorem bcastRow_apply (v : S1x1024.Idx → α) (p q : Fin 1024) :
    broadcastTo S1024x1024 v broadcasts_S1x1024_S1024x1024 (ix2 p q) = v (ix2 0 q) := by
  refine broadcastTo_apply v _ (ix2 p q) (ix2 0 q) fun a => ?_
  match a with
  | ⟨0, _⟩ => rfl
  | ⟨1, _⟩ => rfl

/-- A vector `[1024]` recast as a column `[1024, 1]` reads its entry. -/
theorem castCol_apply (v : S1024.Idx → α) (p : Fin 1024) (z : Fin 1) :
    shapeCast S1024x1 v shapeCasts_S1024_S1024x1 (ix2 p z) = v (ValueIdx.ix1 p) := by
  refine shapeCast_apply v _ (ix2 p z) (ValueIdx.ix1 p) ?_
  rw [Shape.rowMajor_val_one, Shape.rowMajor_val_two]
  show p.val = p.val * 1 + z.val
  omega

end Layout

/-- The row counter of the tile. -/
theorem iotaRow_apply (p q : Fin 1024) :
    iota .tc S1024x1024 32 [0] iota_S1024x1024_d0_w32 (ix2 p q) = BitVec.ofNat 32 p.val :=
  iota_single_apply .tc S1024x1024 32 0 iota_S1024x1024_d0_w32 (ix2 p q)

/-- The column counter of the tile. -/
theorem iotaCol_apply (p q : Fin 1024) :
    iota .tc S1024x1024 32 [1] iota_S1024x1024_d1_w32 (ix2 p q) = BitVec.ofNat 32 q.val :=
  iota_single_apply .tc S1024x1024 32 1 iota_S1024x1024_d1_w32 (ix2 p q)

/-! ## The payloads at an index -/

/-- The reset's payload is zero everywhere. -/
theorem pay1_apply (j : S1024x1.Idx) : (k1_pay1 (F := Ideal)) j = 0 := by
  unfold k1_pay1
  refine (congrFun (shapeCast_self _ _) j).trans ?_
  exact Ideal.ofBits_zero_f32

/-- One entry of a tile as the body computes it: where the two labels agree and the row's global index is below the
    column's, the squared positive part of `log (ns_p + ns_q) + dist`, else zero. `wr` and `wc` are the physical row
    tile and the column tile as words. -/
def tileTerm (wc wr : BitVec 32) (x3 : Vec Ideal S1024x1024 .f32) (x4 : Vec Ideal S1024x1 .i32) (x5 : Vec Ideal S1x1024 .i32)
    (x6 : Vec Ideal S1024x1 .f32) (x7 : Vec Ideal S1x1024 .f32) (p q : Fin 1024) : EReal :=
  Scalar.select
    (IntOp.andi (IntOp.cmpi .eq (x4 (ix2 p 0)) (x5 (ix2 0 q)))
      (IntOp.cmpi .slt (IntOp.addi (Scalar.muli wr 1024#32) (BitVec.ofNat 32 p.val))
        (IntOp.addi (Scalar.muli wc 1024#32) (BitVec.ofNat 32 q.val))))
    (max (Ideal.log (x6 (ix2 p 0) + x7 (ix2 0 q)) + x3 (ix2 p q)) 0 * max (Ideal.log (x6 (ix2 p 0) + x7 (ix2 0 q)) + x3 (ix2 p q)) 0)
    0

/-- The lane sum over a tile's row, with the accumulator's proof arguments as the body prints them. -/
theorem laneSum_apply (src : FVec Ideal S1024x1024 .f32) (hφ : FKind.Formats .f32) (hacc : (0x00000000#32 : BitVec 32) = 0x00000000#32)
    (p : Fin 1024) :
    multiReduction .add [1] S1024 src 0x00000000#32 reduces_S1024x1024_S1024 hφ hacc (ValueIdx.ix1 p)
      = ∑ q : Fin 1024, src (ix2 p q) := by
  refine (Ideal.multiReduction_add_single src 0x00000000#32 reduces_S1024x1024_S1024 hφ hacc (ValueIdx.ix1 p)).trans ?_
  refine Finset.sum_congr rfl fun q _ => congrArg src ?_
  funext a
  match a with
  | ⟨0, _⟩ => rfl
  | ⟨1, _⟩ => rfl

/-- THE CONTRIBUTING PAYLOAD at row `p`: the accumulator's entry plus the row's sum over the tile's 1024 columns. -/
theorem pay2_apply (wc wr : BitVec 32) (x3 : Vec Ideal S1024x1024 .f32) (x4 : Vec Ideal S1024x1 .i32) (x5 : Vec Ideal S1x1024 .i32)
    (x6 : Vec Ideal S1024x1 .f32) (x7 : Vec Ideal S1x1024 .f32) (s : Vec Ideal S1024x1 .f32) (p : Fin 1024) (z : Fin 1) :
    k1_pay2 (F := Ideal) wc wr x3 x4 x5 x6 x7 s (ix2 p z) = s (ix2 p z) + ∑ q : Fin 1024, tileTerm wc wr x3 x4 x5 x6 x7 p q := by
  unfold k1_pay2
  refine (congrFun (shapeCast_self _ _) (ix2 p z)).trans ?_
  refine (addf_apply _ _ (ix2 p z)).trans ?_
  refine congrArg (s (ix2 p z) + ·) ?_
  refine (castCol_apply _ p z).trans ?_
  refine (laneSum_apply _ _ _ p).trans ?_
  refine Finset.sum_congr rfl fun q _ => ?_
  simp only [shapeCast_self]
  refine (select_apply _ _ _ (ix2 p q)).trans ?_
  unfold tileTerm
  show Scalar.select
      (IntOp.andi (IntOp.cmpi .eq (broadcastTo S1024x1024 x4 broadcasts_S1024x1_S1024x1024 (ix2 p q))
          (broadcastTo S1024x1024 x5 broadcasts_S1x1024_S1024x1024 (ix2 p q)))
        (IntOp.cmpi .slt (IntOp.addi (Scalar.muli wr 1024#32) (iota .tc S1024x1024 32 [0] iota_S1024x1024_d0_w32 (ix2 p q)))
          (IntOp.addi (Scalar.muli wc 1024#32) (iota .tc S1024x1024 32 [1] iota_S1024x1024_d1_w32 (ix2 p q)))))
      (max (Ideal.log (broadcastTo S1024x1024 x6 broadcasts_S1024x1_S1024x1024 (ix2 p q)
            + broadcastTo S1024x1024 x7 broadcasts_S1x1024_S1024x1024 (ix2 p q)) + x3 (ix2 p q)) (Ideal.ofBits .f32 0x00000000#32)
        * max (Ideal.log (broadcastTo S1024x1024 x6 broadcasts_S1024x1_S1024x1024 (ix2 p q)
            + broadcastTo S1024x1024 x7 broadcasts_S1x1024_S1024x1024 (ix2 p q)) + x3 (ix2 p q)) (Ideal.ofBits .f32 0x00000000#32))
      (Ideal.ofBits .f32 0x00000000#32) = _
  rw [bcastCol_apply x4, bcastRow_apply x5, bcastCol_apply x6, bcastRow_apply x7, iotaRow_apply, iotaCol_apply,
    Ideal.ofBits_zero_f32]

/-! ## A tile's entry is the specification's hinge -/

/-- Tile index × 1024 + offset, below 8192, is the same number read signed. -/
theorem tileWord_toInt (r p : ℕ) (hr : r < 4) (hp : p < 1024) :
    (IntOp.addi (Scalar.muli (BitVec.ofNat 32 r) 1024#32) (BitVec.ofNat 32 p)).toInt = ((1024 * r + p : ℕ) : ℤ) := by
  have e : IntOp.addi (Scalar.muli (BitVec.ofNat 32 r) 1024#32) (BitVec.ofNat 32 p) = BitVec.ofNat 32 (1024 * r + p) := by
    show BitVec.ofNat 32 r * BitVec.ofNat 32 1024 + BitVec.ofNat 32 p = _
    rw [← BitVec.ofNat_mul, ← BitVec.ofNat_add, Nat.mul_comm]
  have hlt : (BitVec.ofNat 32 (1024 * r + p)).toNat = 1024 * r + p := by
    rw [BitVec.toNat_ofNat]; omega
  rw [e, BitVec.toInt_eq_toNat_of_lt (by rw [hlt]; omega), hlt]

/-- Where the five blocks read the cached distance, the labels and the negative sums of global row `P` and global
    column `Q`, a tile's entry is the squared hinge of the pair `(P, Q)`, counted when `P < Q`. -/
theorem tileTerm_eq_hinge (x : Fin 4096 → Fin 512 → EReal) (t : Fin 4096 → BitVec 32) (r j : ℕ) (hr : r < 4) (hj : j < 4)
    (x3 : Vec Ideal S1024x1024 .f32) (x4 : Vec Ideal S1024x1 .i32) (x5 : Vec Ideal S1x1024 .i32)
    (x6 : Vec Ideal S1024x1 .f32) (x7 : Vec Ideal S1x1024 .f32) (p q : Fin 1024) (P Q : Fin 4096)
    (hP : P.val = 1024 * r + p.val) (hQ : Q.val = 1024 * j + q.val)
    (h3 : x3 (ix2 p q) = Cert.LSL.dist x P Q) (h4 : x4 (ix2 p 0) = t P) (h5 : x5 (ix2 0 q) = t Q)
    (h6 : x6 (ix2 p 0) = Cert.LSL.negSum x t P) (h7 : x7 (ix2 0 q) = Cert.LSL.negSum x t Q) :
    tileTerm (BitVec.ofNat 32 j) (BitVec.ofNat 32 r) x3 x4 x5 x6 x7 p q = Cert.LSL.hinge x t P Q := by
  unfold tileTerm Cert.LSL.hinge Cert.LSL.J Scalar.select
  rw [h3, h4, h5, h6, h7]
  refine if_congr ?_ rfl rfl
  refine Iff.trans IntOp.andi_eq_one (and_congr IntOp.cmpi_eq (Iff.trans IntOp.cmpi_slt ?_))
  rw [tileWord_toInt r p.val hr p.isLt, tileWord_toInt j q.val hj q.isLt]
  rw [Fin.lt_def, hP, hQ, Nat.cast_lt]

/-- A pair that is not strictly upper-triangular has hinge zero. -/
theorem hinge_eq_zero (x : Fin 4096 → Fin 512 → EReal) (t : Fin 4096 → BitVec 32) (P Q : Fin 4096) (h : ¬ P < Q) :
    Cert.LSL.hinge x t P Q = 0 := by
  unfold Cert.LSL.hinge
  exact if_neg fun hc => h hc.2

/-! ## The index maps in closed form -/

/-- The permutation of the row tiles, as numbers. -/
def permN (k : ℕ) : ℕ := match k with | 0 => 0 | 1 => 3 | 2 => 1 | _ => 2

theorem permN_lt (k : ℕ) : permN k < 4 := by unfold permN; split <;> omega

theorem perm_word : ∀ k : Fin 4, (![0#32, 3#32, 1#32, 2#32] : Fin 4 → BitVec 32) k = BitVec.ofNat 32 (permN k.val) := by decide

theorem toNat_tile (r : ℕ) (hr : r < 4) : (BitVec.ofNat 32 r).toNat = r := by rw [BitVec.toNat_ofNat]; omega

theorem maxsi_tile : ∀ r j : Fin 4, (Scalar.maxsi (BitVec.ofNat 32 r.val) (BitVec.ofNat 32 j.val)).toNat = max r.val j.val := by decide

section Region
variable (V : (c : Dev nD) → (b : Ref sig .tc) → Buf (Elt Ideal) ((c : Thread nD τ).loc b)) (a : (pcfg1 (F := Ideal)).Adm) (c : Dev nD)

/-- The table holds the permutation's words. -/
def IsPerm : Prop := ∀ k : Fin 4, tblOf a c (ValueIdx.ix1 k) = (![0#32, 3#32, 1#32, 2#32] : Fin 4 → BitVec 32) k

/-- The word the body loads at logical row tile `i 0` is the table's entry there … -/
theorem rowWord_eq (i : grid1.Coords) : rowWord i (tblOf a c) = tblOf a c (ValueIdx.ix1 (i 0)) := by
  unfold rowWord
  show tblOf a c ((rTbl i).emb _) = _
  congr 1
  funext d
  apply Fin.ext
  match d with
  | ⟨0, _⟩ =>
    rw [Rect.emb_apply]
    simp only [rTbl, k1_off1_eq]
    show (i 0).val + 1 * 0 = (i 0).val
    omega

/-- … which is the permutation's value. -/
theorem rowWord_perm (hperm : IsPerm a c) (i : grid1.Coords) : rowWord i (tblOf a c) = BitVec.ofNat 32 (permN (i 0).val) := by
  exact (rowWord_eq a c i).trans ((hperm (i 0)).trans (perm_word (i 0)))

theorem idx0_eq (i : grid1.Coords) : ((cfg1 a).win 0).indexMap i
    = ![(rowWord i (tblOf a c)).toNat, (Scalar.maxsi (rowWord i (tblOf a c)) (BitVec.ofNat 32 (i 1).val)).toNat] := by
  show cc1_transform_0 Facts₀.k1_off1_inb Facts₀.numel1_S1 a.1 i = _
  unfold cc1_transform_0
  rfl

theorem idx1_eq (i : grid1.Coords) : ((cfg1 a).win 1).indexMap i = ![(rowWord i (tblOf a c)).toNat, 0] := by
  show cc1_transform_1 Facts₀.k1_off1_inb Facts₀.numel1_S1 a.1 i = _
  unfold cc1_transform_1
  rfl

theorem idx2_eq (i : grid1.Coords) : ((cfg1 a).win 2).indexMap i = ![0, (BitVec.ofNat 32 (i 1).val).toNat] := by
  show cc1_transform_2 i = _
  unfold cc1_transform_2
  rfl

theorem idx3_eq (i : grid1.Coords) : ((cfg1 a).win 3).indexMap i = ![(rowWord i (tblOf a c)).toNat, 0] := by
  show cc1_transform_3 Facts₀.k1_off1_inb Facts₀.numel1_S1 a.1 i = _
  unfold cc1_transform_3
  rfl

theorem idx4_eq (i : grid1.Coords) : ((cfg1 a).win 4).indexMap i = ![0, (BitVec.ofNat 32 (i 1).val).toNat] := by
  show cc1_transform_4 i = _
  unfold cc1_transform_4
  rfl

theorem idx5_eq (i : grid1.Coords) : ((cfg1 a).win 5).indexMap i = ![(rowWord i (tblOf a c)).toNat, 0] := by
  show cc1_transform_5 Facts₀.k1_off1_inb Facts₀.numel1_S1 a.1 i = _
  unfold cc1_transform_5
  rfl

/-- The coordinates of a point: (logical row tile, column tile). -/
abbrev crd (t : Fin (cfg1 a).N) : grid1.Coords := (cfg1 a).grid.coords t

/-- The physical row tile of a point. -/
abbrev rowT (t : Fin (cfg1 a).N) : ℕ := permN (crd a t 0).val
/-- The column tile of a point. -/
abbrev colT (t : Fin (cfg1 a).N) : ℕ := (crd a t 1).val

theorem rowT_lt (t : Fin (cfg1 a).N) : rowT a t < 4 := permN_lt _
theorem colT_lt (t : Fin (cfg1 a).N) : colT a t < 4 := (crd a t 1).isLt

theorem maxsi_tile' (r j : ℕ) (hr : r < 4) (hj : j < 4) (h : r ≤ j) :
    (Scalar.maxsi (BitVec.ofNat 32 r) (BitVec.ofNat 32 j)).toNat = j := by
  have := maxsi_tile ⟨r, hr⟩ ⟨j, hj⟩
  simp only at this
  omega

/-- The distance window's block index at a point on or above the diagonal: (physical row tile, column tile). -/
theorem index0 (hperm : IsPerm a c) (t : Fin (cfg1 a).N) (hle : rowT a t ≤ colT a t) :
    ((cfg1 a).win 0).index t = ![rowT a t, colT a t] := by
  show ((cfg1 a).win 0).indexMap (crd a t) = _
  rw [idx0_eq, rowWord_perm a c hperm, toNat_tile _ (permN_lt _), maxsi_tile' _ _ (permN_lt _) (crd a t 1).isLt hle]

/-- The column windows' and the output's block index: (physical row tile, 0). -/
theorem index1 (hperm : IsPerm a c) (t : Fin (cfg1 a).N) : ((cfg1 a).win 1).index t = ![rowT a t, 0] := by
  show ((cfg1 a).win 1).indexMap (crd a t) = _
  rw [idx1_eq, rowWord_perm a c hperm, toNat_tile _ (permN_lt _)]
theorem index3 (hperm : IsPerm a c) (t : Fin (cfg1 a).N) : ((cfg1 a).win 3).index t = ![rowT a t, 0] := by
  show ((cfg1 a).win 3).indexMap (crd a t) = _
  rw [idx3_eq, rowWord_perm a c hperm, toNat_tile _ (permN_lt _)]
theorem index5 (hperm : IsPerm a c) (t : Fin (cfg1 a).N) : ((cfg1 a).win 5).index t = ![rowT a t, 0] := by
  show ((cfg1 a).win 5).indexMap (crd a t) = _
  rw [idx5_eq, rowWord_perm a c hperm, toNat_tile _ (permN_lt _)]

/-- The row windows' block index: (0, column tile). -/
theorem index2 (t : Fin (cfg1 a).N) : ((cfg1 a).win 2).index t = ![0, colT a t] := by
  show ((cfg1 a).win 2).indexMap (crd a t) = _
  rw [idx2_eq, toNat_tile _ (crd a t 1).isLt]
theorem index4 (t : Fin (cfg1 a).N) : ((cfg1 a).win 4).index t = ![0, colT a t] := by
  show ((cfg1 a).win 4).indexMap (crd a t) = _
  rw [idx4_eq, toNat_tile _ (crd a t 1).isLt]

/-! ## The input blocks read where the arrays' indices say -/

/-- The distance block at a point on or above the diagonal: entry `(p, q)` is the array's at the global pair. -/
theorem blk0_apply (hperm : IsPerm a c) (t : Fin (cfg1 a).N) (p q : Fin 1024) (P Q : Fin 4096)
    (hle : rowT a t ≤ colT a t) (hP : P.val = 1024 * rowT a t + p.val) (hQ : Q.val = 1024 * colT a t + q.val) :
    (iblk1 V a c 0 t : Vec Ideal S1024x1024 .f32) (ix2 p q) = (V c main_v6_1 : S4096x4096.Idx → EReal) (ix2 P Q) := by
  show (V c main_v6_1 : S4096x4096.Idx → EReal) ((((cfg1 a).win 0).blk t).view.emb (ix2 p q)) = _
  refine congrArg (V c main_v6_1 : S4096x4096.Idx → EReal) ?_
  funext d
  apply Fin.ext
  match d with
  | ⟨0, h0⟩ =>
    show ((cfg1 a).win 0).index t ⟨0, h0⟩ * 1024 + 1 * p.val = P.val
    have e : ((cfg1 a).win 0).index t ⟨0, h0⟩ = rowT a t := congrFun (index0 a c hperm t hle) ⟨0, h0⟩
    rw [e, hP]; omega
  | ⟨1, h1⟩ =>
    show ((cfg1 a).win 0).index t ⟨1, h1⟩ * 1024 + 1 * q.val = Q.val
    have e : ((cfg1 a).win 0).index t ⟨1, h1⟩ = colT a t := congrFun (index0 a c hperm t hle) ⟨1, h1⟩
    rw [e, hQ]; omega

/-- A column block (labels): entry `p` is the array's at the global row. -/
theorem blk1_apply (hperm : IsPerm a c) (t : Fin (cfg1 a).N) (p : Fin 1024) (z : Fin 1) (P : Fin 4096)
    (hP : P.val = 1024 * rowT a t + p.val) :
    (iblk1 V a c 1 t : Vec Ideal S1024x1 .i32) (ix2 p z) = (V c main_v4 : S4096x1.Idx → BitVec 32) (ix2 P 0) := by
  show (V c main_v4 : S4096x1.Idx → BitVec 32) ((((cfg1 a).win 1).blk t).view.emb (ix2 p z)) = _
  refine congrArg (V c main_v4 : S4096x1.Idx → BitVec 32) ?_
  funext d
  apply Fin.ext
  match d with
  | ⟨0, h0⟩ =>
    show ((cfg1 a).win 1).index t ⟨0, h0⟩ * 1024 + 1 * p.val = P.val
    have e : ((cfg1 a).win 1).index t ⟨0, h0⟩ = rowT a t := congrFun (index1 a c hperm t) ⟨0, h0⟩
    rw [e, hP]; omega
  | ⟨1, h1⟩ =>
    show ((cfg1 a).win 1).index t ⟨1, h1⟩ * 1 + 1 * z.val = 0
    have e : ((cfg1 a).win 1).index t ⟨1, h1⟩ = 0 := congrFun (index1 a c hperm t) ⟨1, h1⟩
    rw [e]; omega

/-- A row block (labels): entry `q` is the array's at the global column. -/
theorem blk2_apply (t : Fin (cfg1 a).N) (z : Fin 1) (q : Fin 1024) (Q : Fin 4096)
    (hQ : Q.val = 1024 * colT a t + q.val) :
    (iblk1 V a c 2 t : Vec Ideal S1x1024 .i32) (ix2 z q) = (V c main_v5 : S1x4096.Idx → BitVec 32) (ix2 0 Q) := by
  show (V c main_v5 : S1x4096.Idx → BitVec 32) ((((cfg1 a).win 2).blk t).view.emb (ix2 z q)) = _
  refine congrArg (V c main_v5 : S1x4096.Idx → BitVec 32) ?_
  funext d
  apply Fin.ext
  match d with
  | ⟨0, h0⟩ =>
    show ((cfg1 a).win 2).index t ⟨0, h0⟩ * 1 + 1 * z.val = 0
    have e : ((cfg1 a).win 2).index t ⟨0, h0⟩ = 0 := congrFun (index2 a t) ⟨0, h0⟩
    rw [e]; omega
  | ⟨1, h1⟩ =>
    show ((cfg1 a).win 2).index t ⟨1, h1⟩ * 1024 + 1 * q.val = Q.val
    have e : ((cfg1 a).win 2).index t ⟨1, h1⟩ = colT a t := congrFun (index2 a t) ⟨1, h1⟩
    rw [e, hQ]; omega

/-- A column block (negative sums). -/
theorem blk3_apply (hperm : IsPerm a c) (t : Fin (cfg1 a).N) (p : Fin 1024) (z : Fin 1) (P : Fin 4096)
    (hP : P.val = 1024 * rowT a t + p.val) :
    (iblk1 V a c 3 t : Vec Ideal S1024x1 .f32) (ix2 p z) = (V c main_v6_0 : S4096x1.Idx → EReal) (ix2 P 0) := by
  show (V c main_v6_0 : S4096x1.Idx → EReal) ((((cfg1 a).win 3).blk t).view.emb (ix2 p z)) = _
  refine congrArg (V c main_v6_0 : S4096x1.Idx → EReal) ?_
  funext d
  apply Fin.ext
  match d with
  | ⟨0, h0⟩ =>
    show ((cfg1 a).win 3).index t ⟨0, h0⟩ * 1024 + 1 * p.val = P.val
    have e : ((cfg1 a).win 3).index t ⟨0, h0⟩ = rowT a t := congrFun (index3 a c hperm t) ⟨0, h0⟩
    rw [e, hP]; omega
  | ⟨1, h1⟩ =>
    show ((cfg1 a).win 3).index t ⟨1, h1⟩ * 1 + 1 * z.val = 0
    have e : ((cfg1 a).win 3).index t ⟨1, h1⟩ = 0 := congrFun (index3 a c hperm t) ⟨1, h1⟩
    rw [e]; omega

/-- A row block (negative sums). -/
theorem blk4_apply (t : Fin (cfg1 a).N) (z : Fin 1) (q : Fin 1024) (Q : Fin 4096)
    (hQ : Q.val = 1024 * colT a t + q.val) :
    (iblk1 V a c 4 t : Vec Ideal S1x1024 .f32) (ix2 z q) = (V c main_v7 : S1x4096.Idx → EReal) (ix2 0 Q) := by
  show (V c main_v7 : S1x4096.Idx → EReal) ((((cfg1 a).win 4).blk t).view.emb (ix2 z q)) = _
  refine congrArg (V c main_v7 : S1x4096.Idx → EReal) ?_
  funext d
  apply Fin.ext
  match d with
  | ⟨0, h0⟩ =>
    show ((cfg1 a).win 4).index t ⟨0, h0⟩ * 1 + 1 * z.val = 0
    have e : ((cfg1 a).win 4).index t ⟨0, h0⟩ = 0 := congrFun (index4 a t) ⟨0, h0⟩
    rw [e]; omega
  | ⟨1, h1⟩ =>
    show ((cfg1 a).win 4).index t ⟨1, h1⟩ * 1024 + 1 * q.val = Q.val
    have e : ((cfg1 a).win 4).index t ⟨1, h1⟩ = colT a t := congrFun (index4 a t) ⟨1, h1⟩
    rw [e, hQ]; omega

end Region

/-! ## The accumulator after each point -/

/-- The reset runs at column tile 0. -/
theorem cond1_iff : ∀ i : grid1.Coords, k1_cond1 i = 1#1 ↔ (i 1).val = 0 := by decide +kernel

/-- A tile contributes when its column tile is not below its physical row tile. -/
theorem cond2_iff : ∀ (i : grid1.Coords) (k : Fin 4),
    k1_cond2 (F := Ideal) i (BitVec.ofNat 32 (permN k.val)) = 1#1 ↔ permN k.val ≤ (i 1).val := by decide +kernel

/-- A point's coordinates: point `t` is (logical row tile `t / 4`, column tile `t % 4`). -/
theorem crd_facts : ∀ t : Fin grid1.N, (grid1.coords t 0).val = t.val / 4 ∧ (grid1.coords t 1).val = t.val % 4 := by
  decide +kernel

/-- The accumulator the tile's sums are added to, at an index: zero at column tile 0. -/
theorem accIn_apply (i : grid1.Coords) (s : Vec Ideal S1024x1 .f32) (j : S1024x1.Idx) :
    hAccIn i s j = if (i 1).val = 0 then 0 else s j := by
  unfold hAccIn
  by_cases h : (i 1).val = 0
  · rw [if_pos ((cond1_iff i).mpr h), if_pos h]; exact pay1_apply j
  · rw [if_neg (fun hc => h ((cond1_iff i).mp hc)), if_neg h]

/-- Entry `p` of tile `r`, as a global index. -/
def gI (r : ℕ) (p : Fin 1024) : Fin 4096 := ⟨(1024 * r + p.val) % 4096, Nat.mod_lt _ (by decide)⟩

theorem gI_val (r : ℕ) (hr : r < 4) (p : Fin 1024) : (gI r p).val = 1024 * r + p.val := by
  show (1024 * r + p.val) % 4096 = _
  omega

section Acc
variable (V : (c : Dev nD) → (b : Ref sig .tc) → Buf (Elt Ideal) ((c : Thread nD τ).loc b)) (a : (pcfg1 (F := Ideal)).Adm) (c : Dev nD)
variable (x : Fin 4096 → Fin 512 → EReal) (tt : Fin 4096 → BitVec 32)

/-- What the region finds: the permutation in its table; the cached distances on and above the tile diagonal; the
    negative sums as a column and as a row; the labels as a column and as a row. -/
structure Inputs : Prop where
  perm : IsPerm a c
  dist : ∀ P Q : Fin 4096, P.val / 1024 ≤ Q.val / 1024 →
    (V c main_v6_1 : S4096x4096.Idx → EReal) (ix2 P Q) = Cert.LSL.dist x P Q
  nsc : ∀ P : Fin 4096, (V c main_v6_0 : S4096x1.Idx → EReal) (ix2 P 0) = Cert.LSL.negSum x tt P
  nsr : ∀ Q : Fin 4096, (V c main_v7 : S1x4096.Idx → EReal) (ix2 0 Q) = Cert.LSL.negSum x tt Q
  tc : ∀ P : Fin 4096, (V c main_v4 : S4096x1.Idx → BitVec 32) (ix2 P 0) = tt P
  tr : ∀ Q : Fin 4096, (V c main_v5 : S1x4096.Idx → BitVec 32) (ix2 0 Q) = tt Q

variable {V a c x tt}

/-- At a contributing point the tile's row sums are the specification's hinges of the global pairs. -/
theorem tile_sum (H : Inputs V a c x tt) (t : Fin (cfg1 a).N) (hle : rowT a t ≤ colT a t) (p : Fin 1024) :
    ∑ q : Fin 1024, tileTerm (BitVec.ofNat 32 (colT a t)) (BitVec.ofNat 32 (rowT a t)) (iblk1 V a c 0 t) (iblk1 V a c 1 t)
        (iblk1 V a c 2 t) (iblk1 V a c 3 t) (iblk1 V a c 4 t) p q
      = ∑ q : Fin 1024, Cert.LSL.hinge x tt (gI (rowT a t) p) (gI (colT a t) q) :=
  Finset.sum_congr rfl fun q _ =>
    tileTerm_eq_hinge x tt (rowT a t) (colT a t) (rowT_lt a t) (colT_lt a t) (iblk1 V a c 0 t) (iblk1 V a c 1 t)
      (iblk1 V a c 2 t) (iblk1 V a c 3 t) (iblk1 V a c 4 t) p q (gI (rowT a t) p) (gI (colT a t) q)
      (gI_val _ (rowT_lt a t) p) (gI_val _ (colT_lt a t) q)
      ((blk0_apply V a c H.perm t p q (gI (rowT a t) p) (gI (colT a t) q) hle (gI_val _ (rowT_lt a t) p) (gI_val _ (colT_lt a t) q)).trans
        (H.dist _ _ (by rw [gI_val _ (rowT_lt a t) p, gI_val _ (colT_lt a t) q]; omega)))
      ((blk1_apply V a c H.perm t p 0 (gI (rowT a t) p) (gI_val _ (rowT_lt a t) p)).trans (H.tc _))
      ((blk2_apply V a c t 0 q (gI (colT a t) q) (gI_val _ (colT_lt a t) q)).trans (H.tr _))
      ((blk3_apply V a c H.perm t p 0 (gI (rowT a t) p) (gI_val _ (rowT_lt a t) p)).trans (H.nsc _))
      ((blk4_apply V a c t 0 q (gI (colT a t) q) (gI_val _ (colT_lt a t) q)).trans (H.nsr _))

/-- ONE STEP: after a point the accumulator's row `p` is what it held (zero at column tile 0) plus the row's hinges over
    the point's column tile — also below the diagonal, where the body adds nothing and every hinge is zero. -/
theorem acc_step (H : Inputs V a c x tt) (t : Fin (cfg1 a).N) (p : Fin 1024) (z : Fin 1) :
    (acc1 V a c t.val : Vec Ideal S1024x1 .f32) (ix2 p z)
      = (if colT a t = 0 then 0 else (accBefore1 V a c t.val : Vec Ideal S1024x1 .f32) (ix2 p z))
        + ∑ q : Fin 1024, Cert.LSL.hinge x tt (gI (rowT a t) p) (gI (colT a t) q) := by
  rw [acc1_eq V a c t]
  unfold hAccOut
  have hw : rowWord (crd a t) (tblOf a c) = BitVec.ofNat 32 (rowT a t) := rowWord_perm a c H.perm (crd a t)
  have hc2 : k1_cond2 (F := Ideal) (crd a t) (BitVec.ofNat 32 (rowT a t)) = 1#1 ↔ rowT a t ≤ colT a t :=
    cond2_iff (crd a t) (crd a t 0)
  rw [hw]
  by_cases hle : rowT a t ≤ colT a t
  · rw [if_pos (hc2.mpr hle)]
    refine (pay2_apply _ _ _ _ _ _ _ _ p z).trans ?_
    rw [accIn_apply, tile_sum H t hle p]
  · rw [if_neg (fun h => hle (hc2.mp h)), accIn_apply]
    have h0 : ∑ q : Fin 1024, Cert.LSL.hinge x tt (gI (rowT a t) p) (gI (colT a t) q) = 0 :=
      Finset.sum_eq_zero fun q _ => hinge_eq_zero x tt _ _ (by
        rw [Fin.lt_def, gI_val _ (rowT_lt a t) p, gI_val _ (colT_lt a t) q]; omega)
    rw [h0, add_zero]

/-- A point's physical row tile and column tile from its position. -/
theorem rowT_mk (n : ℕ) (hn : n < (cfg1 a).N) : rowT a ⟨n, hn⟩ = permN (n / 4) :=
  congrArg permN (crd_facts ⟨n, hn⟩).1
theorem colT_mk (n : ℕ) (hn : n < (cfg1 a).N) : colT a ⟨n, hn⟩ = n % 4 := (crd_facts ⟨n, hn⟩).2

/-- THE INVARIANT, by induction on the point: after point `n` (logical row tile `n / 4`, column tile `n % 4`) the
    accumulator's row `p` holds the row's hinges over the column tiles `0 … n % 4`. -/
theorem acc_rows (H : Inputs V a c x tt) : ∀ (n : ℕ) (hn : n < (cfg1 a).N) (p : Fin 1024) (z : Fin 1),
    (acc1 V a c n : Vec Ideal S1024x1 .f32) (ix2 p z)
      = ∑ j' ∈ Finset.range (n % 4 + 1), ∑ q : Fin 1024, Cert.LSL.hinge x tt (gI (permN (n / 4)) p) (gI j' q)
  | 0, hn, p, z => by
    have h := acc_step H ⟨0, hn⟩ p z
    rw [rowT_mk 0 hn, colT_mk 0 hn] at h
    rw [if_pos rfl, zero_add] at h
    rw [Finset.sum_range_one]
    exact h
  | n + 1, hn, p, z => by
    have h := acc_step H ⟨n + 1, hn⟩ p z
    rw [rowT_mk (n + 1) hn, colT_mk (n + 1) hn] at h
    by_cases h0 : (n + 1) % 4 = 0
    · rw [if_pos h0, zero_add, h0] at h
      rw [h0, Finset.sum_range_one]
      exact h
    · rw [if_neg h0] at h
      have ih := acc_rows H n (Nat.lt_of_succ_lt hn) p z
      have e1 : (n + 1) % 4 = n % 4 + 1 := by omega
      have e2 : (n + 1) / 4 = n / 4 := by omega
      rw [e1, e2] at h
      rw [e1, e2, Finset.sum_range_succ, ← ih]
      exact h

/-- After the last column tile the accumulator's row holds the row's hinges over all 4096 columns. -/
theorem acc_last (H : Inputs V a c x tt) (t : Fin (cfg1 a).N) (h3 : t.val % 4 = 3) (p : Fin 1024) (z : Fin 1) :
    (acc1 V a c t.val : Vec Ideal S1024x1 .f32) (ix2 p z)
      = ∑ Q : Fin 4096, Cert.LSL.hinge x tt (gI (permN (t.val / 4)) p) Q := by
  rw [acc_rows H t.val t.isLt p z, h3, Finset.sum_range, Cert.KernelIdeal.TailValue.sum_tiles]
  refine Finset.sum_congr rfl fun j _ => Finset.sum_congr rfl fun q _ => congrArg _ (Fin.ext ?_)
  exact gI_val j.val j.isLt q

end Acc

/-! ## From the flushed blocks to the output array -/

section Out
variable {V : (c : Dev nD) → (b : Ref sig .tc) → Buf (Elt Ideal) ((c : Thread nD τ).loc b)} {a : (pcfg1 (F := Ideal)).Adm} {c : Dev nD}
variable {x : Fin 4096 → Fin 512 → EReal} {tt : Fin 4096 → BitVec 32}

/-- The region's result: each row's sum of hinges over all columns, as a column. -/
def rowHinge (x : Fin 4096 → Fin 512 → EReal) (tt : Fin 4096 → BitVec 32) : S4096x1.Idx → EReal :=
  fun j => ∑ Q : Fin 4096, Cert.LSL.hinge x tt (j 0) Q

theorem permN_inj : ∀ k l : Fin 4, permN k.val = permN l.val → k = l := by decide

/-- The inverse permutation: the logical row tile that works on physical row tile `r`. -/
def invN (r : ℕ) : ℕ := match r with | 0 => 0 | 3 => 1 | 1 => 2 | _ => 3

theorem invN_lt (r : ℕ) : invN r < 4 := by unfold invN; split <;> omega
theorem permN_invN : ∀ r : Fin 4, permN (invN r.val) = r.val := by decide

variable (a) in
/-- The output's block is written back only after a last column tile: between the other points its index does not move. -/
theorem flush5_col (t : Fin (cfg1 a).N) (hf : ((cfg1 a).win 5).flush t = true) : t.val % 4 = 3 := by
  have hN : (cfg1 a).N = 16 := N_1
  have hN' : (cfg1 a).grid.N = 16 := N_1
  have htl : t.val < 16 := lt_of_lt_of_eq t.isLt hN
  by_contra hne
  unfold Pipeline.Window.flush at hf
  rw [Bool.and_eq_true, Bool.or_eq_true, decide_eq_true_eq, decide_eq_true_eq] at hf
  rcases hf.2 with h | ⟨h, hidx⟩
  · omega
  · refine hidx (((cfg1 a).win 5).hreads _ _ fun d hd => ?_)
    match d with
    | ⟨0, h0⟩ =>
      refine Fin.ext ?_
      have e1 := (crd_facts ⟨t.val + 1, h⟩).1
      have e2 := (crd_facts t).1
      show (grid1.coords ⟨t.val + 1, h⟩ 0).val = (grid1.coords t 0).val
      rw [e1, e2]
      show (t.val + 1) / 4 = t.val / 4
      omega
    | ⟨1, h1⟩ => exact absurd hd Bool.false_ne_true

/-- After every last column tile it is: the next point works on another physical row tile, or there is none. -/
theorem flush5_last (hperm : IsPerm a c) (k : ℕ) (hk : k < 4) (hlt : 4 * k + 3 < (cfg1 a).N) :
    ((cfg1 a).win 5).flush ⟨4 * k + 3, hlt⟩ = true := by
  have hN : (cfg1 a).N = 16 := N_1
  have hN' : (cfg1 a).grid.N = 16 := N_1
  unfold Pipeline.Window.flush
  rw [Bool.and_eq_true, Bool.or_eq_true, decide_eq_true_eq, decide_eq_true_eq]
  refine ⟨rfl, ?_⟩
  by_cases h3 : k = 3
  · left
    show 4 * k + 3 + 1 = (cfg1 a).grid.N
    omega
  · right
    have hlt' : 4 * k + 3 + 1 < (cfg1 a).N := by omega
    refine ⟨hlt', fun he => ?_⟩
    have he' : (![rowT a ⟨4 * k + 3 + 1, hlt'⟩, 0] : Fin 2 → ℕ) = ![rowT a ⟨4 * k + 3, hlt⟩, 0] :=
      (index5 a c hperm ⟨4 * k + 3 + 1, hlt'⟩).symm.trans (he.trans (index5 a c hperm ⟨4 * k + 3, hlt⟩))
    have e0 : rowT a ⟨4 * k + 3 + 1, hlt'⟩ = rowT a ⟨4 * k + 3, hlt⟩ := congrFun he' 0
    rw [rowT_mk, rowT_mk] at e0
    have e1 : (4 * k + 3 + 1) / 4 = k + 1 := by omega
    have e2 : (4 * k + 3) / 4 = k := by omega
    rw [e1, e2] at e0
    have := permN_inj ⟨k + 1, by omega⟩ ⟨k, hk⟩ e0
    have := congrArg Fin.val this
    simp only at this
    omega

/-- What a flushing point writes back is its block of the result. -/
theorem flushed_eq (H : Inputs V a c x tt) (t : Fin (cfg1 a).N) (hf : ((cfg1 a).win 5).flush t = true) :
    (dat1 V a c).flushed 5 t = (((cfg1 a).win 5).blk t).view.read (Elt Ideal) (rowHinge x tt) := by
  have h3 := flush5_col a t hf
  show ((cfg1 a).win 5).cut ((cfg1 a).grid.coords t) ((dat1 V a c).after 5 t) = _
  rw [after1_5]
  refine funext fun (y : S1024x1.Idx) => ?_
  rw [eq_ix2 y]
  show (acc1 V a c t.val : Vec Ideal S1024x1 .f32) (ix2 (y 0) (y 1))
    = rowHinge x tt ((((cfg1 a).win 5).blk t).view.emb (ix2 (y 0) (y 1)))
  rw [acc_last H t h3 (y 0) (y 1)]
  unfold rowHinge
  refine Finset.sum_congr rfl fun Q _ => congrArg (fun P => Cert.LSL.hinge x tt P Q) (Fin.ext ?_)
  rw [gI_val _ (permN_lt _) (y 0)]
  show _ = ((cfg1 a).win 5).index t (0 : Fin 2) * 1024 + 1 * (y 0).val
  have e : ((cfg1 a).win 5).index t (0 : Fin 2) = rowT a t := congrFun (index5 a c H.perm t) (0 : Fin 2)
  have e' : rowT a t = permN (t.val / 4) := rowT_mk t.val t.isLt
  rw [e, e']
  omega

/-- The four flushed blocks cover the array: row `P` lies in physical row tile `P / 1024`, written back after the
    last column tile of the logical row tile the inverse permutation names. -/
theorem cover (hperm : IsPerm a c) (i : S4096x1.Idx) :
    ∃ t : Fin (cfg1 a).N, ((cfg1 a).win 5).flush t = true ∧ i ∈ (((cfg1 a).win 5).blk t).view.set := by
  have hN : (cfg1 a).N = 16 := N_1
  have h0 : (i 0 : ℕ) < 4096 := (i 0).isLt
  have h1 : (i 1 : ℕ) < 1 := (i 1).isLt
  have hk := invN_lt ((i 0).val / 1024)
  have hlt : 4 * invN ((i 0).val / 1024) + 3 < (cfg1 a).N := by omega
  refine ⟨⟨4 * invN ((i 0).val / 1024) + 3, hlt⟩, flush5_last hperm _ hk hlt, ?_⟩
  have hr : rowT a ⟨4 * invN ((i 0).val / 1024) + 3, hlt⟩ = (i 0).val / 1024 := by
    rw [rowT_mk]
    have e : (4 * invN ((i 0).val / 1024) + 3) / 4 = invN ((i 0).val / 1024) := by omega
    rw [e]
    exact permN_invN ⟨(i 0).val / 1024, by omega⟩
  have hy : (((cfg1 a).win 5).blk ⟨4 * invN ((i 0).val / 1024) + 3, hlt⟩).view.emb
      (ix2 (⟨(i 0).val % 1024, Nat.mod_lt _ (by decide)⟩ : Fin 1024) (0 : Fin 1)) = i := by
    funext d
    apply Fin.ext
    match d with
    | ⟨0, hd⟩ =>
      show ((cfg1 a).win 5).index ⟨4 * invN ((i 0).val / 1024) + 3, hlt⟩ ⟨0, hd⟩ * 1024 + 1 * ((i 0).val % 1024) = (i 0).val
      have e : ((cfg1 a).win 5).index ⟨4 * invN ((i 0).val / 1024) + 3, hlt⟩ ⟨0, hd⟩
          = rowT a ⟨4 * invN ((i 0).val / 1024) + 3, hlt⟩ := congrFun (index5 a c hperm _) ⟨0, hd⟩
      rw [e, hr]
      omega
    | ⟨1, hd⟩ =>
      show ((cfg1 a).win 5).index ⟨4 * invN ((i 0).val / 1024) + 3, hlt⟩ ⟨1, hd⟩ * 1 + 1 * 0 = (i 1).val
      have e : ((cfg1 a).win 5).index ⟨4 * invN ((i 0).val / 1024) + 3, hlt⟩ ⟨1, hd⟩ = 0 :=
        congrFun (index5 a c hperm _) ⟨1, hd⟩
      rw [e]
      omega
  exact Finset.mem_map.mpr ⟨_, Finset.mem_univ _, hy⟩

end Out

end Hinge

open Hinge

/-- THE SECOND REGION'S VALUE: with the permutation in its table, the cached distances on and above the tile diagonal,
    the negative sums and the labels in its input arrays, the region leaves in its output each row's sum of squared
    hinges over all columns. -/
theorem rowh_eq (V : (c : Dev nD) → (b : Ref sig .tc) → Buf (Elt Ideal) ((c : Thread nD τ).loc b))
    (a : (pcfg1 (F := Ideal)).Adm) (c : Dev nD)
    (X : (⟨2, ![4096, 512]⟩ : Shape).Idx → EReal) (T : (⟨1, ![4096]⟩ : Shape).Idx → BitVec 32)
    (hperm : ∀ k : Fin 4, tblOf a c (ValueIdx.ix1 k) = (![0#32, 3#32, 1#32, 2#32] : Fin 4 → BitVec 32) k)
    (hD : ∀ p q : Fin 4096, p.val / 1024 ≤ q.val / 1024 →
      (V c main_v6_1 : S4096x4096.Idx → EReal) (ValueIdx.ix2 p q) = Cert.LSL.dist (Cert.LSL.rowsOf X) p q)
    (hnsc : (V c main_v6_0 : S4096x1.Idx → EReal) = fun j => Cert.LSL.negSum (Cert.LSL.rowsOf X) (Cert.LSL.labelsOf T) (j 0))
    (hnsr : (V c main_v7 : S1x4096.Idx → EReal) = fun j => Cert.LSL.negSum (Cert.LSL.rowsOf X) (Cert.LSL.labelsOf T) (j 1))
    (htc : (V c main_v4 : S4096x1.Idx → BitVec 32) = fun j => T (ValueIdx.ix1 (j 0)))
    (htr : (V c main_v5 : S1x4096.Idx → BitVec 32) = fun j => T (ValueIdx.ix1 (j 1))) :
    ((dat1 V a c).arrAt 5 (cfg1 a).N : S4096x1.Idx → EReal)
      = fun j : S4096x1.Idx => ∑ q : Fin 4096, Cert.LSL.hinge (Cert.LSL.rowsOf X) (Cert.LSL.labelsOf T) (j 0) q := by
  have H : Inputs V a c (Cert.LSL.rowsOf X) (Cert.LSL.labelsOf T) :=
    ⟨hperm, hD, fun P => congrFun hnsc (ix2 P 0), fun Q => congrFun hnsr (ix2 0 Q),
      fun P => congrFun htc (ix2 P 0), fun Q => congrFun htr (ix2 0 Q)⟩
  exact (dat1 V a c).arrAt_eq_of_cover 5 (rowHinge (Cert.LSL.rowsOf X) (Cert.LSL.labelsOf T))
    (fun t hf => flushed_eq H t hf) (fun i => cover hperm i)

end Cert.KernelIdeal.KVal

end
-- ==== Proof.Val.PreLabels.lean ====
import proofs.«401359_j57629871178315_3_alg».proof.Pre_finite_inputs
import proofs.«401359_j57629871178315_3_alg».proof.Proof.Gen.Pre_finite_inputs
import Idealize.ShloMosaic.Lib.ValueIdx
import Idealize.ShloMosaic.Lib.ReduceAll
import Idealize.ShloMosaic.Lib.StableHlo.Predicate

/-! # The label range out of the precondition

The precondition is the conjunction of three reductions by `and`: every input entry finite, every label at least
zero, every label below 64. Where it holds, each reduction is one, so each compared element is one, and the two
signed compares say `0 ≤ t` and `t < 64` of every label `t` read signed. -/

namespace Cert.Pre_finite_inputs.Labels

open Cert.Pre_finite_inputs Cert.Pre_finite_inputs.Gen
open Idealize.ShloMosaic

variable {F : FTy → Type} [FloatOps F]

theorem labels_in_range (X : FVec F S4096x512 .f32) (T : IVec S4096 32)
    (h : Cert.Pre_finite_inputs.fn (F := F) X T = fun _ => 1#1) :
    ∀ n : Fin 4096, 0 ≤ (T (ValueIdx.ix1 n)).toInt ∧ (T (ValueIdx.ix1 n)).toInt < 64 := by
  -- the scalar shape has one index
  haveI : Subsingleton S_.Idx := ⟨fun a b => funext fun d => d.elim0⟩
  have h0 := congrFun h ValueIdx.ix0
  dsimp only [Cert.Pre_finite_inputs.fn, andi] at h0
  obtain ⟨h1, hlt⟩ := IntOp.andi_eq_one.1 h0
  obtain ⟨_, hge⟩ := IntOp.andi_eq_one.1 h1
  intro n
  have e1 := Host.reduce_andi_all _ _ _ _ _ hge (ValueIdx.ix1 n)
  have e2 := Host.reduce_andi_all _ _ _ _ _ hlt (ValueIdx.ix1 n)
  have a1 : (0#32 : BitVec 32).toInt ≤ (T (ValueIdx.ix1 n)).toInt := IntOp.cmpi_sge.1 e1
  have a2 : (T (ValueIdx.ix1 n)).toInt < (64#32 : BitVec 32).toInt := IntOp.cmpi_slt.1 e2
  have z0 : (0#32 : BitVec 32).toInt = 0 := by decide
  have z64 : (64#32 : BitVec 32).toInt = 64 := by decide
  rw [z0] at a1; rw [z64] at a2
  exact ⟨a1, a2⟩

end Cert.Pre_finite_inputs.Labels
-- ==== Proof.Val.KLoss.lean ====
import proofs.«401359_j57629871178315_3_alg».proof.Proof.KI.Launch
import proofs.«401359_j57629871178315_3_alg».proof.Proof.KI.Table
import proofs.«401359_j57629871178315_3_alg».proof.Proof.Val.Spec
import proofs.«401359_j57629871178315_3_alg».proof.Proof.Val.Host
import proofs.«401359_j57629871178315_3_alg».proof.Proof.Val.K0
import proofs.«401359_j57629871178315_3_alg».proof.Proof.Val.K1
import proofs.«401359_j57629871178315_3_alg».proof.Proof.Val.KTail
import proofs.«401359_j57629871178315_3_alg».proof.Proof.Val.PreLabels
import Idealize.ShloMosaic.Lib.ValueIdx
import Idealize.ShloMosaic.PureOps.Ideal.Laws

set_option maxRecDepth 16384

noncomputable section

/-! # The kernel program's result is the loss

Under the precondition every label lies in `[0, 64)`. The first region leaves every row's sum over its negatives
and, on and above the block diagonal, every pair's distance; the second region, reading those through the
permutation table, leaves every row's sum of squared hinges; the host tail sums these and divides by the number of
ordered positive pairs, which the label histogram counts. -/

namespace Cert.KernelIdeal.KVal

open Cert.KernelIdeal Cert.KernelIdeal.Gen Cert.KernelIdeal.Hand Idealize.ShloMosaic.ValueIdx
open Idealize.ShloMosaic Idealize.ShloMosaic.TcCoe Idealize.SL.Sem

variable (m : (ℓ : Loc nD τ sig) → Buf (Elt Ideal) ℓ) (c : Dev nD)

/-- The first region's row sums, at the launch arrays. -/
theorem rowSums0_eq : rowSums0 m c = fun j => Cert.LSL.negSum (Cert.LSL.rowsOf (argX m c)) (Cert.LSL.labelsOf (argT m c)) (j 0) :=
  negsum_eq (U1 m) c (argX m c) (argT m c) (U1_arg0 m c) (U1_v2 m c) (U1_v3 m c) (U1_v4 m c) (U1_v5 m c)

/-- The first region's distances on and above the block diagonal, at the launch arrays. -/
theorem distArr0_eq (p q : Fin 4096) (h : p.val / 1024 ≤ q.val / 1024) :
    distArr0 m c (ValueIdx.ix2 p q) = Cert.LSL.dist (Cert.LSL.rowsOf (argX m c)) p q :=
  dist_eq (U1 m) c (argX m c) (U1_arg0 m c) (U1_v2 m c) (U1_v3 m c) p q h

/-- The second region's hinge row sums, at the launch arrays and the permutation table's words. -/
theorem hingeRows_eq : hingeRows m (admLit (F := Ideal)) c
    = fun j : S4096x1.Idx => ∑ q : Fin 4096, Cert.LSL.hinge (Cert.LSL.rowsOf (argX m c)) (Cert.LSL.labelsOf (argT m c)) (j 0) q :=
  rowh_eq (U3 m) (admLit (F := Ideal)) c (argX m c) (argT m c) (fun k => tblOf_admLit c k)
    (fun p q h => (congrFun (U3_v6_1 m c) (ValueIdx.ix2 p q)).trans (distArr0_eq m c p q h))
    ((U3_v6_0 m c).trans (rowSums0_eq m c))
    ((U3_v7 m c).trans (by rw [rowSums0_eq m c]))
    (U3_v4 m c) (U3_v5 m c)

/-- THE RESULT: under the precondition the program's result buffer holds the loss of the two argument arrays. -/
theorem kernel_loss [Cert.Pre_finite_inputs.Facts]
    (hpre : Cert.Pre_finite_inputs.fn (F := Ideal) (m ((c.tc : Thread nD τ).loc main_arg0)) (m ((c.tc : Thread nD τ).loc main_arg1)) = fun _ => 1#1) :
    W7 m (admLit (F := Ideal)) c (Proc.devRef .tc main_v25)
      = Cert.LSL.lossBuf (m ((c.tc : Thread nD τ).loc main_arg0)) (m ((c.tc : Thread nD τ).loc main_arg1)) := by
  have hT := Cert.Pre_finite_inputs.Labels.labels_in_range (F := Ideal) (argX m c) (argT m c) hpre
  refine (W7_v25 m (admLit (F := Ideal)) c).trans ?_
  rw [numerator_sum m (admLit (F := Ideal)) c
      (fun p => ∑ q : Fin 4096, Cert.LSL.hinge (Cert.LSL.rowsOf (argX m c)) (Cert.LSL.labelsOf (argT m c)) p q) (hingeRows_eq m c),
    show DEN (argT m c) = Cert.KernelIdeal.TailValue.lenP (argT m c) from rfl,
    Cert.KernelIdeal.TailValue.lenP_eq _ hT]
  funext i
  rfl

end Cert.KernelIdeal.KVal

end
-- ==== Proof.Val.Ref.lean ====
import proofs.«401359_j57629871178315_3_alg».proof.Proof.RefRunP
import proofs.«401359_j57629871178315_3_alg».proof.Proof.RefReadP
import proofs.«401359_j57629871178315_3_alg».proof.Proof.Val.Spec
import Idealize.ShloMosaic.Lib.ValueIdx
import Idealize.ShloMosaic.Lib.Pipeline.Value
import Idealize.ShloMosaic.PureOps.Ideal.Laws
import Idealize.ShloMosaic.PureOps.Reduce
import Idealize.ShloMosaic.Lib.IndicatorCount
import Idealize.ShloMosaic.Lib.Affine
import Idealize.ShloMosaic.Lib.StableHlo.Predicate

noncomputable section

/-! # The reference program computes the lifted-structure loss

Each stage of the reference, read at an index given by coordinates, is the quantity of the specification that it
names: squared norms, inner products, clamped squared distances, guarded distances, the negatives' terms and their
row sums, the pair statistic, the squared hinge under the mask "same label and row before column", their double sum,
and the count of ordered positive pairs. The result is the quotient of the last two. -/

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.StableHlo
open Idealize.ShloMosaic.ValueIdx

/-! ## Words and selections -/

/-- A selection on a condition word is the `if` on what the word being one says. -/
theorem select_of_iff {α : Type} {c : BitVec 1} {P : Prop} [Decidable P] (h : c = 1#1 ↔ P) (a b : α) :
    Scalar.select c a b = if P then a else b := by
  unfold Scalar.select
  exact if_congr h rfl rfl

/-- The ordered "greater than" of two extended reals is one exactly when the second is below the first. -/
theorem cmp_ogt_eq_one (x y : EReal) : Ideal.cmp .ogt x y = 1#1 ↔ y < x := by
  simp only [Ideal.cmp, StableHlo.Predicate.ofBool_eq_one_iff, decide_eq_true_eq]

/-- A row's word plus the all-ones word, read signed, is the row minus one. -/
theorem toInt_pred (p : ℕ) (hp : p < 4096) : (IntOp.addi (BitVec.ofNat 32 p) 4294967295#32).toInt = (p : Int) - 1 := by
  have h1 : (BitVec.ofNat 32 p).toInt = p := StableHlo.Predicate.toInt_ofNat_small p (by omega)
  have h2 : (4294967295#32 : BitVec 32).toInt = -1 := by decide
  rw [IntOp.addi, BitVec.toInt_add, h1, h2]
  exact Int.bmod_eq_of_le (by omega) (by omega)

/-- "Row minus one is at least the column", on words of coordinates, says the column is before the row. -/
theorem below_word (p q : ℕ) (hp : p < 4096) (hq : q < 4096) :
    IntOp.cmpi .sge (IntOp.addi (BitVec.ofNat 32 p) 4294967295#32) (BitVec.ofNat 32 q) = 1#1 ↔ q < p := by
  rw [IntOp.cmpi_sge, toInt_pred p hp, StableHlo.Predicate.toInt_ofNat_small q (by omega)]
  omega

/-- "Row plus zero equals the column", on words of coordinates, says the coordinates are equal. -/
theorem diag_word (p q : ℕ) (hp : p < 4096) (hq : q < 4096) :
    IntOp.cmpi .eq (IntOp.addi (BitVec.ofNat 32 p) 0#32) (BitVec.ofNat 32 q) = 1#1 ↔ p = q := by
  rw [IntOp.cmpi_eq, IntOp.addi, BitVec.add_zero]
  constructor
  · intro h
    have := congrArg BitVec.toNat h
    simp only [BitVec.toNat_ofNat] at this
    omega
  · rintro rfl; rfl

/-- A natural number as an integer as a real as an extended real is the natural number. -/
theorem natCast_ereal (n : ℕ) : (((n : Int) : ℝ) : EReal) = (n : EReal) := by
  rw [Int.cast_natCast]; rfl

/-! ## The composed index maps, by coordinates -/

section Indices
variable (p q : Fin 4096) (k : Fin 512) (r : Fin 4096)

theorem i_v1 : idx_main_v1 (ix1 p) k = ix2 p k := by
  funext a; match a with | ⟨0, _⟩ => rfl | ⟨1, _⟩ => rfl
theorem i_v4 : idx_main_v2 (idx_main_v4 (ix2 p q)) = ix1 p := by
  funext a; match a with | ⟨0, _⟩ => rfl
theorem i_v5 : idx_main_v3 (idx_main_v5 (ix2 p q)) = ix1 q := by
  funext a; match a with | ⟨0, _⟩ => rfl
theorem i_l8 : lidx_main_v8 (ix2 p q) k = ix2 p k := by
  funext a; match a with | ⟨0, _⟩ => rfl | ⟨1, _⟩ => rfl
theorem i_r8 : idx_main_v7 (ridx_main_v8 (ix2 p q) k) = ix2 q k := by
  funext a; match a with | ⟨0, _⟩ => rfl | ⟨1, _⟩ => rfl
theorem i_v23 : idx_main_v21 (idx_main_v23 (ix2 p q)) = ix1 p := by
  funext a; match a with | ⟨0, _⟩ => rfl
theorem i_v24 : idx_main_v22 (idx_main_v24 (ix2 p q)) = ix1 q := by
  funext a; match a with | ⟨0, _⟩ => rfl
theorem i_v38 : idx_main_v38 (ix1 p) r = ix2 p r := by
  funext a; match a with | ⟨0, _⟩ => rfl | ⟨1, _⟩ => rfl
theorem i_v41 : idx_main_v39 (idx_main_v41 (ix2 p q)) = ix1 p := by
  funext a; match a with | ⟨0, _⟩ => rfl
theorem i_v42 : idx_main_v40 (idx_main_v42 (ix2 p q)) = ix1 q := by
  funext a; match a with | ⟨0, _⟩ => rfl

end Indices

/-! ## The stages -/

variable (X : (⟨2, ![4096, 512]⟩ : Shape).Idx → EReal) (T : (⟨1, ![4096]⟩ : Shape).Idx → BitVec 32)

/-- The row sums of squares are the squared norms. -/
theorem v1_eq (p : Fin 4096) : val_main_v1 (F := Ideal) X (ix1 p) = LSL.sq (LSL.rowsOf X) p := by
  rw [val_main_v1_apply, val_main_cst_apply, Ideal.ofBits_def, Ideal.ofBits_zero_f32, zero_add]
  show _ = ∑ k : Fin 512, X (ix2 p k) * X (ix2 p k)
  refine Finset.sum_congr rfl fun k _ => ?_
  rw [val_main_v0_apply, i_v1, Ideal.mulf_def]

/-- The broadcast sum of the norms. -/
theorem v6_eq (p q : Fin 4096) :
    val_main_v6 (F := Ideal) X (ix2 p q) = LSL.sq (LSL.rowsOf X) p + LSL.sq (LSL.rowsOf X) q := by
  rw [val_main_v6_apply, val_main_v4_apply, val_main_v2_apply, val_main_v5_apply, val_main_v3_apply, i_v4, i_v5,
    v1_eq, v1_eq, Ideal.addf_def]

/-- The product with the transpose is the inner product of two rows. -/
theorem v8_eq (p q : Fin 4096) : val_main_v8 (F := Ideal) X (ix2 p q) = LSL.dot (LSL.rowsOf X) p q := by
  rw [val_main_v8_apply]
  show _ = ∑ k : Fin 512, X (ix2 p k) * X (ix2 q k)
  refine Finset.sum_congr rfl fun k _ => ?_
  rw [val_main_v7_apply, i_l8, i_r8]

/-- The clamped squared distance. -/
theorem v13_eq (p q : Fin 4096) : val_main_v13 (F := Ideal) X (ix2 p q) = LSL.d2 (LSL.rowsOf X) p q := by
  rw [val_main_v13_apply, val_main_v11_apply, val_main_v10_apply, val_main_v9_apply, val_main_cst_0_apply,
    val_main_v12_apply, val_main_cst_1_apply, v6_eq, v8_eq]
  simp only [Ideal.ofBits_def, Ideal.ofBits_zero_f32, Ideal.maximumf_def, Ideal.subf_def, Ideal.mulf_def]
  rfl

/-- The guarded square root. -/
theorem v20_eq (p q : Fin 4096) : val_main_v20 (F := Ideal) X (ix2 p q) = LSL.dist (LSL.rowsOf X) p q := by
  rw [val_main_v20_apply, val_main_v15_apply, val_main_v14_apply, val_main_cst_2_apply, val_main_v19_apply,
    val_main_v18_apply, val_main_v17_apply, val_main_v16_apply, val_main_cst_3_apply, val_main_call0_v1_apply,
    val_main_call0_v0_apply, val_main_cst_4_apply, val_main_call1_v1_apply, val_main_call1_v0_apply,
    val_main_cst_5_apply, v13_eq]
  simp only [Ideal.ofBits_def, Ideal.ofBits_zero_f32, Ideal.cmpf_def, Ideal.hostUnary_sqrt_def]
  rw [select_of_iff (cmp_ogt_eq_one _ _), select_of_iff (cmp_ogt_eq_one _ _)]
  rfl

/-- The label comparison. -/
theorem v25_iff (p q : Fin 4096) :
    val_main_v25 (F := Ideal) T (ix2 p q) = 1#1 ↔ LSL.labelsOf T p = LSL.labelsOf T q := by
  rw [val_main_v25_apply, val_main_v23_apply, val_main_v21_apply, val_main_v24_apply, val_main_v22_apply, i_v23, i_v24]
  exact IntOp.cmpi_eq

/-- A negative pair's term. -/
theorem v37_eq (p q : Fin 4096) :
    val_main_v37 (F := Ideal) X T (ix2 p q) = LSL.neg (LSL.rowsOf X) (LSL.labelsOf T) p q := by
  rw [val_main_v37_apply, val_main_v33_apply, val_main_v36_apply, val_main_v35_apply, val_main_v34_apply,
    val_main_cst_6_apply, val_main_call2_v1_apply, val_main_call2_v0_apply, val_main_cst_7_apply, v20_eq]
  simp only [Ideal.ofBits_def, Ideal.ofBits_zero_f32, Ideal.subf_def, Ideal.hostUnary_exp_def]
  rw [select_of_iff (IntOp.not_eq_one.trans (not_congr (v25_iff T p q))), ite_not]
  rfl

/-- A row's sum over its negatives. -/
theorem v38_eq (p : Fin 4096) :
    val_main_v38 (F := Ideal) X T (ix1 p) = LSL.negSum (LSL.rowsOf X) (LSL.labelsOf T) p := by
  rw [val_main_v38_apply, val_main_cst_8_apply, Ideal.ofBits_def, Ideal.ofBits_zero_f32, zero_add]
  show _ = ∑ r : Fin 4096, LSL.neg (LSL.rowsOf X) (LSL.labelsOf T) p r
  refine Finset.sum_congr rfl fun r _ => ?_
  rw [i_v38, v37_eq]

/-- The pair statistic. -/
theorem v45_eq (p q : Fin 4096) :
    val_main_v45 (F := Ideal) X T (ix2 p q) = LSL.J (LSL.rowsOf X) (LSL.labelsOf T) p q := by
  rw [val_main_v45_apply, val_main_v44_apply, val_main_v43_apply, val_main_v41_apply, val_main_v39_apply,
    val_main_v42_apply, val_main_v40_apply, i_v41, i_v42, v38_eq, v38_eq, v20_eq]
  simp only [Ideal.addf_def, Ideal.hostUnary_log_def]
  rfl

/-- The diagonal comparison. -/
theorem v30_iff (p q : Fin 4096) : val_main_v30 (F := Ideal) (ix2 p q) = 1#1 ↔ p = q := by
  rw [val_main_v30_apply, val_main_v29_apply, val_main_v26_apply, val_main_v28_apply, val_main_c_apply,
    val_main_v27_apply]
  exact (diag_word p.val q.val p.isLt q.isLt).trans Fin.val_inj

/-- The positive-pair mask: same label, different rows. -/
theorem v32_iff (p q : Fin 4096) :
    val_main_v32 (F := Ideal) T (ix2 p q) = 1#1 ↔ (LSL.labelsOf T p = LSL.labelsOf T q ∧ p ≠ q) := by
  rw [val_main_v32_apply, IntOp.andi_eq_one, v25_iff, val_main_v31_apply, IntOp.not_eq_one, v30_iff]

/-- The lower-triangle comparison: the column is before the row. -/
theorem below_iff (p q : Fin 4096) : val_main_call3_v4 (F := Ideal) (ix2 p q) = 1#1 ↔ q < p := by
  rw [val_main_call3_v4_apply, val_main_call3_v2_apply, val_main_call3_v0_apply, val_main_call3_v1_apply,
    val_main_call3_c_apply, val_main_call3_v3_apply]
  exact (below_word p.val q.val p.isLt q.isLt).trans Fin.lt_def.symm

/-- The upper-triangular positive-pair mask: same label, row before column. -/
theorem v46_iff (p q : Fin 4096) :
    val_main_v46 (F := Ideal) T (ix2 p q) = 1#1 ↔ (LSL.labelsOf T p = LSL.labelsOf T q ∧ p < q) := by
  rw [val_main_v46_apply, val_main_call3_v5_apply, val_main_call3_c_0_apply, select_of_iff (below_iff p q)]
  by_cases hqp : q < p
  · rw [if_pos hqp]
    constructor
    · intro h0; exact absurd h0 (by decide)
    · rintro ⟨_, hpq⟩; exact absurd hpq (lt_asymm hqp)
  · rw [if_neg hqp, v32_iff]
    constructor
    · rintro ⟨he, hne⟩; exact ⟨he, lt_of_le_of_ne (not_lt.1 hqp) hne⟩
    · rintro ⟨he, hlt⟩; exact ⟨he, ne_of_lt hlt⟩

/-- A positive pair's squared hinge, counted once. -/
theorem v49_eq (p q : Fin 4096) :
    val_main_v49 (F := Ideal) X T (ix2 p q) = LSL.hinge (LSL.rowsOf X) (LSL.labelsOf T) p q := by
  rw [val_main_v49_apply, val_main_v48_apply, val_main_v47_apply, val_main_call4_v0_apply, val_main_call4_cst_apply,
    val_main_call5_v1_apply, val_main_call5_v0_apply, val_main_cst_9_apply, v45_eq, select_of_iff (v46_iff T p q)]
  simp only [Ideal.ofBits_def, Ideal.ofBits_zero_f32, Ideal.maximumf_def, Ideal.mulf_def]
  rfl

/-- The double sum of the squared hinges. -/
theorem v53_eq (i : S_.Idx) : val_main_v53 (F := Ideal) X T i = LSL.total (LSL.rowsOf X) (LSL.labelsOf T) := by
  rw [val_main_v53_apply, val_main_cst_11_apply, Ideal.ofBits_def, Ideal.ofBits_zero_f32, zero_add, sum_idx2]
  show _ = ∑ p : Fin 4096, ∑ q : Fin 4096, LSL.hinge (LSL.rowsOf X) (LSL.labelsOf T) p q
  exact Finset.sum_congr rfl fun p _ => Finset.sum_congr rfl fun q _ => v49_eq X T p q

/-! ## The count of positive pairs -/

/-- There are at most 4096 · 4096 ordered pairs. -/
theorem pairCount_le (t : Fin 4096 → BitVec 32) : LSL.pairCount t ≤ 4096 * 4096 := by
  unfold LSL.pairCount
  calc _ ≤ (Finset.univ : Finset (Fin 4096 × Fin 4096)).card := Finset.card_filter_le _ _
    _ = 4096 * 4096 := by rw [Finset.card_univ, Fintype.card_prod, Fintype.card_fin]

/-- The set bits of a mask that says "same label, different rows" are the ordered positive pairs. -/
theorem card_mask (t : Fin 4096 → BitVec 32) (mask : (⟨2, ![4096, 4096]⟩ : Shape).Idx → BitVec 1)
    (hm : ∀ p q : Fin 4096, mask (ix2 p q) = 1#1 ↔ (t p = t q ∧ p ≠ q)) :
    (Finset.univ.filter fun j => mask j = 1#1).card = LSL.pairCount t := by
  unfold LSL.pairCount
  refine Finset.card_equiv idxEquiv2 fun j => ?_
  obtain ⟨p, q, rfl⟩ : ∃ p q, j = ix2 p q := ⟨j 0, j 1, eq_ix2 j⟩
  simp only [Finset.mem_filter, Finset.mem_univ, true_and]
  exact (hm p q).trans and_comm

/-- An integer sum to a scalar, from zero, of a widened mask is the word of the number of its set bits: every index
    reduces into the one result, and a sum of zeros and ones counts the ones. -/
theorem reduce_count {s : Shape} {axes : List (Fin s.rank)} (h : s.ReducesTo axes ⟨0, ![]⟩)
    (hu : 0 < (⟨0, ![]⟩ : Shape).numel) (mask : s.Idx → BitVec 1) (init : (⟨0, ![]⟩ : Shape).Idx → BitVec 32)
    (h0 : ∀ i, init i = 0#32) (i : (⟨0, ![]⟩ : Shape).Idx) :
    Host.reduce IntOp.addi (fun j => (mask j).setWidth 32) init h hu i
      = BitVec.ofNat 32 (Finset.univ.filter fun j => mask j = 1#1).card := by
  rw [Host.reduce_eq_fold]
  have hall : (Finset.univ.filter fun j : s.Idx => h.drop j = i) = Finset.univ :=
    Finset.filter_true_of_mem fun j _ => funext fun a => a.elim0
  rw [hall, h0, IndicatorCount.fold_addi_setWidth_eq_card]

/-- The integer sum of the widened positive-pair mask is the word of the count. -/
theorem v51_eq (i : S_.Idx) : val_main_v51 (F := Ideal) T i = BitVec.ofNat 32 (LSL.pairCount (LSL.labelsOf T)) := by
  have hf : val_main_v50 (F := Ideal) T = fun j => (val_main_v32 (F := Ideal) T j).setWidth 32 := rfl
  unfold val_main_v51
  rw [hf, reduce_count reducesTo_S4096x4096_S_d0_1 h_S_ _ _ (fun i => val_main_c_10_apply i) i,
    card_mask (LSL.labelsOf T) _ (v32_iff T)]

/-- The count as a float: it is below 2³¹, so the word read signed is the count itself. -/
theorem v52_eq (i : S_.Idx) :
    val_main_v52 (F := Ideal) T i = ((LSL.pairCount (LSL.labelsOf T) : ℕ) : EReal) := by
  rw [val_main_v52_apply, v51_eq]
  show (((BitVec.ofNat 32 (LSL.pairCount (LSL.labelsOf T))).toInt : ℝ) : EReal) = _
  rw [StableHlo.Predicate.toInt_ofNat_small _ (lt_of_le_of_lt (pairCount_le _) (by norm_num)), natCast_ereal]

/-! ## The result -/

/-- The reference's last stage, as a function of the two argument arrays, is the lifted-structure loss. -/
theorem ref_loss (X : (⟨S4096x512, .f32⟩ : BufTy).Contents (Elt Ideal)) (T : (⟨S4096, .i32⟩ : BufTy).Contents (Elt Ideal)) :
    Cert.ReferenceIdeal.ReadP.val_main_v54 (F := Ideal) X T = Cert.LSL.lossBuf X T := by
  funext i
  rw [val_main_v54_apply, v53_eq, v52_eq, Ideal.hostDivf_def]
  rfl

end Cert.ReferenceIdeal.RefValue

end
-- ==== Proof.Val.RefRun.lean ====
/-
  The reference's run, read over its stages.

  The reference's @main is a straight line of 87 host operations, listed in order as `ops`. Here the list is cut into
  eleven stretches, `ops = s1 ++ … ++ s11`; the operations of a called function stand in a stretch at their buffers' own
  types, which are the printed ones by computation, so the equation of the two lists holds by computation. For each
  stretch two things are shown. First, the references it writes: every other reference keeps its contents through the
  stretch. Second, from any contents `W` that hold the earlier stages' values (of arguments `x0`, `x1`) at the
  references the stretch reads, the contents after the stretch hold the later stages' values at the references it
  writes that a later stretch reads. Chained over the eleven stretches: after all the operations the result reference
  holds the last stage's value `val_main_v54` of the two arguments' contents at launch, and the two arguments are
  unchanged. `ref_run` states this of every weakly fair execution of @main.
-/
import proofs.«401359_j57629871178315_3_alg».proof.Proof.RefRunP
import proofs.«401359_j57629871178315_3_alg».proof.Proof.RefReadP
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- One operation's written reference is among a literal list. -/
local macro "wr" : tactic =>
  `(tactic| (simp only [nullary_writes, unary_writes, binary_writes, ternary_writes, Finset.singleton_subset_iff, List.mem_toFinset]
             exact List.mem_map_of_mem (by decide)))

/-! ## The operations, in eleven stretches -/

abbrev s1 : List (HloOp τ sig (Elt F)) :=
  [ binary main_arg0 main_arg0 main_v0 (mulf : (⟨S4096x512, .f32⟩ : BufTy).Contents (Elt F) → (⟨S4096x512, .f32⟩ : BufTy).Contents (Elt F) → (⟨S4096x512, .f32⟩ : BufTy).Contents (Elt F)),
    nullary main_cst (constant S_ .f32 0x00000000#32),
    binary main_v0 main_cst main_v1 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    unary main_v1 main_v3 (broadcastInDim S1x4096 ![1] bcast_S4096_S1x4096_1 : (⟨S4096, .f32⟩ : BufTy).Contents (Elt F) → (⟨S1x4096, .f32⟩ : BufTy).Contents (Elt F)),
    unary main_v2 main_v4 (broadcastInDim S4096x4096 ![0, 1] bcast_S4096x1_S4096x4096_0_1 : (⟨S4096x1, .f32⟩ : BufTy).Contents (Elt F) → (⟨S4096x4096, .f32⟩ : BufTy).Contents (Elt F)),
    unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    binary main_v4 main_v5 main_v6 (addf : (⟨S4096x4096, .f32⟩ : BufTy).Contents (Elt F) → (⟨S4096x4096, .f32⟩ : BufTy).Contents (Elt F) → (⟨S4096x4096, .f32⟩ : BufTy).Contents (Elt F)) ]

abbrev s2 : List (HloOp τ sig (Elt F)) :=
  [ unary main_arg0 main_v7 ((transpose S512x4096 [1, 0] · transposes_S4096x512_S512x4096_1_0) : (⟨S4096x512, .f32⟩ : BufTy).Contents (Elt F) → (⟨S512x4096, .f32⟩ : BufTy).Contents (Elt F)),
    binary main_arg0 main_v7 main_v8 ((fun l r => Host.dotGeneral dot_S4096x512_S512x4096_S4096x4096_1_0_0_1_n_n none l r) : (⟨S4096x512, .f32⟩ : BufTy).Contents (Elt F) → (⟨S512x4096, .f32⟩ : BufTy).Contents (Elt F) → (⟨S4096x4096, .f32⟩ : BufTy).Contents (Elt F)),
    nullary main_cst_0 (constant S_ .f32 0x40000000#32),
    unary main_cst_0 main_v9 (broadcastInDim S4096x4096 ![] bcast_S_S4096x4096 : (⟨S_, .f32⟩ : BufTy).Contents (Elt F) → (⟨S4096x4096, .f32⟩ : BufTy).Contents (Elt F)),
    binary main_v9 main_v8 main_v10 (mulf : (⟨S4096x4096, .f32⟩ : BufTy).Contents (Elt F) → (⟨S4096x4096, .f32⟩ : BufTy).Contents (Elt F) → (⟨S4096x4096, .f32⟩ : BufTy).Contents (Elt F)),
    binary main_v6 main_v10 main_v11 (subf : (⟨S4096x4096, .f32⟩ : BufTy).Contents (Elt F) → (⟨S4096x4096, .f32⟩ : BufTy).Contents (Elt F) → (⟨S4096x4096, .f32⟩ : BufTy).Contents (Elt F)) ]

abbrev s3 : List (HloOp τ sig (Elt F)) :=
  [ nullary main_cst_1 (constant S_ .f32 0x00000000#32),
    unary main_cst_1 main_v12 (broadcastInDim S4096x4096 ![] bcast_S_S4096x4096 : (⟨S_, .f32⟩ : BufTy).Contents (Elt F) → (⟨S4096x4096, .f32⟩ : BufTy).Contents (Elt F)),
    binary main_v11 main_v12 main_v13 (maximumf : (⟨S4096x4096, .f32⟩ : BufTy).Contents (Elt F) → (⟨S4096x4096, .f32⟩ : BufTy).Contents (Elt F) → (⟨S4096x4096, .f32⟩ : BufTy).Contents (Elt F)),
    nullary main_cst_2 (constant S_ .f32 0x00000000#32),
    unary main_cst_2 main_v14 (broadcastInDim S4096x4096 ![] bcast_S_S4096x4096 : (⟨S_, .f32⟩ : BufTy).Contents (Elt F) → (⟨S4096x4096, .f32⟩ : BufTy).Contents (Elt F)),
    binary main_v13 main_v14 main_v15 (cmpf .ogt : (⟨S4096x4096, .f32⟩ : BufTy).Contents (Elt F) → (⟨S4096x4096, .f32⟩ : BufTy).Contents (Elt F) → (⟨S4096x4096, .i1⟩ : BufTy).Contents (Elt F)),
    nullary main_cst_3 (constant S_ .f32 0x00000000#32),
    unary main_cst_3 main_v16 (broadcastInDim S4096x4096 ![] bcast_S_S4096x4096 : (⟨S_, .f32⟩ : BufTy).Contents (Elt F) → (⟨S4096x4096, .f32⟩ : BufTy).Contents (Elt F)),
    binary main_v13 main_v16 main_v17 (cmpf .ogt : (⟨S4096x4096, .f32⟩ : BufTy).Contents (Elt F) → (⟨S4096x4096, .f32⟩ : BufTy).Contents (Elt F) → (⟨S4096x4096, .i1⟩ : BufTy).Contents (Elt F)) ]

abbrev s4 : List (HloOp τ sig (Elt F)) :=
  [ nullary main_cst_4 (constant S_ .f32 0x3F800000#32),
    unary main_cst_4 main_call0_v0 (id : (⟨S_, .f32⟩ : BufTy).Contents (Elt F) → (⟨S_, .f32⟩ : BufTy).Contents (Elt F)),
    unary main_call0_v0 main_call0_v1 (broadcastInDim S4096x4096 ![] bcast_S_S4096x4096 : (⟨S_, .f32⟩ : BufTy).Contents (Elt F) → (⟨S4096x4096, .f32⟩ : BufTy).Contents (Elt F)),
    ternary main_v17 main_v13 main_call0_v1 main_v18 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    unary main_v18 main_v19 (Host.sqrt : (⟨S4096x4096, .f32⟩ : BufTy).Contents (Elt F) → (⟨S4096x4096, .f32⟩ : BufTy).Contents (Elt F)),
    nullary main_cst_5 (constant S_ .f32 0x00000000#32),
    unary main_cst_5 main_call1_v0 (id : (⟨S_, .f32⟩ : BufTy).Contents (Elt F) → (⟨S_, .f32⟩ : BufTy).Contents (Elt F)),
    unary main_call1_v0 main_call1_v1 (broadcastInDim S4096x4096 ![] bcast_S_S4096x4096 : (⟨S_, .f32⟩ : BufTy).Contents (Elt F) → (⟨S4096x4096, .f32⟩ : BufTy).Contents (Elt F)),
    ternary main_v15 main_v19 main_call1_v1 main_v20 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]

abbrev s5 : List (HloOp τ sig (Elt F)) :=
  [ unary main_arg1 main_v21 (broadcastInDim S4096x1 ![0] bcast_S4096_S4096x1_0 : (⟨S4096, .i32⟩ : BufTy).Contents (Elt F) → (⟨S4096x1, .i32⟩ : BufTy).Contents (Elt F)),
    unary main_arg1 main_v22 (broadcastInDim S1x4096 ![1] bcast_S4096_S1x4096_1 : (⟨S4096, .i32⟩ : BufTy).Contents (Elt F) → (⟨S1x4096, .i32⟩ : BufTy).Contents (Elt F)),
    unary main_v21 main_v23 (broadcastInDim S4096x4096 ![0, 1] bcast_S4096x1_S4096x4096_0_1 : (⟨S4096x1, .i32⟩ : BufTy).Contents (Elt F) → (⟨S4096x4096, .i32⟩ : BufTy).Contents (Elt F)),
    unary main_v22 main_v24 (broadcastInDim S4096x4096 ![0, 1] bcast_S1x4096_S4096x4096_0_1 : (⟨S1x4096, .i32⟩ : BufTy).Contents (Elt F) → (⟨S4096x4096, .i32⟩ : BufTy).Contents (Elt F)),
    binary main_v23 main_v24 main_v25 (cmpi .eq : (⟨S4096x4096, .i32⟩ : BufTy).Contents (Elt F) → (⟨S4096x4096, .i32⟩ : BufTy).Contents (Elt F) → (⟨S4096x4096, .i1⟩ : BufTy).Contents (Elt F)) ]

abbrev s6 : List (HloOp τ sig (Elt F)) :=
  [ nullary main_v26 (iotaInDim S4096x4096 32 0),
    nullary main_v27 (iotaInDim S4096x4096 32 1),
    nullary main_c (constantI S_ 32 0#32),
    unary main_c main_v28 (broadcastInDim S4096x4096 ![] bcast_S_S4096x4096 : (⟨S_, .i32⟩ : BufTy).Contents (Elt F) → (⟨S4096x4096, .i32⟩ : BufTy).Contents (Elt F)),
    binary main_v26 main_v28 main_v29 (addi : (⟨S4096x4096, .i32⟩ : BufTy).Contents (Elt F) → (⟨S4096x4096, .i32⟩ : BufTy).Contents (Elt F) → (⟨S4096x4096, .i32⟩ : BufTy).Contents (Elt F)),
    binary main_v29 main_v27 main_v30 (cmpi .eq : (⟨S4096x4096, .i32⟩ : BufTy).Contents (Elt F) → (⟨S4096x4096, .i32⟩ : BufTy).Contents (Elt F) → (⟨S4096x4096, .i1⟩ : BufTy).Contents (Elt F)),
    unary main_v30 main_v31 (noti : (⟨S4096x4096, .i1⟩ : BufTy).Contents (Elt F) → (⟨S4096x4096, .i1⟩ : BufTy).Contents (Elt F)),
    binary main_v25 main_v31 main_v32 (andi : (⟨S4096x4096, .i1⟩ : BufTy).Contents (Elt F) → (⟨S4096x4096, .i1⟩ : BufTy).Contents (Elt F) → (⟨S4096x4096, .i1⟩ : BufTy).Contents (Elt F)),
    unary main_v25 main_v33 (noti : (⟨S4096x4096, .i1⟩ : BufTy).Contents (Elt F) → (⟨S4096x4096, .i1⟩ : BufTy).Contents (Elt F)) ]

abbrev s7 : List (HloOp τ sig (Elt F)) :=
  [ nullary main_cst_6 (constant S_ .f32 0x3F800000#32),
    unary main_cst_6 main_v34 (broadcastInDim S4096x4096 ![] bcast_S_S4096x4096 : (⟨S_, .f32⟩ : BufTy).Contents (Elt F) → (⟨S4096x4096, .f32⟩ : BufTy).Contents (Elt F)),
    binary main_v34 main_v20 main_v35 (subf : (⟨S4096x4096, .f32⟩ : BufTy).Contents (Elt F) → (⟨S4096x4096, .f32⟩ : BufTy).Contents (Elt F) → (⟨S4096x4096, .f32⟩ : BufTy).Contents (Elt F)),
    unary main_v35 main_v36 (Host.exp : (⟨S4096x4096, .f32⟩ : BufTy).Contents (Elt F) → (⟨S4096x4096, .f32⟩ : BufTy).Contents (Elt F)),
    nullary main_cst_7 (constant S_ .f32 0x00000000#32),
    unary main_cst_7 main_call2_v0 (id : (⟨S_, .f32⟩ : BufTy).Contents (Elt F) → (⟨S_, .f32⟩ : BufTy).Contents (Elt F)),
    unary main_call2_v0 main_call2_v1 (broadcastInDim S4096x4096 ![] bcast_S_S4096x4096 : (⟨S_, .f32⟩ : BufTy).Contents (Elt F) → (⟨S4096x4096, .f32⟩ : BufTy).Contents (Elt F)),
    ternary main_v33 main_v36 main_call2_v1 main_v37 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]

abbrev s8 : List (HloOp τ sig (Elt F)) :=
  [ nullary main_cst_8 (constant S_ .f32 0x00000000#32),
    binary main_v37 main_cst_8 main_v38 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v38 main_v39 (broadcastInDim S4096x1 ![0] bcast_S4096_S4096x1_0 : (⟨S4096, .f32⟩ : BufTy).Contents (Elt F) → (⟨S4096x1, .f32⟩ : BufTy).Contents (Elt F)),
    unary main_v38 main_v40 (broadcastInDim S1x4096 ![1] bcast_S4096_S1x4096_1 : (⟨S4096, .f32⟩ : BufTy).Contents (Elt F) → (⟨S1x4096, .f32⟩ : BufTy).Contents (Elt F)),
    unary main_v39 main_v41 (broadcastInDim S4096x4096 ![0, 1] bcast_S4096x1_S4096x4096_0_1 : (⟨S4096x1, .f32⟩ : BufTy).Contents (Elt F) → (⟨S4096x4096, .f32⟩ : BufTy).Contents (Elt F)),
    unary main_v40 main_v42 (broadcastInDim S4096x4096 ![0, 1] bcast_S1x4096_S4096x4096_0_1 : (⟨S1x4096, .f32⟩ : BufTy).Contents (Elt F) → (⟨S4096x4096, .f32⟩ : BufTy).Contents (Elt F)),
    binary main_v41 main_v42 main_v43 (addf : (⟨S4096x4096, .f32⟩ : BufTy).Contents (Elt F) → (⟨S4096x4096, .f32⟩ : BufTy).Contents (Elt F) → (⟨S4096x4096, .f32⟩ : BufTy).Contents (Elt F)),
    unary main_v43 main_v44 (Host.log : (⟨S4096x4096, .f32⟩ : BufTy).Contents (Elt F) → (⟨S4096x4096, .f32⟩ : BufTy).Contents (Elt F)),
    binary main_v44 main_v20 main_v45 (addf : (⟨S4096x4096, .f32⟩ : BufTy).Contents (Elt F) → (⟨S4096x4096, .f32⟩ : BufTy).Contents (Elt F) → (⟨S4096x4096, .f32⟩ : BufTy).Contents (Elt F)) ]

abbrev s9 : List (HloOp τ sig (Elt F)) :=
  [ nullary main_call3_v0 (iotaInDim S4096x4096 32 0),
    nullary main_call3_c (constantI S_ 32 4294967295#32),
    unary main_call3_c main_call3_v1 (broadcastInDim S4096x4096 ![] bcast_S_S4096x4096 : (⟨S_, .i32⟩ : BufTy).Contents (Elt F) → (⟨S4096x4096, .i32⟩ : BufTy).Contents (Elt F)),
    binary main_call3_v0 main_call3_v1 main_call3_v2 (addi : (⟨S4096x4096, .i32⟩ : BufTy).Contents (Elt F) → (⟨S4096x4096, .i32⟩ : BufTy).Contents (Elt F) → (⟨S4096x4096, .i32⟩ : BufTy).Contents (Elt F)),
    nullary main_call3_v3 (iotaInDim S4096x4096 32 1),
    binary main_call3_v2 main_call3_v3 main_call3_v4 (cmpi .sge : (⟨S4096x4096, .i32⟩ : BufTy).Contents (Elt F) → (⟨S4096x4096, .i32⟩ : BufTy).Contents (Elt F) → (⟨S4096x4096, .i1⟩ : BufTy).Contents (Elt F)),
    nullary main_call3_c_0 (constantI S_ 1 0#1),
    unary main_call3_c_0 main_call3_v5 (broadcastInDim S4096x4096 ![] bcast_S_S4096x4096 : (⟨S_, .i1⟩ : BufTy).Contents (Elt F) → (⟨S4096x4096, .i1⟩ : BufTy).Contents (Elt F)),
    ternary main_call3_v4 main_call3_v5 main_v32 main_v46 (select : (⟨S4096x4096, .i1⟩ : BufTy).Contents (Elt F) → (⟨S4096x4096, .i1⟩ : BufTy).Contents (Elt F) → (⟨S4096x4096, .i1⟩ : BufTy).Contents (Elt F) → (⟨S4096x4096, .i1⟩ : BufTy).Contents (Elt F)) ]

abbrev s10 : List (HloOp τ sig (Elt F)) :=
  [ nullary main_call4_cst (constant S_ .f32 0x00000000#32),
    unary main_call4_cst main_call4_v0 (broadcastInDim S4096x4096 ![] bcast_S_S4096x4096 : (⟨S_, .f32⟩ : BufTy).Contents (Elt F) → (⟨S4096x4096, .f32⟩ : BufTy).Contents (Elt F)),
    binary main_v45 main_call4_v0 main_v47 (maximumf : (⟨S4096x4096, .f32⟩ : BufTy).Contents (Elt F) → (⟨S4096x4096, .f32⟩ : BufTy).Contents (Elt F) → (⟨S4096x4096, .f32⟩ : BufTy).Contents (Elt F)),
    binary main_v47 main_v47 main_v48 (mulf : (⟨S4096x4096, .f32⟩ : BufTy).Contents (Elt F) → (⟨S4096x4096, .f32⟩ : BufTy).Contents (Elt F) → (⟨S4096x4096, .f32⟩ : BufTy).Contents (Elt F)),
    nullary main_cst_9 (constant S_ .f32 0x00000000#32),
    unary main_cst_9 main_call5_v0 (id : (⟨S_, .f32⟩ : BufTy).Contents (Elt F) → (⟨S_, .f32⟩ : BufTy).Contents (Elt F)),
    unary main_call5_v0 main_call5_v1 (broadcastInDim S4096x4096 ![] bcast_S_S4096x4096 : (⟨S_, .f32⟩ : BufTy).Contents (Elt F) → (⟨S4096x4096, .f32⟩ : BufTy).Contents (Elt F)),
    ternary main_v46 main_v48 main_call5_v1 main_v49 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]

abbrev s11 : List (HloOp τ sig (Elt F)) :=
  [ unary main_v32 main_v50 ((extui 32 · natLt_1_32) : (⟨S4096x4096, .i1⟩ : BufTy).Contents (Elt F) → (⟨S4096x4096, .i32⟩ : BufTy).Contents (Elt F)),
    nullary main_c_10 (constantI S_ 32 0#32),
    binary main_v50 main_c_10 main_v51 ((fun x v => Host.reduce IntOp.addi x v reducesTo_S4096x4096_S_d0_1 h_S_) : (⟨S4096x4096, .i32⟩ : BufTy).Contents (Elt F) → (⟨S_, .i32⟩ : BufTy).Contents (Elt F) → (⟨S_, .i32⟩ : BufTy).Contents (Elt F)),
    unary main_v51 main_v52 (sitofp .f32 : (⟨S_, .i32⟩ : BufTy).Contents (Elt F) → (⟨S_, .f32⟩ : BufTy).Contents (Elt F)),
    nullary main_cst_11 (constant S_ .f32 0x00000000#32),
    binary main_v49 main_cst_11 main_v53 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    binary main_v53 main_v52 main_v54 (Host.divf : (⟨S_, .f32⟩ : BufTy).Contents (Elt F) → (⟨S_, .f32⟩ : BufTy).Contents (Elt F) → (⟨S_, .f32⟩ : BufTy).Contents (Elt F)) ]

theorem ops_eq : (ops : List (HloOp τ sig (Elt F))) = s1 ++ (s2 ++ (s3 ++ (s4 ++ (s5 ++ (s6 ++ (s7 ++ (s8 ++ (s9 ++ (s10 ++ s11))))))))) := rfl

/-! ## What each stretch writes, and so what it keeps -/

/-- The references stretch 1 writes. -/
abbrev s1_W : List (Ref sig .tc) := [main_v0, main_cst, main_v1, main_v2, main_v3, main_v4, main_v5, main_v6]
theorem s1_writes : (s1 : List (HloOp τ sig (Elt F))).Forall fun op => op.writes ⊆ (s1_W.map (Proc.devRef (τ := τ) .tc)).toFinset := by
  simp only [List.Forall]; refine ⟨?_, ?_, ?_, ?_, ?_, ?_, ?_, ?_⟩ <;> wr
/-- A reference stretch 1 does not write keeps its contents. -/
theorem s1_keeps (W : Valuation τ sig (Elt F)) (r : Ref sig .tc) (h : r ∉ s1_W) :
    after s1 W (Proc.devRef .tc r) = W (Proc.devRef .tc r) :=
  after_of_writes_sub s1 W s1_writes h

/-- The references stretch 2 writes. -/
abbrev s2_W : List (Ref sig .tc) := [main_v7, main_v8, main_cst_0, main_v9, main_v10, main_v11]
theorem s2_writes : (s2 : List (HloOp τ sig (Elt F))).Forall fun op => op.writes ⊆ (s2_W.map (Proc.devRef (τ := τ) .tc)).toFinset := by
  simp only [List.Forall]; refine ⟨?_, ?_, ?_, ?_, ?_, ?_⟩ <;> wr
/-- A reference stretch 2 does not write keeps its contents. -/
theorem s2_keeps (W : Valuation τ sig (Elt F)) (r : Ref sig .tc) (h : r ∉ s2_W) :
    after s2 W (Proc.devRef .tc r) = W (Proc.devRef .tc r) :=
  after_of_writes_sub s2 W s2_writes h

/-- The references stretch 3 writes. -/
abbrev s3_W : List (Ref sig .tc) := [main_cst_1, main_v12, main_v13, main_cst_2, main_v14, main_v15, main_cst_3, main_v16, main_v17]
theorem s3_writes : (s3 : List (HloOp τ sig (Elt F))).Forall fun op => op.writes ⊆ (s3_W.map (Proc.devRef (τ := τ) .tc)).toFinset := by
  simp only [List.Forall]; refine ⟨?_, ?_, ?_, ?_, ?_, ?_, ?_, ?_, ?_⟩ <;> wr
/-- A reference stretch 3 does not write keeps its contents. -/
theorem s3_keeps (W : Valuation τ sig (Elt F)) (r : Ref sig .tc) (h : r ∉ s3_W) :
    after s3 W (Proc.devRef .tc r) = W (Proc.devRef .tc r) :=
  after_of_writes_sub s3 W s3_writes h

/-- The references stretch 4 writes. -/
abbrev s4_W : List (Ref sig .tc) := [main_cst_4, main_call0_v0, main_call0_v1, main_v18, main_v19, main_cst_5, main_call1_v0, main_call1_v1, main_v20]
theorem s4_writes : (s4 : List (HloOp τ sig (Elt F))).Forall fun op => op.writes ⊆ (s4_W.map (Proc.devRef (τ := τ) .tc)).toFinset := by
  simp only [List.Forall]; refine ⟨?_, ?_, ?_, ?_, ?_, ?_, ?_, ?_, ?_⟩ <;> wr
/-- A reference stretch 4 does not write keeps its contents. -/
theorem s4_keeps (W : Valuation τ sig (Elt F)) (r : Ref sig .tc) (h : r ∉ s4_W) :
    after s4 W (Proc.devRef .tc r) = W (Proc.devRef .tc r) :=
  after_of_writes_sub s4 W s4_writes h

/-- The references stretch 5 writes. -/
abbrev s5_W : List (Ref sig .tc) := [main_v21, main_v22, main_v23, main_v24, main_v25]
theorem s5_writes : (s5 : List (HloOp τ sig (Elt F))).Forall fun op => op.writes ⊆ (s5_W.map (Proc.devRef (τ := τ) .tc)).toFinset := by
  simp only [List.Forall]; refine ⟨?_, ?_, ?_, ?_, ?_⟩ <;> wr
/-- A reference stretch 5 does not write keeps its contents. -/
theorem s5_keeps (W : Valuation τ sig (Elt F)) (r : Ref sig .tc) (h : r ∉ s5_W) :
    after s5 W (Proc.devRef .tc r) = W (Proc.devRef .tc r) :=
  after_of_writes_sub s5 W s5_writes h

/-- The references stretch 6 writes. -/
abbrev s6_W : List (Ref sig .tc) := [main_v26, main_v27, main_c, main_v28, main_v29, main_v30, main_v31, main_v32, main_v33]
theorem s6_writes : (s6 : List (HloOp τ sig (Elt F))).Forall fun op => op.writes ⊆ (s6_W.map (Proc.devRef (τ := τ) .tc)).toFinset := by
  simp only [List.Forall]; refine ⟨?_, ?_, ?_, ?_, ?_, ?_, ?_, ?_, ?_⟩ <;> wr
/-- A reference stretch 6 does not write keeps its contents. -/
theorem s6_keeps (W : Valuation τ sig (Elt F)) (r : Ref sig .tc) (h : r ∉ s6_W) :
    after s6 W (Proc.devRef .tc r) = W (Proc.devRef .tc r) :=
  after_of_writes_sub s6 W s6_writes h

/-- The references stretch 7 writes. -/
abbrev s7_W : List (Ref sig .tc) := [main_cst_6, main_v34, main_v35, main_v36, main_cst_7, main_call2_v0, main_call2_v1, main_v37]
theorem s7_writes : (s7 : List (HloOp τ sig (Elt F))).Forall fun op => op.writes ⊆ (s7_W.map (Proc.devRef (τ := τ) .tc)).toFinset := by
  simp only [List.Forall]; refine ⟨?_, ?_, ?_, ?_, ?_, ?_, ?_, ?_⟩ <;> wr
/-- A reference stretch 7 does not write keeps its contents. -/
theorem s7_keeps (W : Valuation τ sig (Elt F)) (r : Ref sig .tc) (h : r ∉ s7_W) :
    after s7 W (Proc.devRef .tc r) = W (Proc.devRef .tc r) :=
  after_of_writes_sub s7 W s7_writes h

/-- The references stretch 8 writes. -/
abbrev s8_W : List (Ref sig .tc) := [main_cst_8, main_v38, main_v39, main_v40, main_v41, main_v42, main_v43, main_v44, main_v45]
theorem s8_writes : (s8 : List (HloOp τ sig (Elt F))).Forall fun op => op.writes ⊆ (s8_W.map (Proc.devRef (τ := τ) .tc)).toFinset := by
  simp only [List.Forall]; refine ⟨?_, ?_, ?_, ?_, ?_, ?_, ?_, ?_, ?_⟩ <;> wr
/-- A reference stretch 8 does not write keeps its contents. -/
theorem s8_keeps (W : Valuation τ sig (Elt F)) (r : Ref sig .tc) (h : r ∉ s8_W) :
    after s8 W (Proc.devRef .tc r) = W (Proc.devRef .tc r) :=
  after_of_writes_sub s8 W s8_writes h

/-- The references stretch 9 writes. -/
abbrev s9_W : List (Ref sig .tc) := [main_call3_v0, main_call3_c, main_call3_v1, main_call3_v2, main_call3_v3, main_call3_v4, main_call3_c_0, main_call3_v5, main_v46]
theorem s9_writes : (s9 : List (HloOp τ sig (Elt F))).Forall fun op => op.writes ⊆ (s9_W.map (Proc.devRef (τ := τ) .tc)).toFinset := by
  simp only [List.Forall]; refine ⟨?_, ?_, ?_, ?_, ?_, ?_, ?_, ?_, ?_⟩ <;> wr
/-- A reference stretch 9 does not write keeps its contents. -/
theorem s9_keeps (W : Valuation τ sig (Elt F)) (r : Ref sig .tc) (h : r ∉ s9_W) :
    after s9 W (Proc.devRef .tc r) = W (Proc.devRef .tc r) :=
  after_of_writes_sub s9 W s9_writes h

/-- The references stretch 10 writes. -/
abbrev s10_W : List (Ref sig .tc) := [main_call4_cst, main_call4_v0, main_v47, main_v48, main_cst_9, main_call5_v0, main_call5_v1, main_v49]
theorem s10_writes : (s10 : List (HloOp τ sig (Elt F))).Forall fun op => op.writes ⊆ (s10_W.map (Proc.devRef (τ := τ) .tc)).toFinset := by
  simp only [List.Forall]; refine ⟨?_, ?_, ?_, ?_, ?_, ?_, ?_, ?_⟩ <;> wr
/-- A reference stretch 10 does not write keeps its contents. -/
theorem s10_keeps (W : Valuation τ sig (Elt F)) (r : Ref sig .tc) (h : r ∉ s10_W) :
    after s10 W (Proc.devRef .tc r) = W (Proc.devRef .tc r) :=
  after_of_writes_sub s10 W s10_writes h

/-- The references stretch 11 writes. -/
abbrev s11_W : List (Ref sig .tc) := [main_v50, main_c_10, main_v51, main_v52, main_cst_11, main_v53, main_v54]
theorem s11_writes : (s11 : List (HloOp τ sig (Elt F))).Forall fun op => op.writes ⊆ (s11_W.map (Proc.devRef (τ := τ) .tc)).toFinset := by
  simp only [List.Forall]; refine ⟨?_, ?_, ?_, ?_, ?_, ?_, ?_⟩ <;> wr
/-- A reference stretch 11 does not write keeps its contents. -/
theorem s11_keeps (W : Valuation τ sig (Elt F)) (r : Ref sig .tc) (h : r ∉ s11_W) :
    after s11 W (Proc.devRef .tc r) = W (Proc.devRef .tc r) :=
  after_of_writes_sub s11 W s11_writes h

/-! ## What each stretch computes

From any contents `W` that hold the earlier stages' values (of the arguments `x0`, `x1`) at the references a stretch
reads, the stretch leaves the later stages' values at the references it writes that are read afterwards. -/

theorem s1_main_v6 (W : Valuation τ sig (Elt F)) (x0 : (⟨S4096x512, .f32⟩ : BufTy).Contents (Elt F))
    (h0 : W (Proc.devRef .tc main_arg0) = x0) :
    after s1 W (Proc.devRef .tc main_v6) = val_main_v6 (F := F) x0 := by
  after_results
  rw [h0]
  rfl

theorem s2_main_v11 (W : Valuation τ sig (Elt F)) (x0 : (⟨S4096x512, .f32⟩ : BufTy).Contents (Elt F))
    (h0 : W (Proc.devRef .tc main_arg0) = x0) (h6 : W (Proc.devRef .tc main_v6) = val_main_v6 (F := F) x0) :
    after s2 W (Proc.devRef .tc main_v11) = val_main_v11 (F := F) x0 := by
  after_results
  rw [h0, h6]
  rfl

theorem s3_main_v13 (W : Valuation τ sig (Elt F)) (x0 : (⟨S4096x512, .f32⟩ : BufTy).Contents (Elt F))
    (h11 : W (Proc.devRef .tc main_v11) = val_main_v11 (F := F) x0) :
    after s3 W (Proc.devRef .tc main_v13) = val_main_v13 (F := F) x0 := by
  after_results
  rw [h11]
  rfl

theorem s3_main_v15 (W : Valuation τ sig (Elt F)) (x0 : (⟨S4096x512, .f32⟩ : BufTy).Contents (Elt F))
    (h11 : W (Proc.devRef .tc main_v11) = val_main_v11 (F := F) x0) :
    after s3 W (Proc.devRef .tc main_v15) = val_main_v15 (F := F) x0 := by
  after_results
  rw [h11]
  rfl

theorem s3_main_v17 (W : Valuation τ sig (Elt F)) (x0 : (⟨S4096x512, .f32⟩ : BufTy).Contents (Elt F))
    (h11 : W (Proc.devRef .tc main_v11) = val_main_v11 (F := F) x0) :
    after s3 W (Proc.devRef .tc main_v17) = val_main_v17 (F := F) x0 := by
  after_results
  rw [h11]
  rfl

theorem s4_main_v20 (W : Valuation τ sig (Elt F)) (x0 : (⟨S4096x512, .f32⟩ : BufTy).Contents (Elt F))
    (h13 : W (Proc.devRef .tc main_v13) = val_main_v13 (F := F) x0) (h15 : W (Proc.devRef .tc main_v15) = val_main_v15 (F := F) x0) (h17 : W (Proc.devRef .tc main_v17) = val_main_v17 (F := F) x0) :
    after s4 W (Proc.devRef .tc main_v20) = val_main_v20 (F := F) x0 := by
  after_results
  rw [h13, h15, h17]
  rfl

theorem s5_main_v25 (W : Valuation τ sig (Elt F)) (x1 : (⟨S4096, .i32⟩ : BufTy).Contents (Elt F))
    (h1 : W (Proc.devRef .tc main_arg1) = x1) :
    after s5 W (Proc.devRef .tc main_v25) = val_main_v25 (F := F) x1 := by
  after_results
  rw [h1]
  rfl

theorem s6_main_v32 (W : Valuation τ sig (Elt F)) (x1 : (⟨S4096, .i32⟩ : BufTy).Contents (Elt F))
    (h25 : W (Proc.devRef .tc main_v25) = val_main_v25 (F := F) x1) :
    after s6 W (Proc.devRef .tc main_v32) = val_main_v32 (F := F) x1 := by
  after_results
  rw [h25]
  rfl

theorem s6_main_v33 (W : Valuation τ sig (Elt F)) (x1 : (⟨S4096, .i32⟩ : BufTy).Contents (Elt F))
    (h25 : W (Proc.devRef .tc main_v25) = val_main_v25 (F := F) x1) :
    after s6 W (Proc.devRef .tc main_v33) = val_main_v33 (F := F) x1 := by
  after_results
  rw [h25]
  rfl

theorem s7_main_v37 (W : Valuation τ sig (Elt F)) (x0 : (⟨S4096x512, .f32⟩ : BufTy).Contents (Elt F)) (x1 : (⟨S4096, .i32⟩ : BufTy).Contents (Elt F))
    (h20 : W (Proc.devRef .tc main_v20) = val_main_v20 (F := F) x0) (h33 : W (Proc.devRef .tc main_v33) = val_main_v33 (F := F) x1) :
    after s7 W (Proc.devRef .tc main_v37) = val_main_v37 (F := F) x0 x1 := by
  after_results
  rw [h20, h33]
  rfl

theorem s8_main_v45 (W : Valuation τ sig (Elt F)) (x0 : (⟨S4096x512, .f32⟩ : BufTy).Contents (Elt F)) (x1 : (⟨S4096, .i32⟩ : BufTy).Contents (Elt F))
    (h37 : W (Proc.devRef .tc main_v37) = val_main_v37 (F := F) x0 x1) (h20 : W (Proc.devRef .tc main_v20) = val_main_v20 (F := F) x0) :
    after s8 W (Proc.devRef .tc main_v45) = val_main_v45 (F := F) x0 x1 := by
  after_results
  rw [h37, h20]
  rfl

theorem s9_main_v46 (W : Valuation τ sig (Elt F)) (x1 : (⟨S4096, .i32⟩ : BufTy).Contents (Elt F))
    (h32 : W (Proc.devRef .tc main_v32) = val_main_v32 (F := F) x1) :
    after s9 W (Proc.devRef .tc main_v46) = val_main_v46 (F := F) x1 := by
  after_results
  rw [h32]
  rfl

theorem s10_main_v49 (W : Valuation τ sig (Elt F)) (x0 : (⟨S4096x512, .f32⟩ : BufTy).Contents (Elt F)) (x1 : (⟨S4096, .i32⟩ : BufTy).Contents (Elt F))
    (h45 : W (Proc.devRef .tc main_v45) = val_main_v45 (F := F) x0 x1) (h46 : W (Proc.devRef .tc main_v46) = val_main_v46 (F := F) x1) :
    after s10 W (Proc.devRef .tc main_v49) = val_main_v49 (F := F) x0 x1 := by
  after_results
  rw [h45, h46]
  rfl

theorem s11_main_v54 (W : Valuation τ sig (Elt F)) (x0 : (⟨S4096x512, .f32⟩ : BufTy).Contents (Elt F)) (x1 : (⟨S4096, .i32⟩ : BufTy).Contents (Elt F))
    (h32 : W (Proc.devRef .tc main_v32) = val_main_v32 (F := F) x1) (h49 : W (Proc.devRef .tc main_v49) = val_main_v49 (F := F) x0 x1) :
    after s11 W (Proc.devRef .tc main_v54) = val_main_v54 (F := F) x0 x1 := by
  after_results
  rw [h32, h49]
  rfl

/-! ## The whole run -/

/-- A reference none of the eleven stretches writes keeps its contents through all the operations. -/
theorem ops_keeps (W : Valuation τ sig (Elt F)) (r : Ref sig .tc)
    (h1 : r ∉ s1_W) (h2 : r ∉ s2_W) (h3 : r ∉ s3_W) (h4 : r ∉ s4_W) (h5 : r ∉ s5_W) (h6 : r ∉ s6_W)
    (h7 : r ∉ s7_W) (h8 : r ∉ s8_W) (h9 : r ∉ s9_W) (h10 : r ∉ s10_W) (h11 : r ∉ s11_W) :
    after ops W (Proc.devRef .tc r) = W (Proc.devRef .tc r) := by
  rw [ops_eq]
  simp only [after_append]
  rw [s11_keeps _ r h11, s10_keeps _ r h10, s9_keeps _ r h9, s8_keeps _ r h8, s7_keeps _ r h7, s6_keeps _ r h6,
    s5_keeps _ r h5, s4_keeps _ r h4, s3_keeps _ r h3, s2_keeps _ r h2, s1_keeps _ r h1]

/-- After all the operations, from contents `W` holding `x0` and `x1` at the two arguments, the result reference
    holds the last stage's value of them: the stretches in order, each handing the next the stages it reads. -/
theorem after_ops_v54 (W : Valuation τ sig (Elt F)) (x0 : (⟨S4096x512, .f32⟩ : BufTy).Contents (Elt F)) (x1 : (⟨S4096, .i32⟩ : BufTy).Contents (Elt F))
    (hx0 : W (Proc.devRef .tc main_arg0) = x0) (hx1 : W (Proc.devRef .tc main_arg1) = x1) :
    after ops W (Proc.devRef .tc main_v54) = val_main_v54 (F := F) x0 x1 := by
  rw [ops_eq]
  simp only [after_append]
  -- stretch 1: the row sums of squares, summed pairwise
  have a0 := (s1_keeps W main_arg0 (by decide)).trans hx0
  have a1 := (s1_keeps W main_arg1 (by decide)).trans hx1
  have f6 := s1_main_v6 W x0 hx0
  generalize after s1 W = V1 at a0 a1 f6 ⊢
  -- stretch 2: the squared distances
  have b1 := (s2_keeps V1 main_arg1 (by decide)).trans a1
  have f11 := s2_main_v11 V1 x0 a0 f6
  generalize after s2 V1 = V2 at b1 f11 ⊢
  -- stretch 3: clamped at zero, and where positive
  have c1 := (s3_keeps V2 main_arg1 (by decide)).trans b1
  have f13 := s3_main_v13 V2 x0 f11
  have f15 := s3_main_v15 V2 x0 f11
  have f17 := s3_main_v17 V2 x0 f11
  generalize after s3 V2 = V3 at c1 f13 f15 f17 ⊢
  -- stretch 4: the distances
  have d1 := (s4_keeps V3 main_arg1 (by decide)).trans c1
  have f20 := s4_main_v20 V3 x0 f13 f15 f17
  generalize after s4 V3 = V4 at d1 f20 ⊢
  -- stretch 5: equal labels
  have e20 := (s5_keeps V4 main_v20 (by decide)).trans f20
  have f25 := s5_main_v25 V4 x1 d1
  generalize after s5 V4 = V5 at e20 f25 ⊢
  -- stretch 6: the positive pairs off the diagonal, and the negative pairs
  have g20 := (s6_keeps V5 main_v20 (by decide)).trans e20
  have f32 := s6_main_v32 V5 x1 f25
  have f33 := s6_main_v33 V5 x1 f25
  generalize after s6 V5 = V6 at g20 f32 f33 ⊢
  -- stretch 7: the negatives' exponentials
  have h20 := (s7_keeps V6 main_v20 (by decide)).trans g20
  have h32 := (s7_keeps V6 main_v32 (by decide)).trans f32
  have f37 := s7_main_v37 V6 x0 x1 g20 f33
  generalize after s7 V6 = V7 at h20 h32 f37 ⊢
  -- stretch 8: their row sums, paired, the logarithm, plus the distance
  have i32 := (s8_keeps V7 main_v32 (by decide)).trans h32
  have f45 := s8_main_v45 V7 x0 x1 f37 h20
  generalize after s8 V7 = V8 at i32 f45 ⊢
  -- stretch 9: the upper triangle of the positive pairs
  have j32 := (s9_keeps V8 main_v32 (by decide)).trans i32
  have j45 := (s9_keeps V8 main_v45 (by decide)).trans f45
  have f46 := s9_main_v46 V8 x1 i32
  generalize after s9 V8 = V9 at j32 j45 f46 ⊢
  -- stretch 10: the squared positive parts over that triangle
  have k32 := (s10_keeps V9 main_v32 (by decide)).trans j32
  have f49 := s10_main_v49 V9 x0 x1 j45 f46
  generalize after s10 V9 = V10 at k32 f49 ⊢
  -- stretch 11: their sum over the count of positive pairs
  exact s11_main_v54 V10 x0 x1 k32 f49

/-- On every device, for any float values, from any memory with zero counters: every weakly fair execution of
    @main terminates with the result at the last stage's value of the arguments' launch contents, and the
    arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
          = val_main_v54 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v54).trans (after_ops_v54 _ _ _ rfl rfl),
      (h c main_arg0).trans (ops_keeps _ main_arg0 (by decide) (by decide) (by decide) (by decide) (by decide) (by decide) (by decide) (by decide) (by decide) (by decide) (by decide)),
      (h c main_arg1).trans (ops_keeps _ main_arg1 (by decide) (by decide) (by decide) (by decide) (by decide) (by decide) (by decide) (by decide) (by decide) (by decide) (by decide))⟩)
    (run_seq scopedRefs_eq scopedSems_eq defs main (fun _ => ops) main_eq (fun _ => ops_sub) m ρ)

end Cert.ReferenceIdeal.RefRun

end
-- ==== Proof.lean ====
/- The certificate of the lifted-structure loss kernel: the kernel program runs two pallas_calls — pairwise distances with
   the per-row sums over negatives, then the masked squared hinge over the cached upper-triangular distance tiles —
   between stretches of host operations; the reference computes the same loss on the host.
   * The three frames: the kernel program (at the word-level and at the ideal instance) is run as seven segments by the
     regions kit, each region's body obligation from one run of its body per case of its conditionals; the reference
     is a straight-line host program.
   * `preserves`: the idealization rewrote nothing.
   * `algebraic`: over the extended reals both results are `Cert.LSL.loss` of the two arguments — the sum over pairs
     `p < q` of equal label of `max (log (n_p + n_q) + d_pq) 0` squared, divided by the number of ordered pairs of equal
     label —: the kernel's tiled sums regroup the reference's whole sums, tiles below the diagonal contribute zero, and
     under the precondition (labels in `[0, 64)`) the kernel's count by a 64-bin histogram, `Σ n_c (n_c − 1)`, is that
     number of pairs. -/
import proofs.«401359_j57629871178315_3_alg».proof.Defs
import proofs.«401359_j57629871178315_3_alg».proof.Proof.Gen.Kernel
import proofs.«401359_j57629871178315_3_alg».proof.Proof.Gen.KernelIdeal
import proofs.«401359_j57629871178315_3_alg».proof.Proof.Gen.ReferenceIdeal
import proofs.«401359_j57629871178315_3_alg».proof.Proof.Gen.Pre_finite_inputs
import proofs.«401359_j57629871178315_3_alg».proof.Proof.KB.Run
import proofs.«401359_j57629871178315_3_alg».proof.Proof.KB.TableMem
import proofs.«401359_j57629871178315_3_alg».proof.Proof.KB.ArgsKept
import proofs.«401359_j57629871178315_3_alg».proof.Proof.KI.Run
import proofs.«401359_j57629871178315_3_alg».proof.Proof.KI.TableMem
import proofs.«401359_j57629871178315_3_alg».proof.Proof.KI.ArgsKept
import proofs.«401359_j57629871178315_3_alg».proof.Proof.Val.KLoss
import proofs.«401359_j57629871178315_3_alg».proof.Proof.Val.Ref
import proofs.«401359_j57629871178315_3_alg».proof.Proof.Val.RefRun
import Idealize.ShloMosaic.Adequacy
import Idealize.ShloMosaic.Init

noncomputable section

namespace Cert.Proof

open Idealize.ShloMosaic Idealize.ShloMosaic.TcCoe Idealize.SL.Sem

/-- The word-level kernel program runs, and its two arguments end as launched. -/
theorem frame_K : Cert.frame_Kernel (hKernel := Cert.Kernel.Gen.facts) (hPre_finite_inputs := Cert.Pre_finite_inputs.Gen.facts) := fun m ρ _ =>
  (θ_run (Cert.Kernel.defs (F := Bits)) _ _).mono
    (fun r h c => ⟨(h c _ (Cert.Kernel.Hand.mem_uc Cert.Kernel.main_arg0 (by decide))).trans (Cert.Kernel.Hand.W7_main_arg0 m _ c),
      (h c _ (Cert.Kernel.Hand.mem_uc Cert.Kernel.main_arg1 (by decide))).trans (Cert.Kernel.Hand.W7_main_arg1 m _ c)⟩)
    (Cert.Kernel.Hand.run_main (F := Bits) m ρ Cert.Kernel.Hand.admLit (fun c => Cert.Kernel.Hand.U3_table m c))

/-- The idealized kernel program runs, and its two arguments end as launched. -/
theorem frame_KI : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono
    (fun r h c => ⟨(h c _ (Cert.KernelIdeal.Hand.mem_uc Cert.KernelIdeal.main_arg0 (by decide))).trans (Cert.KernelIdeal.Hand.W7_main_arg0 m _ c),
      (h c _ (Cert.KernelIdeal.Hand.mem_uc Cert.KernelIdeal.main_arg1 (by decide))).trans (Cert.KernelIdeal.Hand.W7_main_arg1 m _ c)⟩)
    (Cert.KernelIdeal.Hand.run_main (F := Ideal) m ρ Cert.KernelIdeal.Hand.admLit (fun c => Cert.KernelIdeal.Hand.U3_table m c))

/-- The reference runs, and its two arguments end as launched: its run with the result dropped. -/
theorem frame_R : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.RefRun.ref_run (F := Ideal) m ρ)

/-- Over the extended reals both programs end with the loss of the two arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.LSL.lossBuf (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run (Cert.KernelIdeal.defs (F := Ideal)) _ _).mono
      (fun r h c => ⟨(h c _ (Cert.KernelIdeal.Hand.mem_uc Cert.KernelIdeal.main_v25 (by decide))).trans (Cert.KernelIdeal.KVal.kernel_loss m c (hpre c)),
        (h c _ (Cert.KernelIdeal.Hand.mem_uc Cert.KernelIdeal.main_arg0 (by decide))).trans (Cert.KernelIdeal.Hand.W7_main_arg0 m _ c),
        (h c _ (Cert.KernelIdeal.Hand.mem_uc Cert.KernelIdeal.main_arg1 (by decide))).trans (Cert.KernelIdeal.Hand.W7_main_arg1 m _ c)⟩)
      (Cert.KernelIdeal.Hand.run_main (F := Ideal) m ρ Cert.KernelIdeal.Hand.admLit (fun c => Cert.KernelIdeal.Hand.U3_table m c))
  · refine (θ_run (Cert.ReferenceIdeal.defs (F := Ideal)) _ _).mono (fun r h c => ⟨(h c).1.trans ?_, (h c).2.1, (h c).2.2⟩)
      (Cert.ReferenceIdeal.RefRun.ref_run (F := Ideal) m' ρ')
    rw [Cert.ReferenceIdeal.RefValue.ref_loss, (hagree c).1, (hagree c).2]

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
